-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v111)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v111) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v253) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x2 : Shape := ⟨2, ![100000, 2]⟩
abbrev S2x600000 : Shape := ⟨2, ![2, 600000]⟩
abbrev S100000 : Shape := ⟨1, ![100000]⟩
abbrev S65x128 : Shape := ⟨2, ![65, 128]⟩
abbrev S4x128x128 : Shape := ⟨3, ![4, 128, 128]⟩
abbrev S4x128 : Shape := ⟨2, ![4, 128]⟩
abbrev S32x128 : Shape := ⟨2, ![32, 128]⟩
abbrev S_ : Shape := ⟨0, ![]⟩
abbrev S1x600000 : Shape := ⟨2, ![1, 600000]⟩
abbrev S600000 : Shape := ⟨1, ![600000]⟩

class Facts : Prop where
  bcast_S_S65x128 : S_.BroadcastsInDim S65x128 (![] : Fin 0 → Fin S65x128.rank)
  reducesTo_S65x128_S_d0_1 : S65x128.ReducesTo [0, 1] S_
  h_S_ : 0 < S_.numel
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S32x128 : S_.BroadcastsInDim S32x128 (![] : Fin 0 → Fin S32x128.rank)
  reducesTo_S32x128_S_d0_1 : S32x128.ReducesTo [0, 1] S_
  bcast_S_S100000x2 : S_.BroadcastsInDim S100000x2 (![] : Fin 0 → Fin S100000x2.rank)
  reducesTo_S100000x2_S_d0_1 : S100000x2.ReducesTo [0, 1] S_
  slices_S2x600000_S1x600000_0_0 : S2x600000.Slices ![0, 0] S1x600000
  shapeCasts_S1x600000_S600000 : S1x600000.ShapeCasts S600000
  bcast_S_S600000 : S_.BroadcastsInDim S600000 (![] : Fin 0 → Fin S600000.rank)
  reducesTo_S600000_S_d0 : S600000.ReducesTo [0] S_

variable [Facts]

def fn_part3 {F : FTy → Type} [FloatOps F] (main_v47 : IVec S_ 1) (main_v49 : IVec S600000 32) (main_v50 : IVec S600000 32) : IVec S_ 1 :=
  let main_v51 : IVec S600000 1 := cmpi .slt main_v49 main_v50
  let main_c_19 : IVec S_ 1 := constantI S_ 1 1#1
  let main_v52 : IVec S_ 1 := (fun x v => Host.reduce IntOp.andi x v reducesTo_S600000_S_d0 h_S_) main_v51 main_c_19
  let main_v53 : IVec S_ 1 := andi main_v47 main_v52
  main_v53

def fn_part2 {F : FTy → Type} [FloatOps F] (main_arg0 : IVec S100000x2 32) (main_arg1 : IVec S2x600000 32) (main_v33 : IVec S_ 1) : IVec S_ 1 :=
  let main_c_12 : IVec S_ 32 := constantI S_ 32 0#32
  let main_v34 : IVec S100000x2 32 := broadcastInDim S100000x2 ![] bcast_S_S100000x2 main_c_12
  let main_v35 : IVec S100000x2 1 := cmpi .sge main_arg0 main_v34
  let main_c_13 : IVec S_ 1 := constantI S_ 1 1#1
  let main_v36 : IVec S_ 1 := (fun x v => Host.reduce IntOp.andi x v reducesTo_S100000x2_S_d0_1 h_S_) main_v35 main_c_13
  let main_v37 : IVec S_ 1 := andi main_v33 main_v36
  let main_c_14 : IVec S_ 32 := constantI S_ 32 65#32
  let main_v38 : IVec S100000x2 32 := broadcastInDim S100000x2 ![] bcast_S_S100000x2 main_c_14
  let main_v39 : IVec S100000x2 1 := cmpi .slt main_arg0 main_v38
  let main_c_15 : IVec S_ 1 := constantI S_ 1 1#1
  let main_v40 : IVec S_ 1 := (fun x v => Host.reduce IntOp.andi x v reducesTo_S100000x2_S_d0_1 h_S_) main_v39 main_c_15
  let main_v41 : IVec S_ 1 := andi main_v37 main_v40
  let main_v42 : IVec S1x600000 32 := (extractStridedSlice S1x600000 ![0, 0] · slices_S2x600000_S1x600000_0_0) main_arg1
  let main_v43 : IVec S600000 32 := shapeCast S600000 main_v42 shapeCasts_S1x600000_S600000
  let main_c_16 : IVec S_ 32 := constantI S_ 32 0#32
  let main_v44 : IVec S600000 32 := broadcastInDim S600000 ![] bcast_S_S600000 main_c_16
  let main_v45 : IVec S600000 1 := cmpi .sge main_v43 main_v44
  let main_c_17 : IVec S_ 1 := constantI S_ 1 1#1
  let main_v46 : IVec S_ 1 := (fun x v => Host.reduce IntOp.andi x v reducesTo_S600000_S_d0 h_S_) main_v45 main_c_17
  let main_v47 : IVec S_ 1 := andi main_v41 main_v46
  let main_v48 : IVec S1x600000 32 := (extractStridedSlice S1x600000 ![0, 0] · slices_S2x600000_S1x600000_0_0) main_arg1
  let main_v49 : IVec S600000 32 := shapeCast S600000 main_v48 shapeCasts_S1x600000_S600000
  let main_c_18 : IVec S_ 32 := constantI S_ 32 100000#32
  let main_v50 : IVec S600000 32 := broadcastInDim S600000 ![] bcast_S_S600000 main_c_18
  fn_part3 (F := F) main_v47 main_v49 main_v50

def fn_part1 {F : FTy → Type} [FloatOps F] (main_arg0 : IVec S100000x2 32) (main_arg1 : IVec S2x600000 32) (main_arg7 : FVec F S4x128 .f32) (main_arg8 : FVec F S4x128 .f32) (main_arg9 : FVec F S32x128 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg7
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg8
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S32x128 .f32 := Host.absf main_arg9
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg0 main_arg1 main_v33

def fn {F : FTy → Type} [FloatOps F] (main_arg0 : IVec S100000x2 32) (main_arg1 : IVec S2x600000 32) (main_arg2 : IVec S100000 32) (main_arg3 : FVec F S65x128 .f32) (main_arg4 : FVec F S65x128 .f32) (main_arg5 : FVec F S4x128x128 .f32) (main_arg6 : FVec F S4x128 .f32) (main_arg7 : FVec F S4x128 .f32) (main_arg8 : FVec F S4x128 .f32) (main_arg9 : FVec F S32x128 .f32) : IVec S_ 1 :=
  let main_v0 : FVec F S65x128 .f32 := Host.absf main_arg3
  let main_cst : FVec F S_ .f32 := constant S_ .f32 0x7F800000#32
  let main_v1 : FVec F S65x128 .f32 := broadcastInDim S65x128 ![] bcast_S_S65x128 main_cst
  let main_v2 : IVec S65x128 1 := cmpf .olt main_v0 main_v1
  let main_c : IVec S_ 1 := constantI S_ 1 1#1
  let main_v3 : IVec S_ 1 := (fun x v => Host.reduce IntOp.andi x v reducesTo_S65x128_S_d0_1 h_S_) main_v2 main_c
  let main_v4 : FVec F S65x128 .f32 := Host.absf main_arg4
  let main_cst_0 : FVec F S_ .f32 := constant S_ .f32 0x7F800000#32
  let main_v5 : FVec F S65x128 .f32 := broadcastInDim S65x128 ![] bcast_S_S65x128 main_cst_0
  let main_v6 : IVec S65x128 1 := cmpf .olt main_v4 main_v5
  let main_c_1 : IVec S_ 1 := constantI S_ 1 1#1
  let main_v7 : IVec S_ 1 := (fun x v => Host.reduce IntOp.andi x v reducesTo_S65x128_S_d0_1 h_S_) main_v6 main_c_1
  let main_v8 : IVec S_ 1 := andi main_v3 main_v7
  let main_v9 : FVec F S4x128x128 .f32 := Host.absf main_arg5
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg6
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg0 main_arg1 main_arg7 main_arg8 main_arg9 main_v13 main_v16
-- ==== Kernel.lean ====
abbrev S100000x2 : Shape := ⟨2, ![100000, 2]⟩
abbrev S2x600000 : Shape := ⟨2, ![2, 600000]⟩
abbrev S100000 : Shape := ⟨1, ![100000]⟩
abbrev S65x128 : Shape := ⟨2, ![65, 128]⟩
abbrev S4x128x128 : Shape := ⟨3, ![4, 128, 128]⟩
abbrev S4x128 : Shape := ⟨2, ![4, 128]⟩
abbrev S32x128 : Shape := ⟨2, ![32, 128]⟩
abbrev S100000x128 : Shape := ⟨2, ![100000, 128]⟩
abbrev S5000x2 : Shape := ⟨2, ![5000, 2]⟩
abbrev S5000x128 : Shape := ⟨2, ![5000, 128]⟩
abbrev S5000x1 : Shape := ⟨2, ![5000, 1]⟩
abbrev S5000 : Shape := ⟨1, ![5000]⟩
abbrev S5000x65 : Shape := ⟨2, ![5000, 65]⟩
abbrev S1x600000 : Shape := ⟨2, ![1, 600000]⟩
abbrev S600000 : Shape := ⟨1, ![600000]⟩
abbrev S700000 : Shape := ⟨1, ![700000]⟩
abbrev S_ : Shape := ⟨0, ![]⟩
abbrev S700000x1 : Shape := ⟨2, ![700000, 1]⟩
abbrev S1x128x128 : Shape := ⟨3, ![1, 128, 128]⟩
abbrev S128x128 : Shape := ⟨2, ![128, 128]⟩
abbrev S1 : Shape := ⟨1, ![1]⟩
abbrev S1x1 : Shape := ⟨2, ![1, 1]⟩
abbrev S700000x128 : Shape := ⟨2, ![700000, 128]⟩
abbrev S1x128 : Shape := ⟨2, ![1, 128]⟩
abbrev S128 : Shape := ⟨1, ![128]⟩
abbrev S128x32 : Shape := ⟨2, ![128, 32]⟩
abbrev S100000x32 : Shape := ⟨2, ![100000, 32]⟩
abbrev S5000x32 : Shape := ⟨2, ![5000, 32]⟩

abbrev nBuf : Space → Nat
  | .hbm => 225
  | .vmem => 67
  | .smem => 0
  | _ => 0

abbrev hbmTy0_0 (i : Nat) : BufTy := match i % 128 with
  | 0 => ⟨S100000x2, .i32⟩
  | 1 => ⟨S2x600000, .i32⟩
  | 2 => ⟨S100000, .i32⟩
  | 3 => ⟨S65x128, .f32⟩
  | 4 => ⟨S65x128, .f32⟩
  | 5 => ⟨S4x128x128, .f32⟩
  | 6 => ⟨S4x128, .f32⟩
  | 7 => ⟨S4x128, .f32⟩
  | 8 => ⟨S4x128, .f32⟩
  | 9 => ⟨S32x128, .f32⟩
  | 10 => ⟨S100000x128, .f32⟩
  | 11 => ⟨S100000, .i32⟩
  | 12 => ⟨S1x600000, .i32⟩
  | 13 => ⟨S600000, .i32⟩
  | 14 => ⟨S700000, .i32⟩
  | 15 => ⟨S1x600000, .i32⟩
  | 16 => ⟨S600000, .i32⟩
  | 17 => ⟨S700000, .i32⟩
  | 18 => ⟨S_, .f32⟩
  | 19 => ⟨S700000, .f32⟩
  | 20 => ⟨S_, .f32⟩
  | 21 => ⟨S100000, .f32⟩
  | 22 => ⟨S700000x1, .i32⟩
  | 23 => ⟨S100000, .f32⟩
  | 24 => ⟨S_, .f32⟩
  | 25 => ⟨S100000, .f32⟩
  | 26 => ⟨S100000, .i1⟩
  | 27 => ⟨S_, .f32⟩
  | 28 => ⟨S100000, .f32⟩
  | 29 => ⟨S100000, .f32⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S700000, .i32⟩
  | 37 => ⟨S700000, .i1⟩
  | 38 => ⟨S_, .i32⟩
  | 39 => ⟨S700000, .i32⟩
  | 40 => ⟨S700000, .i32⟩
  | 41 => ⟨S700000, .i32⟩
  | 42 => ⟨S700000x1, .i32⟩
  | 43 => ⟨S700000, .f32⟩
  | 44 => ⟨S_, .i32⟩
  | 45 => ⟨S700000, .i32⟩
  | 46 => ⟨S700000, .i1⟩
  | 47 => ⟨S_, .i32⟩
  | 48 => ⟨S700000, .i32⟩
  | 49 => ⟨S700000, .i32⟩
  | 50 => ⟨S700000, .i32⟩
  | 51 => ⟨S700000x1, .i32⟩
  | 52 => ⟨S700000, .f32⟩
  | 53 => ⟨S700000, .f32⟩
  | 54 => ⟨S700000x1, .f32⟩
  | 55 => ⟨S1x128x128, .f32⟩
  | 56 => ⟨S128x128, .f32⟩
  | 57 => ⟨S100000x128, .f32⟩
  | 58 => ⟨S_, .i32⟩
  | 59 => ⟨S700000, .i32⟩
  | 60 => ⟨S700000, .i1⟩
  | 61 => ⟨S_, .i32⟩
  | 62 => ⟨S700000, .i32⟩
  | 63 => ⟨S700000, .i32⟩
  | 64 => ⟨S700000, .i32⟩
  | 65 => ⟨S700000x1, .i32⟩
  | 66 => ⟨S1, .i32⟩
  | 67 => ⟨S_, .i32⟩
  | 68 => ⟨S700000x1, .i32⟩
  | 69 => ⟨S700000x1, .i1⟩
  | 70 => ⟨S1x1, .i32⟩
  | 71 => ⟨S700000x1, .i32⟩
  | 72 => ⟨S700000x1, .i1⟩
  | 73 => ⟨S700000x1, .i1⟩
  | 74 => ⟨S_, .i1⟩
  | 75 => ⟨S700000, .i1⟩
  | 76 => ⟨S700000x128, .f32⟩
  | 77 => ⟨S700000x128, .i1⟩
  | 78 => ⟨S_, .f32⟩
  | 79 => ⟨S700000x128, .f32⟩
  | 80 => ⟨S700000x128, .f32⟩
  | 81 => ⟨S700000x128, .f32⟩
  | 82 => ⟨S700000x128, .f32⟩
  | 83 => ⟨S_, .f32⟩
  | 84 => ⟨S100000x128, .f32⟩
  | 85 => ⟨S700000x1, .i32⟩
  | 86 => ⟨S100000x128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S128, .f32⟩
  | 93 => ⟨S1x128, .f32⟩
  | 94 => ⟨S1x128, .f32⟩
  | 95 => ⟨S1x128, .f32⟩
  | 96 => ⟨S100000x128, .f32⟩
  | 97 => ⟨S1x128x128, .f32⟩
  | 98 => ⟨S128x128, .f32⟩
  | 99 => ⟨S100000x128, .f32⟩
  | 100 => ⟨S_, .i32⟩
  | 101 => ⟨S700000, .i32⟩
  | 102 => ⟨S700000, .i1⟩
  | 103 => ⟨S_, .i32⟩
  | 104 => ⟨S700000, .i32⟩
  | 105 => ⟨S700000, .i32⟩
  | 106 => ⟨S700000, .i32⟩
  | 107 => ⟨S700000x1, .i32⟩
  | 108 => ⟨S1, .i32⟩
  | 109 => ⟨S_, .i32⟩
  | 110 => ⟨S700000x1, .i32⟩
  | 111 => ⟨S700000x1, .i1⟩
  | 112 => ⟨S1x1, .i32⟩
  | 113 => ⟨S700000x1, .i32⟩
  | 114 => ⟨S700000x1, .i1⟩
  | 115 => ⟨S700000x1, .i1⟩
  | 116 => ⟨S_, .i1⟩
  | 117 => ⟨S700000, .i1⟩
  | 118 => ⟨S700000x128, .f32⟩
  | 119 => ⟨S700000x128, .i1⟩
  | 120 => ⟨S_, .f32⟩
  | 121 => ⟨S700000x128, .f32⟩
  | 122 => ⟨S700000x128, .f32⟩
  | 123 => ⟨S700000x128, .f32⟩
  | 124 => ⟨S700000x128, .f32⟩
  | 125 => ⟨S_, .f32⟩
  | 126 => ⟨S100000x128, .f32⟩
  | 127 => ⟨S700000x1, .i32⟩
  | _ => ⟨S100000x2, .i32⟩

abbrev hbmTy0_1 (i : Nat) : BufTy := match i % 128 with
  | 0 => ⟨S100000x128, .f32⟩
  | 1 => ⟨S1x128, .f32⟩
  | 2 => ⟨S128, .f32⟩
  | 3 => ⟨S1x128, .f32⟩
  | 4 => ⟨S128, .f32⟩
  | 5 => ⟨S1x128, .f32⟩
  | 6 => ⟨S128, .f32⟩
  | 7 => ⟨S1x128, .f32⟩
  | 8 => ⟨S1x128, .f32⟩
  | 9 => ⟨S1x128, .f32⟩
  | 10 => ⟨S100000x128, .f32⟩
  | 11 => ⟨S1x128x128, .f32⟩
  | 12 => ⟨S128x128, .f32⟩
  | 13 => ⟨S100000x128, .f32⟩
  | 14 => ⟨S_, .i32⟩
  | 15 => ⟨S700000, .i32⟩
  | 16 => ⟨S700000, .i1⟩
  | 17 => ⟨S_, .i32⟩
  | 18 => ⟨S700000, .i32⟩
  | 19 => ⟨S700000, .i32⟩
  | 20 => ⟨S700000, .i32⟩
  | 21 => ⟨S700000x1, .i32⟩
  | 22 => ⟨S1, .i32⟩
  | 23 => ⟨S_, .i32⟩
  | 24 => ⟨S700000x1, .i32⟩
  | 25 => ⟨S700000x1, .i1⟩
  | 26 => ⟨S1x1, .i32⟩
  | 27 => ⟨S700000x1, .i32⟩
  | 28 => ⟨S700000x1, .i1⟩
  | 29 => ⟨S700000x1, .i1⟩
  | 30 => ⟨S_, .i1⟩
  | 31 => ⟨S700000, .i1⟩
  | 32 => ⟨S700000x128, .f32⟩
  | 33 => ⟨S700000x128, .i1⟩
  | 34 => ⟨S_, .f32⟩
  | 35 => ⟨S700000x128, .f32⟩
  | 36 => ⟨S700000x128, .f32⟩
  | 37 => ⟨S700000x128, .f32⟩
  | 38 => ⟨S700000x128, .f32⟩
  | 39 => ⟨S_, .f32⟩
  | 40 => ⟨S100000x128, .f32⟩
  | 41 => ⟨S700000x1, .i32⟩
  | 42 => ⟨S100000x128, .f32⟩
  | 43 => ⟨S1x128, .f32⟩
  | 44 => ⟨S128, .f32⟩
  | 45 => ⟨S1x128, .f32⟩
  | 46 => ⟨S128, .f32⟩
  | 47 => ⟨S1x128, .f32⟩
  | 48 => ⟨S128, .f32⟩
  | 49 => ⟨S1x128, .f32⟩
  | 50 => ⟨S1x128, .f32⟩
  | 51 => ⟨S1x128, .f32⟩
  | 52 => ⟨S100000x128, .f32⟩
  | 53 => ⟨S1x128x128, .f32⟩
  | 54 => ⟨S128x128, .f32⟩
  | 55 => ⟨S100000x128, .f32⟩
  | 56 => ⟨S_, .i32⟩
  | 57 => ⟨S700000, .i32⟩
  | 58 => ⟨S700000, .i1⟩
  | 59 => ⟨S_, .i32⟩
  | 60 => ⟨S700000, .i32⟩
  | 61 => ⟨S700000, .i32⟩
  | 62 => ⟨S700000, .i32⟩
  | 63 => ⟨S700000x1, .i32⟩
  | 64 => ⟨S1, .i32⟩
  | 65 => ⟨S_, .i32⟩
  | 66 => ⟨S700000x1, .i32⟩
  | 67 => ⟨S700000x1, .i1⟩
  | 68 => ⟨S1x1, .i32⟩
  | 69 => ⟨S700000x1, .i32⟩
  | 70 => ⟨S700000x1, .i1⟩
  | 71 => ⟨S700000x1, .i1⟩
  | 72 => ⟨S_, .i1⟩
  | 73 => ⟨S700000, .i1⟩
  | 74 => ⟨S700000x128, .f32⟩
  | 75 => ⟨S700000x128, .i1⟩
  | 76 => ⟨S_, .f32⟩
  | 77 => ⟨S700000x128, .f32⟩
  | 78 => ⟨S700000x128, .f32⟩
  | 79 => ⟨S700000x128, .f32⟩
  | 80 => ⟨S700000x128, .f32⟩
  | 81 => ⟨S_, .f32⟩
  | 82 => ⟨S100000x128, .f32⟩
  | 83 => ⟨S700000x1, .i32⟩
  | 84 => ⟨S100000x128, .f32⟩
  | 85 => ⟨S1x128, .f32⟩
  | 86 => ⟨S128, .f32⟩
  | 87 => ⟨S1x128, .f32⟩
  | 88 => ⟨S128, .f32⟩
  | 89 => ⟨S1x128, .f32⟩
  | 90 => ⟨S128, .f32⟩
  | 91 => ⟨S1x128, .f32⟩
  | 92 => ⟨S1x128, .f32⟩
  | 93 => ⟨S1x128, .f32⟩
  | 94 => ⟨S100000x128, .f32⟩
  | 95 => ⟨S128x32, .f32⟩
  | 96 => ⟨S100000x32, .f32⟩
  | _ => ⟨S100000x2, .i32⟩

abbrev hbmTy (i : Nat) : BufTy := match i / 128 with
  | 0 => hbmTy0_0 i
  | 1 => hbmTy0_1 i
  | _ => ⟨S100000x2, .i32⟩

abbrev bufTy : (tb : Table) → Fin (tcTables nBuf tb) → BufTy
  | .hbm, ⟨i, _⟩ => hbmTy i
  | .local _ .vmem, ⟨0, _⟩ => ⟨S5000x2, .i32⟩
  | .local _ .vmem, ⟨1, _⟩ => ⟨S5000x2, .i32⟩
  | .local _ .vmem, ⟨2, _⟩ => ⟨S65x128, .f32⟩
  | .local _ .vmem, ⟨3, _⟩ => ⟨S65x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S128x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S5000x128, .f32⟩
  | .local _ .vmem, ⟨56, _⟩ => ⟨S5000x128, .f32⟩
  | .local _ .vmem, ⟨57, _⟩ => ⟨S1x128, .f32⟩
  | .local _ .vmem, ⟨58, _⟩ => ⟨S1x128, .f32⟩
  | .local _ .vmem, ⟨59, _⟩ => ⟨S1x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S128x32, .f32⟩
  | .local _ .vmem, ⟨65, _⟩ => ⟨S5000x32, .f32⟩
  | .local _ .vmem, ⟨66, _⟩ => ⟨S5000x32, .f32⟩
  | _, _ => ⟨S100000x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_c_6 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_7 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_call2_c : Ref sig .tc := ⟨.hbm, 100, rfl⟩
abbrev main_call2_v0 : Ref sig .tc := ⟨.hbm, 101, rfl⟩
abbrev main_call2_v1 : Ref sig .tc := ⟨.hbm, 102, rfl⟩
abbrev main_call2_c_0 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_c_1 : Ref sig .tc := ⟨.hbm, 108, rfl⟩
abbrev main_call2_c_2 : Ref sig .tc := ⟨.hbm, 109, rfl⟩
abbrev main_call2_v6 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_call2_v11 : Ref sig .tc := ⟨.hbm, 115, rfl⟩
abbrev main_call2_c_3 : Ref sig .tc := ⟨.hbm, 116, rfl⟩
abbrev main_call2_v12 : Ref sig .tc := ⟨.hbm, 117, rfl⟩
abbrev main_call2_v13 : Ref sig .tc := ⟨.hbm, 118, rfl⟩
abbrev main_call2_v14 : Ref sig .tc := ⟨.hbm, 119, rfl⟩
abbrev main_call2_cst : Ref sig .tc := ⟨.hbm, 120, rfl⟩
abbrev main_call2_v15 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_cst_8 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_v62 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_v70 : Ref sig .tc := ⟨.hbm, 137, rfl⟩
abbrev main_v71 : Ref sig .tc := ⟨.hbm, 138, rfl⟩
abbrev main_v72 : Ref sig .tc := ⟨.hbm, 139, rfl⟩
abbrev main_v73 : Ref sig .tc := ⟨.hbm, 140, rfl⟩
abbrev main_v74 : Ref sig .tc := ⟨.hbm, 141, rfl⟩
abbrev main_call3_c : Ref sig .tc := ⟨.hbm, 142, rfl⟩
abbrev main_call3_v0 : Ref sig .tc := ⟨.hbm, 143, rfl⟩
abbrev main_call3_v1 : Ref sig .tc := ⟨.hbm, 144, rfl⟩
abbrev main_call3_c_0 : Ref sig .tc := ⟨.hbm, 145, rfl⟩
abbrev main_call3_v2 : Ref sig .tc := ⟨.hbm, 146, rfl⟩
abbrev main_call3_v3 : Ref sig .tc := ⟨.hbm, 147, rfl⟩
abbrev main_call3_v4 : Ref sig .tc := ⟨.hbm, 148, rfl⟩
abbrev main_call3_v5 : Ref sig .tc := ⟨.hbm, 149, rfl⟩
abbrev main_call3_c_1 : Ref sig .tc := ⟨.hbm, 150, rfl⟩
abbrev main_call3_c_2 : Ref sig .tc := ⟨.hbm, 151, rfl⟩
abbrev main_call3_v6 : Ref sig .tc := ⟨.hbm, 152, rfl⟩
abbrev main_call3_v7 : Ref sig .tc := ⟨.hbm, 153, rfl⟩
abbrev main_call3_v8 : Ref sig .tc := ⟨.hbm, 154, rfl⟩
abbrev main_call3_v9 : Ref sig .tc := ⟨.hbm, 155, rfl⟩
abbrev main_call3_v10 : Ref sig .tc := ⟨.hbm, 156, rfl⟩
abbrev main_call3_v11 : Ref sig .tc := ⟨.hbm, 157, rfl⟩
abbrev main_call3_c_3 : Ref sig .tc := ⟨.hbm, 158, rfl⟩
abbrev main_call3_v12 : Ref sig .tc := ⟨.hbm, 159, rfl⟩
abbrev main_call3_v13 : Ref sig .tc := ⟨.hbm, 160, rfl⟩
abbrev main_call3_v14 : Ref sig .tc := ⟨.hbm, 161, rfl⟩
abbrev main_call3_cst : Ref sig .tc := ⟨.hbm, 162, rfl⟩
abbrev main_call3_v15 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_cst_9 : Ref sig .tc := ⟨.hbm, 167, rfl⟩
abbrev main_v78 : Ref sig .tc := ⟨.hbm, 168, rfl⟩
abbrev main_v79 : Ref sig .tc := ⟨.hbm, 169, rfl⟩
abbrev main_v80 : Ref sig .tc := ⟨.hbm, 170, rfl⟩
abbrev main_v81 : Ref sig .tc := ⟨.hbm, 171, rfl⟩
abbrev main_v82 : Ref sig .tc := ⟨.hbm, 172, rfl⟩
abbrev main_v83 : Ref sig .tc := ⟨.hbm, 173, rfl⟩
abbrev main_v84 : Ref sig .tc := ⟨.hbm, 174, rfl⟩
abbrev main_v85 : Ref sig .tc := ⟨.hbm, 175, rfl⟩
abbrev main_v86 : Ref sig .tc := ⟨.hbm, 176, rfl⟩
abbrev main_v87 : Ref sig .tc := ⟨.hbm, 177, rfl⟩
abbrev main_v88 : Ref sig .tc := ⟨.hbm, 178, rfl⟩
abbrev main_v89 : Ref sig .tc := ⟨.hbm, 179, rfl⟩
abbrev main_v90 : Ref sig .tc := ⟨.hbm, 180, rfl⟩
abbrev main_v91 : Ref sig .tc := ⟨.hbm, 181, rfl⟩
abbrev main_v92 : Ref sig .tc := ⟨.hbm, 182, rfl⟩
abbrev main_v93 : Ref sig .tc := ⟨.hbm, 183, rfl⟩
abbrev main_call4_c : Ref sig .tc := ⟨.hbm, 184, rfl⟩
abbrev main_call4_v0 : Ref sig .tc := ⟨.hbm, 185, rfl⟩
abbrev main_call4_v1 : Ref sig .tc := ⟨.hbm, 186, rfl⟩
abbrev main_call4_c_0 : Ref sig .tc := ⟨.hbm, 187, rfl⟩
abbrev main_call4_v2 : Ref sig .tc := ⟨.hbm, 188, rfl⟩
abbrev main_call4_v3 : Ref sig .tc := ⟨.hbm, 189, rfl⟩
abbrev main_call4_v4 : Ref sig .tc := ⟨.hbm, 190, rfl⟩
abbrev main_call4_v5 : Ref sig .tc := ⟨.hbm, 191, rfl⟩
abbrev main_call4_c_1 : Ref sig .tc := ⟨.hbm, 192, rfl⟩
abbrev main_call4_c_2 : Ref sig .tc := ⟨.hbm, 193, rfl⟩
abbrev main_call4_v6 : Ref sig .tc := ⟨.hbm, 194, rfl⟩
abbrev main_call4_v7 : Ref sig .tc := ⟨.hbm, 195, rfl⟩
abbrev main_call4_v8 : Ref sig .tc := ⟨.hbm, 196, rfl⟩
abbrev main_call4_v9 : Ref sig .tc := ⟨.hbm, 197, rfl⟩
abbrev main_call4_v10 : Ref sig .tc := ⟨.hbm, 198, rfl⟩
abbrev main_call4_v11 : Ref sig .tc := ⟨.hbm, 199, rfl⟩
abbrev main_call4_c_3 : Ref sig .tc := ⟨.hbm, 200, rfl⟩
abbrev main_call4_v12 : Ref sig .tc := ⟨.hbm, 201, rfl⟩
abbrev main_call4_v13 : Ref sig .tc := ⟨.hbm, 202, rfl⟩
abbrev main_call4_v14 : Ref sig .tc := ⟨.hbm, 203, rfl⟩
abbrev main_call4_cst : Ref sig .tc := ⟨.hbm, 204, rfl⟩
abbrev main_call4_v15 : Ref sig .tc := ⟨.hbm, 205, rfl⟩
abbrev main_v94 : Ref sig .tc := ⟨.hbm, 206, rfl⟩
abbrev main_v95 : Ref sig .tc := ⟨.hbm, 207, rfl⟩
abbrev main_v96 : Ref sig .tc := ⟨.hbm, 208, rfl⟩
abbrev main_cst_10 : Ref sig .tc := ⟨.hbm, 209, rfl⟩
abbrev main_v97 : Ref sig .tc := ⟨.hbm, 210, rfl⟩
abbrev main_v98 : Ref sig .tc := ⟨.hbm, 211, rfl⟩
abbrev main_v99 : Ref sig .tc := ⟨.hbm, 212, rfl⟩
abbrev main_v100 : Ref sig .tc := ⟨.hbm, 213, rfl⟩
abbrev main_v101 : Ref sig .tc := ⟨.hbm, 214, rfl⟩
abbrev main_v102 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg5_0 : Ref sig .tc := ⟨.vmem, 18, rfl⟩
abbrev cc2_stg5_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg3_0 : Ref sig .tc := ⟨.vmem, 30, rfl⟩
abbrev cc4_stg4_0 : Ref sig .tc := ⟨.vmem, 31, rfl⟩
abbrev cc4_stg5_0 : Ref sig .tc := ⟨.vmem, 32, rfl⟩
abbrev cc4_stg5_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg2_1 : Ref sig .tc := ⟨.vmem, 38, rfl⟩
abbrev cc6_stg0_0 : Ref sig .tc := ⟨.vmem, 39, rfl⟩
abbrev cc6_stg0_1 : Ref sig .tc := ⟨.vmem, 40, rfl⟩
abbrev cc6_stg1_0 : Ref sig .tc := ⟨.vmem, 41, rfl⟩
abbrev cc6_stg1_1 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg4_0 : Ref sig .tc := ⟨.vmem, 45, rfl⟩
abbrev cc6_stg5_0 : Ref sig .tc := ⟨.vmem, 46, rfl⟩
abbrev cc6_stg5_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg3_0 : Ref sig .tc := ⟨.vmem, 58, rfl⟩
abbrev cc8_stg4_0 : Ref sig .tc := ⟨.vmem, 59, rfl⟩
abbrev cc8_stg5_0 : Ref sig .tc := ⟨.vmem, 60, rfl⟩
abbrev cc8_stg5_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg2_1 : Ref sig .tc := ⟨.vmem, 66, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem4_0 : DmaSem sig := 17
abbrev cc2_sem5_0 : DmaSem sig := 18
abbrev cc2_sem5_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem3_0 : DmaSem sig := 30
abbrev cc4_sem4_0 : DmaSem sig := 31
abbrev cc4_sem5_0 : DmaSem sig := 32
abbrev cc4_sem5_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem2_1 : DmaSem sig := 38
abbrev cc6_sem0_0 : DmaSem sig := 39
abbrev cc6_sem0_1 : DmaSem sig := 40
abbrev cc6_sem1_0 : DmaSem sig := 41
abbrev cc6_sem1_1 : DmaSem sig := 42
abbrev cc6_sem2_0 : DmaSem sig := 43
abbrev cc6_sem3_0 : DmaSem sig := 44
abbrev cc6_sem4_0 : DmaSem sig := 45
abbrev cc6_sem5_0 : DmaSem sig := 46
abbrev cc6_sem5_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem3_0 : DmaSem sig := 58
abbrev cc8_sem4_0 : DmaSem sig := 59
abbrev cc8_sem5_0 : DmaSem sig := 60
abbrev cc8_sem5_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem2_1 : DmaSem sig := 66

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S65x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x128 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x128 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x128 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 2 → Memref sig .tc .vmem S5000x128 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S128x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S5000x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

class Facts₀ : Prop where
  inb_S5000x2_S5000x1_0_0 : ∀ a, (![0, 0] : Fin 2 → Nat) a + S5000x1.size a ≤ S5000x2.size a
  h_S5000x1 : 0 < S5000x1.numel
  shapeCasts_S5000x1_S5000 : S5000x1.ShapeCasts S5000
  inb_S5000x2_S5000x1_0_1 : ∀ a, (![0, 1] : Fin 2 → Nat) a + S5000x1.size a ≤ S5000x2.size a
  iota_S5000x65_d1_w32 : S5000x65.Iotas .tc 32 [1]
  shapeCasts_S5000_S5000x1 : S5000.ShapeCasts S5000x1
  broadcasts_S5000x1_S5000x65 : S5000x1.Broadcasts S5000x65
  natLt_1_32 : 1 < 32
  inb_S65x128_S65x128_0_0 : ∀ a, (![0, 0] : Fin 2 → Nat) a + S65x128.size a ≤ S65x128.size a
  h_S65x128 : 0 < S65x128.numel
  inb_S5000x128_S5000x128_0_0 : ∀ a, (![0, 0] : Fin 2 → Nat) a + S5000x128.size a ≤ S5000x128.size a
  h_S5000x128 : 0 < S5000x128.numel
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S_S100000 : S_.BroadcastsInDim S100000 (![] : Fin 0 → Fin S100000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S700000x1 : S_.BroadcastsInDim S700000x1 (![] : Fin 0 → Fin S700000x1.rank)
  bcast_S1_S1x1_1 : S1.BroadcastsInDim S1x1 (![1] : Fin 1 → Fin S1x1.rank)
  bcast_S1x1_S700000x1_0_1 : S1x1.BroadcastsInDim S700000x1 (![0, 1] : Fin 2 → Fin S700000x1.rank)
  reducesTo_S700000x1_S700000_d1 : S700000x1.ReducesTo [1] S700000
  h_S_ : 0 < S_.numel
  bcast_S700000_S700000x128_0 : S700000.BroadcastsInDim S700000x128 (![0] : Fin 1 → Fin S700000x128.rank)
  bcast_S_S700000x128 : S_.BroadcastsInDim S700000x128 (![] : Fin 0 → Fin S700000x128.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  broadcasts_S5000x1_S5000x128 : S5000x1.Broadcasts S5000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  transposes_S32x128_S128x32_1_0 : S32x128.Transposes [1, 0] S128x32
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S5000x32_S5000x32_0_0 : ∀ a, (![0, 0] : Fin 2 → Nat) a + S5000x32.size a ≤ S5000x32.size a
  h_S5000x32 : 0 < S5000x32.numel
  dot_S5000x65_S65x128_S5000x128_1_0_0_1_n_n_wf : DotDims.WF S5000x65 S65x128 S5000x128 [1] [0] [0] [1] [] []
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S5000x128_S128x128_S5000x128_1_0_0_1_n_n_wf : DotDims.WF S5000x128 S128x128 S5000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S5000x128_S128x32_S5000x32_1_0_0_1_n_n_wf : DotDims.WF S5000x128 S128x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .i32 = 32 ∨ (Rect.block (s := S100000x2) S5000x2.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S65x128.size a ≤ S65x128.size a
  hwx0_1 : ∀ i : grid0.Coords, EltTy.bits .f32 = 32 ∨ (Rect.block (s := S65x128) S65x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S65x128.size a ≤ S65x128.size a
  hwx0_2 : ∀ i : grid0.Coords, EltTy.bits .f32 = 32 ∨ (Rect.block (s := S65x128) S65x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S100000x128.size a
  hwx5_2 : ∀ i : grid5.Coords, EltTy.bits .f32 = 32 ∨ (Rect.block (s := S100000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x128.size a ≤ S100000x128.size a
  hwx6_1 : ∀ i : grid6.Coords, EltTy.bits .f32 = 32 ∨ (Rect.block (s := S100000x128) S5000x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x128.size a ≤ S100000x128.size a
  hwx7_2 : ∀ i : grid7.Coords, EltTy.bits .f32 = 32 ∨ (Rect.block (s := S100000x128) S5000x128.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x128.size a ≤ S1x128.size a
  hwx8_4 : ∀ i : grid8.Coords, EltTy.bits .f32 = 32 ∨ (Rect.block (s := S1x128) S1x128.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x128.size a ≤ S100000x128.size a
  hwx8_5 : ∀ i : grid8.Coords, EltTy.bits .f32 = 32 ∨ (Rect.block (s := S100000x128) S5000x128.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x32.size a ≤ S128x32.size a
  hwx9_1 : ∀ i : grid9.Coords, EltTy.bits .f32 = 32 ∨ (Rect.block (s := S128x32) S128x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S5000x32.size a ≤ S100000x32.size a
  hwx9_2 : ∀ i : grid9.Coords, EltTy.bits .f32 = 32 ∨ (Rect.block (s := S100000x32) S5000x32.size (cc9_transform_2 i) (hinb9_2 i)).WholeWords (EltTy.packing .f32)

variable [Facts₀]

def dot_S5000x65_S65x128_S5000x128_1_0_0_1_n_n : DotDims S5000x65 S65x128 S5000x128 where
  lhsContracting := [1]
  rhsContracting := [0]
  lhsNonContracting := [0]
  rhsNonContracting := [1]
  lhsBatch := []
  rhsBatch := []
  wf := dot_S5000x65_S65x128_S5000x128_1_0_0_1_n_n_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf

abbrev win0_0 : Pipeline.Window sig grid0 :=
  Pipeline.Window.ofSpec (Memref.whole main_arg0) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S65x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S65x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v36) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v42) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v49) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v50) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v51) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v52) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v52) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v54) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v52) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v69) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v70) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v71) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v71) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v73) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v74) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v71) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v80) S5000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v87) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v88) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v89) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v90) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v92) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v93) S5000x128.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v90) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v106) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v107) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v108) S1x128.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v109) S5000x128.size cc8_transform_5 reads8_5 true false 2 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v109) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v110) S128x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v111) S5000x32.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

class Facts : Prop extends Facts₀ where

variable [Facts]
-- ==== ReferenceIdeal.lean ====
abbrev S100000x2 : Shape := ⟨2, ![100000, 2]⟩
abbrev S2x600000 : Shape := ⟨2, ![2, 600000]⟩
abbrev S100000 : Shape := ⟨1, ![100000]⟩
abbrev S65x128 : Shape := ⟨2, ![65, 128]⟩
abbrev S4x128x128 : Shape := ⟨3, ![4, 128, 128]⟩
abbrev S4x128 : Shape := ⟨2, ![4, 128]⟩
abbrev S32x128 : Shape := ⟨2, ![32, 128]⟩
abbrev S100000x1 : Shape := ⟨2, ![100000, 1]⟩
abbrev S_ : Shape := ⟨0, ![]⟩
abbrev S100000x128 : Shape := ⟨2, ![100000, 128]⟩
abbrev S1x600000 : Shape := ⟨2, ![1, 600000]⟩
abbrev S600000 : Shape := ⟨1, ![600000]⟩
abbrev S700000 : Shape := ⟨1, ![700000]⟩
abbrev S700000x1 : Shape := ⟨2, ![700000, 1]⟩
abbrev S1x128x128 : Shape := ⟨3, ![1, 128, 128]⟩
abbrev S128x128 : Shape := ⟨2, ![128, 128]⟩
abbrev S700000x128 : Shape := ⟨2, ![700000, 128]⟩
abbrev S1x128 : Shape := ⟨2, ![1, 128]⟩
abbrev S128 : Shape := ⟨1, ![128]⟩
abbrev S128x32 : Shape := ⟨2, ![128, 32]⟩
abbrev S100000x32 : Shape := ⟨2, ![100000, 32]⟩

abbrev nBuf : Space → Nat
  | .hbm => 319
  | .vmem => 0
  | .smem => 0
  | _ => 0

abbrev hbmTy0_0 (i : Nat) : BufTy := match i % 128 with
  | 0 => ⟨S100000x2, .i32⟩
  | 1 => ⟨S2x600000, .i32⟩
  | 2 => ⟨S100000, .i32⟩
  | 3 => ⟨S65x128, .f32⟩
  | 4 => ⟨S65x128, .f32⟩
  | 5 => ⟨S4x128x128, .f32⟩
  | 6 => ⟨S4x128, .f32⟩
  | 7 => ⟨S4x128, .f32⟩
  | 8 => ⟨S4x128, .f32⟩
  | 9 => ⟨S32x128, .f32⟩
  | 10 => ⟨S100000x1, .i32⟩
  | 11 => ⟨S100000, .i32⟩
  | 12 => ⟨S_, .i32⟩
  | 13 => ⟨S100000, .i32⟩
  | 14 => ⟨S100000, .i1⟩
  | 15 => ⟨S_, .i32⟩
  | 16 => ⟨S100000, .i32⟩
  | 17 => ⟨S100000, .i32⟩
  | 18 => ⟨S100000, .i32⟩
  | 19 => ⟨S100000x1, .i32⟩
  | 20 => ⟨S100000x128, .f32⟩
  | 21 => ⟨S100000x1, .i32⟩
  | 22 => ⟨S100000, .i32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S100000x128, .f32⟩
  | 32 => ⟨S100000x128, .f32⟩
  | 33 => ⟨S100000, .i32⟩
  | 34 => ⟨S1x600000, .i32⟩
  | 35 => ⟨S600000, .i32⟩
  | 36 => ⟨S700000, .i32⟩
  | 37 => ⟨S1x600000, .i32⟩
  | 38 => ⟨S600000, .i32⟩
  | 39 => ⟨S700000, .i32⟩
  | 40 => ⟨S_, .f32⟩
  | 41 => ⟨S700000, .f32⟩
  | 42 => ⟨S_, .f32⟩
  | 43 => ⟨S100000, .f32⟩
  | 44 => ⟨S700000x1, .i32⟩
  | 45 => ⟨S100000, .f32⟩
  | 46 => ⟨S_, .f32⟩
  | 47 => ⟨S100000, .f32⟩
  | 48 => ⟨S100000, .i1⟩
  | 49 => ⟨S_, .f32⟩
  | 50 => ⟨S100000, .f32⟩
  | 51 => ⟨S100000, .f32⟩
  | 52 => ⟨S100000, .f32⟩
  | 53 => ⟨S_, .f32⟩
  | 54 => ⟨S_, .f32⟩
  | 55 => ⟨S100000, .f32⟩
  | 56 => ⟨S100000, .f32⟩
  | 57 => ⟨S_, .i32⟩
  | 58 => ⟨S700000, .i32⟩
  | 59 => ⟨S700000, .i1⟩
  | 60 => ⟨S_, .i32⟩
  | 61 => ⟨S700000, .i32⟩
  | 62 => ⟨S700000, .i32⟩
  | 63 => ⟨S700000, .i32⟩
  | 64 => ⟨S700000x1, .i32⟩
  | 65 => ⟨S700000, .f32⟩
  | 66 => ⟨S_, .i32⟩
  | 67 => ⟨S700000, .i32⟩
  | 68 => ⟨S700000, .i1⟩
  | 69 => ⟨S_, .i32⟩
  | 70 => ⟨S700000, .i32⟩
  | 71 => ⟨S700000, .i32⟩
  | 72 => ⟨S700000, .i32⟩
  | 73 => ⟨S700000x1, .i32⟩
  | 74 => ⟨S700000, .f32⟩
  | 75 => ⟨S700000, .f32⟩
  | 76 => ⟨S700000x1, .f32⟩
  | 77 => ⟨S1x128x128, .f32⟩
  | 78 => ⟨S128x128, .f32⟩
  | 79 => ⟨S100000x128, .f32⟩
  | 80 => ⟨S_, .i32⟩
  | 81 => ⟨S700000, .i32⟩
  | 82 => ⟨S700000, .i1⟩
  | 83 => ⟨S_, .i32⟩
  | 84 => ⟨S700000, .i32⟩
  | 85 => ⟨S700000, .i32⟩
  | 86 => ⟨S700000, .i32⟩
  | 87 => ⟨S700000x1, .i32⟩
  | 88 => ⟨S700000x128, .f32⟩
  | 89 => ⟨S700000x128, .f32⟩
  | 90 => ⟨S700000x128, .f32⟩
  | 91 => ⟨S_, .f32⟩
  | 92 => ⟨S100000x128, .f32⟩
  | 93 => ⟨S700000x1, .i32⟩
  | 94 => ⟨S100000x128, .f32⟩
  | 95 => ⟨S1x128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S100000x128, .f32⟩
  | 102 => ⟨S100000x128, .f32⟩
  | 103 => ⟨S100000x128, .f32⟩
  | 104 => ⟨S1x128, .f32⟩
  | 105 => ⟨S128, .f32⟩
  | 106 => ⟨S1x128, .f32⟩
  | 107 => ⟨S128, .f32⟩
  | 108 => ⟨S_, .f32⟩
  | 109 => ⟨S100000, .f32⟩
  | 110 => ⟨S100000x1, .f32⟩
  | 111 => ⟨S_, .f32⟩
  | 112 => ⟨S100000x1, .f32⟩
  | 113 => ⟨S100000x1, .f32⟩
  | 114 => ⟨S100000x128, .f32⟩
  | 115 => ⟨S100000x128, .f32⟩
  | 116 => ⟨S100000x128, .f32⟩
  | 117 => ⟨S_, .f32⟩
  | 118 => ⟨S100000, .f32⟩
  | 119 => ⟨S100000x1, .f32⟩
  | 120 => ⟨S_, .f32⟩
  | 121 => ⟨S100000x1, .f32⟩
  | 122 => ⟨S100000x1, .f32⟩
  | 123 => ⟨S100000x128, .f32⟩
  | 124 => ⟨S100000x128, .f32⟩
  | 125 => ⟨S_, .f32⟩
  | 126 => ⟨S100000x1, .f32⟩
  | 127 => ⟨S100000x1, .f32⟩
  | _ => ⟨S100000x2, .i32⟩

abbrev hbmTy0_1 (i : Nat) : BufTy := match i % 128 with
  | 0 => ⟨S100000x1, .f32⟩
  | 1 => ⟨S100000x128, .f32⟩
  | 2 => ⟨S100000x128, .f32⟩
  | 3 => ⟨S1x128, .f32⟩
  | 4 => ⟨S100000x128, .f32⟩
  | 5 => ⟨S100000x128, .f32⟩
  | 6 => ⟨S1x128, .f32⟩
  | 7 => ⟨S100000x128, .f32⟩
  | 8 => ⟨S100000x128, .f32⟩
  | 9 => ⟨S1x128x128, .f32⟩
  | 10 => ⟨S128x128, .f32⟩
  | 11 => ⟨S100000x128, .f32⟩
  | 12 => ⟨S_, .i32⟩
  | 13 => ⟨S700000, .i32⟩
  | 14 => ⟨S700000, .i1⟩
  | 15 => ⟨S_, .i32⟩
  | 16 => ⟨S700000, .i32⟩
  | 17 => ⟨S700000, .i32⟩
  | 18 => ⟨S700000, .i32⟩
  | 19 => ⟨S700000x1, .i32⟩
  | 20 => ⟨S700000x128, .f32⟩
  | 21 => ⟨S700000x128, .f32⟩
  | 22 => ⟨S700000x128, .f32⟩
  | 23 => ⟨S_, .f32⟩
  | 24 => ⟨S100000x128, .f32⟩
  | 25 => ⟨S700000x1, .i32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S100000x128, .f32⟩
  | 34 => ⟨S100000x128, .f32⟩
  | 35 => ⟨S100000x128, .f32⟩
  | 36 => ⟨S1x128, .f32⟩
  | 37 => ⟨S128, .f32⟩
  | 38 => ⟨S1x128, .f32⟩
  | 39 => ⟨S128, .f32⟩
  | 40 => ⟨S_, .f32⟩
  | 41 => ⟨S100000, .f32⟩
  | 42 => ⟨S100000x1, .f32⟩
  | 43 => ⟨S_, .f32⟩
  | 44 => ⟨S100000x1, .f32⟩
  | 45 => ⟨S100000x1, .f32⟩
  | 46 => ⟨S100000x128, .f32⟩
  | 47 => ⟨S100000x128, .f32⟩
  | 48 => ⟨S100000x128, .f32⟩
  | 49 => ⟨S_, .f32⟩
  | 50 => ⟨S100000, .f32⟩
  | 51 => ⟨S100000x1, .f32⟩
  | 52 => ⟨S_, .f32⟩
  | 53 => ⟨S100000x1, .f32⟩
  | 54 => ⟨S100000x1, .f32⟩
  | 55 => ⟨S100000x128, .f32⟩
  | 56 => ⟨S100000x128, .f32⟩
  | 57 => ⟨S_, .f32⟩
  | 58 => ⟨S100000x1, .f32⟩
  | 59 => ⟨S100000x1, .f32⟩
  | 60 => ⟨S100000x1, .f32⟩
  | 61 => ⟨S100000x128, .f32⟩
  | 62 => ⟨S100000x128, .f32⟩
  | 63 => ⟨S1x128, .f32⟩
  | 64 => ⟨S100000x128, .f32⟩
  | 65 => ⟨S100000x128, .f32⟩
  | 66 => ⟨S1x128, .f32⟩
  | 67 => ⟨S100000x128, .f32⟩
  | 68 => ⟨S100000x128, .f32⟩
  | 69 => ⟨S1x128x128, .f32⟩
  | 70 => ⟨S128x128, .f32⟩
  | 71 => ⟨S100000x128, .f32⟩
  | 72 => ⟨S_, .i32⟩
  | 73 => ⟨S700000, .i32⟩
  | 74 => ⟨S700000, .i1⟩
  | 75 => ⟨S_, .i32⟩
  | 76 => ⟨S700000, .i32⟩
  | 77 => ⟨S700000, .i32⟩
  | 78 => ⟨S700000, .i32⟩
  | 79 => ⟨S700000x1, .i32⟩
  | 80 => ⟨S700000x128, .f32⟩
  | 81 => ⟨S700000x128, .f32⟩
  | 82 => ⟨S700000x128, .f32⟩
  | 83 => ⟨S_, .f32⟩
  | 84 => ⟨S100000x128, .f32⟩
  | 85 => ⟨S700000x1, .i32⟩
  | 86 => ⟨S100000x128, .f32⟩
  | 87 => ⟨S1x128, .f32⟩
  | 88 => ⟨S128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S100000x128, .f32⟩
  | 96 => ⟨S1x128, .f32⟩
  | 97 => ⟨S128, .f32⟩
  | 98 => ⟨S1x128, .f32⟩
  | 99 => ⟨S128, .f32⟩
  | 100 => ⟨S_, .f32⟩
  | 101 => ⟨S100000, .f32⟩
  | 102 => ⟨S100000x1, .f32⟩
  | 103 => ⟨S_, .f32⟩
  | 104 => ⟨S100000x1, .f32⟩
  | 105 => ⟨S100000x1, .f32⟩
  | 106 => ⟨S100000x128, .f32⟩
  | 107 => ⟨S100000x128, .f32⟩
  | 108 => ⟨S100000x128, .f32⟩
  | 109 => ⟨S_, .f32⟩
  | 110 => ⟨S100000, .f32⟩
  | 111 => ⟨S100000x1, .f32⟩
  | 112 => ⟨S_, .f32⟩
  | 113 => ⟨S100000x1, .f32⟩
  | 114 => ⟨S100000x1, .f32⟩
  | 115 => ⟨S100000x128, .f32⟩
  | 116 => ⟨S100000x128, .f32⟩
  | 117 => ⟨S_, .f32⟩
  | 118 => ⟨S100000x1, .f32⟩
  | 119 => ⟨S100000x1, .f32⟩
  | 120 => ⟨S100000x1, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S1x128, .f32⟩
  | 127 => ⟨S100000x128, .f32⟩
  | _ => ⟨S100000x2, .i32⟩

abbrev hbmTy0_2 (i : Nat) : BufTy := match i % 128 with
  | 0 => ⟨S100000x128, .f32⟩
  | 1 => ⟨S1x128x128, .f32⟩
  | 2 => ⟨S128x128, .f32⟩
  | 3 => ⟨S100000x128, .f32⟩
  | 4 => ⟨S_, .i32⟩
  | 5 => ⟨S700000, .i32⟩
  | 6 => ⟨S700000, .i1⟩
  | 7 => ⟨S_, .i32⟩
  | 8 => ⟨S700000, .i32⟩
  | 9 => ⟨S700000, .i32⟩
  | 10 => ⟨S700000, .i32⟩
  | 11 => ⟨S700000x1, .i32⟩
  | 12 => ⟨S700000x128, .f32⟩
  | 13 => ⟨S700000x128, .f32⟩
  | 14 => ⟨S700000x128, .f32⟩
  | 15 => ⟨S_, .f32⟩
  | 16 => ⟨S100000x128, .f32⟩
  | 17 => ⟨S700000x1, .i32⟩
  | 18 => ⟨S100000x128, .f32⟩
  | 19 => ⟨S1x128, .f32⟩
  | 20 => ⟨S128, .f32⟩
  | 21 => ⟨S1x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S100000, .f32⟩
  | 34 => ⟨S100000x1, .f32⟩
  | 35 => ⟨S_, .f32⟩
  | 36 => ⟨S100000x1, .f32⟩
  | 37 => ⟨S100000x1, .f32⟩
  | 38 => ⟨S100000x128, .f32⟩
  | 39 => ⟨S100000x128, .f32⟩
  | 40 => ⟨S100000x128, .f32⟩
  | 41 => ⟨S_, .f32⟩
  | 42 => ⟨S100000, .f32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S_, .f32⟩
  | 50 => ⟨S100000x1, .f32⟩
  | 51 => ⟨S100000x1, .f32⟩
  | 52 => ⟨S100000x1, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S128x32, .f32⟩
  | 62 => ⟨S100000x32, .f32⟩
  | _ => ⟨S100000x2, .i32⟩

abbrev hbmTy (i : Nat) : BufTy := match i / 128 with
  | 0 => hbmTy0_0 i
  | 1 => hbmTy0_1 i
  | 2 => hbmTy0_2 i
  | _ => ⟨S100000x2, .i32⟩

abbrev bufTy : (tb : Table) → Fin (tcTables nBuf tb) → BufTy
  | .hbm, ⟨i, _⟩ => hbmTy i
  | _, _ => ⟨S100000x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_call0_v0 : Ref sig .tc := ⟨.hbm, 54, rfl⟩
abbrev main_call0_v1 : Ref sig .tc := ⟨.hbm, 55, rfl⟩
abbrev main_v35 : Ref sig .tc := ⟨.hbm, 56, rfl⟩
abbrev main_c_7 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_c_9 : Ref sig .tc := ⟨.hbm, 66, rfl⟩
abbrev main_v43 : Ref sig .tc := ⟨.hbm, 67, rfl⟩
abbrev main_v44 : Ref sig .tc := ⟨.hbm, 68, rfl⟩
abbrev main_c_10 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_c_11 : Ref sig .tc := ⟨.hbm, 80, rfl⟩
abbrev main_v55 : Ref sig .tc := ⟨.hbm, 81, rfl⟩
abbrev main_v56 : Ref sig .tc := ⟨.hbm, 82, rfl⟩
abbrev main_c_12 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_13 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_call1_cst : Ref sig .tc := ⟨.hbm, 100, rfl⟩
abbrev main_call1_v0 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_14 : Ref sig .tc := ⟨.hbm, 108, rfl⟩
abbrev main_v78 : Ref sig .tc := ⟨.hbm, 109, rfl⟩
abbrev main_v79 : Ref sig .tc := ⟨.hbm, 110, rfl⟩
abbrev main_cst_15 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_16 : Ref sig .tc := ⟨.hbm, 117, rfl⟩
abbrev main_v85 : Ref sig .tc := ⟨.hbm, 118, rfl⟩
abbrev main_v86 : Ref sig .tc := ⟨.hbm, 119, rfl⟩
abbrev main_cst_17 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_c_19 : Ref sig .tc := ⟨.hbm, 140, rfl⟩
abbrev main_v105 : Ref sig .tc := ⟨.hbm, 141, rfl⟩
abbrev main_v106 : Ref sig .tc := ⟨.hbm, 142, rfl⟩
abbrev main_c_20 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_cst_21 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_call2_cst : Ref sig .tc := ⟨.hbm, 160, rfl⟩
abbrev main_call2_v0 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_22 : Ref sig .tc := ⟨.hbm, 168, rfl⟩
abbrev main_v128 : Ref sig .tc := ⟨.hbm, 169, rfl⟩
abbrev main_v129 : Ref sig .tc := ⟨.hbm, 170, rfl⟩
abbrev main_cst_23 : Ref sig .tc := ⟨.hbm, 171, rfl⟩
abbrev main_v130 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_cst_24 : Ref sig .tc := ⟨.hbm, 177, rfl⟩
abbrev main_v135 : Ref sig .tc := ⟨.hbm, 178, rfl⟩
abbrev main_v136 : Ref sig .tc := ⟨.hbm, 179, rfl⟩
abbrev main_cst_25 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_cst_26 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_v144 : Ref sig .tc := ⟨.hbm, 189, rfl⟩
abbrev main_v145 : Ref sig .tc := ⟨.hbm, 190, rfl⟩
abbrev main_v146 : Ref sig .tc := ⟨.hbm, 191, rfl⟩
abbrev main_v147 : Ref sig .tc := ⟨.hbm, 192, rfl⟩
abbrev main_v148 : Ref sig .tc := ⟨.hbm, 193, rfl⟩
abbrev main_v149 : Ref sig .tc := ⟨.hbm, 194, rfl⟩
abbrev main_v150 : Ref sig .tc := ⟨.hbm, 195, rfl⟩
abbrev main_v151 : Ref sig .tc := ⟨.hbm, 196, rfl⟩
abbrev main_v152 : Ref sig .tc := ⟨.hbm, 197, rfl⟩
abbrev main_v153 : Ref sig .tc := ⟨.hbm, 198, rfl⟩
abbrev main_v154 : Ref sig .tc := ⟨.hbm, 199, rfl⟩
abbrev main_c_27 : Ref sig .tc := ⟨.hbm, 200, rfl⟩
abbrev main_v155 : Ref sig .tc := ⟨.hbm, 201, rfl⟩
abbrev main_v156 : Ref sig .tc := ⟨.hbm, 202, rfl⟩
abbrev main_c_28 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩
abbrev main_cst_29 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_v169 : Ref sig .tc := ⟨.hbm, 217, rfl⟩
abbrev main_v170 : Ref sig .tc := ⟨.hbm, 218, rfl⟩
abbrev main_v171 : Ref sig .tc := ⟨.hbm, 219, rfl⟩
abbrev main_call3_cst : Ref sig .tc := ⟨.hbm, 220, rfl⟩
abbrev main_call3_v0 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_cst_30 : Ref sig .tc := ⟨.hbm, 228, rfl⟩
abbrev main_v178 : Ref sig .tc := ⟨.hbm, 229, rfl⟩
abbrev main_v179 : Ref sig .tc := ⟨.hbm, 230, rfl⟩
abbrev main_cst_31 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_cst_32 : Ref sig .tc := ⟨.hbm, 237, rfl⟩
abbrev main_v185 : Ref sig .tc := ⟨.hbm, 238, rfl⟩
abbrev main_v186 : Ref sig .tc := ⟨.hbm, 239, rfl⟩
abbrev main_cst_33 : Ref sig .tc := ⟨.hbm, 240, rfl⟩
abbrev main_v187 : Ref sig .tc := ⟨.hbm, 241, rfl⟩
abbrev main_v188 : Ref sig .tc := ⟨.hbm, 242, rfl⟩
abbrev main_v189 : Ref sig .tc := ⟨.hbm, 243, rfl⟩
abbrev main_v190 : Ref sig .tc := ⟨.hbm, 244, rfl⟩
abbrev main_cst_34 : Ref sig .tc := ⟨.hbm, 245, rfl⟩
abbrev main_v191 : Ref sig .tc := ⟨.hbm, 246, rfl⟩
abbrev main_v192 : Ref sig .tc := ⟨.hbm, 247, rfl⟩
abbrev main_v193 : Ref sig .tc := ⟨.hbm, 248, rfl⟩
abbrev main_v194 : Ref sig .tc := ⟨.hbm, 249, rfl⟩
abbrev main_v195 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_v199 : Ref sig .tc := ⟨.hbm, 254, rfl⟩
abbrev main_v200 : Ref sig .tc := ⟨.hbm, 255, rfl⟩
abbrev main_v201 : Ref sig .tc := ⟨.hbm, 256, rfl⟩
abbrev main_v202 : Ref sig .tc := ⟨.hbm, 257, rfl⟩
abbrev main_v203 : Ref sig .tc := ⟨.hbm, 258, rfl⟩
abbrev main_v204 : Ref sig .tc := ⟨.hbm, 259, rfl⟩
abbrev main_c_35 : Ref sig .tc := ⟨.hbm, 260, rfl⟩
abbrev main_v205 : Ref sig .tc := ⟨.hbm, 261, rfl⟩
abbrev main_v206 : Ref sig .tc := ⟨.hbm, 262, rfl⟩
abbrev main_c_36 : Ref sig .tc := ⟨.hbm, 263, rfl⟩
abbrev main_v207 : Ref sig .tc := ⟨.hbm, 264, rfl⟩
abbrev main_v208 : Ref sig .tc := ⟨.hbm, 265, rfl⟩
abbrev main_v209 : Ref sig .tc := ⟨.hbm, 266, rfl⟩
abbrev main_v210 : Ref sig .tc := ⟨.hbm, 267, rfl⟩
abbrev main_v211 : Ref sig .tc := ⟨.hbm, 268, rfl⟩
abbrev main_v212 : Ref sig .tc := ⟨.hbm, 269, rfl⟩
abbrev main_v213 : Ref sig .tc := ⟨.hbm, 270, rfl⟩
abbrev main_cst_37 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_call4_cst : Ref sig .tc := ⟨.hbm, 280, rfl⟩
abbrev main_call4_v0 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_cst_38 : Ref sig .tc := ⟨.hbm, 288, rfl⟩
abbrev main_v228 : Ref sig .tc := ⟨.hbm, 289, rfl⟩
abbrev main_v229 : Ref sig .tc := ⟨.hbm, 290, rfl⟩
abbrev main_cst_39 : Ref sig .tc := ⟨.hbm, 291, rfl⟩
abbrev main_v230 : Ref sig .tc := ⟨.hbm, 292, rfl⟩
abbrev main_v231 : Ref sig .tc := ⟨.hbm, 293, rfl⟩
abbrev main_v232 : Ref sig .tc := ⟨.hbm, 294, rfl⟩
abbrev main_v233 : Ref sig .tc := ⟨.hbm, 295, rfl⟩
abbrev main_v234 : Ref sig .tc := ⟨.hbm, 296, rfl⟩
abbrev main_cst_40 : Ref sig .tc := ⟨.hbm, 297, rfl⟩
abbrev main_v235 : Ref sig .tc := ⟨.hbm, 298, rfl⟩
abbrev main_v236 : Ref sig .tc := ⟨.hbm, 299, rfl⟩
abbrev main_cst_41 : Ref sig .tc := ⟨.hbm, 300, rfl⟩
abbrev main_v237 : Ref sig .tc := ⟨.hbm, 301, rfl⟩
abbrev main_v238 : Ref sig .tc := ⟨.hbm, 302, rfl⟩
abbrev main_v239 : Ref sig .tc := ⟨.hbm, 303, rfl⟩
abbrev main_v240 : Ref sig .tc := ⟨.hbm, 304, rfl⟩
abbrev main_cst_42 : Ref sig .tc := ⟨.hbm, 305, rfl⟩
abbrev main_v241 : Ref sig .tc := ⟨.hbm, 306, rfl⟩
abbrev main_v242 : Ref sig .tc := ⟨.hbm, 307, rfl⟩
abbrev main_v243 : Ref sig .tc := ⟨.hbm, 308, rfl⟩
abbrev main_v244 : Ref sig .tc := ⟨.hbm, 309, rfl⟩
abbrev main_v245 : Ref sig .tc := ⟨.hbm, 310, rfl⟩
abbrev main_v246 : Ref sig .tc := ⟨.hbm, 311, rfl⟩
abbrev main_v247 : Ref sig .tc := ⟨.hbm, 312, rfl⟩
abbrev main_v248 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩

abbrev nD : Nat := 1
abbrev τ : Topo := Topo.v7x

variable {F : FTy → Type} [FloatOps F]

class Facts₀ : Prop where
  slices_S100000x2_S100000x1_0_0 : S100000x2.Slices ![0, 0] S100000x1
  shapeCasts_S100000x1_S100000 : S100000x1.ShapeCasts S100000
  bcast_S_S100000 : S_.BroadcastsInDim S100000 (![] : Fin 0 → Fin S100000.rank)
  bcast_S100000_S100000x1_0 : S100000.BroadcastsInDim S100000x1 (![0] : Fin 1 → Fin S100000x1.rank)
  slices_S100000x2_S100000x1_0_1 : S100000x2.Slices ![0, 1] S100000x1
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S700000 : S_.BroadcastsInDim S700000 (![] : Fin 0 → Fin S700000.rank)
  bcast_S700000_S700000x1_0 : S700000.BroadcastsInDim S700000x1 (![0] : Fin 1 → Fin S700000x1.rank)
  slices_S4x128x128_S1x128x128_0_0_0 : S4x128x128.Slices ![0, 0, 0] S1x128x128
  shapeCasts_S1x128x128_S128x128 : S1x128x128.ShapeCasts S128x128
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  transposes_S32x128_S128x32_1_0 : S32x128.Transposes [1, 0] S128x32
  gather_S65x128_S100000x1_S100000x128_1_0_n_n_0_1_1128_wf : GatherDims.WF S65x128 S100000x1 S100000x128 [1] [0] [] [0] [] 1 ![1, 128]
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x32_S100000x32_1_0_0_1_n_n_wf : DotDims.WF S100000x128 S128x32 S100000x32 [1] [0] [0] [1] [] []

variable [Facts₀]

def gather_S65x128_S100000x1_S100000x128_1_0_n_n_0_1_1128 : GatherDims S65x128 S100000x1 S100000x128 where
  offsetDims := [1]
  collapsedSliceDims := [0]
  operandBatchingDims := []
  startIndicesBatchingDims := []
  startIndexMap := [0]
  indexVectorDim := 1
  sliceSizes := ![1, 128]
  wf := gather_S65x128_S100000x1_S100000x128_1_0_n_n_0_1_1128_wf
def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KWalk.lean ====
/- Which buffer is still what it was: the TensorCore's buffer contents at a segment boundary of @main, read at a
   buffer that the segments walked over do not write, equal the contents at the earlier boundary (for an argument,
   the launch memory). Three kinds of step: a host stretch none of whose operations writes the buffer; a region the
   buffer is not an array of; a region that has the buffer as an input window, which it leaves as entered. -/
import proofs.«422291_j73607149519132_1_alg».proof.Proof.Gen.KernelIdeal.Frame

set_option maxRecDepth 16384

noncomputable section

namespace Cert.KernelIdeal.KWalk

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- A buffer that no operation of a host stretch writes keeps its contents across the stretch: each operation's
    written set is a singleton, and the buffer differs from every one of them as a reference. -/
local macro "host_keep " ops:ident b:ident : tactic => `(tactic|
  exact StableHlo.after_of_forall_not_mem (b := Proc.devRef .tc $b) _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    (repeat' apply And.intro)
    all_goals exact StableHlo.devRef_ne_of_ne (by decide))))

/-! ## The arguments: no stretch and no region writes an argument, so each boundary reads the launch memory there -/

/-- Argument 1 after region 0, which bypasses it. -/
theorem W1_arg1 (c : Dev nD) : W1 m ρ c (Proc.devRef .tc main_arg1) = m ((c : Thread nD τ).loc main_arg1) :=
  calc W1 m ρ c (Proc.devRef .tc main_arg1)
    _ = W0 m ρ c (Proc.devRef .tc main_arg1) := W1_of_ne m ρ c main_arg1 (by decide)
    _ = m ((c : Thread nD τ).loc main_arg1) := rfl
/-- Argument 5 at the third boundary: two stretches and region 0 bypass it. -/
theorem W3_arg5 (c : Dev nD) : W3 m ρ c (Proc.devRef .tc main_arg5) = m ((c : Thread nD τ).loc main_arg5) :=
  calc W3 m ρ c (Proc.devRef .tc main_arg5)
    _ = W2 m ρ c (Proc.devRef .tc main_arg5) := by host_keep hostOps1_1 main_arg5
    _ = W1 m ρ c (Proc.devRef .tc main_arg5) := by host_keep hostOps1 main_arg5
    _ = W0 m ρ c (Proc.devRef .tc main_arg5) := W1_of_ne m ρ c main_arg5 (by decide)
    _ = m ((c : Thread nD τ).loc main_arg5) := rfl
/-- Argument 5 after region 2. -/
theorem W8_arg5 (c : Dev nD) : W8 m ρ c (Proc.devRef .tc main_arg5) = m ((c : Thread nD τ).loc main_arg5) :=
  calc W8 m ρ c (Proc.devRef .tc main_arg5)
    _ = W7 m ρ c (Proc.devRef .tc main_arg5) := W8_of_ne m ρ c main_arg5 (by decide)
    _ = W6 m ρ c (Proc.devRef .tc main_arg5) := by host_keep hostOps2_1 main_arg5
    _ = W5 m ρ c (Proc.devRef .tc main_arg5) := by host_keep hostOps2 main_arg5
    _ = W4 m ρ c (Proc.devRef .tc main_arg5) := W5_of_ne m ρ c main_arg5 (by decide)
    _ = W3 m ρ c (Proc.devRef .tc main_arg5) := by host_keep hostOps1_2 main_arg5
    _ = m ((c : Thread nD τ).loc main_arg5) := W3_arg5 m ρ c
/-- Argument 5 after region 4. -/
theorem W13_arg5 (c : Dev nD) : W13 m ρ c (Proc.devRef .tc main_arg5) = m ((c : Thread nD τ).loc main_arg5) :=
  calc W13 m ρ c (Proc.devRef .tc main_arg5)
    _ = W12 m ρ c (Proc.devRef .tc main_arg5) := W13_of_ne m ρ c main_arg5 (by decide)
    _ = W11 m ρ c (Proc.devRef .tc main_arg5) := by host_keep hostOps4_1 main_arg5
    _ = W10 m ρ c (Proc.devRef .tc main_arg5) := by host_keep hostOps4 main_arg5
    _ = W9 m ρ c (Proc.devRef .tc main_arg5) := W10_of_ne m ρ c main_arg5 (by decide)
    _ = W8 m ρ c (Proc.devRef .tc main_arg5) := by host_keep hostOps3 main_arg5
    _ = m ((c : Thread nD τ).loc main_arg5) := W8_arg5 m ρ c
/-- Argument 5 after region 6. -/
theorem W18_arg5 (c : Dev nD) : W18 m ρ c (Proc.devRef .tc main_arg5) = m ((c : Thread nD τ).loc main_arg5) :=
  calc W18 m ρ c (Proc.devRef .tc main_arg5)
    _ = W17 m ρ c (Proc.devRef .tc main_arg5) := W18_of_ne m ρ c main_arg5 (by decide)
    _ = W16 m ρ c (Proc.devRef .tc main_arg5) := by host_keep hostOps6_1 main_arg5
    _ = W15 m ρ c (Proc.devRef .tc main_arg5) := by host_keep hostOps6 main_arg5
    _ = W14 m ρ c (Proc.devRef .tc main_arg5) := W15_of_ne m ρ c main_arg5 (by decide)
    _ = W13 m ρ c (Proc.devRef .tc main_arg5) := by host_keep hostOps5 main_arg5
    _ = m ((c : Thread nD τ).loc main_arg5) := W13_arg5 m ρ c
/-- Argument 6 at the sixth boundary. -/
theorem W6_arg6 (c : Dev nD) : W6 m ρ c (Proc.devRef .tc main_arg6) = m ((c : Thread nD τ).loc main_arg6) :=
  calc W6 m ρ c (Proc.devRef .tc main_arg6)
    _ = W5 m ρ c (Proc.devRef .tc main_arg6) := by host_keep hostOps2 main_arg6
    _ = W4 m ρ c (Proc.devRef .tc main_arg6) := W5_of_ne m ρ c main_arg6 (by decide)
    _ = W3 m ρ c (Proc.devRef .tc main_arg6) := by host_keep hostOps1_2 main_arg6
    _ = W2 m ρ c (Proc.devRef .tc main_arg6) := by host_keep hostOps1_1 main_arg6
    _ = W1 m ρ c (Proc.devRef .tc main_arg6) := by host_keep hostOps1 main_arg6
    _ = W0 m ρ c (Proc.devRef .tc main_arg6) := W1_of_ne m ρ c main_arg6 (by decide)
    _ = m ((c : Thread nD τ).loc main_arg6) := rfl
/-- Argument 6 at the eleventh boundary. -/
theorem W11_arg6 (c : Dev nD) : W11 m ρ c (Proc.devRef .tc main_arg6) = m ((c : Thread nD τ).loc main_arg6) :=
  calc W11 m ρ c (Proc.devRef .tc main_arg6)
    _ = W10 m ρ c (Proc.devRef .tc main_arg6) := by host_keep hostOps4 main_arg6
    _ = W9 m ρ c (Proc.devRef .tc main_arg6) := W10_of_ne m ρ c main_arg6 (by decide)
    _ = W8 m ρ c (Proc.devRef .tc main_arg6) := by host_keep hostOps3 main_arg6
    _ = W7 m ρ c (Proc.devRef .tc main_arg6) := W8_of_ne m ρ c main_arg6 (by decide)
    _ = W6 m ρ c (Proc.devRef .tc main_arg6) := by host_keep hostOps2_1 main_arg6
    _ = m ((c : Thread nD τ).loc main_arg6) := W6_arg6 m ρ c
/-- Argument 6 at the sixteenth boundary. -/
theorem W16_arg6 (c : Dev nD) : W16 m ρ c (Proc.devRef .tc main_arg6) = m ((c : Thread nD τ).loc main_arg6) :=
  calc W16 m ρ c (Proc.devRef .tc main_arg6)
    _ = W15 m ρ c (Proc.devRef .tc main_arg6) := by host_keep hostOps6 main_arg6
    _ = W14 m ρ c (Proc.devRef .tc main_arg6) := W15_of_ne m ρ c main_arg6 (by decide)
    _ = W13 m ρ c (Proc.devRef .tc main_arg6) := by host_keep hostOps5 main_arg6
    _ = W12 m ρ c (Proc.devRef .tc main_arg6) := W13_of_ne m ρ c main_arg6 (by decide)
    _ = W11 m ρ c (Proc.devRef .tc main_arg6) := by host_keep hostOps4_1 main_arg6
    _ = m ((c : Thread nD τ).loc main_arg6) := W11_arg6 m ρ c
/-- Argument 6 at the twenty-first boundary. -/
theorem W21_arg6 (c : Dev nD) : W21 m ρ c (Proc.devRef .tc main_arg6) = m ((c : Thread nD τ).loc main_arg6) :=
  calc W21 m ρ c (Proc.devRef .tc main_arg6)
    _ = W20 m ρ c (Proc.devRef .tc main_arg6) := by host_keep hostOps8 main_arg6
    _ = W19 m ρ c (Proc.devRef .tc main_arg6) := W20_of_ne m ρ c main_arg6 (by decide)
    _ = W18 m ρ c (Proc.devRef .tc main_arg6) := by host_keep hostOps7 main_arg6
    _ = W17 m ρ c (Proc.devRef .tc main_arg6) := W18_of_ne m ρ c main_arg6 (by decide)
    _ = W16 m ρ c (Proc.devRef .tc main_arg6) := by host_keep hostOps6_1 main_arg6
    _ = m ((c : Thread nD τ).loc main_arg6) := W16_arg6 m ρ c
/-- Argument 7 at the sixth boundary. -/
theorem W6_arg7 (c : Dev nD) : W6 m ρ c (Proc.devRef .tc main_arg7) = m ((c : Thread nD τ).loc main_arg7) :=
  calc W6 m ρ c (Proc.devRef .tc main_arg7)
    _ = W5 m ρ c (Proc.devRef .tc main_arg7) := by host_keep hostOps2 main_arg7
    _ = W4 m ρ c (Proc.devRef .tc main_arg7) := W5_of_ne m ρ c main_arg7 (by decide)
    _ = W3 m ρ c (Proc.devRef .tc main_arg7) := by host_keep hostOps1_2 main_arg7
    _ = W2 m ρ c (Proc.devRef .tc main_arg7) := by host_keep hostOps1_1 main_arg7
    _ = W1 m ρ c (Proc.devRef .tc main_arg7) := by host_keep hostOps1 main_arg7
    _ = W0 m ρ c (Proc.devRef .tc main_arg7) := W1_of_ne m ρ c main_arg7 (by decide)
    _ = m ((c : Thread nD τ).loc main_arg7) := rfl
/-- Argument 7 at the eleventh boundary. -/
theorem W11_arg7 (c : Dev nD) : W11 m ρ c (Proc.devRef .tc main_arg7) = m ((c : Thread nD τ).loc main_arg7) :=
  calc W11 m ρ c (Proc.devRef .tc main_arg7)
    _ = W10 m ρ c (Proc.devRef .tc main_arg7) := by host_keep hostOps4 main_arg7
    _ = W9 m ρ c (Proc.devRef .tc main_arg7) := W10_of_ne m ρ c main_arg7 (by decide)
    _ = W8 m ρ c (Proc.devRef .tc main_arg7) := by host_keep hostOps3 main_arg7
    _ = W7 m ρ c (Proc.devRef .tc main_arg7) := W8_of_ne m ρ c main_arg7 (by decide)
    _ = W6 m ρ c (Proc.devRef .tc main_arg7) := by host_keep hostOps2_1 main_arg7
    _ = m ((c : Thread nD τ).loc main_arg7) := W6_arg7 m ρ c
/-- Argument 7 at the sixteenth boundary. -/
theorem W16_arg7 (c : Dev nD) : W16 m ρ c (Proc.devRef .tc main_arg7) = m ((c : Thread nD τ).loc main_arg7) :=
  calc W16 m ρ c (Proc.devRef .tc main_arg7)
    _ = W15 m ρ c (Proc.devRef .tc main_arg7) := by host_keep hostOps6 main_arg7
    _ = W14 m ρ c (Proc.devRef .tc main_arg7) := W15_of_ne m ρ c main_arg7 (by decide)
    _ = W13 m ρ c (Proc.devRef .tc main_arg7) := by host_keep hostOps5 main_arg7
    _ = W12 m ρ c (Proc.devRef .tc main_arg7) := W13_of_ne m ρ c main_arg7 (by decide)
    _ = W11 m ρ c (Proc.devRef .tc main_arg7) := by host_keep hostOps4_1 main_arg7
    _ = m ((c : Thread nD τ).loc main_arg7) := W11_arg7 m ρ c
/-- Argument 7 at the twenty-first boundary. -/
theorem W21_arg7 (c : Dev nD) : W21 m ρ c (Proc.devRef .tc main_arg7) = m ((c : Thread nD τ).loc main_arg7) :=
  calc W21 m ρ c (Proc.devRef .tc main_arg7)
    _ = W20 m ρ c (Proc.devRef .tc main_arg7) := by host_keep hostOps8 main_arg7
    _ = W19 m ρ c (Proc.devRef .tc main_arg7) := W20_of_ne m ρ c main_arg7 (by decide)
    _ = W18 m ρ c (Proc.devRef .tc main_arg7) := by host_keep hostOps7 main_arg7
    _ = W17 m ρ c (Proc.devRef .tc main_arg7) := W18_of_ne m ρ c main_arg7 (by decide)
    _ = W16 m ρ c (Proc.devRef .tc main_arg7) := by host_keep hostOps6_1 main_arg7
    _ = m ((c : Thread nD τ).loc main_arg7) := W16_arg7 m ρ c
/-- Argument 8 at the sixth boundary. -/
theorem W6_arg8 (c : Dev nD) : W6 m ρ c (Proc.devRef .tc main_arg8) = m ((c : Thread nD τ).loc main_arg8) :=
  calc W6 m ρ c (Proc.devRef .tc main_arg8)
    _ = W5 m ρ c (Proc.devRef .tc main_arg8) := by host_keep hostOps2 main_arg8
    _ = W4 m ρ c (Proc.devRef .tc main_arg8) := W5_of_ne m ρ c main_arg8 (by decide)
    _ = W3 m ρ c (Proc.devRef .tc main_arg8) := by host_keep hostOps1_2 main_arg8
    _ = W2 m ρ c (Proc.devRef .tc main_arg8) := by host_keep hostOps1_1 main_arg8
    _ = W1 m ρ c (Proc.devRef .tc main_arg8) := by host_keep hostOps1 main_arg8
    _ = W0 m ρ c (Proc.devRef .tc main_arg8) := W1_of_ne m ρ c main_arg8 (by decide)
    _ = m ((c : Thread nD τ).loc main_arg8) := rfl
/-- Argument 8 at the eleventh boundary. -/
theorem W11_arg8 (c : Dev nD) : W11 m ρ c (Proc.devRef .tc main_arg8) = m ((c : Thread nD τ).loc main_arg8) :=
  calc W11 m ρ c (Proc.devRef .tc main_arg8)
    _ = W10 m ρ c (Proc.devRef .tc main_arg8) := by host_keep hostOps4 main_arg8
    _ = W9 m ρ c (Proc.devRef .tc main_arg8) := W10_of_ne m ρ c main_arg8 (by decide)
    _ = W8 m ρ c (Proc.devRef .tc main_arg8) := by host_keep hostOps3 main_arg8
    _ = W7 m ρ c (Proc.devRef .tc main_arg8) := W8_of_ne m ρ c main_arg8 (by decide)
    _ = W6 m ρ c (Proc.devRef .tc main_arg8) := by host_keep hostOps2_1 main_arg8
    _ = m ((c : Thread nD τ).loc main_arg8) := W6_arg8 m ρ c
/-- Argument 8 at the sixteenth boundary. -/
theorem W16_arg8 (c : Dev nD) : W16 m ρ c (Proc.devRef .tc main_arg8) = m ((c : Thread nD τ).loc main_arg8) :=
  calc W16 m ρ c (Proc.devRef .tc main_arg8)
    _ = W15 m ρ c (Proc.devRef .tc main_arg8) := by host_keep hostOps6 main_arg8
    _ = W14 m ρ c (Proc.devRef .tc main_arg8) := W15_of_ne m ρ c main_arg8 (by decide)
    _ = W13 m ρ c (Proc.devRef .tc main_arg8) := by host_keep hostOps5 main_arg8
    _ = W12 m ρ c (Proc.devRef .tc main_arg8) := W13_of_ne m ρ c main_arg8 (by decide)
    _ = W11 m ρ c (Proc.devRef .tc main_arg8) := by host_keep hostOps4_1 main_arg8
    _ = m ((c : Thread nD τ).loc main_arg8) := W11_arg8 m ρ c
/-- Argument 8 at the twenty-first boundary. -/
theorem W21_arg8 (c : Dev nD) : W21 m ρ c (Proc.devRef .tc main_arg8) = m ((c : Thread nD τ).loc main_arg8) :=
  calc W21 m ρ c (Proc.devRef .tc main_arg8)
    _ = W20 m ρ c (Proc.devRef .tc main_arg8) := by host_keep hostOps8 main_arg8
    _ = W19 m ρ c (Proc.devRef .tc main_arg8) := W20_of_ne m ρ c main_arg8 (by decide)
    _ = W18 m ρ c (Proc.devRef .tc main_arg8) := by host_keep hostOps7 main_arg8
    _ = W17 m ρ c (Proc.devRef .tc main_arg8) := W18_of_ne m ρ c main_arg8 (by decide)
    _ = W16 m ρ c (Proc.devRef .tc main_arg8) := by host_keep hostOps6_1 main_arg8
    _ = m ((c : Thread nD τ).loc main_arg8) := W16_arg8 m ρ c
/-- Argument 9 after region 8: the one stretch and the one region still to come both leave it, and at the last
    boundary it is as launched. -/
theorem W23_arg9 (c : Dev nD) : W23 m ρ c (Proc.devRef .tc main_arg9) = m ((c : Thread nD τ).loc main_arg9) :=
  calc W23 m ρ c (Proc.devRef .tc main_arg9)
    _ = W24 m ρ c (Proc.devRef .tc main_arg9) := Eq.symm (by host_keep hostOps9 main_arg9)
    _ = W25 m ρ c (Proc.devRef .tc main_arg9) := (W25_of_ne m ρ c main_arg9 (by decide)).symm
    _ = m ((c : Thread nD τ).loc main_arg9) := W25_main_arg9 m ρ c

/-! ## The intermediate buffers: each keeps, up to the boundary where it is last read, what the segment that wrote it left -/

/-- Region 0's result at region 1's entry: the three stretches between write other buffers. -/
theorem W4_v0 (c : Dev nD) : W4 m ρ c (Proc.devRef .tc main_v0) = W1 m ρ c (Proc.devRef .tc main_v0) :=
  calc W4 m ρ c (Proc.devRef .tc main_v0)
    _ = W3 m ρ c (Proc.devRef .tc main_v0) := by host_keep hostOps1_2 main_v0
    _ = W2 m ρ c (Proc.devRef .tc main_v0) := by host_keep hostOps1_1 main_v0
    _ = W1 m ρ c (Proc.devRef .tc main_v0) := by host_keep hostOps1 main_v0
/-- Region 0's result at region 2's entry: region 1 reads it through an input window and leaves it as entered. -/
theorem W7_v0 (c : Dev nD) : W7 m ρ c (Proc.devRef .tc main_v0) = W1 m ρ c (Proc.devRef .tc main_v0) :=
  calc W7 m ρ c (Proc.devRef .tc main_v0)
    _ = W6 m ρ c (Proc.devRef .tc main_v0) := by host_keep hostOps2_1 main_v0
    _ = W5 m ρ c (Proc.devRef .tc main_v0) := by host_keep hostOps2 main_v0
    _ = W4 m ρ c (Proc.devRef .tc main_v0) := (W5_arr m ρ c 0).trans (((dat1 (V4 m ρ) c).arrAt_in 0 rfl _).trans (A_eq1 (V4 m ρ) c 0))
    _ = W1 m ρ c (Proc.devRef .tc main_v0) := W4_v0 m ρ c
/-- The first index row extended by the identity indices, after the second stretch. -/
theorem W3_v4 (c : Dev nD) : W3 m ρ c (Proc.devRef .tc main_v4) = W2 m ρ c (Proc.devRef .tc main_v4) :=
  calc W3 m ρ c (Proc.devRef .tc main_v4)
    _ = W2 m ρ c (Proc.devRef .tc main_v4) := by host_keep hostOps1_1 main_v4
/-- The first index row extended by the identity indices, after region 1. -/
theorem W5_v4 (c : Dev nD) : W5 m ρ c (Proc.devRef .tc main_v4) = W2 m ρ c (Proc.devRef .tc main_v4) :=
  calc W5 m ρ c (Proc.devRef .tc main_v4)
    _ = W4 m ρ c (Proc.devRef .tc main_v4) := W5_of_ne m ρ c main_v4 (by decide)
    _ = W3 m ρ c (Proc.devRef .tc main_v4) := by host_keep hostOps1_2 main_v4
    _ = W2 m ρ c (Proc.devRef .tc main_v4) := W3_v4 m ρ c
/-- The first index row extended by the identity indices, after region 3. -/
theorem W10_v4 (c : Dev nD) : W10 m ρ c (Proc.devRef .tc main_v4) = W2 m ρ c (Proc.devRef .tc main_v4) :=
  calc W10 m ρ c (Proc.devRef .tc main_v4)
    _ = W9 m ρ c (Proc.devRef .tc main_v4) := W10_of_ne m ρ c main_v4 (by decide)
    _ = W8 m ρ c (Proc.devRef .tc main_v4) := by host_keep hostOps3 main_v4
    _ = W7 m ρ c (Proc.devRef .tc main_v4) := W8_of_ne m ρ c main_v4 (by decide)
    _ = W6 m ρ c (Proc.devRef .tc main_v4) := by host_keep hostOps2_1 main_v4
    _ = W5 m ρ c (Proc.devRef .tc main_v4) := by host_keep hostOps2 main_v4
    _ = W2 m ρ c (Proc.devRef .tc main_v4) := W5_v4 m ρ c
/-- The first index row extended by the identity indices, after region 5. -/
theorem W15_v4 (c : Dev nD) : W15 m ρ c (Proc.devRef .tc main_v4) = W2 m ρ c (Proc.devRef .tc main_v4) :=
  calc W15 m ρ c (Proc.devRef .tc main_v4)
    _ = W14 m ρ c (Proc.devRef .tc main_v4) := W15_of_ne m ρ c main_v4 (by decide)
    _ = W13 m ρ c (Proc.devRef .tc main_v4) := by host_keep hostOps5 main_v4
    _ = W12 m ρ c (Proc.devRef .tc main_v4) := W13_of_ne m ρ c main_v4 (by decide)
    _ = W11 m ρ c (Proc.devRef .tc main_v4) := by host_keep hostOps4_1 main_v4
    _ = W10 m ρ c (Proc.devRef .tc main_v4) := by host_keep hostOps4 main_v4
    _ = W2 m ρ c (Proc.devRef .tc main_v4) := W10_v4 m ρ c
/-- The first index row extended by the identity indices, after region 7. -/
theorem W20_v4 (c : Dev nD) : W20 m ρ c (Proc.devRef .tc main_v4) = W2 m ρ c (Proc.devRef .tc main_v4) :=
  calc W20 m ρ c (Proc.devRef .tc main_v4)
    _ = W19 m ρ c (Proc.devRef .tc main_v4) := W20_of_ne m ρ c main_v4 (by decide)
    _ = W18 m ρ c (Proc.devRef .tc main_v4) := by host_keep hostOps7 main_v4
    _ = W17 m ρ c (Proc.devRef .tc main_v4) := W18_of_ne m ρ c main_v4 (by decide)
    _ = W16 m ρ c (Proc.devRef .tc main_v4) := by host_keep hostOps6_1 main_v4
    _ = W15 m ρ c (Proc.devRef .tc main_v4) := by host_keep hostOps6 main_v4
    _ = W2 m ρ c (Proc.devRef .tc main_v4) := W15_v4 m ρ c
/-- The second index row extended by the identity indices, after the second stretch. -/
theorem W3_v7 (c : Dev nD) : W3 m ρ c (Proc.devRef .tc main_v7) = W2 m ρ c (Proc.devRef .tc main_v7) :=
  calc W3 m ρ c (Proc.devRef .tc main_v7)
    _ = W2 m ρ c (Proc.devRef .tc main_v7) := by host_keep hostOps1_1 main_v7
/-- The second index row extended by the identity indices, at the sixth boundary. -/
theorem W6_v7 (c : Dev nD) : W6 m ρ c (Proc.devRef .tc main_v7) = W2 m ρ c (Proc.devRef .tc main_v7) :=
  calc W6 m ρ c (Proc.devRef .tc main_v7)
    _ = W5 m ρ c (Proc.devRef .tc main_v7) := by host_keep hostOps2 main_v7
    _ = W4 m ρ c (Proc.devRef .tc main_v7) := W5_of_ne m ρ c main_v7 (by decide)
    _ = W3 m ρ c (Proc.devRef .tc main_v7) := by host_keep hostOps1_2 main_v7
    _ = W2 m ρ c (Proc.devRef .tc main_v7) := W3_v7 m ρ c
/-- The second index row extended by the identity indices, at the eleventh boundary. -/
theorem W11_v7 (c : Dev nD) : W11 m ρ c (Proc.devRef .tc main_v7) = W2 m ρ c (Proc.devRef .tc main_v7) :=
  calc W11 m ρ c (Proc.devRef .tc main_v7)
    _ = W10 m ρ c (Proc.devRef .tc main_v7) := by host_keep hostOps4 main_v7
    _ = W9 m ρ c (Proc.devRef .tc main_v7) := W10_of_ne m ρ c main_v7 (by decide)
    _ = W8 m ρ c (Proc.devRef .tc main_v7) := by host_keep hostOps3 main_v7
    _ = W7 m ρ c (Proc.devRef .tc main_v7) := W8_of_ne m ρ c main_v7 (by decide)
    _ = W6 m ρ c (Proc.devRef .tc main_v7) := by host_keep hostOps2_1 main_v7
    _ = W2 m ρ c (Proc.devRef .tc main_v7) := W6_v7 m ρ c
/-- The second index row extended by the identity indices, at the sixteenth boundary. -/
theorem W16_v7 (c : Dev nD) : W16 m ρ c (Proc.devRef .tc main_v7) = W2 m ρ c (Proc.devRef .tc main_v7) :=
  calc W16 m ρ c (Proc.devRef .tc main_v7)
    _ = W15 m ρ c (Proc.devRef .tc main_v7) := by host_keep hostOps6 main_v7
    _ = W14 m ρ c (Proc.devRef .tc main_v7) := W15_of_ne m ρ c main_v7 (by decide)
    _ = W13 m ρ c (Proc.devRef .tc main_v7) := by host_keep hostOps5 main_v7
    _ = W12 m ρ c (Proc.devRef .tc main_v7) := W13_of_ne m ρ c main_v7 (by decide)
    _ = W11 m ρ c (Proc.devRef .tc main_v7) := by host_keep hostOps4_1 main_v7
    _ = W2 m ρ c (Proc.devRef .tc main_v7) := W11_v7 m ρ c
/-- The second index row extended by the identity indices, at the twenty-first boundary. -/
theorem W21_v7 (c : Dev nD) : W21 m ρ c (Proc.devRef .tc main_v7) = W2 m ρ c (Proc.devRef .tc main_v7) :=
  calc W21 m ρ c (Proc.devRef .tc main_v7)
    _ = W20 m ρ c (Proc.devRef .tc main_v7) := by host_keep hostOps8 main_v7
    _ = W19 m ρ c (Proc.devRef .tc main_v7) := W20_of_ne m ρ c main_v7 (by decide)
    _ = W18 m ρ c (Proc.devRef .tc main_v7) := by host_keep hostOps7 main_v7
    _ = W17 m ρ c (Proc.devRef .tc main_v7) := W18_of_ne m ρ c main_v7 (by decide)
    _ = W16 m ρ c (Proc.devRef .tc main_v7) := by host_keep hostOps6_1 main_v7
    _ = W2 m ρ c (Proc.devRef .tc main_v7) := W16_v7 m ρ c
/-- The per-edge scaling column at the sixth boundary. -/
theorem W6_v33 (c : Dev nD) : W6 m ρ c (Proc.devRef .tc main_v33) = W4 m ρ c (Proc.devRef .tc main_v33) :=
  calc W6 m ρ c (Proc.devRef .tc main_v33)
    _ = W5 m ρ c (Proc.devRef .tc main_v33) := by host_keep hostOps2 main_v33
    _ = W4 m ρ c (Proc.devRef .tc main_v33) := W5_of_ne m ρ c main_v33 (by decide)
/-- The per-edge scaling column at the eleventh boundary. -/
theorem W11_v33 (c : Dev nD) : W11 m ρ c (Proc.devRef .tc main_v33) = W4 m ρ c (Proc.devRef .tc main_v33) :=
  calc W11 m ρ c (Proc.devRef .tc main_v33)
    _ = W10 m ρ c (Proc.devRef .tc main_v33) := by host_keep hostOps4 main_v33
    _ = W9 m ρ c (Proc.devRef .tc main_v33) := W10_of_ne m ρ c main_v33 (by decide)
    _ = W8 m ρ c (Proc.devRef .tc main_v33) := by host_keep hostOps3 main_v33
    _ = W7 m ρ c (Proc.devRef .tc main_v33) := W8_of_ne m ρ c main_v33 (by decide)
    _ = W6 m ρ c (Proc.devRef .tc main_v33) := by host_keep hostOps2_1 main_v33
    _ = W4 m ρ c (Proc.devRef .tc main_v33) := W6_v33 m ρ c
/-- The per-edge scaling column at the sixteenth boundary. -/
theorem W16_v33 (c : Dev nD) : W16 m ρ c (Proc.devRef .tc main_v33) = W4 m ρ c (Proc.devRef .tc main_v33) :=
  calc W16 m ρ c (Proc.devRef .tc main_v33)
    _ = W15 m ρ c (Proc.devRef .tc main_v33) := by host_keep hostOps6 main_v33
    _ = W14 m ρ c (Proc.devRef .tc main_v33) := W15_of_ne m ρ c main_v33 (by decide)
    _ = W13 m ρ c (Proc.devRef .tc main_v33) := by host_keep hostOps5 main_v33
    _ = W12 m ρ c (Proc.devRef .tc main_v33) := W13_of_ne m ρ c main_v33 (by decide)
    _ = W11 m ρ c (Proc.devRef .tc main_v33) := by host_keep hostOps4_1 main_v33
    _ = W4 m ρ c (Proc.devRef .tc main_v33) := W11_v33 m ρ c
/-- The per-edge scaling column at the twenty-first boundary. -/
theorem W21_v33 (c : Dev nD) : W21 m ρ c (Proc.devRef .tc main_v33) = W4 m ρ c (Proc.devRef .tc main_v33) :=
  calc W21 m ρ c (Proc.devRef .tc main_v33)
    _ = W20 m ρ c (Proc.devRef .tc main_v33) := by host_keep hostOps8 main_v33
    _ = W19 m ρ c (Proc.devRef .tc main_v33) := W20_of_ne m ρ c main_v33 (by decide)
    _ = W18 m ρ c (Proc.devRef .tc main_v33) := by host_keep hostOps7 main_v33
    _ = W17 m ρ c (Proc.devRef .tc main_v33) := W18_of_ne m ρ c main_v33 (by decide)
    _ = W16 m ρ c (Proc.devRef .tc main_v33) := by host_keep hostOps6_1 main_v33
    _ = W4 m ρ c (Proc.devRef .tc main_v33) := W16_v33 m ρ c
/-- Region 2's result at region 3's entry. -/
theorem W9_v52 (c : Dev nD) : W9 m ρ c (Proc.devRef .tc main_v52) = W8 m ρ c (Proc.devRef .tc main_v52) :=
  calc W9 m ρ c (Proc.devRef .tc main_v52)
    _ = W8 m ρ c (Proc.devRef .tc main_v52) := by host_keep hostOps3 main_v52
/-- Region 2's result at region 4's entry: region 3 reads it through an input window and leaves it as entered. -/
theorem W12_v52 (c : Dev nD) : W12 m ρ c (Proc.devRef .tc main_v52) = W8 m ρ c (Proc.devRef .tc main_v52) :=
  calc W12 m ρ c (Proc.devRef .tc main_v52)
    _ = W11 m ρ c (Proc.devRef .tc main_v52) := by host_keep hostOps4_1 main_v52
    _ = W10 m ρ c (Proc.devRef .tc main_v52) := by host_keep hostOps4 main_v52
    _ = W9 m ρ c (Proc.devRef .tc main_v52) := (W10_arr m ρ c 0).trans (((dat3 (V9 m ρ) c).arrAt_in 0 rfl _).trans (A_eq3 (V9 m ρ) c 0))
    _ = W8 m ρ c (Proc.devRef .tc main_v52) := W9_v52 m ρ c
/-- Region 4's result at region 5's entry. -/
theorem W14_v71 (c : Dev nD) : W14 m ρ c (Proc.devRef .tc main_v71) = W13 m ρ c (Proc.devRef .tc main_v71) :=
  calc W14 m ρ c (Proc.devRef .tc main_v71)
    _ = W13 m ρ c (Proc.devRef .tc main_v71) := by host_keep hostOps5 main_v71
/-- Region 4's result at region 6's entry: region 5 reads it through an input window and leaves it as entered. -/
theorem W17_v71 (c : Dev nD) : W17 m ρ c (Proc.devRef .tc main_v71) = W13 m ρ c (Proc.devRef .tc main_v71) :=
  calc W17 m ρ c (Proc.devRef .tc main_v71)
    _ = W16 m ρ c (Proc.devRef .tc main_v71) := by host_keep hostOps6_1 main_v71
    _ = W15 m ρ c (Proc.devRef .tc main_v71) := by host_keep hostOps6 main_v71
    _ = W14 m ρ c (Proc.devRef .tc main_v71) := (W15_arr m ρ c 0).trans (((dat5 (V14 m ρ) c).arrAt_in 0 rfl _).trans (A_eq5 (V14 m ρ) c 0))
    _ = W13 m ρ c (Proc.devRef .tc main_v71) := W14_v71 m ρ c
/-- Region 6's result at region 7's entry. -/
theorem W19_v90 (c : Dev nD) : W19 m ρ c (Proc.devRef .tc main_v90) = W18 m ρ c (Proc.devRef .tc main_v90) :=
  calc W19 m ρ c (Proc.devRef .tc main_v90)
    _ = W18 m ρ c (Proc.devRef .tc main_v90) := by host_keep hostOps7 main_v90
/-- Region 6's result at region 8's entry: region 7 reads it through an input window and leaves it as entered. -/
theorem W22_v90 (c : Dev nD) : W22 m ρ c (Proc.devRef .tc main_v90) = W18 m ρ c (Proc.devRef .tc main_v90) :=
  calc W22 m ρ c (Proc.devRef .tc main_v90)
    _ = W21 m ρ c (Proc.devRef .tc main_v90) := by host_keep hostOps8_1 main_v90
    _ = W20 m ρ c (Proc.devRef .tc main_v90) := by host_keep hostOps8 main_v90
    _ = W19 m ρ c (Proc.devRef .tc main_v90) := (W20_arr m ρ c 0).trans (((dat7 (V19 m ρ) c).arrAt_in 0 rfl _).trans (A_eq7 (V19 m ρ) c 0))
    _ = W18 m ρ c (Proc.devRef .tc main_v90) := W19_v90 m ρ c
/-- Region 8's result at region 9's entry. -/
theorem W24_v109 (c : Dev nD) : W24 m ρ c (Proc.devRef .tc main_v109) = W23 m ρ c (Proc.devRef .tc main_v109) :=
  calc W24 m ρ c (Proc.devRef .tc main_v109)
    _ = W23 m ρ c (Proc.devRef .tc main_v109) := by host_keep hostOps9 main_v109

end Cert.KernelIdeal.KWalk
-- ==== Proof.Spec.lean ====
/-
  The mathematics of the message-passing network, entry by entry, over the extended reals.

  A matrix is a function of its (row, column) index. The network is: a first layer of node features (a row of one
  table plus a row of another, chosen by two words per node); then four rounds of  x ↦ LN(x + relu(A(x W) + b)),
  where A gathers rows along edges, scales them and adds them up per target node; then a last matrix product.
  This file states each piece at ONE entry: the matrix product as the sum over the shared axis, the row update
  (bias, relu, residual, normalisation over the 128 columns of the row) and the table lookup (a word read as a row
  number). Nothing here mentions a program.
-/
import Idealize.ShloMosaic.PureOps.Ideal
import Idealize.ShloMosaic.Lib.ValueIdx

noncomputable section

open scoped BigOperators

namespace Cert.Spec

open Idealize.ShloMosaic Idealize.ShloMosaic.ValueIdx

/-- A matrix of extended reals, a function of its (row, column) index. -/
abbrev Mat (n m : Nat) := (⟨2, ![n, m]⟩ : Shape).Idx → EReal
/-- A matrix of 32-bit words. -/
abbrev IMat (n m : Nat) := (⟨2, ![n, m]⟩ : Shape).Idx → BitVec 32

/-! ## The matrix product -/

/-- Entry (r, j) of the product: the sum over the shared axis of row r of x against column j of w. -/
def mmAt {n k m : Nat} (x : Mat n k) (w : Mat k m) (r : Fin n) (j : Fin m) : EReal :=
  ∑ q : Fin k, x (ix2 r q) * w (ix2 q j)

/-- The product of two matrices. -/
def mm {n k m : Nat} (x : Mat n k) (w : Mat k m) : Mat n m := fun i => mmAt x w (i 0) (i 1)

/-! ## The row update: bias, relu, residual, normalisation over the row -/

/-- The three float words both programs carry: zero, the row length 128, and the normalisation's epsilon. -/
def zero : EReal := Ideal.ofBits .f32 0x00000000#32
def len : EReal := Ideal.ofBits .f32 0x43000000#32
def eps : EReal := Ideal.ofBits .f32 0x3727C5AC#32

/-- Entry (r, j) before normalisation: the old feature plus the positive part of (aggregate + bias). -/
def preAt {n : Nat} (x agg : Mat n 128) (b : Mat 1 128) (r : Fin n) (j : Fin 128) : EReal :=
  x (ix2 r j) + max (agg (ix2 r j) + b (ix2 0 j)) zero

/-- The mean of a row of 128 numbers: their sum divided by 128. -/
def mean (f : Fin 128 → EReal) : EReal := Ideal.div (∑ j : Fin 128, f j) len

/-- Row r's mean. -/
def muAt {n : Nat} (x agg : Mat n 128) (b : Mat 1 128) (r : Fin n) : EReal := mean (preAt x agg b r)

/-- Row r's variance: the mean of the squared deviations from the row's mean. -/
def varAt {n : Nat} (x agg : Mat n 128) (b : Mat 1 128) (r : Fin n) : EReal :=
  mean fun j => (preAt x agg b r j - muAt x agg b r) * (preAt x agg b r j - muAt x agg b r)

/-- Entry (r, j) of the updated features: the deviation from the row's mean, times the inverse root of
    (variance + epsilon), times the scale, plus the shift. -/
def updAt {n : Nat} (x agg : Mat n 128) (b g be : Mat 1 128) (r : Fin n) (j : Fin 128) : EReal :=
  (preAt x agg b r j - muAt x agg b r) * Ideal.rsqrt (varAt x agg b r + eps) * g (ix2 0 j) + be (ix2 0 j)

/-- The updated feature matrix. -/
def upd {n : Nat} (x agg : Mat n 128) (b g be : Mat 1 128) : Mat n 128 := fun i => updAt x agg b g be (i 0) (i 1)

/-! ## The table lookup -/

/-- A word read as a row number of a table of N rows: as a signed number, below zero at row 0, beyond the
    table at its last row. -/
def rowOf (N : Nat) (hN : 0 < N) (w : BitVec 32) : Fin N := ⟨min w.toInt.toNat (N - 1), by omega⟩

/-- When the word is a row number already, it is that row. -/
theorem rowOf_val (N : Nat) (hN : 0 < N) (w : BitVec 32) (h0 : 0 ≤ w.toInt) (h1 : w.toInt < N) :
    (rowOf N hN w).val = w.toInt.toNat := by
  show min w.toInt.toNat (N - 1) = _
  omega

/-- Entry (r, j) of the first layer: row tok[r,0] of the first table plus row tok[r,1] of the second. -/
def embAt (tok : IMat 100000 2) (key val : Mat 65 128) (r : Fin 100000) (j : Fin 128) : EReal :=
  key (ix2 (rowOf 65 (by decide) (tok (ix2 r 0))) j) + val (ix2 (rowOf 65 (by decide) (tok (ix2 r 1))) j)

/-- The first layer of node features. -/
def emb (tok : IMat 100000 2) (key val : Mat 65 128) : Mat 100000 128 := fun i => embAt tok key val (i 0) (i 1)

/-- A one-hot row against a table column: the sum over the table's rows of [word = row number] times the entry
    is the entry at the word's own row, when the word is a row number. (Zero times anything is zero on the
    extended reals, so no finiteness is asked.) -/
theorem sum_onehot (N : Nat) (hN : 0 < N) (w : BitVec 32) (h0 : 0 ≤ w.toInt) (h1 : w.toInt < N) (f : Fin N → EReal)
    (oh : Fin N → EReal) (hoh : ∀ q : Fin N, oh q = if w.toInt.toNat = q.val then 1 else 0) :
    ∑ q : Fin N, oh q * f q = f (rowOf N hN w) := by
  rw [Finset.sum_eq_single (rowOf N hN w)]
  · rw [hoh, if_pos (rowOf_val N hN w h0 h1).symm, one_mul]
  · intro q _ hq
    rw [hoh, if_neg, zero_mul]
    intro e
    exact hq (Fin.ext (by rw [rowOf_val N hN w h0 h1]; exact e.symm))
  · intro h; exact absurd (Finset.mem_univ _) h

/-! ## The update in two steps: the sum before normalisation, then the normalisation of a matrix's rows -/

/-- The matrix before normalisation. -/
def pre {n : Nat} (x agg : Mat n 128) (b : Mat 1 128) : Mat n 128 := fun i => preAt x agg b (i 0) (i 1)

/-- Entry (r, j) of the row normalisation of any matrix p: centred by the row's mean, scaled by the inverse root of
    (the row's variance + epsilon), times the scale, plus the shift. -/
def lnAt {n : Nat} (p : Mat n 128) (g be : Mat 1 128) (r : Fin n) (j : Fin 128) : EReal :=
  (p (ix2 r j) - mean fun q => p (ix2 r q))
      * Ideal.rsqrt (mean (fun q => (p (ix2 r q) - mean fun q' => p (ix2 r q')) * (p (ix2 r q) - mean fun q' => p (ix2 r q'))) + eps)
      * g (ix2 0 j) + be (ix2 0 j)

/-- The row normalisation of a matrix. -/
def ln {n : Nat} (p : Mat n 128) (g be : Mat 1 128) : Mat n 128 := fun i => lnAt p g be (i 0) (i 1)

/-- The update is the normalisation of the sum before normalisation. -/
theorem upd_eq_ln_pre {n : Nat} (x agg : Mat n 128) (b g be : Mat 1 128) : upd x agg b g be = ln (pre x agg b) g be := rfl

/-- A vector of 128 numbers laid out as a matrix of one row. -/
def row (v : (⟨1, ![128]⟩ : Shape).Idx → EReal) : Mat 1 128 := fun i => v (ix1 (i 1))

end Cert.Spec

end
-- ==== Proof.KReg0.lean ====
/-
  The embedding launch: per block of 5000 nodes, each node's two words are compared with the column numbers
  0..64, the two 0/1 matrices are multiplied with the two 65 x 128 tables and the products are added. When a word
  is a row number of the table (0 <= word < 65) its 0/1 row has a single one, at that number, and the product's row
  is that row of the table. Block t holds nodes 5000 t .. 5000 t + 4999 and writes the same rows of the result.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.KernelIdeal.KReg0

open Cert.KernelIdeal Cert.KernelIdeal.Gen
open Idealize.ShloMosaic Idealize.ShloMosaic.TcCoe Idealize.ShloMosaic.ValueIdx Idealize.SL.Sem
open Idealize.ShloMosaic.Pipeline (Dat Cfg Window)

/-- The 0/1 entry as a number: the comparison of a word with the column number q, widened and read signed, is 1
    when the word is q and 0 otherwise, for a word that is a row number. -/
theorem onehot_word (w : BitVec 32) (q : Nat) (hq : q < 65) (h0 : 0 ≤ w.toInt) (h1 : w.toInt < 65) :
    (((((IntOp.cmpi .eq w (BitVec.ofNat 32 q)).setWidth 32).toInt : ℤ) : ℝ) : EReal)
      = if w.toInt.toNat = q then 1 else 0 := by
  have hqi : (BitVec.ofNat 32 q).toInt = (q : ℤ) := StableHlo.Predicate.toInt_ofNat_small q (by omega)
  by_cases e : w = BitVec.ofNat 32 q
  · have hc : IntOp.cmpi .eq w (BitVec.ofNat 32 q) = 1#1 := StableHlo.Predicate.cmpi_eq_iff.mpr e
    have hn : w.toInt.toNat = q := by rw [e, hqi]; simp
    rw [hc, if_pos hn]
    have : ((1#1 : BitVec 1).setWidth 32).toInt = 1 := by decide
    rw [this]; simp
  · have hc : IntOp.cmpi .eq w (BitVec.ofNat 32 q) = 0#1 :=
      eq_zero_of_ne_one (fun h => e (StableHlo.Predicate.cmpi_eq_iff.mp h))
    have hn : ¬ w.toInt.toNat = q := by
      intro h; apply e; apply BitVec.eq_of_toInt_eq; rw [hqi]; omega
    rw [hc, if_neg hn]
    have : ((0#1 : BitVec 1).setWidth 32).toInt = 0 := by decide
    rw [this]; simp

/-- Entry (r, q) of the 0/1 matrix built from a word column: 1 when node r's word is q, else 0. -/
theorem onehot_at (x : Vec Ideal S5000x1 .i32) (r : Fin 5000) (q : Fin 65)
    (h : 0 ≤ (x (ix2 r 0)).toInt ∧ (x (ix2 r 0)).toInt < 65) :
    (sitofp .f32 (extui 32 (cmpi .eq
        (broadcastTo S5000x65 (shapeCast S5000x1 (shapeCast S5000 x shapeCasts_S5000x1_S5000) shapeCasts_S5000_S5000x1)
          broadcasts_S5000x1_S5000x65)
        (iota .tc S5000x65 32 [1] iota_S5000x65_d1_w32)) natLt_1_32) : FVec Ideal S5000x65 .f32) (ix2 r q)
      = if (x (ix2 r 0)).toInt.toNat = q.val then 1 else 0 := by
  rw [shapeCast_shapeCast]
  have hb : broadcastTo S5000x65 x broadcasts_S5000x1_S5000x65 (ix2 r q) = x (ix2 r 0) :=
    broadcastTo_apply x _ (ix2 r q) (ix2 r 0) (fun a => by
      match a with
      | ⟨0, _⟩ => rfl
      | ⟨1, _⟩ => rfl)
  have hi : iota .tc S5000x65 32 [1] iota_S5000x65_d1_w32 (ix2 r q) = BitVec.ofNat 32 q.val := by
    show BitVec.ofNat 32 (0 * 65 + q.val) = _
    rw [Nat.zero_mul, Nat.zero_add]
  show (((((IntOp.cmpi .eq (broadcastTo S5000x65 x broadcasts_S5000x1_S5000x65 (ix2 r q))
      (iota .tc S5000x65 32 [1] iota_S5000x65_d1_w32 (ix2 r q))).setWidth 32).toInt : ℤ) : ℝ) : EReal) = _
  rw [hb, hi]
  exact onehot_word _ q.val q.isLt h.1 h.2

/-! The product's operand indices at output entry j and shared-axis position k, axis by axis. -/

theorem lhs_dot_0 (j : S5000x128.Idx) (k : dot_S5000x65_S65x128_S5000x128_1_0_0_1_n_n.contr.Idx) :
    (dot_S5000x65_S65x128_S5000x128_1_0_0_1_n_n.lhsIdx j k 0).val = (j 0).val := by
  unfold DotDims.lhsIdx
  rw [dif_neg (show ¬(0 : Fin S5000x65.rank) ∈ dot_S5000x65_S65x128_S5000x128_1_0_0_1_n_n.lhsBatch by decide),
    dif_pos (show (0 : Fin S5000x65.rank) ∈ dot_S5000x65_S65x128_S5000x128_1_0_0_1_n_n.lhsNonContracting by decide)]
  rfl

theorem lhs_dot_1 (j : S5000x128.Idx) (k : dot_S5000x65_S65x128_S5000x128_1_0_0_1_n_n.contr.Idx) :
    (dot_S5000x65_S65x128_S5000x128_1_0_0_1_n_n.lhsIdx j k 1).val = (k ⟨0, by decide⟩).val :=
  DotDims.lhsIdx_val_of_single (d := dot_S5000x65_S65x128_S5000x128_1_0_0_1_n_n) (cl := 1) rfl j k

theorem rhs_dot_0 (j : S5000x128.Idx) (k : dot_S5000x65_S65x128_S5000x128_1_0_0_1_n_n.contr.Idx) :
    (dot_S5000x65_S65x128_S5000x128_1_0_0_1_n_n.rhsIdx j k 0).val = (k ⟨0, by decide⟩).val :=
  DotDims.rhsIdx_val_of_single (d := dot_S5000x65_S65x128_S5000x128_1_0_0_1_n_n) (cr := 0) rfl j k

theorem rhs_dot_1 (j : S5000x128.Idx) (k : dot_S5000x65_S65x128_S5000x128_1_0_0_1_n_n.contr.Idx) :
    (dot_S5000x65_S65x128_S5000x128_1_0_0_1_n_n.rhsIdx j k 1).val = (j 1).val := by
  unfold DotDims.rhsIdx
  rw [dif_neg (show ¬(1 : Fin S65x128.rank) ∈ dot_S5000x65_S65x128_S5000x128_1_0_0_1_n_n.rhsBatch by decide),
    dif_pos (show (1 : Fin S65x128.rank) ∈ dot_S5000x65_S65x128_S5000x128_1_0_0_1_n_n.rhsNonContracting by decide)]
  rfl

/-- Entry (r, j) of the product of a 5000 x 65 matrix with a 65 x 128 table, started from zero: the sum over the
    65 shared positions. -/
theorem mm_at (A : FVec Ideal S5000x65 .f32) (B : FVec Ideal S65x128 .f32) (r : Fin 5000) (j : Fin 128) :
    matmul dot_S5000x65_S65x128_S5000x128_1_0_0_1_n_n none A B (constant (F := Ideal) S5000x128 .f32 0x00000000#32) (ix2 r j)
      = ∑ q : Fin 65, A (ix2 r q) * B (ix2 q j) := by
  show FloatOps.matmul dot_S5000x65_S65x128_S5000x128_1_0_0_1_n_n none A B (constant (F := Ideal) S5000x128 .f32 0x00000000#32) (ix2 r j) = _
  rw [Ideal.matmul_constant_zero_apply,
    ← Equiv.sum_comp (contrEquiv1 dot_S5000x65_S65x128_S5000x128_1_0_0_1_n_n 65 rfl rfl).symm]
  refine Finset.sum_congr rfl fun q _ => ?_
  have c := contrEquiv1_symm_val dot_S5000x65_S65x128_S5000x128_1_0_0_1_n_n 65 rfl rfl q
  have l : dot_S5000x65_S65x128_S5000x128_1_0_0_1_n_n.lhsIdx (ix2 r j) ((contrEquiv1 _ 65 rfl rfl).symm q) = ix2 r q := by
    funext a; apply Fin.ext
    match a with
    | ⟨0, _⟩ => exact lhs_dot_0 _ _
    | ⟨1, _⟩ => exact (lhs_dot_1 _ _).trans c
  have e : dot_S5000x65_S65x128_S5000x128_1_0_0_1_n_n.rhsIdx (ix2 r j) ((contrEquiv1 _ 65 rfl rfl).symm q) = ix2 q j := by
    funext a; apply Fin.ext
    match a with
    | ⟨0, _⟩ => exact (rhs_dot_0 _ _).trans c
    | ⟨1, _⟩ => exact rhs_dot_1 _ _
  rw [l, e]

/-- One product of the body at entry (r, j): the 0/1 matrix of a word column against a table is the table's row
    at node r's word, when that word is a row number. -/
theorem lookup_at (x : Vec Ideal S5000x1 .i32) (T : FVec Ideal S65x128 .f32) (r : Fin 5000) (j : Fin 128)
    (h : 0 ≤ (x (ix2 r 0)).toInt ∧ (x (ix2 r 0)).toInt < 65) :
    matmul dot_S5000x65_S65x128_S5000x128_1_0_0_1_n_n none
        (sitofp .f32 (extui 32 (cmpi .eq
          (broadcastTo S5000x65 (shapeCast S5000x1 (shapeCast S5000 x shapeCasts_S5000x1_S5000) shapeCasts_S5000_S5000x1)
            broadcasts_S5000x1_S5000x65)
          (iota .tc S5000x65 32 [1] iota_S5000x65_d1_w32)) natLt_1_32) : FVec Ideal S5000x65 .f32)
        T (constant (F := Ideal) S5000x128 .f32 0x00000000#32) (ix2 r j)
      = T (ix2 (Cert.Spec.rowOf 65 (by decide) (x (ix2 r 0))) j) := by
  rw [mm_at]
  exact Cert.Spec.sum_onehot 65 (by decide) (x (ix2 r 0)) h.1 h.2 (fun q => T (ix2 q j)) _
    (fun q => onehot_at x r q h)

-- the buffer contents when the region is entered: every statement here holds for any such contents
variable (V : (c : Dev nD) → (b : Ref sig .tc) → Buf (Elt Ideal) ((c : Thread nD τ).loc b))

/-- What one block's body computes at entry (r, j) when both words of node r are row numbers of the tables:
    x0, x1 are the block's first and second word columns, x2, x3 the two tables. -/
theorem pay_at (x0 x1 : Vec Ideal S5000x1 .i32) (x2 x3 : Vec Ideal S65x128 .f32) (r : Fin 5000) (j : Fin 128)
    (h0 : 0 ≤ (x0 (ix2 r 0)).toInt ∧ (x0 (ix2 r 0)).toInt < 65)
    (h1 : 0 ≤ (x1 (ix2 r 0)).toInt ∧ (x1 (ix2 r 0)).toInt < 65) :
    k0_pay1 (F := Ideal) x0 x1 x2 x3 (ix2 r j)
      = x2 (ix2 (Cert.Spec.rowOf 65 (by decide) (x0 (ix2 r 0))) j) + x3 (ix2 (Cert.Spec.rowOf 65 (by decide) (x1 (ix2 r 0))) j) := by
  unfold k0_pay1
  exact congrArg₂ (· + ·) (lookup_at x0 x2 r j h0) (lookup_at x1 x3 r j h1)

/-! ## One block: the two column loads, and the block's entry as the lookup in whole arrays -/

/-- The load of the block's first column reads the block at (r, 0). -/
theorem col0_at (B : Vec Ideal S5000x2 .i32) (p : Fin 5000) : View.ld B r0_0 (ix2 p 0) = B (ix2 p 0) := by
  show B (r0_0.idx (ix2 p 0)) = B (ix2 p 0)
  congr 1
  funext a
  apply Fin.ext
  match a with
  | ⟨0, _⟩ => show 0 + 1 * p.val = p.val; omega
  | ⟨1, _⟩ => rfl

/-- The load of the block's second column reads the block at (r, 1). -/
theorem col1_at (B : Vec Ideal S5000x2 .i32) (p : Fin 5000) : View.ld B r0_1 (ix2 p 0) = B (ix2 p 1) := by
  show B (r0_1.idx (ix2 p 0)) = B (ix2 p 1)
  congr 1
  funext a
  apply Fin.ext
  match a with
  | ⟨0, _⟩ => show 0 + 1 * p.val = p.val; omega
  | ⟨1, _⟩ => rfl

/-- The body's result at entry (p, q) of a block B of words, with tables K and Vl. -/
theorem block_at (B : Vec Ideal S5000x2 .i32) (K Vl : Vec Ideal S65x128 .f32) (p : Fin 5000) (q : Fin 128)
    (h0 : 0 ≤ (B (ix2 p 0)).toInt ∧ (B (ix2 p 0)).toInt < 65)
    (h1 : 0 ≤ (B (ix2 p 1)).toInt ∧ (B (ix2 p 1)).toInt < 65) :
    k0_pay1 (F := Ideal) (View.ld B r0_0) (View.ld B r0_1) K Vl (ix2 p q)
      = K (ix2 (Cert.Spec.rowOf 65 (by decide) (B (ix2 p 0))) q) + Vl (ix2 (Cert.Spec.rowOf 65 (by decide) (B (ix2 p 1))) q) := by
  have c0 := col0_at B p
  have c1 := col1_at B p
  have e := pay_at (View.ld B r0_0) (View.ld B r0_1) K Vl p q (by rw [c0]; exact h0) (by rw [c1]; exact h1)
  rw [c0, c1] at e
  exact e

/-- The same entry as the lookup in whole arrays: when the block's words at row (y 0) are the word array's at row
    (E 0), and the tables' column (y 1) is the whole tables' column (E 1), the body's result at y is the first
    layer at E. -/
theorem block_emb (tok : Cert.Spec.IMat 100000 2) (key val : Cert.Spec.Mat 65 128)
    (B : Vec Ideal S5000x2 .i32) (K Vl : Vec Ideal S65x128 .f32) (y : S5000x128.Idx) (E : S100000x128.Idx)
    (hB0 : B (ix2 (y 0) 0) = tok (ix2 (E 0) 0)) (hB1 : B (ix2 (y 0) 1) = tok (ix2 (E 0) 1))
    (hK : ∀ ρ : Fin 65, K (ix2 ρ (y 1)) = key (ix2 ρ (E 1))) (hV : ∀ ρ : Fin 65, Vl (ix2 ρ (y 1)) = val (ix2 ρ (E 1)))
    (hTok : ∀ i, 0 ≤ (tok i).toInt ∧ (tok i).toInt < 65) :
    k0_pay1 (F := Ideal) (View.ld B r0_0) (View.ld B r0_1) K Vl y = Cert.Spec.emb tok key val E := by
  obtain ⟨p, q, rfl⟩ : ∃ (p : Fin 5000) (q : Fin 128), y = ix2 p q := ⟨y 0, y 1, eq_ix2 y⟩
  have hB0' : B (ix2 p 0) = tok (ix2 (E 0) 0) := hB0
  have hB1' : B (ix2 p 1) = tok (ix2 (E 0) 1) := hB1
  refine (block_at B K Vl p q (by rw [hB0']; exact hTok _) (by rw [hB1']; exact hTok _)).trans ?_
  rw [hB0', hB1']
  exact congrArg₂ (· + ·) (hK _) (hV _)

/-! ## From blocks to the array -/

theorem hz : (![0, 0] : Fin 2 → Nat) = fun _ => 0 := funext fun a => by fin_cases a <;> rfl

/-- The block index maps over the 20 points: the word window and the result window sit at block (t, 0), the two
    tables at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The word window's block at point t is rows 5000 t .. 5000 t + 4999 of the word array. -/
theorem tok_read (c : Dev nD) (t : Fin cfg0.N) (x : S5000x2.Idx) (k : S100000x2.Idx)
    (hk0 : (k 0).val = 5000 * t.val + (x 0).val) (hk1 : (k 1).val = (x 1).val) :
    (iblk0 V c 0 t : Vec Ideal S5000x2 .i32) x = (V c main_arg0 : S100000x2.Idx → BitVec 32) k := by
  obtain ⟨e0, e1, -⟩ := idx_facts t
  unfold iblk0
  rw [View.read_apply]
  show V c main_arg0 _ = V c main_arg0 _
  congr 1
  funext a
  apply Fin.ext
  match a with
  | ⟨0, _⟩ => show win0_0.index t (0 : Fin 2) * 5000 + 1 * (x 0).val = (k 0).val; omega
  | ⟨1, _⟩ => show win0_0.index t (1 : Fin 2) * 2 + 1 * (x 1).val = (k 1).val; omega

/-- The first table's window is the whole table at every point. -/
theorem key_read (c : Dev nD) (t : Fin cfg0.N) (x k : S65x128.Idx)
    (hk0 : (k 0).val = (x 0).val) (hk1 : (k 1).val = (x 1).val) :
    (iblk0 V c 1 t : Vec Ideal S65x128 .f32) x = (V c main_arg3 : S65x128.Idx → EReal) k := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t (0 : Fin 2) * 65 + 1 * (x 0).val = (k 0).val; omega
  | ⟨1, _⟩ => show win0_1.index t (1 : Fin 2) * 128 + 1 * (x 1).val = (k 1).val; omega

/-- The second table's window is the whole table at every point. -/
theorem val_read (c : Dev nD) (t : Fin cfg0.N) (x k : S65x128.Idx)
    (hk0 : (k 0).val = (x 0).val) (hk1 : (k 1).val = (x 1).val) :
    (iblk0 V c 2 t : Vec Ideal S65x128 .f32) x = (V c main_arg4 : S65x128.Idx → EReal) k := by
  obtain ⟨-, -, -, -, e0, e1, -⟩ := idx_facts t
  unfold iblk0
  rw [View.read_apply]
  show V c main_arg4 _ = V c main_arg4 _
  congr 1
  funext a
  apply Fin.ext
  match a with
  | ⟨0, _⟩ => show win0_2.index t (0 : Fin 2) * 65 + 1 * (x 0).val = (k 0).val; omega
  | ⟨1, _⟩ => show win0_2.index t (1 : Fin 2) * 128 + 1 * (x 1).val = (k 1).val; omega

/-- What point t writes back is block t of the first layer of the arrays as the region finds them. -/
theorem flushed_eq (c : Dev nD)
    (hTok : ∀ i : S100000x2.Idx, 0 ≤ ((V c main_arg0 : S100000x2.Idx → BitVec 32) i).toInt
      ∧ ((V c main_arg0 : S100000x2.Idx → BitVec 32) i).toInt < 65) (t : Fin cfg0.N) :
    (dat0 (F := Ideal) V c).flushed 3 t
      = ((cfg0.win 3).blk t).view.read (Elt Ideal) (Cert.Spec.emb (V c main_arg0) (V c main_arg3) (V c main_arg4)) := by
  show (cfg0.win 3).cut (grid0.coords t) ((dat0 V c).after 3 t) = _
  rw [after0_3]
  unfold out0_3
  rw [View.canon_unit_zero hz]
  simp only [View.ld_unit_zero (S := S65x128) hz]
  obtain ⟨-, -, -, -, -, -, e0, e1⟩ := idx_facts t
  funext y
  have hE0 : ((((cfg0.win 3).blk t).view.emb y) 0).val = 5000 * t.val + (y 0).val := by
    show win0_3.index t (0 : Fin 2) * 5000 + 1 * (y 0).val = _; omega
  have hE1 : ((((cfg0.win 3).blk t).view.emb y) 1).val = (y 1).val := by
    show win0_3.index t (1 : Fin 2) * 128 + 1 * (y 1).val = _; omega
  exact block_emb (V c main_arg0) (V c main_arg3) (V c main_arg4)
    (iblk0 V c 0 t) (iblk0 V c 1 t) (iblk0 V c 2 t) y (((cfg0.win 3).blk t).view.emb y)
    (tok_read V c t (ix2 (y 0) 0) (ix2 ((((cfg0.win 3).blk t).view.emb y) 0) 0) hE0 rfl)
    (tok_read V c t (ix2 (y 0) 1) (ix2 ((((cfg0.win 3).blk t).view.emb y) 0) 1) hE0 rfl)
    (fun ρ => key_read V c t (ix2 ρ (y 1)) (ix2 ρ ((((cfg0.win 3).blk t).view.emb y) 1)) rfl hE1)
    (fun ρ => val_read V c t (ix2 ρ (y 1)) (ix2 ρ ((((cfg0.win 3).blk t).view.emb y) 1)) rfl hE1)
    hTok

/-- An index of the result array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v0).slice (win0_3.rect t)).set ↔ _
  rw [View.set_slice_whole, Rect.mem_set_unit]
  exact Iff.rfl

/-- Every node's row is in some block: node r lies in block r / 5000. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, e0, e1⟩ := idx_facts t
  refine ⟨t, flush0_3 t, ?_⟩
  rw [mem_blk]
  intro a
  match a with
  | ⟨0, _⟩ =>
    show win0_3.index t (0 : Fin 2) * 5000 ≤ (i 0).val ∧ (i 0).val < win0_3.index t (0 : Fin 2) * 5000 + 5000
    omega
  | ⟨1, _⟩ =>
    show win0_3.index t (1 : Fin 2) * 128 ≤ (i 1).val ∧ (i 1).val < win0_3.index t (1 : Fin 2) * 128 + 128
    omega

/-- The result array after the launch is the table lookup of the word array in the two tables, when every word
    is a row number of the tables. -/
theorem value (c : Dev nD)
    (hTok : ∀ i : S100000x2.Idx, 0 ≤ ((V c main_arg0 : S100000x2.Idx → BitVec 32) i).toInt
      ∧ ((V c main_arg0 : S100000x2.Idx → BitVec 32) i).toInt < 65) :
    (dat0 (F := Ideal) V c).arrAt 3 cfg0.N = Cert.Spec.emb (V c main_arg0) (V c main_arg3) (V c main_arg4) :=
  (dat0 (F := Ideal) V c).arrAt_eq_of_cover 3 (Cert.Spec.emb (V c main_arg0) (V c main_arg3) (V c main_arg4))
    (fun t _ => flushed_eq V c hTok t) cover

end Cert.KernelIdeal.KReg0

end
-- ==== Proof.KRegMM1.lean ====
/-
  The first round's matrix product: the feature array, cut in 20 blocks of 5000 rows, each multiplied by the
  whole 128 x 128 weight matrix. A block's product at (r, j) is the sum over the shared axis; block t holds rows
  5000 t .. 5000 t + 4999 of the features and writes the same rows of the result, so the result array is the matrix
  product of the two arrays as the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## One block's product at an entry -/

/-- The left operand's index at result index j and contraction position k keeps j's row … -/
theorem lhs_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index takes its row from the contraction position (its one contracted axis is axis 0) … -/
theorem rhs_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- … and keeps j's column. -/
theorem rhs_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- What one block's body computes at entry (r, j): the sum over the shared axis of the block's row r against the
    weights' column j. The two reshapes to the same shape are identities, the accumulator is the zero splat, and
    the sum over the one-axis contraction index is the sum over its coordinate. -/
theorem pay_at (x0 : Vec Ideal S5000x128 .f32) (x1 : Vec Ideal S128x128 .f32) (r : Fin 5000) (j : Fin 128) :
    k1_pay1 (F := Ideal) x0 x1 (ix2 r j) = ∑ q : Fin 128, x0 (ix2 r q) * x1 (ix2 q j) := by
  unfold k1_pay1
  rw [shapeCast_self, shapeCast_self]
  refine (Ideal.matmul_constant_zero_apply dot_S5000x128_S128x128_S5000x128_1_0_0_1_n_n none x0 x1 (ix2 r j)).trans ?_
  rw [← Equiv.sum_comp (contrEquiv1 dot_S5000x128_S128x128_S5000x128_1_0_0_1_n_n 128 rfl rfl).symm]
  refine Finset.sum_congr rfl fun q _ => ?_
  have hk := contrEquiv1_symm_val dot_S5000x128_S128x128_S5000x128_1_0_0_1_n_n 128 rfl rfl q
  have l2 : dot_S5000x128_S128x128_S5000x128_1_0_0_1_n_n.lhsIdx (ix2 r j)
      ((contrEquiv1 dot_S5000x128_S128x128_S5000x128_1_0_0_1_n_n 128 rfl rfl).symm q) = ix2 r q := by
    funext a; apply Fin.ext
    match a with
    | ⟨0, _⟩ => exact lhs_0 _ _
    | ⟨1, _⟩ => exact (lhs_1 _ _).trans hk
  have r2 : dot_S5000x128_S128x128_S5000x128_1_0_0_1_n_n.rhsIdx (ix2 r j)
      ((contrEquiv1 dot_S5000x128_S128x128_S5000x128_1_0_0_1_n_n 128 rfl rfl).symm q) = ix2 q j := by
    funext a; apply Fin.ext
    match a with
    | ⟨0, _⟩ => exact (rhs_0 _ _).trans hk
    | ⟨1, _⟩ => exact rhs_1 _ _
  rw [l2, r2]

/-! ## From the blocks to the array -/

theorem hz : (![0, 0] : Fin 2 → Nat) = fun _ => 0 := funext fun a => by fin_cases a <;> rfl

/-- The block indices at grid point t, checked at each of the 20 points: the feature window and the result window are
    at block (t, 0), the weight window at block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One block's product is the whole product on the block's rows: if the block x0 holds rows 5000 T .. of X and x1 is W,
    then the body's value at the block's entry y is the product of X and W at the array entry i = (5000 T + y0, y1). -/
theorem point_eq (x0 : Vec Ideal S5000x128 .f32) (x1 : Vec Ideal S128x128 .f32)
    (X : Cert.Spec.Mat 100000 128) (W : Cert.Spec.Mat 128 128) (T : Nat)
    (hx : ∀ (r : Fin 5000) (q : Fin 128) (i : S100000x128.Idx), (i 0).val = 5000 * T + r.val → (i 1).val = q.val → x0 (ix2 r q) = X i)
    (hw : x1 = W) (y : S5000x128.Idx) (i : S100000x128.Idx)
    (h0 : (i 0).val = 5000 * T + (y 0).val) (h1 : (i 1).val = (y 1).val) :
    k1_pay1 (F := Ideal) x0 x1 y = Cert.Spec.mm X W i := by
  obtain ⟨r, j, rfl⟩ : ∃ (r : Fin 5000) (j : Fin 128), y = ix2 r j := ⟨y 0, y 1, eq_ix2 y⟩
  rw [pay_at, hw]
  unfold Cert.Spec.mm Cert.Spec.mmAt
  refine Finset.sum_congr rfl fun q _ => ?_
  rw [hx r q (ix2 (i 0) q) h0 rfl]
  have e : (ix2 q (i 1) : S128x128.Idx) = ix2 q j := by
    funext a; apply Fin.ext
    match a with
    | ⟨0, _⟩ => rfl
    | ⟨1, _⟩ => exact h1
  rw [e]

/-- The feature window's block at point t, at (r, q), is the feature array at (5000 t + r, q): a block's coordinate is
    its index times its size plus the coordinate inside the block. -/
theorem xblk_apply (c : Dev nD) (t : Fin cfg1.N) (r : Fin 5000) (q : Fin 128) (i : S100000x128.Idx)
    (h0 : (i 0).val = 5000 * t.val + r.val) (h1 : (i 1).val = q.val) :
    (iblk1 V c 0 t : Vec Ideal S5000x128 .f32) (ix2 r q) = (V c main_v0 : S100000x128.Idx → EReal) i := by
  obtain ⟨e0, e1, -, -, -, -⟩ := idx_facts t
  unfold iblk1
  rw [View.read_apply]
  show V c main_v0 (((cfg1.win 0).blk t).view.emb (ix2 r q)) = V c main_v0 i
  refine congrArg (V c main_v0) ?_
  funext a; apply Fin.ext
  match a with
  | ⟨0, _⟩ => show win1_0.index t (0 : Fin 2) * 5000 + 1 * r.val = (i 0).val; rw [e0, h0]; omega
  | ⟨1, _⟩ => show win1_0.index t (1 : Fin 2) * 128 + 1 * q.val = (i 1).val; rw [e1, h1]; omega

/-- The weight window's block is the whole weight array at every point. -/
theorem wblk_eq (c : Dev nD) (t : Fin cfg1.N) :
    (iblk1 V c 1 t : Vec Ideal S128x128 .f32) = (V c main_v35 : S128x128.Idx → EReal) := by
  obtain ⟨-, -, e2, e3, -, -⟩ := idx_facts t
  funext y
  unfold iblk1
  rw [View.read_apply]
  show V c main_v35 (((cfg1.win 1).blk t).view.emb y) = V c main_v35 y
  refine congrArg (V c main_v35) ?_
  funext a; apply Fin.ext
  match a with
  | ⟨0, _⟩ => show win1_1.index t (0 : Fin 2) * 128 + 1 * (y 0).val = (y 0).val; rw [e2]; omega
  | ⟨1, _⟩ => show win1_1.index t (1 : Fin 2) * 128 + 1 * (y 1).val = (y 1).val; rw [e3]; omega

/-- What point t writes back is block t of the product of the two arrays: the body's one store fills the whole
    staging buffer with the product of the two blocks it loaded whole. -/
theorem flushed_eq (c : Dev nD) (t : Fin cfg1.N) :
    (dat1 (F := Ideal) V c).flushed 2 t
      = ((cfg1.win 2).blk t).view.read (Elt Ideal) (Cert.Spec.mm (V c main_v0) (V c main_v35)) := by
  show (cfg1.win 2).cut (grid1.coords t) ((dat1 V c).after 2 t) = _
  rw [after1_2]
  unfold out1_2
  rw [View.canon_unit_zero hz]
  simp only [View.ld_unit_zero (S := S5000x128) hz, View.ld_unit_zero (S := S128x128) hz]
  obtain ⟨-, -, -, -, e4, e5⟩ := idx_facts t
  funext y
  rw [View.read_apply]
  refine point_eq (iblk1 V c 0 t) (iblk1 V c 1 t) (V c main_v0) (V c main_v35) t.val
    (fun r q i h0 h1 => xblk_apply V c t r q i h0 h1) (wblk_eq V c t) y _ ?_ ?_
  · show win1_2.index t (0 : Fin 2) * 5000 + 1 * (y 0).val = 5000 * t.val + (y 0).val
    rw [e4]; omega
  · show win1_2.index t (1 : Fin 2) * 128 + 1 * (y 1).val = (y 1).val
    rw [e5]; omega

/-- An index of the result array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v36).slice (win1_2.rect t)).set ↔ _
  rw [View.set_slice_whole, Rect.mem_set_unit]
  exact Iff.rfl

/-- The blocks cover the array: row r lies in block r / 5000, and every point writes its block back. -/
theorem cover (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_2 _, ?_⟩
  obtain ⟨-, -, -, -, e4, e5⟩ := idx_facts ⟨(i 0).val / 5000, by rw [hN]; omega⟩
  rw [mem_blk]
  intro a
  match a with
  | ⟨0, _⟩ =>
    show win1_2.index _ (0 : Fin 2) * 5000 ≤ (i 0).val ∧ (i 0).val < win1_2.index _ (0 : Fin 2) * 5000 + 5000
    rw [e4]; show (i 0).val / 5000 * 5000 ≤ (i 0).val ∧ (i 0).val < (i 0).val / 5000 * 5000 + 5000; omega
  | ⟨1, _⟩ =>
    show win1_2.index _ (1 : Fin 2) * 128 ≤ (i 1).val ∧ (i 1).val < win1_2.index _ (1 : Fin 2) * 128 + 128
    rw [e5]; omega

/-- The result array after the launch is the matrix product of the feature array and the weight array as the
    launch finds them. -/
theorem value (c : Dev nD) :
    (dat1 (F := Ideal) V c).arrAt 2 cfg1.N = Cert.Spec.mm (V c main_v0) (V c main_v35) :=
  (dat1 V c).arrAt_eq_of_cover 2 (Cert.Spec.mm (V c main_v0) (V c main_v35)) (fun t _ => flushed_eq V c t) cover

end Cert.KernelIdeal.KReg1

end
-- ==== Proof.KRegMM3.lean ====
/-
  The second round's matrix product: the feature array, cut in 20 blocks of 5000 rows, each multiplied by the
  whole 128 x 128 weight matrix. A block's product at (r, j) is the sum over the shared axis; block t holds rows
  5000 t .. 5000 t + 4999 of the features and writes the same rows of the result, so the result array is the matrix
  product of the two arrays as the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg3

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## One block's product at an entry -/

/-- The left operand's index at result index j and contraction position k keeps j's row … -/
theorem lhs_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index takes its row from the contraction position (its one contracted axis is axis 0) … -/
theorem rhs_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- … and keeps j's column. -/
theorem rhs_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- What one block's body computes at entry (r, j): the sum over the shared axis of the block's row r against the
    weights' column j. The two reshapes to the same shape are identities, the accumulator is the zero splat, and
    the sum over the one-axis contraction index is the sum over its coordinate. -/
theorem pay_at (x0 : Vec Ideal S5000x128 .f32) (x1 : Vec Ideal S128x128 .f32) (r : Fin 5000) (j : Fin 128) :
    k3_pay1 (F := Ideal) x0 x1 (ix2 r j) = ∑ q : Fin 128, x0 (ix2 r q) * x1 (ix2 q j) := by
  unfold k3_pay1
  rw [shapeCast_self, shapeCast_self]
  refine (Ideal.matmul_constant_zero_apply dot_S5000x128_S128x128_S5000x128_1_0_0_1_n_n none x0 x1 (ix2 r j)).trans ?_
  rw [← Equiv.sum_comp (contrEquiv1 dot_S5000x128_S128x128_S5000x128_1_0_0_1_n_n 128 rfl rfl).symm]
  refine Finset.sum_congr rfl fun q _ => ?_
  have hk := contrEquiv1_symm_val dot_S5000x128_S128x128_S5000x128_1_0_0_1_n_n 128 rfl rfl q
  have l2 : dot_S5000x128_S128x128_S5000x128_1_0_0_1_n_n.lhsIdx (ix2 r j)
      ((contrEquiv1 dot_S5000x128_S128x128_S5000x128_1_0_0_1_n_n 128 rfl rfl).symm q) = ix2 r q := by
    funext a; apply Fin.ext
    match a with
    | ⟨0, _⟩ => exact lhs_0 _ _
    | ⟨1, _⟩ => exact (lhs_1 _ _).trans hk
  have r2 : dot_S5000x128_S128x128_S5000x128_1_0_0_1_n_n.rhsIdx (ix2 r j)
      ((contrEquiv1 dot_S5000x128_S128x128_S5000x128_1_0_0_1_n_n 128 rfl rfl).symm q) = ix2 q j := by
    funext a; apply Fin.ext
    match a with
    | ⟨0, _⟩ => exact (rhs_0 _ _).trans hk
    | ⟨1, _⟩ => exact rhs_1 _ _
  rw [l2, r2]

/-! ## From the blocks to the array -/

theorem hz : (![0, 0] : Fin 2 → Nat) = fun _ => 0 := funext fun a => by fin_cases a <;> rfl

/-- The block indices at grid point t, checked at each of the 20 points: the feature window and the result window are
    at block (t, 0), the weight window at block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One block's product is the whole product on the block's rows: if the block x0 holds rows 5000 T .. of X and x1 is W,
    then the body's value at the block's entry y is the product of X and W at the array entry i = (5000 T + y0, y1). -/
theorem point_eq (x0 : Vec Ideal S5000x128 .f32) (x1 : Vec Ideal S128x128 .f32)
    (X : Cert.Spec.Mat 100000 128) (W : Cert.Spec.Mat 128 128) (T : Nat)
    (hx : ∀ (r : Fin 5000) (q : Fin 128) (i : S100000x128.Idx), (i 0).val = 5000 * T + r.val → (i 1).val = q.val → x0 (ix2 r q) = X i)
    (hw : x1 = W) (y : S5000x128.Idx) (i : S100000x128.Idx)
    (h0 : (i 0).val = 5000 * T + (y 0).val) (h1 : (i 1).val = (y 1).val) :
    k3_pay1 (F := Ideal) x0 x1 y = Cert.Spec.mm X W i := by
  obtain ⟨r, j, rfl⟩ : ∃ (r : Fin 5000) (j : Fin 128), y = ix2 r j := ⟨y 0, y 1, eq_ix2 y⟩
  rw [pay_at, hw]
  unfold Cert.Spec.mm Cert.Spec.mmAt
  refine Finset.sum_congr rfl fun q _ => ?_
  rw [hx r q (ix2 (i 0) q) h0 rfl]
  have e : (ix2 q (i 1) : S128x128.Idx) = ix2 q j := by
    funext a; apply Fin.ext
    match a with
    | ⟨0, _⟩ => rfl
    | ⟨1, _⟩ => exact h1
  rw [e]

/-- The feature window's block at point t, at (r, q), is the feature array at (5000 t + r, q): a block's coordinate is
    its index times its size plus the coordinate inside the block. -/
theorem xblk_apply (c : Dev nD) (t : Fin cfg3.N) (r : Fin 5000) (q : Fin 128) (i : S100000x128.Idx)
    (h0 : (i 0).val = 5000 * t.val + r.val) (h1 : (i 1).val = q.val) :
    (iblk3 V c 0 t : Vec Ideal S5000x128 .f32) (ix2 r q) = (V c main_v52 : S100000x128.Idx → EReal) i := by
  obtain ⟨e0, e1, -, -, -, -⟩ := idx_facts t
  unfold iblk3
  rw [View.read_apply]
  show V c main_v52 (((cfg3.win 0).blk t).view.emb (ix2 r q)) = V c main_v52 i
  refine congrArg (V c main_v52) ?_
  funext a; apply Fin.ext
  match a with
  | ⟨0, _⟩ => show win3_0.index t (0 : Fin 2) * 5000 + 1 * r.val = (i 0).val; rw [e0, h0]; omega
  | ⟨1, _⟩ => show win3_0.index t (1 : Fin 2) * 128 + 1 * q.val = (i 1).val; rw [e1, h1]; omega

/-- The weight window's block is the whole weight array at every point. -/
theorem wblk_eq (c : Dev nD) (t : Fin cfg3.N) :
    (iblk3 V c 1 t : Vec Ideal S128x128 .f32) = (V c main_v54 : S128x128.Idx → EReal) := by
  obtain ⟨-, -, e2, e3, -, -⟩ := idx_facts t
  funext y
  unfold iblk3
  rw [View.read_apply]
  show V c main_v54 (((cfg3.win 1).blk t).view.emb y) = V c main_v54 y
  refine congrArg (V c main_v54) ?_
  funext a; apply Fin.ext
  match a with
  | ⟨0, _⟩ => show win3_1.index t (0 : Fin 2) * 128 + 1 * (y 0).val = (y 0).val; rw [e2]; omega
  | ⟨1, _⟩ => show win3_1.index t (1 : Fin 2) * 128 + 1 * (y 1).val = (y 1).val; rw [e3]; omega

/-- What point t writes back is block t of the product of the two arrays: the body's one store fills the whole
    staging buffer with the product of the two blocks it loaded whole. -/
theorem flushed_eq (c : Dev nD) (t : Fin cfg3.N) :
    (dat3 (F := Ideal) V c).flushed 2 t
      = ((cfg3.win 2).blk t).view.read (Elt Ideal) (Cert.Spec.mm (V c main_v52) (V c main_v54)) := by
  show (cfg3.win 2).cut (grid3.coords t) ((dat3 V c).after 2 t) = _
  rw [after3_2]
  unfold out3_2
  rw [View.canon_unit_zero hz]
  simp only [View.ld_unit_zero (S := S5000x128) hz, View.ld_unit_zero (S := S128x128) hz]
  obtain ⟨-, -, -, -, e4, e5⟩ := idx_facts t
  funext y
  rw [View.read_apply]
  refine point_eq (iblk3 V c 0 t) (iblk3 V c 1 t) (V c main_v52) (V c main_v54) t.val
    (fun r q i h0 h1 => xblk_apply V c t r q i h0 h1) (wblk_eq V c t) y _ ?_ ?_
  · show win3_2.index t (0 : Fin 2) * 5000 + 1 * (y 0).val = 5000 * t.val + (y 0).val
    rw [e4]; omega
  · show win3_2.index t (1 : Fin 2) * 128 + 1 * (y 1).val = (y 1).val
    rw [e5]; omega

/-- An index of the result array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v55).slice (win3_2.rect t)).set ↔ _
  rw [View.set_slice_whole, Rect.mem_set_unit]
  exact Iff.rfl

/-- The blocks cover the array: row r lies in block r / 5000, and every point writes its block back. -/
theorem cover (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by rw [hN]; omega⟩, flush3_2 _, ?_⟩
  obtain ⟨-, -, -, -, e4, e5⟩ := idx_facts ⟨(i 0).val / 5000, by rw [hN]; omega⟩
  rw [mem_blk]
  intro a
  match a with
  | ⟨0, _⟩ =>
    show win3_2.index _ (0 : Fin 2) * 5000 ≤ (i 0).val ∧ (i 0).val < win3_2.index _ (0 : Fin 2) * 5000 + 5000
    rw [e4]; show (i 0).val / 5000 * 5000 ≤ (i 0).val ∧ (i 0).val < (i 0).val / 5000 * 5000 + 5000; omega
  | ⟨1, _⟩ =>
    show win3_2.index _ (1 : Fin 2) * 128 ≤ (i 1).val ∧ (i 1).val < win3_2.index _ (1 : Fin 2) * 128 + 128
    rw [e5]; omega

/-- The result array after the launch is the matrix product of the feature array and the weight array as the
    launch finds them. -/
theorem value (c : Dev nD) :
    (dat3 (F := Ideal) V c).arrAt 2 cfg3.N = Cert.Spec.mm (V c main_v52) (V c main_v54) :=
  (dat3 V c).arrAt_eq_of_cover 2 (Cert.Spec.mm (V c main_v52) (V c main_v54)) (fun t _ => flushed_eq V c t) cover

end Cert.KernelIdeal.KReg3

end
-- ==== Proof.KRegMM5.lean ====
/-
  The third round's matrix product: the feature array, cut in 20 blocks of 5000 rows, each multiplied by the
  whole 128 x 128 weight matrix. A block's product at (r, j) is the sum over the shared axis; block t holds rows
  5000 t .. 5000 t + 4999 of the features and writes the same rows of the result, so the result array is the matrix
  product of the two arrays as the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg5

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## One block's product at an entry -/

/-- The left operand's index at result index j and contraction position k keeps j's row … -/
theorem lhs_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index takes its row from the contraction position (its one contracted axis is axis 0) … -/
theorem rhs_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- … and keeps j's column. -/
theorem rhs_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- What one block's body computes at entry (r, j): the sum over the shared axis of the block's row r against the
    weights' column j. The two reshapes to the same shape are identities, the accumulator is the zero splat, and
    the sum over the one-axis contraction index is the sum over its coordinate. -/
theorem pay_at (x0 : Vec Ideal S5000x128 .f32) (x1 : Vec Ideal S128x128 .f32) (r : Fin 5000) (j : Fin 128) :
    k5_pay1 (F := Ideal) x0 x1 (ix2 r j) = ∑ q : Fin 128, x0 (ix2 r q) * x1 (ix2 q j) := by
  unfold k5_pay1
  rw [shapeCast_self, shapeCast_self]
  refine (Ideal.matmul_constant_zero_apply dot_S5000x128_S128x128_S5000x128_1_0_0_1_n_n none x0 x1 (ix2 r j)).trans ?_
  rw [← Equiv.sum_comp (contrEquiv1 dot_S5000x128_S128x128_S5000x128_1_0_0_1_n_n 128 rfl rfl).symm]
  refine Finset.sum_congr rfl fun q _ => ?_
  have hk := contrEquiv1_symm_val dot_S5000x128_S128x128_S5000x128_1_0_0_1_n_n 128 rfl rfl q
  have l2 : dot_S5000x128_S128x128_S5000x128_1_0_0_1_n_n.lhsIdx (ix2 r j)
      ((contrEquiv1 dot_S5000x128_S128x128_S5000x128_1_0_0_1_n_n 128 rfl rfl).symm q) = ix2 r q := by
    funext a; apply Fin.ext
    match a with
    | ⟨0, _⟩ => exact lhs_0 _ _
    | ⟨1, _⟩ => exact (lhs_1 _ _).trans hk
  have r2 : dot_S5000x128_S128x128_S5000x128_1_0_0_1_n_n.rhsIdx (ix2 r j)
      ((contrEquiv1 dot_S5000x128_S128x128_S5000x128_1_0_0_1_n_n 128 rfl rfl).symm q) = ix2 q j := by
    funext a; apply Fin.ext
    match a with
    | ⟨0, _⟩ => exact (rhs_0 _ _).trans hk
    | ⟨1, _⟩ => exact rhs_1 _ _
  rw [l2, r2]

/-! ## From the blocks to the array -/

theorem hz : (![0, 0] : Fin 2 → Nat) = fun _ => 0 := funext fun a => by fin_cases a <;> rfl

/-- The block indices at grid point t, checked at each of the 20 points: the feature window and the result window are
    at block (t, 0), the weight window at block (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- One block's product is the whole product on the block's rows: if the block x0 holds rows 5000 T .. of X and x1 is W,
    then the body's value at the block's entry y is the product of X and W at the array entry i = (5000 T + y0, y1). -/
theorem point_eq (x0 : Vec Ideal S5000x128 .f32) (x1 : Vec Ideal S128x128 .f32)
    (X : Cert.Spec.Mat 100000 128) (W : Cert.Spec.Mat 128 128) (T : Nat)
    (hx : ∀ (r : Fin 5000) (q : Fin 128) (i : S100000x128.Idx), (i 0).val = 5000 * T + r.val → (i 1).val = q.val → x0 (ix2 r q) = X i)
    (hw : x1 = W) (y : S5000x128.Idx) (i : S100000x128.Idx)
    (h0 : (i 0).val = 5000 * T + (y 0).val) (h1 : (i 1).val = (y 1).val) :
    k5_pay1 (F := Ideal) x0 x1 y = Cert.Spec.mm X W i := by
  obtain ⟨r, j, rfl⟩ : ∃ (r : Fin 5000) (j : Fin 128), y = ix2 r j := ⟨y 0, y 1, eq_ix2 y⟩
  rw [pay_at, hw]
  unfold Cert.Spec.mm Cert.Spec.mmAt
  refine Finset.sum_congr rfl fun q _ => ?_
  rw [hx r q (ix2 (i 0) q) h0 rfl]
  have e : (ix2 q (i 1) : S128x128.Idx) = ix2 q j := by
    funext a; apply Fin.ext
    match a with
    | ⟨0, _⟩ => rfl
    | ⟨1, _⟩ => exact h1
  rw [e]

/-- The feature window's block at point t, at (r, q), is the feature array at (5000 t + r, q): a block's coordinate is
    its index times its size plus the coordinate inside the block. -/
theorem xblk_apply (c : Dev nD) (t : Fin cfg5.N) (r : Fin 5000) (q : Fin 128) (i : S100000x128.Idx)
    (h0 : (i 0).val = 5000 * t.val + r.val) (h1 : (i 1).val = q.val) :
    (iblk5 V c 0 t : Vec Ideal S5000x128 .f32) (ix2 r q) = (V c main_v71 : S100000x128.Idx → EReal) i := by
  obtain ⟨e0, e1, -, -, -, -⟩ := idx_facts t
  unfold iblk5
  rw [View.read_apply]
  show V c main_v71 (((cfg5.win 0).blk t).view.emb (ix2 r q)) = V c main_v71 i
  refine congrArg (V c main_v71) ?_
  funext a; apply Fin.ext
  match a with
  | ⟨0, _⟩ => show win5_0.index t (0 : Fin 2) * 5000 + 1 * r.val = (i 0).val; rw [e0, h0]; omega
  | ⟨1, _⟩ => show win5_0.index t (1 : Fin 2) * 128 + 1 * q.val = (i 1).val; rw [e1, h1]; omega

/-- The weight window's block is the whole weight array at every point. -/
theorem wblk_eq (c : Dev nD) (t : Fin cfg5.N) :
    (iblk5 V c 1 t : Vec Ideal S128x128 .f32) = (V c main_v73 : S128x128.Idx → EReal) := by
  obtain ⟨-, -, e2, e3, -, -⟩ := idx_facts t
  funext y
  unfold iblk5
  rw [View.read_apply]
  show V c main_v73 (((cfg5.win 1).blk t).view.emb y) = V c main_v73 y
  refine congrArg (V c main_v73) ?_
  funext a; apply Fin.ext
  match a with
  | ⟨0, _⟩ => show win5_1.index t (0 : Fin 2) * 128 + 1 * (y 0).val = (y 0).val; rw [e2]; omega
  | ⟨1, _⟩ => show win5_1.index t (1 : Fin 2) * 128 + 1 * (y 1).val = (y 1).val; rw [e3]; omega

/-- What point t writes back is block t of the product of the two arrays: the body's one store fills the whole
    staging buffer with the product of the two blocks it loaded whole. -/
theorem flushed_eq (c : Dev nD) (t : Fin cfg5.N) :
    (dat5 (F := Ideal) V c).flushed 2 t
      = ((cfg5.win 2).blk t).view.read (Elt Ideal) (Cert.Spec.mm (V c main_v71) (V c main_v73)) := by
  show (cfg5.win 2).cut (grid5.coords t) ((dat5 V c).after 2 t) = _
  rw [after5_2]
  unfold out5_2
  rw [View.canon_unit_zero hz]
  simp only [View.ld_unit_zero (S := S5000x128) hz, View.ld_unit_zero (S := S128x128) hz]
  obtain ⟨-, -, -, -, e4, e5⟩ := idx_facts t
  funext y
  rw [View.read_apply]
  refine point_eq (iblk5 V c 0 t) (iblk5 V c 1 t) (V c main_v71) (V c main_v73) t.val
    (fun r q i h0 h1 => xblk_apply V c t r q i h0 h1) (wblk_eq V c t) y _ ?_ ?_
  · show win5_2.index t (0 : Fin 2) * 5000 + 1 * (y 0).val = 5000 * t.val + (y 0).val
    rw [e4]; omega
  · show win5_2.index t (1 : Fin 2) * 128 + 1 * (y 1).val = (y 1).val
    rw [e5]; omega

/-- An index of the result array is in point t's block iff each coordinate is in the block's range on its axis. -/
theorem mem_blk (t : Fin cfg5.N) (i : S100000x128.Idx) :
    i ∈ ((cfg5.win 2).blk t).view.set ↔ ∀ a : Fin 2, win5_2.index t a * S5000x128.size a ≤ (i a).val ∧ (i a).val < win5_2.index t a * S5000x128.size a + S5000x128.size a := by
  show i ∈ ((View.whole main_v74).slice (win5_2.rect t)).set ↔ _
  rw [View.set_slice_whole, Rect.mem_set_unit]
  exact Iff.rfl

/-- The blocks cover the array: row r lies in block r / 5000, and every point writes its block back. -/
theorem cover (i : S100000x128.Idx) : ∃ t : Fin cfg5.N, (cfg5.win 2).flush t = true ∧ i ∈ ((cfg5.win 2).blk t).view.set := by
  have hi0 : (i 0).val < 100000 := (i 0).isLt
  have hi1 : (i 1).val < 128 := (i 1).isLt
  have hN : cfg5.N = 20 := N_5
  refine ⟨⟨(i 0).val / 5000, by rw [hN]; omega⟩, flush5_2 _, ?_⟩
  obtain ⟨-, -, -, -, e4, e5⟩ := idx_facts ⟨(i 0).val / 5000, by rw [hN]; omega⟩
  rw [mem_blk]
  intro a
  match a with
  | ⟨0, _⟩ =>
    show win5_2.index _ (0 : Fin 2) * 5000 ≤ (i 0).val ∧ (i 0).val < win5_2.index _ (0 : Fin 2) * 5000 + 5000
    rw [e4]; show (i 0).val / 5000 * 5000 ≤ (i 0).val ∧ (i 0).val < (i 0).val / 5000 * 5000 + 5000; omega
  | ⟨1, _⟩ =>
    show win5_2.index _ (1 : Fin 2) * 128 ≤ (i 1).val ∧ (i 1).val < win5_2.index _ (1 : Fin 2) * 128 + 128
    rw [e5]; omega

/-- The result array after the launch is the matrix product of the feature array and the weight array as the
    launch finds them. -/
theorem value (c : Dev nD) :
    (dat5 (F := Ideal) V c).arrAt 2 cfg5.N = Cert.Spec.mm (V c main_v71) (V c main_v73) :=
  (dat5 V c).arrAt_eq_of_cover 2 (Cert.Spec.mm (V c main_v71) (V c main_v73)) (fun t _ => flushed_eq V c t) cover

end Cert.KernelIdeal.KReg5

end
-- ==== Proof.KRegMM7.lean ====
/-
  The fourth round's matrix product: the feature array, cut in 20 blocks of 5000 rows, each multiplied by the
  whole 128 x 128 weight matrix. A block's product at (r, j) is the sum over the shared axis; block t holds rows
  5000 t .. 5000 t + 4999 of the features and writes the same rows of the result, so the result array is the matrix
  product of the two arrays as the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg7

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## One block's product at an entry -/

/-- The left operand's index at result index j and contraction position k keeps j's row … -/
theorem lhs_0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S5000x128.Idx) (k : dot_S5000x128_S128x128_S5000x128_1_0_0_1_n_n.contr.Idx) :
    (dot_S5000x128_S128x128_S5000x128_1_0_0_1_n_n.lhsIdx j k 1).val = (k ⟨0, by decide⟩).val :=
  dot_S5000x128_S128x128_S5000x128_1_0_0_1_n_n.lhsIdx_val_of_single rfl j k

/-- The right operand's index takes its row from the contraction position (its one contracted axis is axis 0) … -/
theorem rhs_0 (j : S5000x128.Idx) (k : dot_S5000x128_S128x128_S5000x128_1_0_0_1_n_n.contr.Idx) :
    (dot_S5000x128_S128x128_S5000x128_1_0_0_1_n_n.rhsIdx j k 0).val = (k ⟨0, by decide⟩).val :=
  dot_S5000x128_S128x128_S5000x128_1_0_0_1_n_n.rhsIdx_val_of_single rfl j k

/-- … and keeps j's column. -/
theorem rhs_1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  simp only [Fin.val_cast]
  have key : ∀ (p q : Nat) (hp : p < S5000x128.rank) (hq : q < S5000x128.rank), p = q → (j ⟨p, hp⟩).val = (j ⟨q, hq⟩).val :=
    fun p q hp hq h => by subst h; rfl
  exact key _ _ _ _ (by decide)

/-- What one block's body computes at entry (r, j): the sum over the shared axis of the block's row r against the
    weights' column j. The two reshapes to the same shape are identities, the accumulator is the zero splat, and
    the sum over the one-axis contraction index is the sum over its coordinate. -/
theorem pay_at (x0 : Vec Ideal S5000x128 .f32) (x1 : Vec Ideal S128x128 .f32) (r : Fin 5000) (j : Fin 128) :
    k7_pay1 (F := Ideal) x0 x1 (ix2 r j) = ∑ q : Fin 128, x0 (ix2 r q) * x1 (ix2 q j) := by
  unfold k7_pay1
  rw [shapeCast_self, shapeCast_self]
  refine (Ideal.matmul_constant_zero_apply dot_S5000x128_S128x128_S5000x128_1_0_0_1_n_n none x0 x1 (ix2 r j)).trans ?_
  rw [← Equiv.sum_comp (contrEquiv1 dot_S5000x128_S128x128_S5000x128_1_0_0_1_n_n 128 rfl rfl).symm]
  refine Finset.sum_congr rfl fun q _ => ?_
  have hk := contrEquiv1_symm_val dot_S5000x128_S128x128_S5000x128_1_0_0_1_n_n 128 rfl rfl q
  have l2 : dot_S5000x128_S128x128_S5000x128_1_0_0_1_n_n.lhsIdx (ix2 r j)
      ((contrEquiv1 dot_S5000x128_S128x128_S5000x128_1_0_0_1_n_n 128 rfl rfl).symm q) = ix2 r q := by
    funext a; apply Fin.ext
    match a with
    | ⟨0, _⟩ => exact lhs_0 _ _
    | ⟨1, _⟩ => exact (lhs_1 _ _).trans hk
  have r2 : dot_S5000x128_S128x128_S5000x128_1_0_0_1_n_n.rhsIdx (ix2 r j)
      ((contrEquiv1 dot_S5000x128_S128x128_S5000x128_1_0_0_1_n_n 128 rfl rfl).symm q) = ix2 q j := by
    funext a; apply Fin.ext
    match a with
    | ⟨0, _⟩ => exact (rhs_0 _ _).trans hk
    | ⟨1, _⟩ => exact rhs_1 _ _
  rw [l2, r2]

/-! ## From the blocks to the array -/

theorem hz : (![0, 0] : Fin 2 → Nat) = fun _ => 0 := funext fun a => by fin_cases a <;> rfl

/-- The block indices at grid point t, checked at each of the 20 points: the feature window and the result window are
    at block (t, 0), the weight window at block (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- One block's product is the whole product on the block's rows: if the block x0 holds rows 5000 T .. of X and x1 is W,
    then the body's value at the block's entry y is the product of X and W at the array entry i = (5000 T + y0, y1). -/
theorem point_eq (x0 : Vec Ideal S5000x128 .f32) (x1 : Vec Ideal S128x128 .f32)
    (X : Cert.Spec.Mat 100000 128) (W : Cert.Spec.Mat 128 128) (T : Nat)
    (hx : ∀ (r : Fin 5000) (q : Fin 128) (i : S100000x128.Idx), (i 0).val = 5000 * T + r.val → (i 1).val = q.val → x0 (ix2 r q) = X i)
    (hw : x1 = W) (y : S5000x128.Idx) (i : S100000x128.Idx)
    (h0 : (i 0).val = 5000 * T + (y 0).val) (h1 : (i 1).val = (y 1).val) :
    k7_pay1 (F := Ideal) x0 x1 y = Cert.Spec.mm X W i := by
  obtain ⟨r, j, rfl⟩ : ∃ (r : Fin 5000) (j : Fin 128), y = ix2 r j := ⟨y 0, y 1, eq_ix2 y⟩
  rw [pay_at, hw]
  unfold Cert.Spec.mm Cert.Spec.mmAt
  refine Finset.sum_congr rfl fun q _ => ?_
  rw [hx r q (ix2 (i 0) q) h0 rfl]
  have e : (ix2 q (i 1) : S128x128.Idx) = ix2 q j := by
    funext a; apply Fin.ext
    match a with
    | ⟨0, _⟩ => rfl
    | ⟨1, _⟩ => exact h1
  rw [e]

/-- The feature window's block at point t, at (r, q), is the feature array at (5000 t + r, q): a block's coordinate is
    its index times its size plus the coordinate inside the block. -/
theorem xblk_apply (c : Dev nD) (t : Fin cfg7.N) (r : Fin 5000) (q : Fin 128) (i : S100000x128.Idx)
    (h0 : (i 0).val = 5000 * t.val + r.val) (h1 : (i 1).val = q.val) :
    (iblk7 V c 0 t : Vec Ideal S5000x128 .f32) (ix2 r q) = (V c main_v90 : S100000x128.Idx → EReal) i := by
  obtain ⟨e0, e1, -, -, -, -⟩ := idx_facts t
  unfold iblk7
  rw [View.read_apply]
  show V c main_v90 (((cfg7.win 0).blk t).view.emb (ix2 r q)) = V c main_v90 i
  refine congrArg (V c main_v90) ?_
  funext a; apply Fin.ext
  match a with
  | ⟨0, _⟩ => show win7_0.index t (0 : Fin 2) * 5000 + 1 * r.val = (i 0).val; rw [e0, h0]; omega
  | ⟨1, _⟩ => show win7_0.index t (1 : Fin 2) * 128 + 1 * q.val = (i 1).val; rw [e1, h1]; omega

/-- The weight window's block is the whole weight array at every point. -/
theorem wblk_eq (c : Dev nD) (t : Fin cfg7.N) :
    (iblk7 V c 1 t : Vec Ideal S128x128 .f32) = (V c main_v92 : S128x128.Idx → EReal) := by
  obtain ⟨-, -, e2, e3, -, -⟩ := idx_facts t
  funext y
  unfold iblk7
  rw [View.read_apply]
  show V c main_v92 (((cfg7.win 1).blk t).view.emb y) = V c main_v92 y
  refine congrArg (V c main_v92) ?_
  funext a; apply Fin.ext
  match a with
  | ⟨0, _⟩ => show win7_1.index t (0 : Fin 2) * 128 + 1 * (y 0).val = (y 0).val; rw [e2]; omega
  | ⟨1, _⟩ => show win7_1.index t (1 : Fin 2) * 128 + 1 * (y 1).val = (y 1).val; rw [e3]; omega

/-- What point t writes back is block t of the product of the two arrays: the body's one store fills the whole
    staging buffer with the product of the two blocks it loaded whole. -/
theorem flushed_eq (c : Dev nD) (t : Fin cfg7.N) :
    (dat7 (F := Ideal) V c).flushed 2 t
      = ((cfg7.win 2).blk t).view.read (Elt Ideal) (Cert.Spec.mm (V c main_v90) (V c main_v92)) := by
  show (cfg7.win 2).cut (grid7.coords t) ((dat7 V c).after 2 t) = _
  rw [after7_2]
  unfold out7_2
  rw [View.canon_unit_zero hz]
  simp only [View.ld_unit_zero (S := S5000x128) hz, View.ld_unit_zero (S := S128x128) hz]
  obtain ⟨-, -, -, -, e4, e5⟩ := idx_facts t
  funext y
  rw [View.read_apply]
  refine point_eq (iblk7 V c 0 t) (iblk7 V c 1 t) (V c main_v90) (V c main_v92) t.val
    (fun r q i h0 h1 => xblk_apply V c t r q i h0 h1) (wblk_eq V c t) y _ ?_ ?_
  · show win7_2.index t (0 : Fin 2) * 5000 + 1 * (y 0).val = 5000 * t.val + (y 0).val
    rw [e4]; omega
  · show win7_2.index t (1 : Fin 2) * 128 + 1 * (y 1).val = (y 1).val
    rw [e5]; omega

/-- An index of the result array is in point t's block iff each coordinate is in the block's range on its axis. -/
theorem mem_blk (t : Fin cfg7.N) (i : S100000x128.Idx) :
    i ∈ ((cfg7.win 2).blk t).view.set ↔ ∀ a : Fin 2, win7_2.index t a * S5000x128.size a ≤ (i a).val ∧ (i a).val < win7_2.index t a * S5000x128.size a + S5000x128.size a := by
  show i ∈ ((View.whole main_v93).slice (win7_2.rect t)).set ↔ _
  rw [View.set_slice_whole, Rect.mem_set_unit]
  exact Iff.rfl

/-- The blocks cover the array: row r lies in block r / 5000, and every point writes its block back. -/
theorem cover (i : S100000x128.Idx) : ∃ t : Fin cfg7.N, (cfg7.win 2).flush t = true ∧ i ∈ ((cfg7.win 2).blk t).view.set := by
  have hi0 : (i 0).val < 100000 := (i 0).isLt
  have hi1 : (i 1).val < 128 := (i 1).isLt
  have hN : cfg7.N = 20 := N_7
  refine ⟨⟨(i 0).val / 5000, by rw [hN]; omega⟩, flush7_2 _, ?_⟩
  obtain ⟨-, -, -, -, e4, e5⟩ := idx_facts ⟨(i 0).val / 5000, by rw [hN]; omega⟩
  rw [mem_blk]
  intro a
  match a with
  | ⟨0, _⟩ =>
    show win7_2.index _ (0 : Fin 2) * 5000 ≤ (i 0).val ∧ (i 0).val < win7_2.index _ (0 : Fin 2) * 5000 + 5000
    rw [e4]; show (i 0).val / 5000 * 5000 ≤ (i 0).val ∧ (i 0).val < (i 0).val / 5000 * 5000 + 5000; omega
  | ⟨1, _⟩ =>
    show win7_2.index _ (1 : Fin 2) * 128 ≤ (i 1).val ∧ (i 1).val < win7_2.index _ (1 : Fin 2) * 128 + 128
    rw [e5]; omega

/-- The result array after the launch is the matrix product of the feature array and the weight array as the
    launch finds them. -/
theorem value (c : Dev nD) :
    (dat7 (F := Ideal) V c).arrAt 2 cfg7.N = Cert.Spec.mm (V c main_v90) (V c main_v92) :=
  (dat7 V c).arrAt_eq_of_cover 2 (Cert.Spec.mm (V c main_v90) (V c main_v92)) (fun t _ => flushed_eq V c t) cover

end Cert.KernelIdeal.KReg7

end
-- ==== Proof.KRegProj9.lean ====
/-
  The last matrix product: the feature array, cut in 20 blocks of 5000 rows, each multiplied by the whole
  128 x 32 weight matrix. A block's product at (r, j) is the sum over the shared axis of 128; block t holds rows
  5000 t .. 5000 t + 4999 of the features and writes the same rows of the 32-column result, so the result array is
  the matrix product of the two arrays as the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg9

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## One block's product at an entry -/

/-- The left operand's index at result index j and contraction position k keeps j's row … -/
theorem lhs_0 (j : S5000x32.Idx) (k : dot_S5000x128_S128x32_S5000x32_1_0_0_1_n_n.contr.Idx) :
    (dot_S5000x128_S128x32_S5000x32_1_0_0_1_n_n.lhsIdx j k 0).val = (j 0).val := by
  unfold DotDims.lhsIdx
  rw [dif_neg (show ¬(0 : Fin S5000x128.rank) ∈ dot_S5000x128_S128x32_S5000x32_1_0_0_1_n_n.lhsBatch by decide),
    dif_pos (show (0 : Fin S5000x128.rank) ∈ dot_S5000x128_S128x32_S5000x32_1_0_0_1_n_n.lhsNonContracting by decide)]
  simp only [Fin.val_cast]
  have key : ∀ (p q : Nat) (hp : p < S5000x32.rank) (hq : q < S5000x32.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S5000x32.Idx) (k : dot_S5000x128_S128x32_S5000x32_1_0_0_1_n_n.contr.Idx) :
    (dot_S5000x128_S128x32_S5000x32_1_0_0_1_n_n.lhsIdx j k 1).val = (k ⟨0, by decide⟩).val :=
  dot_S5000x128_S128x32_S5000x32_1_0_0_1_n_n.lhsIdx_val_of_single rfl j k

/-- The right operand's index takes its row from the contraction position (its one contracted axis is axis 0) … -/
theorem rhs_0 (j : S5000x32.Idx) (k : dot_S5000x128_S128x32_S5000x32_1_0_0_1_n_n.contr.Idx) :
    (dot_S5000x128_S128x32_S5000x32_1_0_0_1_n_n.rhsIdx j k 0).val = (k ⟨0, by decide⟩).val :=
  dot_S5000x128_S128x32_S5000x32_1_0_0_1_n_n.rhsIdx_val_of_single rfl j k

/-- … and keeps j's column. -/
theorem rhs_1 (j : S5000x32.Idx) (k : dot_S5000x128_S128x32_S5000x32_1_0_0_1_n_n.contr.Idx) :
    (dot_S5000x128_S128x32_S5000x32_1_0_0_1_n_n.rhsIdx j k 1).val = (j 1).val := by
  unfold DotDims.rhsIdx
  rw [dif_neg (show ¬(1 : Fin S128x32.rank) ∈ dot_S5000x128_S128x32_S5000x32_1_0_0_1_n_n.rhsBatch by decide),
    dif_pos (show (1 : Fin S128x32.rank) ∈ dot_S5000x128_S128x32_S5000x32_1_0_0_1_n_n.rhsNonContracting by decide)]
  simp only [Fin.val_cast]
  have key : ∀ (p q : Nat) (hp : p < S5000x32.rank) (hq : q < S5000x32.rank), p = q → (j ⟨p, hp⟩).val = (j ⟨q, hq⟩).val :=
    fun p q hp hq h => by subst h; rfl
  exact key _ _ _ _ (by decide)

/-- What one block's body computes at entry (r, j): the sum over the shared axis of the block's row r against the
    weights' column j. The two reshapes to the same shape are identities, the accumulator is the zero splat, and
    the sum over the one-axis contraction index is the sum over its coordinate. -/
theorem pay_at (x0 : Vec Ideal S5000x128 .f32) (x1 : Vec Ideal S128x32 .f32) (r : Fin 5000) (j : Fin 32) :
    k9_pay1 (F := Ideal) x0 x1 (ix2 r j) = ∑ q : Fin 128, x0 (ix2 r q) * x1 (ix2 q j) := by
  unfold k9_pay1
  rw [shapeCast_self, shapeCast_self]
  refine (Ideal.matmul_constant_zero_apply dot_S5000x128_S128x32_S5000x32_1_0_0_1_n_n none x0 x1 (ix2 r j)).trans ?_
  rw [← Equiv.sum_comp (contrEquiv1 dot_S5000x128_S128x32_S5000x32_1_0_0_1_n_n 128 rfl rfl).symm]
  refine Finset.sum_congr rfl fun q _ => ?_
  have hk := contrEquiv1_symm_val dot_S5000x128_S128x32_S5000x32_1_0_0_1_n_n 128 rfl rfl q
  have l2 : dot_S5000x128_S128x32_S5000x32_1_0_0_1_n_n.lhsIdx (ix2 r j)
      ((contrEquiv1 dot_S5000x128_S128x32_S5000x32_1_0_0_1_n_n 128 rfl rfl).symm q) = ix2 r q := by
    funext a; apply Fin.ext
    match a with
    | ⟨0, _⟩ => exact lhs_0 _ _
    | ⟨1, _⟩ => exact (lhs_1 _ _).trans hk
  have r2 : dot_S5000x128_S128x32_S5000x32_1_0_0_1_n_n.rhsIdx (ix2 r j)
      ((contrEquiv1 dot_S5000x128_S128x32_S5000x32_1_0_0_1_n_n 128 rfl rfl).symm q) = ix2 q j := by
    funext a; apply Fin.ext
    match a with
    | ⟨0, _⟩ => exact (rhs_0 _ _).trans hk
    | ⟨1, _⟩ => exact rhs_1 _ _
  rw [l2, r2]

/-! ## From the blocks to the array -/

theorem hz : (![0, 0] : Fin 2 → Nat) = fun _ => 0 := funext fun a => by fin_cases a <;> rfl

/-- The block indices at grid point t, checked at each of the 20 points: the feature window and the result window are
    at block (t, 0), the weight window at block (0, 0). -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = t.val ∧ win9_2.index t (1 : Fin 2) = 0 :=
  (by decide +kernel : ∀ t : Fin grid9.N, _)

/-- One block's product is the whole product on the block's rows: if the block x0 holds rows 5000 T .. of X and x1 is W,
    then the body's value at the block's entry y is the product of X and W at the array entry i = (5000 T + y0, y1). -/
theorem point_eq (x0 : Vec Ideal S5000x128 .f32) (x1 : Vec Ideal S128x32 .f32)
    (X : Cert.Spec.Mat 100000 128) (W : Cert.Spec.Mat 128 32) (T : Nat)
    (hx : ∀ (r : Fin 5000) (q : Fin 128) (i : S100000x128.Idx), (i 0).val = 5000 * T + r.val → (i 1).val = q.val → x0 (ix2 r q) = X i)
    (hw : x1 = W) (y : S5000x32.Idx) (i : S100000x32.Idx)
    (h0 : (i 0).val = 5000 * T + (y 0).val) (h1 : (i 1).val = (y 1).val) :
    k9_pay1 (F := Ideal) x0 x1 y = Cert.Spec.mm X W i := by
  obtain ⟨r, j, rfl⟩ : ∃ (r : Fin 5000) (j : Fin 32), y = ix2 r j := ⟨y 0, y 1, eq_ix2 y⟩
  rw [pay_at, hw]
  unfold Cert.Spec.mm Cert.Spec.mmAt
  refine Finset.sum_congr rfl fun q _ => ?_
  rw [hx r q (ix2 (i 0) q) h0 rfl]
  have e : (ix2 q (i 1) : S128x32.Idx) = ix2 q j := by
    funext a; apply Fin.ext
    match a with
    | ⟨0, _⟩ => rfl
    | ⟨1, _⟩ => exact h1
  rw [e]

/-- The feature window's block at point t, at (r, q), is the feature array at (5000 t + r, q): a block's coordinate is
    its index times its size plus the coordinate inside the block. -/
theorem xblk_apply (c : Dev nD) (t : Fin cfg9.N) (r : Fin 5000) (q : Fin 128) (i : S100000x128.Idx)
    (h0 : (i 0).val = 5000 * t.val + r.val) (h1 : (i 1).val = q.val) :
    (iblk9 V c 0 t : Vec Ideal S5000x128 .f32) (ix2 r q) = (V c main_v109 : S100000x128.Idx → EReal) i := by
  obtain ⟨e0, e1, -, -, -, -⟩ := idx_facts t
  unfold iblk9
  rw [View.read_apply]
  show V c main_v109 (((cfg9.win 0).blk t).view.emb (ix2 r q)) = V c main_v109 i
  refine congrArg (V c main_v109) ?_
  funext a; apply Fin.ext
  match a with
  | ⟨0, _⟩ => show win9_0.index t (0 : Fin 2) * 5000 + 1 * r.val = (i 0).val; rw [e0, h0]; omega
  | ⟨1, _⟩ => show win9_0.index t (1 : Fin 2) * 128 + 1 * q.val = (i 1).val; rw [e1, h1]; omega

/-- The weight window's block is the whole weight array at every point. -/
theorem wblk_eq (c : Dev nD) (t : Fin cfg9.N) :
    (iblk9 V c 1 t : Vec Ideal S128x32 .f32) = (V c main_v110 : S128x32.Idx → EReal) := by
  obtain ⟨-, -, e2, e3, -, -⟩ := idx_facts t
  funext y
  unfold iblk9
  rw [View.read_apply]
  show V c main_v110 (((cfg9.win 1).blk t).view.emb y) = V c main_v110 y
  refine congrArg (V c main_v110) ?_
  funext a; apply Fin.ext
  match a with
  | ⟨0, _⟩ => show win9_1.index t (0 : Fin 2) * 128 + 1 * (y 0).val = (y 0).val; rw [e2]; omega
  | ⟨1, _⟩ => show win9_1.index t (1 : Fin 2) * 32 + 1 * (y 1).val = (y 1).val; rw [e3]; omega

/-- What point t writes back is block t of the product of the two arrays: the body's one store fills the whole
    staging buffer with the product of the two blocks it loaded whole. -/
theorem flushed_eq (c : Dev nD) (t : Fin cfg9.N) :
    (dat9 (F := Ideal) V c).flushed 2 t
      = ((cfg9.win 2).blk t).view.read (Elt Ideal) (Cert.Spec.mm (V c main_v109) (V c main_v110)) := by
  show (cfg9.win 2).cut (grid9.coords t) ((dat9 V c).after 2 t) = _
  rw [after9_2]
  unfold out9_2
  rw [View.canon_unit_zero hz]
  simp only [View.ld_unit_zero (S := S5000x128) hz, View.ld_unit_zero (S := S128x32) hz]
  obtain ⟨-, -, -, -, e4, e5⟩ := idx_facts t
  funext y
  rw [View.read_apply]
  refine point_eq (iblk9 V c 0 t) (iblk9 V c 1 t) (V c main_v109) (V c main_v110) t.val
    (fun r q i h0 h1 => xblk_apply V c t r q i h0 h1) (wblk_eq V c t) y _ ?_ ?_
  · show win9_2.index t (0 : Fin 2) * 5000 + 1 * (y 0).val = 5000 * t.val + (y 0).val
    rw [e4]; omega
  · show win9_2.index t (1 : Fin 2) * 32 + 1 * (y 1).val = (y 1).val
    rw [e5]; omega

/-- An index of the result array is in point t's block iff each coordinate is in the block's range on its axis. -/
theorem mem_blk (t : Fin cfg9.N) (i : S100000x32.Idx) :
    i ∈ ((cfg9.win 2).blk t).view.set ↔ ∀ a : Fin 2, win9_2.index t a * S5000x32.size a ≤ (i a).val ∧ (i a).val < win9_2.index t a * S5000x32.size a + S5000x32.size a := by
  show i ∈ ((View.whole main_v111).slice (win9_2.rect t)).set ↔ _
  rw [View.set_slice_whole, Rect.mem_set_unit]
  exact Iff.rfl

/-- The blocks cover the array: row r lies in block r / 5000, and every point writes its block back. -/
theorem cover (i : S100000x32.Idx) : ∃ t : Fin cfg9.N, (cfg9.win 2).flush t = true ∧ i ∈ ((cfg9.win 2).blk t).view.set := by
  have hi0 : (i 0).val < 100000 := (i 0).isLt
  have hi1 : (i 1).val < 32 := (i 1).isLt
  have hN : cfg9.N = 20 := N_9
  refine ⟨⟨(i 0).val / 5000, by rw [hN]; omega⟩, flush9_2 _, ?_⟩
  obtain ⟨-, -, -, -, e4, e5⟩ := idx_facts ⟨(i 0).val / 5000, by rw [hN]; omega⟩
  rw [mem_blk]
  intro a
  match a with
  | ⟨0, _⟩ =>
    show win9_2.index _ (0 : Fin 2) * 5000 ≤ (i 0).val ∧ (i 0).val < win9_2.index _ (0 : Fin 2) * 5000 + 5000
    rw [e4]; show (i 0).val / 5000 * 5000 ≤ (i 0).val ∧ (i 0).val < (i 0).val / 5000 * 5000 + 5000; omega
  | ⟨1, _⟩ =>
    show win9_2.index _ (1 : Fin 2) * 32 ≤ (i 1).val ∧ (i 1).val < win9_2.index _ (1 : Fin 2) * 32 + 32
    rw [e5]; omega

/-- The result array after the launch is the matrix product of the feature array and the weight array as the
    launch finds them. -/
theorem value (c : Dev nD) :
    (dat9 (F := Ideal) V c).arrAt 2 cfg9.N = Cert.Spec.mm (V c main_v109) (V c main_v110) :=
  (dat9 V c).arrAt_eq_of_cover 2 (Cert.Spec.mm (V c main_v109) (V c main_v110)) (fun t _ => flushed_eq V c t) cover

end Cert.KernelIdeal.KReg9

end
-- ==== Proof.KRegUpd2.lean ====
/-
  The first update launch: per block of 5000 rows, new = old + relu(aggregate + bias), then each row is centred by
  its mean over the 128 columns, scaled by the inverse root of (its variance + epsilon), multiplied by the scale
  row and shifted by the shift row. Every entry of a row depends on that row only, and block t holds rows
  5000 t .. 5000 t + 4999 of both inputs and of the result, so the result array is the row update of the arrays as
  the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## Layout steps read at an entry -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's stages, each read at an entry -/

/-- The block before normalisation: old features plus the positive part of (aggregate + bias row). -/
def preV (x0 : Vec Ideal S5000x128 .f32) (x1 : Vec Ideal S1x128 .f32) (x2 : Vec Ideal S5000x128 .f32) :
    FVec Ideal S5000x128 .f32 :=
  addf (shapeCast S5000x128 x2 shapeCasts_S5000x128_S5000x128)
    (maximumf
      (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)))

/-- The row means of a block, as a column: each row's sum over the 128 columns divided by 128. -/
def meanV (w : FVec Ideal S5000x128 .f32) : FVec Ideal S5000x1 .f32 :=
  divf
    (shapeCast S5000x1
      (multiReduction (F := Ideal) .add [1] S5000 w 0x00000000#32 reduces_S5000x128_S5000 (.inl rfl) rfl)
      shapeCasts_S5000_S5000x1)
    (broadcast S5000x1 (Scalar.ofBits (F := Ideal) .f32 0x43000000#32))

/-- A column repeated along the 128 columns. -/
def colV (v : FVec Ideal S5000x1 .f32) : FVec Ideal S5000x128 .f32 :=
  broadcastTo S5000x128 v broadcasts_S5000x1_S5000x128

/-- A row repeated along the 5000 rows. -/
def rowV (v : Vec Ideal S1x128 .f32) : FVec Ideal S5000x128 .f32 :=
  broadcastTo S5000x128 (shapeCast S1x128 v shapeCasts_S1x128_S1x128) broadcasts_S1x128_S5000x128

/-- The deviations of a block from its row means. -/
def devV (w : FVec Ideal S5000x128 .f32) : FVec Ideal S5000x128 .f32 := subf w (colV (meanV w))

/-- The inverse root of (row variance + epsilon), as a column. -/
def invV (w : FVec Ideal S5000x128 .f32) : FVec Ideal S5000x1 .f32 :=
  rsqrt (addf (meanV (mulf (devV w) (devV w))) (broadcast S5000x1 (Scalar.ofBits (F := Ideal) .f32 0x3727C5AC#32)))

/-- The body's result is the composition of its stages. -/
theorem pay_eq (x0 : Vec Ideal S5000x128 .f32) (x1 : Vec Ideal S1x128 .f32) (x2 : Vec Ideal S5000x128 .f32)
    (x3 : Vec Ideal S1x128 .f32) (x4 : Vec Ideal S1x128 .f32) :
    k2_pay1 (F := Ideal) x0 x1 x2 x3 x4
      = addf (mulf (mulf (devV (preV x0 x1 x2)) (colV (invV (preV x0 x1 x2)))) (rowV x3)) (rowV x4) := rfl

/-- The block before normalisation at (r, j): the specification's entry. -/
theorem preV_at (x0 : Vec Ideal S5000x128 .f32) (x1 : Vec Ideal S1x128 .f32) (x2 : Vec Ideal S5000x128 .f32)
    (r : Fin 5000) (j : Fin 128) :
    preV x0 x1 x2 (ix2 r j) = Cert.Spec.preAt (n := 5000) x2 x0 x1 r j := by
  unfold preV Cert.Spec.preAt Cert.Spec.zero
  rw [shapeCast_self, shapeCast_self, shapeCast_self]
  show x2 (ix2 r j) + max (x0 (ix2 r j) + broadcastTo S5000x128 x1 broadcasts_S1x128_S5000x128 (ix2 r j))
      (Ideal.ofBits .f32 0x00000000#32) = _
  rw [broadcastTo_1b_ab_apply]

/-- The row means at (r, 0): the mean of row r. -/
theorem meanV_at (w : FVec Ideal S5000x128 .f32) (r : Fin 5000) (u : Fin 1) :
    meanV w (ix2 r u) = Cert.Spec.mean fun k => w (ix2 r k) := by
  unfold meanV Cert.Spec.mean Cert.Spec.len
  show Ideal.div (shapeCast S5000x1 _ shapeCasts_S5000_S5000x1 (ix2 r u)) (Ideal.ofBits .f32 0x43000000#32) = _
  refine congrArg (fun s => Ideal.div s (Ideal.ofBits .f32 0x43000000#32)) ?_
  refine (shapeCast_a_a1_apply _ shapeCasts_S5000_S5000x1 r u).trans ?_
  refine (Ideal.multiReduction_add_single w 0x00000000#32 reduces_S5000x128_S5000 (.inl rfl) rfl (ix1 r)).trans ?_
  refine Finset.sum_congr rfl fun k _ => congrArg w ?_
  funext c
  apply Fin.ext
  match c with
  | ⟨0, _⟩ => rfl
  | ⟨1, _⟩ => rfl

/-- A repeated column at (r, j) is the column at (r, 0). -/
theorem colV_at (v : FVec Ideal S5000x1 .f32) (r : Fin 5000) (j : Fin 128) :
    colV v (ix2 r j) = v (ix2 r (0 : Fin 1)) :=
  broadcastTo_a1_ab_apply v broadcasts_S5000x1_S5000x128 r j

/-- A repeated row at (r, j) is the row at (0, j). -/
theorem rowV_at (v : Vec Ideal S1x128 .f32) (r : Fin 5000) (j : Fin 128) :
    rowV v (ix2 r j) = v (ix2 (0 : Fin 1) j) := by
  unfold rowV
  rw [shapeCast_self]
  exact broadcastTo_1b_ab_apply v broadcasts_S1x128_S5000x128 r j

/-- The deviation at (r, j): the entry minus its row's mean. -/
theorem devV_at (w : FVec Ideal S5000x128 .f32) (r : Fin 5000) (j : Fin 128) :
    devV w (ix2 r j) = w (ix2 r j) - Cert.Spec.mean fun k => w (ix2 r k) := by
  unfold devV
  show w (ix2 r j) - colV (meanV w) (ix2 r j) = _
  rw [colV_at, meanV_at]

/-- The inverse root at (r, 0): of the mean of row r's squared deviations, plus epsilon. -/
theorem invV_at (w : FVec Ideal S5000x128 .f32) (r : Fin 5000) (u : Fin 1) :
    invV w (ix2 r u)
      = Ideal.rsqrt ((Cert.Spec.mean fun k => devV w (ix2 r k) * devV w (ix2 r k)) + Cert.Spec.eps) := by
  unfold invV Cert.Spec.eps
  show Ideal.rsqrt (meanV (mulf (devV w) (devV w)) (ix2 r u) + Ideal.ofBits .f32 0x3727C5AC#32) = _
  rw [meanV_at]
  rfl

/-- What one block's body computes at entry (r, j), in the words of the row update: x0 is the aggregate block,
    x1 the bias row, x2 the old-feature block, x3 the scale row, x4 the shift row (the order the body loads them). -/
theorem pay_at (x0 : Vec Ideal S5000x128 .f32) (x1 : Vec Ideal S1x128 .f32) (x2 : Vec Ideal S5000x128 .f32)
    (x3 : Vec Ideal S1x128 .f32) (x4 : Vec Ideal S1x128 .f32) (r : Fin 5000) (j : Fin 128) :
    k2_pay1 (F := Ideal) x0 x1 x2 x3 x4 (ix2 r j) = Cert.Spec.updAt (n := 5000) x2 x0 x1 x3 x4 r j := by
  rw [pay_eq]
  show devV (preV x0 x1 x2) (ix2 r j) * colV (invV (preV x0 x1 x2)) (ix2 r j) * rowV x3 (ix2 r j)
      + rowV x4 (ix2 r j) = _
  rw [colV_at, invV_at, rowV_at, rowV_at]
  have hrow : (fun k => preV x0 x1 x2 (ix2 r k)) = Cert.Spec.preAt (n := 5000) x2 x0 x1 r :=
    funext fun k => preV_at x0 x1 x2 r k
  have hdev : ∀ k : Fin 128, devV (preV x0 x1 x2) (ix2 r k)
      = Cert.Spec.preAt (n := 5000) x2 x0 x1 r k - Cert.Spec.muAt (n := 5000) x2 x0 x1 r := by
    intro k
    rw [devV_at, hrow, preV_at]
    rfl
  unfold Cert.Spec.updAt Cert.Spec.varAt
  simp only [hdev]

/-! ## From the blocks to the array -/

/-- The row update at one row reads only that row of the two matrices, and the three rows: settings that agree
    there agree on the update there. -/
theorem updAt_congr_row {n n' : Nat} (x a : Cert.Spec.Mat n 128) (x' a' : Cert.Spec.Mat n' 128)
    (b g be b' g' be' : Cert.Spec.Mat 1 128) (r : Fin n) (r' : Fin n')
    (hx : ∀ k : Fin 128, x (ix2 r k) = x' (ix2 r' k)) (ha : ∀ k : Fin 128, a (ix2 r k) = a' (ix2 r' k))
    (hb : ∀ k : Fin 128, b (ix2 (0 : Fin 1) k) = b' (ix2 (0 : Fin 1) k))
    (hg : ∀ k : Fin 128, g (ix2 (0 : Fin 1) k) = g' (ix2 (0 : Fin 1) k))
    (hbe : ∀ k : Fin 128, be (ix2 (0 : Fin 1) k) = be' (ix2 (0 : Fin 1) k)) (j : Fin 128) :
    Cert.Spec.updAt x a b g be r j = Cert.Spec.updAt x' a' b' g' be' r' j := by
  have hp : Cert.Spec.preAt x a b r = Cert.Spec.preAt x' a' b' r' := funext fun k => by
    unfold Cert.Spec.preAt
    rw [hx k, ha k, hb k]
  unfold Cert.Spec.updAt Cert.Spec.varAt Cert.Spec.muAt
  rw [hp, hg j, hbe j]

/-- One block's result at a block entry is the row update of the whole matrices at the array entry it stands for,
    when the two row blocks are rows 5000 T, 5000 T + 1, … of the matrices and the three rows are the rows. -/
theorem block_at (T : Nat) (X A : Cert.Spec.Mat 100000 128) (b g be : Cert.Spec.Mat 1 128)
    (xb ab : Vec Ideal S5000x128 .f32) (bb gb beb : Vec Ideal S1x128 .f32)
    (hx : ∀ (p : Fin 5000) (q : Fin 128) (R : Fin 100000), R.val = 5000 * T + p.val → xb (ix2 p q) = X (ix2 R q))
    (ha : ∀ (p : Fin 5000) (q : Fin 128) (R : Fin 100000), R.val = 5000 * T + p.val → ab (ix2 p q) = A (ix2 R q))
    (hb : ∀ q : Fin 128, bb (ix2 (0 : Fin 1) q) = b (ix2 (0 : Fin 1) q))
    (hg : ∀ q : Fin 128, gb (ix2 (0 : Fin 1) q) = g (ix2 (0 : Fin 1) q))
    (hbe : ∀ q : Fin 128, beb (ix2 (0 : Fin 1) q) = be (ix2 (0 : Fin 1) q))
    (y : S5000x128.Idx) (i : S100000x128.Idx) (h0 : (i 0).val = 5000 * T + (y 0).val) (h1 : (i 1).val = (y 1).val) :
    k2_pay1 (F := Ideal) ab bb xb gb beb y = Cert.Spec.upd X A b g be i := by
  obtain ⟨p, q, rfl⟩ : ∃ (p : Fin 5000) (q : Fin 128), y = ix2 p q := ⟨y 0, y 1, eq_ix2 y⟩
  obtain ⟨R, q', rfl⟩ : ∃ (R : Fin 100000) (q' : Fin 128), i = ix2 R q' := ⟨i 0, i 1, eq_ix2 i⟩
  obtain rfl : q' = q := Fin.ext h1
  rw [pay_at]
  show Cert.Spec.updAt (n := 5000) xb ab bb gb beb p q' = Cert.Spec.updAt (n := 100000) X A b g be R q'
  exact updAt_congr_row (n := 5000) (n' := 100000) xb ab X A bb gb beb b g be p R
    (fun k => hx p k R h0) (fun k => ha p k R h0) hb hg hbe q'

theorem hz : (![0, 0] : Fin 2 → Nat) = fun _ => 0 := funext fun a => by fin_cases a <;> rfl

/-- The block index maps, decided over the 20 grid points: the two row blocks and the result move down one block
    per point, the three rows stay. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Every block row is some point's. -/
theorem idx_onto : ∀ q0 : Fin 20, ∃ t : Fin cfg2.N, t.val = q0.val :=
  (by decide +kernel : ∀ q0 : Fin 20, ∃ t : Fin grid2.N, t.val = q0.val)

/-- What point t writes back is block t of the row update of the arrays as the launch finds them. -/
theorem flushed_eq (c : Dev nD) (t : Fin cfg2.N) :
    (dat2 (F := Ideal) V c).flushed 5 t
      = ((cfg2.win 5).blk t).view.read (Elt Ideal)
          (Cert.Spec.upd (V c main_v0) (V c main_v42) (V c main_v49) (V c main_v50) (V c main_v51)) := by
  show (cfg2.win 5).cut (grid2.coords t) ((dat2 (F := Ideal) V c).after 5 t) = _
  rw [after2_5]
  unfold out2_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext y
  show k2_pay1 (F := Ideal) (iblk2 V c 1 t) (iblk2 V c 2 t) (iblk2 V c 0 t) (iblk2 V c 3 t) (iblk2 V c 4 t) y
    = Cert.Spec.upd (V c main_v0) (V c main_v42) (V c main_v49) (V c main_v50) (V c main_v51)
        (((cfg2.win 5).blk t).view.emb y)
  refine block_at t.val (V c main_v0) (V c main_v42) (V c main_v49) (V c main_v50) (V c main_v51)
    (iblk2 V c 0 t) (iblk2 V c 1 t) (iblk2 V c 2 t) (iblk2 V c 3 t) (iblk2 V c 4 t) ?_ ?_ ?_ ?_ ?_
    y (((cfg2.win 5).blk t).view.emb y) ?_ ?_
  · intro p q R hR
    have h : ((cfg2.win 0).blk t).view.emb (ix2 p q) = ix2 R q := by
      funext a; apply Fin.ext
      match a with
      | ⟨0, _⟩ => show win2_0.index t (0 : Fin 2) * 5000 + 1 * p.val = R.val; omega
      | ⟨1, _⟩ => show win2_0.index t (1 : Fin 2) * 128 + 1 * q.val = q.val; omega
    show V c main_v0 (((cfg2.win 0).blk t).view.emb (ix2 p q)) = V c main_v0 (ix2 R q)
    rw [h]
  · intro p q R hR
    have h : ((cfg2.win 1).blk t).view.emb (ix2 p q) = ix2 R q := by
      funext a; apply Fin.ext
      match a with
      | ⟨0, _⟩ => show win2_1.index t (0 : Fin 2) * 5000 + 1 * p.val = R.val; omega
      | ⟨1, _⟩ => show win2_1.index t (1 : Fin 2) * 128 + 1 * q.val = q.val; omega
    show V c main_v42 (((cfg2.win 1).blk t).view.emb (ix2 p q)) = V c main_v42 (ix2 R q)
    rw [h]
  · intro q
    have h : ((cfg2.win 2).blk t).view.emb (ix2 (0 : Fin 1) q) = ix2 (0 : Fin 1) q := by
      funext a; apply Fin.ext
      match a with
      | ⟨0, _⟩ => show win2_2.index t (0 : Fin 2) * 1 + 1 * 0 = 0; omega
      | ⟨1, _⟩ => show win2_2.index t (1 : Fin 2) * 128 + 1 * q.val = q.val; omega
    show V c main_v49 (((cfg2.win 2).blk t).view.emb (ix2 (0 : Fin 1) q)) = V c main_v49 (ix2 (0 : Fin 1) q)
    rw [h]
  · intro q
    have h : ((cfg2.win 3).blk t).view.emb (ix2 (0 : Fin 1) q) = ix2 (0 : Fin 1) q := by
      funext a; apply Fin.ext
      match a with
      | ⟨0, _⟩ => show win2_3.index t (0 : Fin 2) * 1 + 1 * 0 = 0; omega
      | ⟨1, _⟩ => show win2_3.index t (1 : Fin 2) * 128 + 1 * q.val = q.val; omega
    show V c main_v50 (((cfg2.win 3).blk t).view.emb (ix2 (0 : Fin 1) q)) = V c main_v50 (ix2 (0 : Fin 1) q)
    rw [h]
  · intro q
    have h : ((cfg2.win 4).blk t).view.emb (ix2 (0 : Fin 1) q) = ix2 (0 : Fin 1) q := by
      funext a; apply Fin.ext
      match a with
      | ⟨0, _⟩ => show win2_4.index t (0 : Fin 2) * 1 + 1 * 0 = 0; omega
      | ⟨1, _⟩ => show win2_4.index t (1 : Fin 2) * 128 + 1 * q.val = q.val; omega
    show V c main_v51 (((cfg2.win 4).blk t).view.emb (ix2 (0 : Fin 1) q)) = V c main_v51 (ix2 (0 : Fin 1) q)
    rw [h]
  · show win2_5.index t (0 : Fin 2) * 5000 + 1 * (y 0).val = 5000 * t.val + (y 0).val
    omega
  · show win2_5.index t (1 : Fin 2) * 128 + 1 * (y 1).val = (y 1).val
    omega

/-- An entry of the result array is in point t's block iff each coordinate is in the block's range on its axis. -/
theorem mem_blk (t : Fin cfg2.N) (i : S100000x128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v52).slice (win2_5.rect t)).set ↔ _
  rw [View.set_slice_whole, Rect.mem_set_unit]
  exact Iff.rfl

/-- Every entry of the result array is in some point's block: row r lies in block r / 5000. -/
theorem cover (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e51⟩ := idx_facts t
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

/-- The result array after the launch is the row update of the arrays as the launch finds them. -/
theorem value (c : Dev nD) :
    (dat2 (F := Ideal) V c).arrAt 5 cfg2.N
      = Cert.Spec.upd (V c main_v0) (V c main_v42) (V c main_v49) (V c main_v50) (V c main_v51) :=
  (dat2 (F := Ideal) V c).arrAt_eq_of_cover 5
    (Cert.Spec.upd (V c main_v0) (V c main_v42) (V c main_v49) (V c main_v50) (V c main_v51))
    (fun t _ => flushed_eq V c t) cover

end Cert.KernelIdeal.KReg2

end
-- ==== Proof.KRegUpd4.lean ====
/-
  The second update launch: per block of 5000 rows, new = old + relu(aggregate + bias), then each row is centred by
  its mean over the 128 columns, scaled by the inverse root of (its variance + epsilon), multiplied by the scale
  row and shifted by the shift row. Every entry of a row depends on that row only, and block t holds rows
  5000 t .. 5000 t + 4999 of both inputs and of the result, so the result array is the row update of the arrays as
  the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg4

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## Layout steps read at an entry -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's stages, each read at an entry -/

/-- The block before normalisation: old features plus the positive part of (aggregate + bias row). -/
def preV (x0 : Vec Ideal S5000x128 .f32) (x1 : Vec Ideal S1x128 .f32) (x2 : Vec Ideal S5000x128 .f32) :
    FVec Ideal S5000x128 .f32 :=
  addf (shapeCast S5000x128 x2 shapeCasts_S5000x128_S5000x128)
    (maximumf
      (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)))

/-- The row means of a block, as a column: each row's sum over the 128 columns divided by 128. -/
def meanV (w : FVec Ideal S5000x128 .f32) : FVec Ideal S5000x1 .f32 :=
  divf
    (shapeCast S5000x1
      (multiReduction (F := Ideal) .add [1] S5000 w 0x00000000#32 reduces_S5000x128_S5000 (.inl rfl) rfl)
      shapeCasts_S5000_S5000x1)
    (broadcast S5000x1 (Scalar.ofBits (F := Ideal) .f32 0x43000000#32))

/-- A column repeated along the 128 columns. -/
def colV (v : FVec Ideal S5000x1 .f32) : FVec Ideal S5000x128 .f32 :=
  broadcastTo S5000x128 v broadcasts_S5000x1_S5000x128

/-- A row repeated along the 5000 rows. -/
def rowV (v : Vec Ideal S1x128 .f32) : FVec Ideal S5000x128 .f32 :=
  broadcastTo S5000x128 (shapeCast S1x128 v shapeCasts_S1x128_S1x128) broadcasts_S1x128_S5000x128

/-- The deviations of a block from its row means. -/
def devV (w : FVec Ideal S5000x128 .f32) : FVec Ideal S5000x128 .f32 := subf w (colV (meanV w))

/-- The inverse root of (row variance + epsilon), as a column. -/
def invV (w : FVec Ideal S5000x128 .f32) : FVec Ideal S5000x1 .f32 :=
  rsqrt (addf (meanV (mulf (devV w) (devV w))) (broadcast S5000x1 (Scalar.ofBits (F := Ideal) .f32 0x3727C5AC#32)))

/-- The body's result is the composition of its stages. -/
theorem pay_eq (x0 : Vec Ideal S5000x128 .f32) (x1 : Vec Ideal S1x128 .f32) (x2 : Vec Ideal S5000x128 .f32)
    (x3 : Vec Ideal S1x128 .f32) (x4 : Vec Ideal S1x128 .f32) :
    k4_pay1 (F := Ideal) x0 x1 x2 x3 x4
      = addf (mulf (mulf (devV (preV x0 x1 x2)) (colV (invV (preV x0 x1 x2)))) (rowV x3)) (rowV x4) := rfl

/-- The block before normalisation at (r, j): the specification's entry. -/
theorem preV_at (x0 : Vec Ideal S5000x128 .f32) (x1 : Vec Ideal S1x128 .f32) (x2 : Vec Ideal S5000x128 .f32)
    (r : Fin 5000) (j : Fin 128) :
    preV x0 x1 x2 (ix2 r j) = Cert.Spec.preAt (n := 5000) x2 x0 x1 r j := by
  unfold preV Cert.Spec.preAt Cert.Spec.zero
  rw [shapeCast_self, shapeCast_self, shapeCast_self]
  show x2 (ix2 r j) + max (x0 (ix2 r j) + broadcastTo S5000x128 x1 broadcasts_S1x128_S5000x128 (ix2 r j))
      (Ideal.ofBits .f32 0x00000000#32) = _
  rw [broadcastTo_1b_ab_apply]

/-- The row means at (r, 0): the mean of row r. -/
theorem meanV_at (w : FVec Ideal S5000x128 .f32) (r : Fin 5000) (u : Fin 1) :
    meanV w (ix2 r u) = Cert.Spec.mean fun k => w (ix2 r k) := by
  unfold meanV Cert.Spec.mean Cert.Spec.len
  show Ideal.div (shapeCast S5000x1 _ shapeCasts_S5000_S5000x1 (ix2 r u)) (Ideal.ofBits .f32 0x43000000#32) = _
  refine congrArg (fun s => Ideal.div s (Ideal.ofBits .f32 0x43000000#32)) ?_
  refine (shapeCast_a_a1_apply _ shapeCasts_S5000_S5000x1 r u).trans ?_
  refine (Ideal.multiReduction_add_single w 0x00000000#32 reduces_S5000x128_S5000 (.inl rfl) rfl (ix1 r)).trans ?_
  refine Finset.sum_congr rfl fun k _ => congrArg w ?_
  funext c
  apply Fin.ext
  match c with
  | ⟨0, _⟩ => rfl
  | ⟨1, _⟩ => rfl

/-- A repeated column at (r, j) is the column at (r, 0). -/
theorem colV_at (v : FVec Ideal S5000x1 .f32) (r : Fin 5000) (j : Fin 128) :
    colV v (ix2 r j) = v (ix2 r (0 : Fin 1)) :=
  broadcastTo_a1_ab_apply v broadcasts_S5000x1_S5000x128 r j

/-- A repeated row at (r, j) is the row at (0, j). -/
theorem rowV_at (v : Vec Ideal S1x128 .f32) (r : Fin 5000) (j : Fin 128) :
    rowV v (ix2 r j) = v (ix2 (0 : Fin 1) j) := by
  unfold rowV
  rw [shapeCast_self]
  exact broadcastTo_1b_ab_apply v broadcasts_S1x128_S5000x128 r j

/-- The deviation at (r, j): the entry minus its row's mean. -/
theorem devV_at (w : FVec Ideal S5000x128 .f32) (r : Fin 5000) (j : Fin 128) :
    devV w (ix2 r j) = w (ix2 r j) - Cert.Spec.mean fun k => w (ix2 r k) := by
  unfold devV
  show w (ix2 r j) - colV (meanV w) (ix2 r j) = _
  rw [colV_at, meanV_at]

/-- The inverse root at (r, 0): of the mean of row r's squared deviations, plus epsilon. -/
theorem invV_at (w : FVec Ideal S5000x128 .f32) (r : Fin 5000) (u : Fin 1) :
    invV w (ix2 r u)
      = Ideal.rsqrt ((Cert.Spec.mean fun k => devV w (ix2 r k) * devV w (ix2 r k)) + Cert.Spec.eps) := by
  unfold invV Cert.Spec.eps
  show Ideal.rsqrt (meanV (mulf (devV w) (devV w)) (ix2 r u) + Ideal.ofBits .f32 0x3727C5AC#32) = _
  rw [meanV_at]
  rfl

/-- What one block's body computes at entry (r, j), in the words of the row update: x0 is the aggregate block,
    x1 the bias row, x2 the old-feature block, x3 the scale row, x4 the shift row (the order the body loads them). -/
theorem pay_at (x0 : Vec Ideal S5000x128 .f32) (x1 : Vec Ideal S1x128 .f32) (x2 : Vec Ideal S5000x128 .f32)
    (x3 : Vec Ideal S1x128 .f32) (x4 : Vec Ideal S1x128 .f32) (r : Fin 5000) (j : Fin 128) :
    k4_pay1 (F := Ideal) x0 x1 x2 x3 x4 (ix2 r j) = Cert.Spec.updAt (n := 5000) x2 x0 x1 x3 x4 r j := by
  rw [pay_eq]
  show devV (preV x0 x1 x2) (ix2 r j) * colV (invV (preV x0 x1 x2)) (ix2 r j) * rowV x3 (ix2 r j)
      + rowV x4 (ix2 r j) = _
  rw [colV_at, invV_at, rowV_at, rowV_at]
  have hrow : (fun k => preV x0 x1 x2 (ix2 r k)) = Cert.Spec.preAt (n := 5000) x2 x0 x1 r :=
    funext fun k => preV_at x0 x1 x2 r k
  have hdev : ∀ k : Fin 128, devV (preV x0 x1 x2) (ix2 r k)
      = Cert.Spec.preAt (n := 5000) x2 x0 x1 r k - Cert.Spec.muAt (n := 5000) x2 x0 x1 r := by
    intro k
    rw [devV_at, hrow, preV_at]
    rfl
  unfold Cert.Spec.updAt Cert.Spec.varAt
  simp only [hdev]

/-! ## From the blocks to the array -/

/-- The row update at one row reads only that row of the two matrices, and the three rows: settings that agree
    there agree on the update there. -/
theorem updAt_congr_row {n n' : Nat} (x a : Cert.Spec.Mat n 128) (x' a' : Cert.Spec.Mat n' 128)
    (b g be b' g' be' : Cert.Spec.Mat 1 128) (r : Fin n) (r' : Fin n')
    (hx : ∀ k : Fin 128, x (ix2 r k) = x' (ix2 r' k)) (ha : ∀ k : Fin 128, a (ix2 r k) = a' (ix2 r' k))
    (hb : ∀ k : Fin 128, b (ix2 (0 : Fin 1) k) = b' (ix2 (0 : Fin 1) k))
    (hg : ∀ k : Fin 128, g (ix2 (0 : Fin 1) k) = g' (ix2 (0 : Fin 1) k))
    (hbe : ∀ k : Fin 128, be (ix2 (0 : Fin 1) k) = be' (ix2 (0 : Fin 1) k)) (j : Fin 128) :
    Cert.Spec.updAt x a b g be r j = Cert.Spec.updAt x' a' b' g' be' r' j := by
  have hp : Cert.Spec.preAt x a b r = Cert.Spec.preAt x' a' b' r' := funext fun k => by
    unfold Cert.Spec.preAt
    rw [hx k, ha k, hb k]
  unfold Cert.Spec.updAt Cert.Spec.varAt Cert.Spec.muAt
  rw [hp, hg j, hbe j]

/-- One block's result at a block entry is the row update of the whole matrices at the array entry it stands for,
    when the two row blocks are rows 5000 T, 5000 T + 1, … of the matrices and the three rows are the rows. -/
theorem block_at (T : Nat) (X A : Cert.Spec.Mat 100000 128) (b g be : Cert.Spec.Mat 1 128)
    (xb ab : Vec Ideal S5000x128 .f32) (bb gb beb : Vec Ideal S1x128 .f32)
    (hx : ∀ (p : Fin 5000) (q : Fin 128) (R : Fin 100000), R.val = 5000 * T + p.val → xb (ix2 p q) = X (ix2 R q))
    (ha : ∀ (p : Fin 5000) (q : Fin 128) (R : Fin 100000), R.val = 5000 * T + p.val → ab (ix2 p q) = A (ix2 R q))
    (hb : ∀ q : Fin 128, bb (ix2 (0 : Fin 1) q) = b (ix2 (0 : Fin 1) q))
    (hg : ∀ q : Fin 128, gb (ix2 (0 : Fin 1) q) = g (ix2 (0 : Fin 1) q))
    (hbe : ∀ q : Fin 128, beb (ix2 (0 : Fin 1) q) = be (ix2 (0 : Fin 1) q))
    (y : S5000x128.Idx) (i : S100000x128.Idx) (h0 : (i 0).val = 5000 * T + (y 0).val) (h1 : (i 1).val = (y 1).val) :
    k4_pay1 (F := Ideal) ab bb xb gb beb y = Cert.Spec.upd X A b g be i := by
  obtain ⟨p, q, rfl⟩ : ∃ (p : Fin 5000) (q : Fin 128), y = ix2 p q := ⟨y 0, y 1, eq_ix2 y⟩
  obtain ⟨R, q', rfl⟩ : ∃ (R : Fin 100000) (q' : Fin 128), i = ix2 R q' := ⟨i 0, i 1, eq_ix2 i⟩
  obtain rfl : q' = q := Fin.ext h1
  rw [pay_at]
  show Cert.Spec.updAt (n := 5000) xb ab bb gb beb p q' = Cert.Spec.updAt (n := 100000) X A b g be R q'
  exact updAt_congr_row (n := 5000) (n' := 100000) xb ab X A bb gb beb b g be p R
    (fun k => hx p k R h0) (fun k => ha p k R h0) hb hg hbe q'

theorem hz : (![0, 0] : Fin 2 → Nat) = fun _ => 0 := funext fun a => by fin_cases a <;> rfl

/-- The block index maps, decided over the 20 grid points: the two row blocks and the result move down one block
    per point, the three rows stay. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Every block row is some point's. -/
theorem idx_onto : ∀ q0 : Fin 20, ∃ t : Fin cfg4.N, t.val = q0.val :=
  (by decide +kernel : ∀ q0 : Fin 20, ∃ t : Fin grid4.N, t.val = q0.val)

/-- What point t writes back is block t of the row update of the arrays as the launch finds them. -/
theorem flushed_eq (c : Dev nD) (t : Fin cfg4.N) :
    (dat4 (F := Ideal) V c).flushed 5 t
      = ((cfg4.win 5).blk t).view.read (Elt Ideal)
          (Cert.Spec.upd (V c main_v52) (V c main_v61) (V c main_v68) (V c main_v69) (V c main_v70)) := by
  show (cfg4.win 5).cut (grid4.coords t) ((dat4 (F := Ideal) V c).after 5 t) = _
  rw [after4_5]
  unfold out4_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext y
  show k4_pay1 (F := Ideal) (iblk4 V c 1 t) (iblk4 V c 2 t) (iblk4 V c 0 t) (iblk4 V c 3 t) (iblk4 V c 4 t) y
    = Cert.Spec.upd (V c main_v52) (V c main_v61) (V c main_v68) (V c main_v69) (V c main_v70)
        (((cfg4.win 5).blk t).view.emb y)
  refine block_at t.val (V c main_v52) (V c main_v61) (V c main_v68) (V c main_v69) (V c main_v70)
    (iblk4 V c 0 t) (iblk4 V c 1 t) (iblk4 V c 2 t) (iblk4 V c 3 t) (iblk4 V c 4 t) ?_ ?_ ?_ ?_ ?_
    y (((cfg4.win 5).blk t).view.emb y) ?_ ?_
  · intro p q R hR
    have h : ((cfg4.win 0).blk t).view.emb (ix2 p q) = ix2 R q := by
      funext a; apply Fin.ext
      match a with
      | ⟨0, _⟩ => show win4_0.index t (0 : Fin 2) * 5000 + 1 * p.val = R.val; omega
      | ⟨1, _⟩ => show win4_0.index t (1 : Fin 2) * 128 + 1 * q.val = q.val; omega
    show V c main_v52 (((cfg4.win 0).blk t).view.emb (ix2 p q)) = V c main_v52 (ix2 R q)
    rw [h]
  · intro p q R hR
    have h : ((cfg4.win 1).blk t).view.emb (ix2 p q) = ix2 R q := by
      funext a; apply Fin.ext
      match a with
      | ⟨0, _⟩ => show win4_1.index t (0 : Fin 2) * 5000 + 1 * p.val = R.val; omega
      | ⟨1, _⟩ => show win4_1.index t (1 : Fin 2) * 128 + 1 * q.val = q.val; omega
    show V c main_v61 (((cfg4.win 1).blk t).view.emb (ix2 p q)) = V c main_v61 (ix2 R q)
    rw [h]
  · intro q
    have h : ((cfg4.win 2).blk t).view.emb (ix2 (0 : Fin 1) q) = ix2 (0 : Fin 1) q := by
      funext a; apply Fin.ext
      match a with
      | ⟨0, _⟩ => show win4_2.index t (0 : Fin 2) * 1 + 1 * 0 = 0; omega
      | ⟨1, _⟩ => show win4_2.index t (1 : Fin 2) * 128 + 1 * q.val = q.val; omega
    show V c main_v68 (((cfg4.win 2).blk t).view.emb (ix2 (0 : Fin 1) q)) = V c main_v68 (ix2 (0 : Fin 1) q)
    rw [h]
  · intro q
    have h : ((cfg4.win 3).blk t).view.emb (ix2 (0 : Fin 1) q) = ix2 (0 : Fin 1) q := by
      funext a; apply Fin.ext
      match a with
      | ⟨0, _⟩ => show win4_3.index t (0 : Fin 2) * 1 + 1 * 0 = 0; omega
      | ⟨1, _⟩ => show win4_3.index t (1 : Fin 2) * 128 + 1 * q.val = q.val; omega
    show V c main_v69 (((cfg4.win 3).blk t).view.emb (ix2 (0 : Fin 1) q)) = V c main_v69 (ix2 (0 : Fin 1) q)
    rw [h]
  · intro q
    have h : ((cfg4.win 4).blk t).view.emb (ix2 (0 : Fin 1) q) = ix2 (0 : Fin 1) q := by
      funext a; apply Fin.ext
      match a with
      | ⟨0, _⟩ => show win4_4.index t (0 : Fin 2) * 1 + 1 * 0 = 0; omega
      | ⟨1, _⟩ => show win4_4.index t (1 : Fin 2) * 128 + 1 * q.val = q.val; omega
    show V c main_v70 (((cfg4.win 4).blk t).view.emb (ix2 (0 : Fin 1) q)) = V c main_v70 (ix2 (0 : Fin 1) q)
    rw [h]
  · show win4_5.index t (0 : Fin 2) * 5000 + 1 * (y 0).val = 5000 * t.val + (y 0).val
    omega
  · show win4_5.index t (1 : Fin 2) * 128 + 1 * (y 1).val = (y 1).val
    omega

/-- An entry of the result array is in point t's block iff each coordinate is in the block's range on its axis. -/
theorem mem_blk (t : Fin cfg4.N) (i : S100000x128.Idx) :
    i ∈ ((cfg4.win 5).blk t).view.set
      ↔ ∀ a : Fin 2, win4_5.index t a * S5000x128.size a ≤ (i a).val
          ∧ (i a).val < win4_5.index t a * S5000x128.size a + S5000x128.size a := by
  show i ∈ ((View.whole main_v71).slice (win4_5.rect t)).set ↔ _
  rw [View.set_slice_whole, Rect.mem_set_unit]
  exact Iff.rfl

/-- Every entry of the result array is in some point's block: row r lies in block r / 5000. -/
theorem cover (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e51⟩ := idx_facts t
  refine ⟨t, flush4_5 t, ?_⟩
  rw [mem_blk]
  intro a
  match a with
  | ⟨0, _⟩ =>
    show win4_5.index t (0 : Fin 2) * 5000 ≤ (i 0).val ∧ (i 0).val < win4_5.index t (0 : Fin 2) * 5000 + 5000
    omega
  | ⟨1, _⟩ =>
    show win4_5.index t (1 : Fin 2) * 128 ≤ (i 1).val ∧ (i 1).val < win4_5.index t (1 : Fin 2) * 128 + 128
    omega

/-- The result array after the launch is the row update of the arrays as the launch finds them. -/
theorem value (c : Dev nD) :
    (dat4 (F := Ideal) V c).arrAt 5 cfg4.N
      = Cert.Spec.upd (V c main_v52) (V c main_v61) (V c main_v68) (V c main_v69) (V c main_v70) :=
  (dat4 (F := Ideal) V c).arrAt_eq_of_cover 5
    (Cert.Spec.upd (V c main_v52) (V c main_v61) (V c main_v68) (V c main_v69) (V c main_v70))
    (fun t _ => flushed_eq V c t) cover

end Cert.KernelIdeal.KReg4

end
-- ==== Proof.KRegUpd6.lean ====
/-
  The third update launch: per block of 5000 rows, new = old + relu(aggregate + bias), then each row is centred by
  its mean over the 128 columns, scaled by the inverse root of (its variance + epsilon), multiplied by the scale
  row and shifted by the shift row. Every entry of a row depends on that row only, and block t holds rows
  5000 t .. 5000 t + 4999 of both inputs and of the result, so the result array is the row update of the arrays as
  the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg6

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## Layout steps read at an entry -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's stages, each read at an entry -/

/-- The block before normalisation: old features plus the positive part of (aggregate + bias row). -/
def preV (x0 : Vec Ideal S5000x128 .f32) (x1 : Vec Ideal S1x128 .f32) (x2 : Vec Ideal S5000x128 .f32) :
    FVec Ideal S5000x128 .f32 :=
  addf (shapeCast S5000x128 x2 shapeCasts_S5000x128_S5000x128)
    (maximumf
      (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)))

/-- The row means of a block, as a column: each row's sum over the 128 columns divided by 128. -/
def meanV (w : FVec Ideal S5000x128 .f32) : FVec Ideal S5000x1 .f32 :=
  divf
    (shapeCast S5000x1
      (multiReduction (F := Ideal) .add [1] S5000 w 0x00000000#32 reduces_S5000x128_S5000 (.inl rfl) rfl)
      shapeCasts_S5000_S5000x1)
    (broadcast S5000x1 (Scalar.ofBits (F := Ideal) .f32 0x43000000#32))

/-- A column repeated along the 128 columns. -/
def colV (v : FVec Ideal S5000x1 .f32) : FVec Ideal S5000x128 .f32 :=
  broadcastTo S5000x128 v broadcasts_S5000x1_S5000x128

/-- A row repeated along the 5000 rows. -/
def rowV (v : Vec Ideal S1x128 .f32) : FVec Ideal S5000x128 .f32 :=
  broadcastTo S5000x128 (shapeCast S1x128 v shapeCasts_S1x128_S1x128) broadcasts_S1x128_S5000x128

/-- The deviations of a block from its row means. -/
def devV (w : FVec Ideal S5000x128 .f32) : FVec Ideal S5000x128 .f32 := subf w (colV (meanV w))

/-- The inverse root of (row variance + epsilon), as a column. -/
def invV (w : FVec Ideal S5000x128 .f32) : FVec Ideal S5000x1 .f32 :=
  rsqrt (addf (meanV (mulf (devV w) (devV w))) (broadcast S5000x1 (Scalar.ofBits (F := Ideal) .f32 0x3727C5AC#32)))

/-- The body's result is the composition of its stages. -/
theorem pay_eq (x0 : Vec Ideal S5000x128 .f32) (x1 : Vec Ideal S1x128 .f32) (x2 : Vec Ideal S5000x128 .f32)
    (x3 : Vec Ideal S1x128 .f32) (x4 : Vec Ideal S1x128 .f32) :
    k6_pay1 (F := Ideal) x0 x1 x2 x3 x4
      = addf (mulf (mulf (devV (preV x0 x1 x2)) (colV (invV (preV x0 x1 x2)))) (rowV x3)) (rowV x4) := rfl

/-- The block before normalisation at (r, j): the specification's entry. -/
theorem preV_at (x0 : Vec Ideal S5000x128 .f32) (x1 : Vec Ideal S1x128 .f32) (x2 : Vec Ideal S5000x128 .f32)
    (r : Fin 5000) (j : Fin 128) :
    preV x0 x1 x2 (ix2 r j) = Cert.Spec.preAt (n := 5000) x2 x0 x1 r j := by
  unfold preV Cert.Spec.preAt Cert.Spec.zero
  rw [shapeCast_self, shapeCast_self, shapeCast_self]
  show x2 (ix2 r j) + max (x0 (ix2 r j) + broadcastTo S5000x128 x1 broadcasts_S1x128_S5000x128 (ix2 r j))
      (Ideal.ofBits .f32 0x00000000#32) = _
  rw [broadcastTo_1b_ab_apply]

/-- The row means at (r, 0): the mean of row r. -/
theorem meanV_at (w : FVec Ideal S5000x128 .f32) (r : Fin 5000) (u : Fin 1) :
    meanV w (ix2 r u) = Cert.Spec.mean fun k => w (ix2 r k) := by
  unfold meanV Cert.Spec.mean Cert.Spec.len
  show Ideal.div (shapeCast S5000x1 _ shapeCasts_S5000_S5000x1 (ix2 r u)) (Ideal.ofBits .f32 0x43000000#32) = _
  refine congrArg (fun s => Ideal.div s (Ideal.ofBits .f32 0x43000000#32)) ?_
  refine (shapeCast_a_a1_apply _ shapeCasts_S5000_S5000x1 r u).trans ?_
  refine (Ideal.multiReduction_add_single w 0x00000000#32 reduces_S5000x128_S5000 (.inl rfl) rfl (ix1 r)).trans ?_
  refine Finset.sum_congr rfl fun k _ => congrArg w ?_
  funext c
  apply Fin.ext
  match c with
  | ⟨0, _⟩ => rfl
  | ⟨1, _⟩ => rfl

/-- A repeated column at (r, j) is the column at (r, 0). -/
theorem colV_at (v : FVec Ideal S5000x1 .f32) (r : Fin 5000) (j : Fin 128) :
    colV v (ix2 r j) = v (ix2 r (0 : Fin 1)) :=
  broadcastTo_a1_ab_apply v broadcasts_S5000x1_S5000x128 r j

/-- A repeated row at (r, j) is the row at (0, j). -/
theorem rowV_at (v : Vec Ideal S1x128 .f32) (r : Fin 5000) (j : Fin 128) :
    rowV v (ix2 r j) = v (ix2 (0 : Fin 1) j) := by
  unfold rowV
  rw [shapeCast_self]
  exact broadcastTo_1b_ab_apply v broadcasts_S1x128_S5000x128 r j

/-- The deviation at (r, j): the entry minus its row's mean. -/
theorem devV_at (w : FVec Ideal S5000x128 .f32) (r : Fin 5000) (j : Fin 128) :
    devV w (ix2 r j) = w (ix2 r j) - Cert.Spec.mean fun k => w (ix2 r k) := by
  unfold devV
  show w (ix2 r j) - colV (meanV w) (ix2 r j) = _
  rw [colV_at, meanV_at]

/-- The inverse root at (r, 0): of the mean of row r's squared deviations, plus epsilon. -/
theorem invV_at (w : FVec Ideal S5000x128 .f32) (r : Fin 5000) (u : Fin 1) :
    invV w (ix2 r u)
      = Ideal.rsqrt ((Cert.Spec.mean fun k => devV w (ix2 r k) * devV w (ix2 r k)) + Cert.Spec.eps) := by
  unfold invV Cert.Spec.eps
  show Ideal.rsqrt (meanV (mulf (devV w) (devV w)) (ix2 r u) + Ideal.ofBits .f32 0x3727C5AC#32) = _
  rw [meanV_at]
  rfl

/-- What one block's body computes at entry (r, j), in the words of the row update: x0 is the aggregate block,
    x1 the bias row, x2 the old-feature block, x3 the scale row, x4 the shift row (the order the body loads them). -/
theorem pay_at (x0 : Vec Ideal S5000x128 .f32) (x1 : Vec Ideal S1x128 .f32) (x2 : Vec Ideal S5000x128 .f32)
    (x3 : Vec Ideal S1x128 .f32) (x4 : Vec Ideal S1x128 .f32) (r : Fin 5000) (j : Fin 128) :
    k6_pay1 (F := Ideal) x0 x1 x2 x3 x4 (ix2 r j) = Cert.Spec.updAt (n := 5000) x2 x0 x1 x3 x4 r j := by
  rw [pay_eq]
  show devV (preV x0 x1 x2) (ix2 r j) * colV (invV (preV x0 x1 x2)) (ix2 r j) * rowV x3 (ix2 r j)
      + rowV x4 (ix2 r j) = _
  rw [colV_at, invV_at, rowV_at, rowV_at]
  have hrow : (fun k => preV x0 x1 x2 (ix2 r k)) = Cert.Spec.preAt (n := 5000) x2 x0 x1 r :=
    funext fun k => preV_at x0 x1 x2 r k
  have hdev : ∀ k : Fin 128, devV (preV x0 x1 x2) (ix2 r k)
      = Cert.Spec.preAt (n := 5000) x2 x0 x1 r k - Cert.Spec.muAt (n := 5000) x2 x0 x1 r := by
    intro k
    rw [devV_at, hrow, preV_at]
    rfl
  unfold Cert.Spec.updAt Cert.Spec.varAt
  simp only [hdev]

/-! ## From the blocks to the array -/

/-- The row update at one row reads only that row of the two matrices, and the three rows: settings that agree
    there agree on the update there. -/
theorem updAt_congr_row {n n' : Nat} (x a : Cert.Spec.Mat n 128) (x' a' : Cert.Spec.Mat n' 128)
    (b g be b' g' be' : Cert.Spec.Mat 1 128) (r : Fin n) (r' : Fin n')
    (hx : ∀ k : Fin 128, x (ix2 r k) = x' (ix2 r' k)) (ha : ∀ k : Fin 128, a (ix2 r k) = a' (ix2 r' k))
    (hb : ∀ k : Fin 128, b (ix2 (0 : Fin 1) k) = b' (ix2 (0 : Fin 1) k))
    (hg : ∀ k : Fin 128, g (ix2 (0 : Fin 1) k) = g' (ix2 (0 : Fin 1) k))
    (hbe : ∀ k : Fin 128, be (ix2 (0 : Fin 1) k) = be' (ix2 (0 : Fin 1) k)) (j : Fin 128) :
    Cert.Spec.updAt x a b g be r j = Cert.Spec.updAt x' a' b' g' be' r' j := by
  have hp : Cert.Spec.preAt x a b r = Cert.Spec.preAt x' a' b' r' := funext fun k => by
    unfold Cert.Spec.preAt
    rw [hx k, ha k, hb k]
  unfold Cert.Spec.updAt Cert.Spec.varAt Cert.Spec.muAt
  rw [hp, hg j, hbe j]

/-- One block's result at a block entry is the row update of the whole matrices at the array entry it stands for,
    when the two row blocks are rows 5000 T, 5000 T + 1, … of the matrices and the three rows are the rows. -/
theorem block_at (T : Nat) (X A : Cert.Spec.Mat 100000 128) (b g be : Cert.Spec.Mat 1 128)
    (xb ab : Vec Ideal S5000x128 .f32) (bb gb beb : Vec Ideal S1x128 .f32)
    (hx : ∀ (p : Fin 5000) (q : Fin 128) (R : Fin 100000), R.val = 5000 * T + p.val → xb (ix2 p q) = X (ix2 R q))
    (ha : ∀ (p : Fin 5000) (q : Fin 128) (R : Fin 100000), R.val = 5000 * T + p.val → ab (ix2 p q) = A (ix2 R q))
    (hb : ∀ q : Fin 128, bb (ix2 (0 : Fin 1) q) = b (ix2 (0 : Fin 1) q))
    (hg : ∀ q : Fin 128, gb (ix2 (0 : Fin 1) q) = g (ix2 (0 : Fin 1) q))
    (hbe : ∀ q : Fin 128, beb (ix2 (0 : Fin 1) q) = be (ix2 (0 : Fin 1) q))
    (y : S5000x128.Idx) (i : S100000x128.Idx) (h0 : (i 0).val = 5000 * T + (y 0).val) (h1 : (i 1).val = (y 1).val) :
    k6_pay1 (F := Ideal) ab bb xb gb beb y = Cert.Spec.upd X A b g be i := by
  obtain ⟨p, q, rfl⟩ : ∃ (p : Fin 5000) (q : Fin 128), y = ix2 p q := ⟨y 0, y 1, eq_ix2 y⟩
  obtain ⟨R, q', rfl⟩ : ∃ (R : Fin 100000) (q' : Fin 128), i = ix2 R q' := ⟨i 0, i 1, eq_ix2 i⟩
  obtain rfl : q' = q := Fin.ext h1
  rw [pay_at]
  show Cert.Spec.updAt (n := 5000) xb ab bb gb beb p q' = Cert.Spec.updAt (n := 100000) X A b g be R q'
  exact updAt_congr_row (n := 5000) (n' := 100000) xb ab X A bb gb beb b g be p R
    (fun k => hx p k R h0) (fun k => ha p k R h0) hb hg hbe q'

theorem hz : (![0, 0] : Fin 2 → Nat) = fun _ => 0 := funext fun a => by fin_cases a <;> rfl

/-- The block index maps, decided over the 20 grid points: the two row blocks and the result move down one block
    per point, the three rows stay. -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Every block row is some point's. -/
theorem idx_onto : ∀ q0 : Fin 20, ∃ t : Fin cfg6.N, t.val = q0.val :=
  (by decide +kernel : ∀ q0 : Fin 20, ∃ t : Fin grid6.N, t.val = q0.val)

/-- What point t writes back is block t of the row update of the arrays as the launch finds them. -/
theorem flushed_eq (c : Dev nD) (t : Fin cfg6.N) :
    (dat6 (F := Ideal) V c).flushed 5 t
      = ((cfg6.win 5).blk t).view.read (Elt Ideal)
          (Cert.Spec.upd (V c main_v71) (V c main_v80) (V c main_v87) (V c main_v88) (V c main_v89)) := by
  show (cfg6.win 5).cut (grid6.coords t) ((dat6 (F := Ideal) V c).after 5 t) = _
  rw [after6_5]
  unfold out6_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext y
  show k6_pay1 (F := Ideal) (iblk6 V c 1 t) (iblk6 V c 2 t) (iblk6 V c 0 t) (iblk6 V c 3 t) (iblk6 V c 4 t) y
    = Cert.Spec.upd (V c main_v71) (V c main_v80) (V c main_v87) (V c main_v88) (V c main_v89)
        (((cfg6.win 5).blk t).view.emb y)
  refine block_at t.val (V c main_v71) (V c main_v80) (V c main_v87) (V c main_v88) (V c main_v89)
    (iblk6 V c 0 t) (iblk6 V c 1 t) (iblk6 V c 2 t) (iblk6 V c 3 t) (iblk6 V c 4 t) ?_ ?_ ?_ ?_ ?_
    y (((cfg6.win 5).blk t).view.emb y) ?_ ?_
  · intro p q R hR
    have h : ((cfg6.win 0).blk t).view.emb (ix2 p q) = ix2 R q := by
      funext a; apply Fin.ext
      match a with
      | ⟨0, _⟩ => show win6_0.index t (0 : Fin 2) * 5000 + 1 * p.val = R.val; omega
      | ⟨1, _⟩ => show win6_0.index t (1 : Fin 2) * 128 + 1 * q.val = q.val; omega
    show V c main_v71 (((cfg6.win 0).blk t).view.emb (ix2 p q)) = V c main_v71 (ix2 R q)
    rw [h]
  · intro p q R hR
    have h : ((cfg6.win 1).blk t).view.emb (ix2 p q) = ix2 R q := by
      funext a; apply Fin.ext
      match a with
      | ⟨0, _⟩ => show win6_1.index t (0 : Fin 2) * 5000 + 1 * p.val = R.val; omega
      | ⟨1, _⟩ => show win6_1.index t (1 : Fin 2) * 128 + 1 * q.val = q.val; omega
    show V c main_v80 (((cfg6.win 1).blk t).view.emb (ix2 p q)) = V c main_v80 (ix2 R q)
    rw [h]
  · intro q
    have h : ((cfg6.win 2).blk t).view.emb (ix2 (0 : Fin 1) q) = ix2 (0 : Fin 1) q := by
      funext a; apply Fin.ext
      match a with
      | ⟨0, _⟩ => show win6_2.index t (0 : Fin 2) * 1 + 1 * 0 = 0; omega
      | ⟨1, _⟩ => show win6_2.index t (1 : Fin 2) * 128 + 1 * q.val = q.val; omega
    show V c main_v87 (((cfg6.win 2).blk t).view.emb (ix2 (0 : Fin 1) q)) = V c main_v87 (ix2 (0 : Fin 1) q)
    rw [h]
  · intro q
    have h : ((cfg6.win 3).blk t).view.emb (ix2 (0 : Fin 1) q) = ix2 (0 : Fin 1) q := by
      funext a; apply Fin.ext
      match a with
      | ⟨0, _⟩ => show win6_3.index t (0 : Fin 2) * 1 + 1 * 0 = 0; omega
      | ⟨1, _⟩ => show win6_3.index t (1 : Fin 2) * 128 + 1 * q.val = q.val; omega
    show V c main_v88 (((cfg6.win 3).blk t).view.emb (ix2 (0 : Fin 1) q)) = V c main_v88 (ix2 (0 : Fin 1) q)
    rw [h]
  · intro q
    have h : ((cfg6.win 4).blk t).view.emb (ix2 (0 : Fin 1) q) = ix2 (0 : Fin 1) q := by
      funext a; apply Fin.ext
      match a with
      | ⟨0, _⟩ => show win6_4.index t (0 : Fin 2) * 1 + 1 * 0 = 0; omega
      | ⟨1, _⟩ => show win6_4.index t (1 : Fin 2) * 128 + 1 * q.val = q.val; omega
    show V c main_v89 (((cfg6.win 4).blk t).view.emb (ix2 (0 : Fin 1) q)) = V c main_v89 (ix2 (0 : Fin 1) q)
    rw [h]
  · show win6_5.index t (0 : Fin 2) * 5000 + 1 * (y 0).val = 5000 * t.val + (y 0).val
    omega
  · show win6_5.index t (1 : Fin 2) * 128 + 1 * (y 1).val = (y 1).val
    omega

/-- An entry of the result array is in point t's block iff each coordinate is in the block's range on its axis. -/
theorem mem_blk (t : Fin cfg6.N) (i : S100000x128.Idx) :
    i ∈ ((cfg6.win 5).blk t).view.set
      ↔ ∀ a : Fin 2, win6_5.index t a * S5000x128.size a ≤ (i a).val
          ∧ (i a).val < win6_5.index t a * S5000x128.size a + S5000x128.size a := by
  show i ∈ ((View.whole main_v90).slice (win6_5.rect t)).set ↔ _
  rw [View.set_slice_whole, Rect.mem_set_unit]
  exact Iff.rfl

/-- Every entry of the result array is in some point's block: row r lies in block r / 5000. -/
theorem cover (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e51⟩ := idx_facts t
  refine ⟨t, flush6_5 t, ?_⟩
  rw [mem_blk]
  intro a
  match a with
  | ⟨0, _⟩ =>
    show win6_5.index t (0 : Fin 2) * 5000 ≤ (i 0).val ∧ (i 0).val < win6_5.index t (0 : Fin 2) * 5000 + 5000
    omega
  | ⟨1, _⟩ =>
    show win6_5.index t (1 : Fin 2) * 128 ≤ (i 1).val ∧ (i 1).val < win6_5.index t (1 : Fin 2) * 128 + 128
    omega

/-- The result array after the launch is the row update of the arrays as the launch finds them. -/
theorem value (c : Dev nD) :
    (dat6 (F := Ideal) V c).arrAt 5 cfg6.N
      = Cert.Spec.upd (V c main_v71) (V c main_v80) (V c main_v87) (V c main_v88) (V c main_v89) :=
  (dat6 (F := Ideal) V c).arrAt_eq_of_cover 5
    (Cert.Spec.upd (V c main_v71) (V c main_v80) (V c main_v87) (V c main_v88) (V c main_v89))
    (fun t _ => flushed_eq V c t) cover

end Cert.KernelIdeal.KReg6

end
-- ==== Proof.KRegUpd8.lean ====
/-
  The fourth update launch: per block of 5000 rows, new = old + relu(aggregate + bias), then each row is centred by
  its mean over the 128 columns, scaled by the inverse root of (its variance + epsilon), multiplied by the scale
  row and shifted by the shift row. Every entry of a row depends on that row only, and block t holds rows
  5000 t .. 5000 t + 4999 of both inputs and of the result, so the result array is the row update of the arrays as
  the launch finds them.
-/
import proofs.«422291_j73607149519132_1_alg».proof.Proof.Gen.KernelIdeal.Frame
import proofs.«422291_j73607149519132_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.KReg8

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the buffer contents when the region is entered: every statement here holds for any such contents
variable (V : (c : Dev nD) → (b : Ref sig .tc) → Buf (Elt Ideal) ((c : Thread nD τ).loc b))

/-! ## Layout steps read at an entry -/

/-- A vector of length a viewed as a column [a, 1] reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column [a, 1] repeated along b columns reads, at (p, c), the column at (p, 0). -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's stages, each read at an entry -/

/-- The block before normalisation: old features plus the positive part of (aggregate + bias row). -/
def preV (x0 : Vec Ideal S5000x128 .f32) (x1 : Vec Ideal S1x128 .f32) (x2 : Vec Ideal S5000x128 .f32) :
    FVec Ideal S5000x128 .f32 :=
  addf (shapeCast S5000x128 x2 shapeCasts_S5000x128_S5000x128)
    (maximumf
      (addf (shapeCast S5000x128 x0 shapeCasts_S5000x128_S5000x128)
        (broadcastTo S5000x128 (shapeCast S1x128 x1 shapeCasts_S1x128_S1x128) broadcasts_S1x128_S5000x128))
      (broadcast S5000x128 (Scalar.ofBits (F := Ideal) .f32 0x00000000#32)))

/-- The row means of a block, as a column: each row's sum over the 128 columns divided by 128. -/
def meanV (w : FVec Ideal S5000x128 .f32) : FVec Ideal S5000x1 .f32 :=
  divf
    (shapeCast S5000x1
      (multiReduction (F := Ideal) .add [1] S5000 w 0x00000000#32 reduces_S5000x128_S5000 (.inl rfl) rfl)
      shapeCasts_S5000_S5000x1)
    (broadcast S5000x1 (Scalar.ofBits (F := Ideal) .f32 0x43000000#32))

/-- A column repeated along the 128 columns. -/
def colV (v : FVec Ideal S5000x1 .f32) : FVec Ideal S5000x128 .f32 :=
  broadcastTo S5000x128 v broadcasts_S5000x1_S5000x128

/-- A row repeated along the 5000 rows. -/
def rowV (v : Vec Ideal S1x128 .f32) : FVec Ideal S5000x128 .f32 :=
  broadcastTo S5000x128 (shapeCast S1x128 v shapeCasts_S1x128_S1x128) broadcasts_S1x128_S5000x128

/-- The deviations of a block from its row means. -/
def devV (w : FVec Ideal S5000x128 .f32) : FVec Ideal S5000x128 .f32 := subf w (colV (meanV w))

/-- The inverse root of (row variance + epsilon), as a column. -/
def invV (w : FVec Ideal S5000x128 .f32) : FVec Ideal S5000x1 .f32 :=
  rsqrt (addf (meanV (mulf (devV w) (devV w))) (broadcast S5000x1 (Scalar.ofBits (F := Ideal) .f32 0x3727C5AC#32)))

/-- The body's result is the composition of its stages. -/
theorem pay_eq (x0 : Vec Ideal S5000x128 .f32) (x1 : Vec Ideal S1x128 .f32) (x2 : Vec Ideal S5000x128 .f32)
    (x3 : Vec Ideal S1x128 .f32) (x4 : Vec Ideal S1x128 .f32) :
    k8_pay1 (F := Ideal) x0 x1 x2 x3 x4
      = addf (mulf (mulf (devV (preV x0 x1 x2)) (colV (invV (preV x0 x1 x2)))) (rowV x3)) (rowV x4) := rfl

/-- The block before normalisation at (r, j): the specification's entry. -/
theorem preV_at (x0 : Vec Ideal S5000x128 .f32) (x1 : Vec Ideal S1x128 .f32) (x2 : Vec Ideal S5000x128 .f32)
    (r : Fin 5000) (j : Fin 128) :
    preV x0 x1 x2 (ix2 r j) = Cert.Spec.preAt (n := 5000) x2 x0 x1 r j := by
  unfold preV Cert.Spec.preAt Cert.Spec.zero
  rw [shapeCast_self, shapeCast_self, shapeCast_self]
  show x2 (ix2 r j) + max (x0 (ix2 r j) + broadcastTo S5000x128 x1 broadcasts_S1x128_S5000x128 (ix2 r j))
      (Ideal.ofBits .f32 0x00000000#32) = _
  rw [broadcastTo_1b_ab_apply]

/-- The row means at (r, 0): the mean of row r. -/
theorem meanV_at (w : FVec Ideal S5000x128 .f32) (r : Fin 5000) (u : Fin 1) :
    meanV w (ix2 r u) = Cert.Spec.mean fun k => w (ix2 r k) := by
  unfold meanV Cert.Spec.mean Cert.Spec.len
  show Ideal.div (shapeCast S5000x1 _ shapeCasts_S5000_S5000x1 (ix2 r u)) (Ideal.ofBits .f32 0x43000000#32) = _
  refine congrArg (fun s => Ideal.div s (Ideal.ofBits .f32 0x43000000#32)) ?_
  refine (shapeCast_a_a1_apply _ shapeCasts_S5000_S5000x1 r u).trans ?_
  refine (Ideal.multiReduction_add_single w 0x00000000#32 reduces_S5000x128_S5000 (.inl rfl) rfl (ix1 r)).trans ?_
  refine Finset.sum_congr rfl fun k _ => congrArg w ?_
  funext c
  apply Fin.ext
  match c with
  | ⟨0, _⟩ => rfl
  | ⟨1, _⟩ => rfl

/-- A repeated column at (r, j) is the column at (r, 0). -/
theorem colV_at (v : FVec Ideal S5000x1 .f32) (r : Fin 5000) (j : Fin 128) :
    colV v (ix2 r j) = v (ix2 r (0 : Fin 1)) :=
  broadcastTo_a1_ab_apply v broadcasts_S5000x1_S5000x128 r j

/-- A repeated row at (r, j) is the row at (0, j). -/
theorem rowV_at (v : Vec Ideal S1x128 .f32) (r : Fin 5000) (j : Fin 128) :
    rowV v (ix2 r j) = v (ix2 (0 : Fin 1) j) := by
  unfold rowV
  rw [shapeCast_self]
  exact broadcastTo_1b_ab_apply v broadcasts_S1x128_S5000x128 r j

/-- The deviation at (r, j): the entry minus its row's mean. -/
theorem devV_at (w : FVec Ideal S5000x128 .f32) (r : Fin 5000) (j : Fin 128) :
    devV w (ix2 r j) = w (ix2 r j) - Cert.Spec.mean fun k => w (ix2 r k) := by
  unfold devV
  show w (ix2 r j) - colV (meanV w) (ix2 r j) = _
  rw [colV_at, meanV_at]

/-- The inverse root at (r, 0): of the mean of row r's squared deviations, plus epsilon. -/
theorem invV_at (w : FVec Ideal S5000x128 .f32) (r : Fin 5000) (u : Fin 1) :
    invV w (ix2 r u)
      = Ideal.rsqrt ((Cert.Spec.mean fun k => devV w (ix2 r k) * devV w (ix2 r k)) + Cert.Spec.eps) := by
  unfold invV Cert.Spec.eps
  show Ideal.rsqrt (meanV (mulf (devV w) (devV w)) (ix2 r u) + Ideal.ofBits .f32 0x3727C5AC#32) = _
  rw [meanV_at]
  rfl

/-- What one block's body computes at entry (r, j), in the words of the row update: x0 is the aggregate block,
    x1 the bias row, x2 the old-feature block, x3 the scale row, x4 the shift row (the order the body loads them). -/
theorem pay_at (x0 : Vec Ideal S5000x128 .f32) (x1 : Vec Ideal S1x128 .f32) (x2 : Vec Ideal S5000x128 .f32)
    (x3 : Vec Ideal S1x128 .f32) (x4 : Vec Ideal S1x128 .f32) (r : Fin 5000) (j : Fin 128) :
    k8_pay1 (F := Ideal) x0 x1 x2 x3 x4 (ix2 r j) = Cert.Spec.updAt (n := 5000) x2 x0 x1 x3 x4 r j := by
  rw [pay_eq]
  show devV (preV x0 x1 x2) (ix2 r j) * colV (invV (preV x0 x1 x2)) (ix2 r j) * rowV x3 (ix2 r j)
      + rowV x4 (ix2 r j) = _
  rw [colV_at, invV_at, rowV_at, rowV_at]
  have hrow : (fun k => preV x0 x1 x2 (ix2 r k)) = Cert.Spec.preAt (n := 5000) x2 x0 x1 r :=
    funext fun k => preV_at x0 x1 x2 r k
  have hdev : ∀ k : Fin 128, devV (preV x0 x1 x2) (ix2 r k)
      = Cert.Spec.preAt (n := 5000) x2 x0 x1 r k - Cert.Spec.muAt (n := 5000) x2 x0 x1 r := by
    intro k
    rw [devV_at, hrow, preV_at]
    rfl
  unfold Cert.Spec.updAt Cert.Spec.varAt
  simp only [hdev]

/-! ## From the blocks to the array -/

/-- The row update at one row reads only that row of the two matrices, and the three rows: settings that agree
    there agree on the update there. -/
theorem updAt_congr_row {n n' : Nat} (x a : Cert.Spec.Mat n 128) (x' a' : Cert.Spec.Mat n' 128)
    (b g be b' g' be' : Cert.Spec.Mat 1 128) (r : Fin n) (r' : Fin n')
    (hx : ∀ k : Fin 128, x (ix2 r k) = x' (ix2 r' k)) (ha : ∀ k : Fin 128, a (ix2 r k) = a' (ix2 r' k))
    (hb : ∀ k : Fin 128, b (ix2 (0 : Fin 1) k) = b' (ix2 (0 : Fin 1) k))
    (hg : ∀ k : Fin 128, g (ix2 (0 : Fin 1) k) = g' (ix2 (0 : Fin 1) k))
    (hbe : ∀ k : Fin 128, be (ix2 (0 : Fin 1) k) = be' (ix2 (0 : Fin 1) k)) (j : Fin 128) :
    Cert.Spec.updAt x a b g be r j = Cert.Spec.updAt x' a' b' g' be' r' j := by
  have hp : Cert.Spec.preAt x a b r = Cert.Spec.preAt x' a' b' r' := funext fun k => by
    unfold Cert.Spec.preAt
    rw [hx k, ha k, hb k]
  unfold Cert.Spec.updAt Cert.Spec.varAt Cert.Spec.muAt
  rw [hp, hg j, hbe j]

/-- One block's result at a block entry is the row update of the whole matrices at the array entry it stands for,
    when the two row blocks are rows 5000 T, 5000 T + 1, … of the matrices and the three rows are the rows. -/
theorem block_at (T : Nat) (X A : Cert.Spec.Mat 100000 128) (b g be : Cert.Spec.Mat 1 128)
    (xb ab : Vec Ideal S5000x128 .f32) (bb gb beb : Vec Ideal S1x128 .f32)
    (hx : ∀ (p : Fin 5000) (q : Fin 128) (R : Fin 100000), R.val = 5000 * T + p.val → xb (ix2 p q) = X (ix2 R q))
    (ha : ∀ (p : Fin 5000) (q : Fin 128) (R : Fin 100000), R.val = 5000 * T + p.val → ab (ix2 p q) = A (ix2 R q))
    (hb : ∀ q : Fin 128, bb (ix2 (0 : Fin 1) q) = b (ix2 (0 : Fin 1) q))
    (hg : ∀ q : Fin 128, gb (ix2 (0 : Fin 1) q) = g (ix2 (0 : Fin 1) q))
    (hbe : ∀ q : Fin 128, beb (ix2 (0 : Fin 1) q) = be (ix2 (0 : Fin 1) q))
    (y : S5000x128.Idx) (i : S100000x128.Idx) (h0 : (i 0).val = 5000 * T + (y 0).val) (h1 : (i 1).val = (y 1).val) :
    k8_pay1 (F := Ideal) ab bb xb gb beb y = Cert.Spec.upd X A b g be i := by
  obtain ⟨p, q, rfl⟩ : ∃ (p : Fin 5000) (q : Fin 128), y = ix2 p q := ⟨y 0, y 1, eq_ix2 y⟩
  obtain ⟨R, q', rfl⟩ : ∃ (R : Fin 100000) (q' : Fin 128), i = ix2 R q' := ⟨i 0, i 1, eq_ix2 i⟩
  obtain rfl : q' = q := Fin.ext h1
  rw [pay_at]
  show Cert.Spec.updAt (n := 5000) xb ab bb gb beb p q' = Cert.Spec.updAt (n := 100000) X A b g be R q'
  exact updAt_congr_row (n := 5000) (n' := 100000) xb ab X A bb gb beb b g be p R
    (fun k => hx p k R h0) (fun k => ha p k R h0) hb hg hbe q'

theorem hz : (![0, 0] : Fin 2 → Nat) = fun _ => 0 := funext fun a => by fin_cases a <;> rfl

/-- The block index maps, decided over the 20 grid points: the two row blocks and the result move down one block
    per point, the three rows stay. -/
theorem idx_facts : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = t.val ∧ win8_5.index t (1 : Fin 2) = 0 :=
  (by decide +kernel : ∀ t : Fin grid8.N, _)

/-- Every block row is some point's. -/
theorem idx_onto : ∀ q0 : Fin 20, ∃ t : Fin cfg8.N, t.val = q0.val :=
  (by decide +kernel : ∀ q0 : Fin 20, ∃ t : Fin grid8.N, t.val = q0.val)

/-- What point t writes back is block t of the row update of the arrays as the launch finds them. -/
theorem flushed_eq (c : Dev nD) (t : Fin cfg8.N) :
    (dat8 (F := Ideal) V c).flushed 5 t
      = ((cfg8.win 5).blk t).view.read (Elt Ideal)
          (Cert.Spec.upd (V c main_v90) (V c main_v99) (V c main_v106) (V c main_v107) (V c main_v108)) := by
  show (cfg8.win 5).cut (grid8.coords t) ((dat8 (F := Ideal) V c).after 5 t) = _
  rw [after8_5]
  unfold out8_5
  rw [View.canon_unit_zero hz]
  simp only [View.ld_unit_zero (S := S5000x128) hz, View.ld_unit_zero (S := S1x128) hz]
  obtain ⟨e00, e01, e10, e11, e20, e21, e30, e31, e40, e41, e50, e51⟩ := idx_facts t
  funext y
  show k8_pay1 (F := Ideal) (iblk8 V c 1 t) (iblk8 V c 2 t) (iblk8 V c 0 t) (iblk8 V c 3 t) (iblk8 V c 4 t) y
    = Cert.Spec.upd (V c main_v90) (V c main_v99) (V c main_v106) (V c main_v107) (V c main_v108)
        (((cfg8.win 5).blk t).view.emb y)
  refine block_at t.val (V c main_v90) (V c main_v99) (V c main_v106) (V c main_v107) (V c main_v108)
    (iblk8 V c 0 t) (iblk8 V c 1 t) (iblk8 V c 2 t) (iblk8 V c 3 t) (iblk8 V c 4 t) ?_ ?_ ?_ ?_ ?_
    y (((cfg8.win 5).blk t).view.emb y) ?_ ?_
  · intro p q R hR
    have h : ((cfg8.win 0).blk t).view.emb (ix2 p q) = ix2 R q := by
      funext a; apply Fin.ext
      match a with
      | ⟨0, _⟩ => show win8_0.index t (0 : Fin 2) * 5000 + 1 * p.val = R.val; omega
      | ⟨1, _⟩ => show win8_0.index t (1 : Fin 2) * 128 + 1 * q.val = q.val; omega
    show V c main_v90 (((cfg8.win 0).blk t).view.emb (ix2 p q)) = V c main_v90 (ix2 R q)
    rw [h]
  · intro p q R hR
    have h : ((cfg8.win 1).blk t).view.emb (ix2 p q) = ix2 R q := by
      funext a; apply Fin.ext
      match a with
      | ⟨0, _⟩ => show win8_1.index t (0 : Fin 2) * 5000 + 1 * p.val = R.val; omega
      | ⟨1, _⟩ => show win8_1.index t (1 : Fin 2) * 128 + 1 * q.val = q.val; omega
    show V c main_v99 (((cfg8.win 1).blk t).view.emb (ix2 p q)) = V c main_v99 (ix2 R q)
    rw [h]
  · intro q
    have h : ((cfg8.win 2).blk t).view.emb (ix2 (0 : Fin 1) q) = ix2 (0 : Fin 1) q := by
      funext a; apply Fin.ext
      match a with
      | ⟨0, _⟩ => show win8_2.index t (0 : Fin 2) * 1 + 1 * 0 = 0; omega
      | ⟨1, _⟩ => show win8_2.index t (1 : Fin 2) * 128 + 1 * q.val = q.val; omega
    show V c main_v106 (((cfg8.win 2).blk t).view.emb (ix2 (0 : Fin 1) q)) = V c main_v106 (ix2 (0 : Fin 1) q)
    rw [h]
  · intro q
    have h : ((cfg8.win 3).blk t).view.emb (ix2 (0 : Fin 1) q) = ix2 (0 : Fin 1) q := by
      funext a; apply Fin.ext
      match a with
      | ⟨0, _⟩ => show win8_3.index t (0 : Fin 2) * 1 + 1 * 0 = 0; omega
      | ⟨1, _⟩ => show win8_3.index t (1 : Fin 2) * 128 + 1 * q.val = q.val; omega
    show V c main_v107 (((cfg8.win 3).blk t).view.emb (ix2 (0 : Fin 1) q)) = V c main_v107 (ix2 (0 : Fin 1) q)
    rw [h]
  · intro q
    have h : ((cfg8.win 4).blk t).view.emb (ix2 (0 : Fin 1) q) = ix2 (0 : Fin 1) q := by
      funext a; apply Fin.ext
      match a with
      | ⟨0, _⟩ => show win8_4.index t (0 : Fin 2) * 1 + 1 * 0 = 0; omega
      | ⟨1, _⟩ => show win8_4.index t (1 : Fin 2) * 128 + 1 * q.val = q.val; omega
    show V c main_v108 (((cfg8.win 4).blk t).view.emb (ix2 (0 : Fin 1) q)) = V c main_v108 (ix2 (0 : Fin 1) q)
    rw [h]
  · show win8_5.index t (0 : Fin 2) * 5000 + 1 * (y 0).val = 5000 * t.val + (y 0).val
    omega
  · show win8_5.index t (1 : Fin 2) * 128 + 1 * (y 1).val = (y 1).val
    omega

/-- An entry of the result array is in point t's block iff each coordinate is in the block's range on its axis. -/
theorem mem_blk (t : Fin cfg8.N) (i : S100000x128.Idx) :
    i ∈ ((cfg8.win 5).blk t).view.set
      ↔ ∀ a : Fin 2, win8_5.index t a * S5000x128.size a ≤ (i a).val
          ∧ (i a).val < win8_5.index t a * S5000x128.size a + S5000x128.size a := by
  show i ∈ ((View.whole main_v109).slice (win8_5.rect t)).set ↔ _
  rw [View.set_slice_whole, Rect.mem_set_unit]
  exact Iff.rfl

/-- Every entry of the result array is in some point's block: row r lies in block r / 5000. -/
theorem cover (i : S100000x128.Idx) :
    ∃ t : Fin cfg8.N, (cfg8.win 5).flush t = true ∧ i ∈ ((cfg8.win 5).blk t).view.set := by
  have hi0 : (i 0).val < 100000 := (i 0).isLt
  have hi1 : (i 1).val < 128 := (i 1).isLt
  obtain ⟨t, ht⟩ := idx_onto ⟨(i 0).val / 5000, by omega⟩
  have ht' : t.val = (i 0).val / 5000 := ht
  obtain ⟨e00, e01, e10, e11, e20, e21, e30, e31, e40, e41, e50, e51⟩ := idx_facts t
  refine ⟨t, flush8_5 t, ?_⟩
  rw [mem_blk]
  intro a
  match a with
  | ⟨0, _⟩ =>
    show win8_5.index t (0 : Fin 2) * 5000 ≤ (i 0).val ∧ (i 0).val < win8_5.index t (0 : Fin 2) * 5000 + 5000
    omega
  | ⟨1, _⟩ =>
    show win8_5.index t (1 : Fin 2) * 128 ≤ (i 1).val ∧ (i 1).val < win8_5.index t (1 : Fin 2) * 128 + 128
    omega

/-- The result array after the launch is the row update of the arrays as the launch finds them. -/
theorem value (c : Dev nD) :
    (dat8 (F := Ideal) V c).arrAt 5 cfg8.N
      = Cert.Spec.upd (V c main_v90) (V c main_v99) (V c main_v106) (V c main_v107) (V c main_v108) :=
  (dat8 (F := Ideal) V c).arrAt_eq_of_cover 5
    (Cert.Spec.upd (V c main_v90) (V c main_v99) (V c main_v106) (V c main_v107) (V c main_v108))
    (fun t _ => flushed_eq V c t) cover

end Cert.KernelIdeal.KReg8

end
-- ==== Proof.Terms.lean ====
/-
  The host-side pieces both programs share, as functions of the argument arrays (all at the extended reals):
  the edge lists with self loops appended, an index list wrapped the way array indexing reads a negative index,
  the degrees and the per-edge scale 1/sqrt(deg src) * 1/sqrt(deg dst), a round's weight matrix and bias /
  scale / shift vectors cut out of the stacked arguments, the gathered rows of a feature matrix along the edges,
  the scaled rows added up per target node, and the transposed output weights.
-/
import proofs.«422291_j73607149519132_1_alg».proof.Proof.Gen.ReferenceIdeal
import Idealize.ShloMosaic.PureOps.Ideal

noncomputable section

namespace Cert.Net

open Cert.ReferenceIdeal Cert.ReferenceIdeal.Facts₀ Cert.ReferenceIdeal.Facts Idealize.ShloMosaic

/-- The source node of every edge, then every node once more (the self loops). -/
def srcT (a1 : IVec S2x600000 32) : IVec S700000 32 :=
  concatenate S700000 0
    [⟨S600000, shapeCast S600000 (extractStridedSlice S1x600000 ![0, 0] a1 slices_S2x600000_S1x600000_0_0) shapeCasts_S1x600000_S600000⟩,
     ⟨S100000, iotaInDim S100000 32 0⟩] concatenates_S600000_S100000_S700000_d0

/-- The target node of every edge, then every node once more. -/
def dstT (a1 : IVec S2x600000 32) : IVec S700000 32 :=
  concatenate S700000 0
    [⟨S600000, shapeCast S600000 (extractStridedSlice S1x600000 ![1, 0] a1 slices_S2x600000_S1x600000_1_0) shapeCasts_S1x600000_S600000⟩,
     ⟨S100000, iotaInDim S100000 32 0⟩] concatenates_S600000_S100000_S700000_d0

/-- A list of node numbers as a column of start indices, a negative number counted from the end. -/
def wrapT (v : IVec S700000 32) : IVec S700000x1 32 :=
  broadcastInDim S700000x1 ![0] bcast_S700000_S700000x1_0
    (select (cmpi .slt v (broadcastInDim S700000 ![] bcast_S_S700000 (constantI S_ 32 0#32)))
      (addi v (broadcastInDim S700000 ![] bcast_S_S700000 (constantI S_ 32 100000#32))) v)

/-- The number of edges (self loop included) into each node. -/
def degT (a1 : IVec S2x600000 32) : FVec Ideal S100000 .f32 :=
  Host.scatterAdd scatter_S100000_S700000x1_S700000_n_0_0_1
    (broadcastInDim S100000 ![] bcast_S_S100000 (constant S_ .f32 0x00000000#32))
    (broadcastInDim S700000x1 ![0] bcast_S700000_S700000x1_0 (dstT a1))
    (broadcastInDim S700000 ![] bcast_S_S700000 (constant S_ .f32 0x3F800000#32))

/-- 1/sqrt(max(deg, 1)) where the degree is positive, zero elsewhere. -/
def disT (a1 : IVec S2x600000 32) : FVec Ideal S100000 .f32 :=
  select (cmpf .ogt (degT a1) (broadcastInDim S100000 ![] bcast_S_S100000 (constant S_ .f32 0x00000000#32)))
    (Host.rsqrt (maximumf (degT a1) (broadcastInDim S100000 ![] bcast_S_S100000 (constant S_ .f32 0x3F800000#32))))
    (broadcastInDim S100000 ![] bcast_S_S100000 (id (constant S_ .f32 0x00000000#32)))

/-- The per-edge scale, as a column: the source's factor times the target's. -/
def normT (a1 : IVec S2x600000 32) : FVec Ideal S700000x1 .f32 :=
  broadcastInDim S700000x1 ![0] bcast_S700000_S700000x1_0
    (mulf (Host.gather gather_S100000_S700000x1_S700000_n_0_n_n_0_1_1 (disT a1) (wrapT (srcT a1)))
      (Host.gather gather_S100000_S700000x1_S700000_n_0_n_n_0_1_1 (disT a1) (wrapT (dstT a1))))

/-- The rows of a feature matrix at the edges' source nodes. -/
def gathT (xw : FVec Ideal S100000x128 .f32) (a1 : IVec S2x600000 32) : FVec Ideal S700000x128 .f32 :=
  Host.gather gather_S100000x128_S700000x1_S700000x128_1_0_n_n_0_1_1128 xw (wrapT (srcT a1))

/-- Per-edge rows scaled and added up at the edges' target nodes. -/
def aggT (a1 : IVec S2x600000 32) (t : FVec Ideal S700000x128 .f32) : FVec Ideal S100000x128 .f32 :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 (dstT a1))
    (mulf (broadcastInDim S700000x128 ![0, 1] bcast_S700000x1_S700000x128_0_1 (normT a1)) t)

/-- Round l's weight matrix. -/
def w0T (a5 : FVec Ideal S4x128x128 .f32) : FVec Ideal S128x128 .f32 :=
  shapeCast S128x128 (extractStridedSlice S1x128x128 ![0, 0, 0] a5 slices_S4x128x128_S1x128x128_0_0_0) shapeCasts_S1x128x128_S128x128
def w1T (a5 : FVec Ideal S4x128x128 .f32) : FVec Ideal S128x128 .f32 :=
  shapeCast S128x128 (extractStridedSlice S1x128x128 ![1, 0, 0] a5 slices_S4x128x128_S1x128x128_1_0_0) shapeCasts_S1x128x128_S128x128
def w2T (a5 : FVec Ideal S4x128x128 .f32) : FVec Ideal S128x128 .f32 :=
  shapeCast S128x128 (extractStridedSlice S1x128x128 ![2, 0, 0] a5 slices_S4x128x128_S1x128x128_2_0_0) shapeCasts_S1x128x128_S128x128
def w3T (a5 : FVec Ideal S4x128x128 .f32) : FVec Ideal S128x128 .f32 :=
  shapeCast S128x128 (extractStridedSlice S1x128x128 ![3, 0, 0] a5 slices_S4x128x128_S1x128x128_3_0_0) shapeCasts_S1x128x128_S128x128

/-- Row l of a stack of four vectors of 128 numbers. -/
def v0T (a : FVec Ideal S4x128 .f32) : FVec Ideal S128 .f32 :=
  shapeCast S128 (extractStridedSlice S1x128 ![0, 0] a slices_S4x128_S1x128_0_0) shapeCasts_S1x128_S128
def v1T (a : FVec Ideal S4x128 .f32) : FVec Ideal S128 .f32 :=
  shapeCast S128 (extractStridedSlice S1x128 ![1, 0] a slices_S4x128_S1x128_1_0) shapeCasts_S1x128_S128
def v2T (a : FVec Ideal S4x128 .f32) : FVec Ideal S128 .f32 :=
  shapeCast S128 (extractStridedSlice S1x128 ![2, 0] a slices_S4x128_S1x128_2_0) shapeCasts_S1x128_S128
def v3T (a : FVec Ideal S4x128 .f32) : FVec Ideal S128 .f32 :=
  shapeCast S128 (extractStridedSlice S1x128 ![3, 0] a slices_S4x128_S1x128_3_0) shapeCasts_S1x128_S128

/-- The output weights transposed. -/
def trT (a9 : FVec Ideal S32x128 .f32) : FVec Ideal S128x32 .f32 :=
  transpose S128x32 [1, 0] a9 transposes_S32x128_S128x32_1_0

end Cert.Net

end
-- ==== Proof.NetK.lean ====
/-
  The kernel program's computation as a function of its argument arrays: its launches as the matrix product,
  the row update and the table lookup of the mathematics, and between them the host operations it runs. It
  differs from the reference's in three places: the first layer (a lookup, not two gathers), the rows read
  along the edges (a gather whose out-of-range rows are replaced by a fill value), and the bias / scale / shift
  vectors, which it lays out as one-row matrices.
-/
import proofs.«422291_j73607149519132_1_alg».proof.Proof.Gen.KernelIdeal
import proofs.«422291_j73607149519132_1_alg».proof.Proof.Terms
import proofs.«422291_j73607149519132_1_alg».proof.Proof.Spec

noncomputable section

namespace Cert.Net

open Cert.KernelIdeal Cert.KernelIdeal.Facts₀ Cert.KernelIdeal.Facts Idealize.ShloMosaic

/-- The rows of a feature matrix at the edges' source nodes, a row whose (wrapped) node number is outside
    0..99999 replaced by the fill value. -/
def takeK (xw : FVec Ideal S100000x128 .f32) (a1 : IVec S2x600000 32) : FVec Ideal S700000x128 .f32 :=
  select
    (broadcastInDim S700000x128 ![0] bcast_S700000_S700000x128_0
      (Host.reduce IntOp.andi
        (andi (cmpi .sge (wrapT (srcT a1)) (broadcastInDim S700000x1 ![] bcast_S_S700000x1 (constantI S_ 32 0#32)))
          (cmpi .sle (wrapT (srcT a1))
            (broadcastInDim S700000x1 ![0, 1] bcast_S1x1_S700000x1_0_1 (broadcastInDim S1x1 ![1] bcast_S1_S1x1_1 (constantI S1 32 99999#32)))))
        (constantI S_ 1 1#1) reducesTo_S700000x1_S700000_d1 h_S_))
    (Host.gather gather_S100000x128_S700000x1_S700000x128_1_0_n_n_0_1_1128 xw (wrapT (srcT a1)))
    (broadcastInDim S700000x128 ![] bcast_S_S700000x128 (constant S_ .f32 0x7FC00000#32))

/-- A vector of 128 numbers laid out as a matrix of one row. -/
def rowK (v : FVec Ideal S128 .f32) : FVec Ideal S1x128 .f32 := shapeCast S1x128 v shapeCasts_S128_S1x128

/-- One round on a feature matrix. -/
def layerK (a1 : IVec S2x600000 32) (w : FVec Ideal S128x128 .f32) (b g be : FVec Ideal S128 .f32) (x : FVec Ideal S100000x128 .f32) :
    FVec Ideal S100000x128 .f32 :=
  Cert.Spec.upd x (aggT a1 (takeK (Cert.Spec.mm x w) a1)) (rowK b) (rowK g) (rowK be)

/-- The whole kernel program's computation. -/
def outK (a0 : IVec S100000x2 32) (a1 : IVec S2x600000 32) (a3 a4 : FVec Ideal S65x128 .f32) (a5 : FVec Ideal S4x128x128 .f32)
    (a6 a7 a8 : FVec Ideal S4x128 .f32) (a9 : FVec Ideal S32x128 .f32) : FVec Ideal S100000x32 .f32 :=
  Cert.Spec.mm
    (layerK a1 (w3T a5) (v3T a6) (v3T a7) (v3T a8)
      (layerK a1 (w2T a5) (v2T a6) (v2T a7) (v2T a8)
        (layerK a1 (w1T a5) (v1T a6) (v1T a7) (v1T a8)
          (layerK a1 (w0T a5) (v0T a6) (v0T a7) (v0T a8) (Cert.Spec.emb a0 a3 a4)))))
    (trT a9)

end Cert.Net

end
-- ==== Proof.KChain.lean ====
/-
  The kernel program's result buffer after its run, as the function of the argument arrays: region by region and
  host stretch by host stretch, each buffer read is traced back to the segment that wrote it.
-/
import proofs.«422291_j73607149519132_1_alg».proof.Proof.KRun
import proofs.«422291_j73607149519132_1_alg».proof.Proof.KWalk
import proofs.«422291_j73607149519132_1_alg».proof.Proof.KReg0
import proofs.«422291_j73607149519132_1_alg».proof.Proof.KRegMM1
import proofs.«422291_j73607149519132_1_alg».proof.Proof.KRegMM3
import proofs.«422291_j73607149519132_1_alg».proof.Proof.KRegMM5
import proofs.«422291_j73607149519132_1_alg».proof.Proof.KRegMM7
import proofs.«422291_j73607149519132_1_alg».proof.Proof.KRegProj9
import proofs.«422291_j73607149519132_1_alg».proof.Proof.KRegUpd2
import proofs.«422291_j73607149519132_1_alg».proof.Proof.KRegUpd4
import proofs.«422291_j73607149519132_1_alg».proof.Proof.KRegUpd6
import proofs.«422291_j73607149519132_1_alg».proof.Proof.KRegUpd8
import proofs.«422291_j73607149519132_1_alg».proof.Proof.NetK
import Idealize.ShloMosaic.Lib.StableHlo.Run

set_option maxRecDepth 16384

noncomputable section

open scoped BigOperators

namespace Cert.KernelIdeal.KChain

open Cert.KernelIdeal Cert.KernelIdeal.Gen
open Idealize.ShloMosaic Idealize.ShloMosaic.TcCoe Idealize.SL.Sem Idealize.ShloMosaic.StableHlo

/-! ## The host stretches, each for any contents W of the buffers it reads

A stretch is a straight line of host operations; what it leaves in a buffer is the composition of its operations'
functions, read off the line one operation at a time. Each lemma names what the buffers the stretch reads hold and
states what a buffer it writes holds afterwards, as a term of the shared host-side pieces. -/

/-- Contents moved to a typed reference's own type and back are unchanged. -/
theorem ofBuf_toBuf {Val : EltTy → Type} {T : BufTy} (x : TRef sig T) (v : T.Contents Val) : x.ofBuf (x.toBuf v) = v := by
  obtain ⟨r, h, h2, h3⟩ := x
  subst h
  rfl

/-- At a reference whose buffer type is the value's own type, the move between the two is the identity. -/
theorem ofBuf_v4 (h1 : main_v4.ty = ⟨S700000, .i32⟩) (h2 : main_v4.space ≠ .host) (h3 : main_v4.isScoped = false)
    (v : IVec S700000 32) : (TRef.of main_v4 h1 h2 h3).ofBuf (Val := Elt Ideal) v = v := rfl

/-! ### Before the first round: the edge lists, the degrees, the per-edge scale, the first weight matrix -/

/-- The source list with the self loops appended. -/
theorem h1_src (W : Valuation τ sig (Elt Ideal)) (a1 : IVec S2x600000 32) (h : W (Proc.devRef .tc main_arg1) = a1) :
    after (hostOps1 (F := Ideal)) W (Proc.devRef .tc main_v4) = Cert.Net.srcT a1 := by
  subst h
  dsimp only [hostOps1]
  after_results
  rfl

/-- The target list with the self loops appended. -/
theorem h1_dst (W : Valuation τ sig (Elt Ideal)) (a1 : IVec S2x600000 32) (h : W (Proc.devRef .tc main_arg1) = a1) :
    after (hostOps1 (F := Ideal)) W (Proc.devRef .tc main_v7) = Cert.Net.dstT a1 := by
  subst h
  dsimp only [hostOps1]
  after_results
  rfl

/-- Where the degree is positive. -/
theorem h1_v13 (W : Valuation τ sig (Elt Ideal)) (a1 : IVec S2x600000 32) (h : W (Proc.devRef .tc main_arg1) = a1) :
    after (hostOps1 (F := Ideal)) W (Proc.devRef .tc main_v13)
      = cmpf .ogt (Cert.Net.degT a1) (broadcastInDim S100000 ![] bcast_S_S100000 (constant (F := Ideal) S_ .f32 0x00000000#32)) := by
  subst h
  dsimp only [hostOps1]
  after_results
  rfl

/-- The inverse root of the degree, the degree raised to at least one. -/
theorem h1_v16 (W : Valuation τ sig (Elt Ideal)) (a1 : IVec S2x600000 32) (h : W (Proc.devRef .tc main_arg1) = a1) :
    after (hostOps1 (F := Ideal)) W (Proc.devRef .tc main_v16)
      = Host.rsqrt (maximumf (Cert.Net.degT a1) (broadcastInDim S100000 ![] bcast_S_S100000 (constant (F := Ideal) S_ .f32 0x3F800000#32))) := by
  subst h
  dsimp only [hostOps1]
  after_results
  rfl

/-- The zero the selection falls back to. -/
theorem h1_cst3 (W : Valuation τ sig (Elt Ideal)) :
    after (hostOps1 (F := Ideal)) W (Proc.devRef .tc main_cst_3) = constant (F := Ideal) S_ .f32 0x00000000#32 := by
  dsimp only [hostOps1]
  after_results

/-- The selection between the two, from whatever the three buffers it reads hold. -/
theorem h11_sel (W : Valuation τ sig (Elt Ideal)) (p : IVec S100000 1) (a : FVec Ideal S100000 .f32) (z : FVec Ideal S_ .f32)
    (h13 : W (Proc.devRef .tc main_v13) = p) (h16 : W (Proc.devRef .tc main_v16) = a) (hz : W (Proc.devRef .tc main_cst_3) = z) :
    after (hostOps1_1 (F := Ideal)) W (Proc.devRef .tc main_v17)
      = select p a (broadcastInDim S100000 ![] bcast_S_S100000 (id z)) := by
  subst h13 h16 hz
  dsimp only [hostOps1_1]
  after_results
  rfl

/-- The per-node factor 1/sqrt(max(deg, 1)) where the degree is positive, zero elsewhere. -/
theorem h11_dis (W : Valuation τ sig (Elt Ideal)) (a1 : IVec S2x600000 32) (h : W (Proc.devRef .tc main_arg1) = a1) :
    after (hostOps1_1 (F := Ideal)) (after (hostOps1 (F := Ideal)) W) (Proc.devRef .tc main_v17) = Cert.Net.disT a1 :=
  h11_sel (after (hostOps1 (F := Ideal)) W) _ _ _ (h1_v13 W a1 h) (h1_v16 W a1 h) (h1_cst3 W)

set_option maxHeartbeats 4000000 in
/-- The per-edge scale: the source's factor times the target's. -/
theorem h12_norm (W : Valuation τ sig (Elt Ideal)) (a1 : IVec S2x600000 32)
    (h4 : W (Proc.devRef .tc main_v4) = Cert.Net.srcT a1) (h7 : W (Proc.devRef .tc main_v7) = Cert.Net.dstT a1)
    (h17 : W (Proc.devRef .tc main_v17) = Cert.Net.disT a1) :
    after (hostOps1_2 (F := Ideal)) W (Proc.devRef .tc main_v33) = Cert.Net.normT a1 := by
  dsimp only [hostOps1_2]
  after_results
  rw [h4, h7, h17]
  rfl

set_option maxHeartbeats 4000000 in
/-- The first round's weight matrix, cut out of the stack. -/
theorem h12_w (W : Valuation τ sig (Elt Ideal)) (a5 : FVec Ideal S4x128x128 .f32) (h : W (Proc.devRef .tc main_arg5) = a5) :
    after (hostOps1_2 (F := Ideal)) W (Proc.devRef .tc main_v35) = Cert.Net.w0T a5 := by
  subst h
  dsimp only [hostOps1_2]
  after_results
  rfl

/-! ### The four rounds' stretches: the same operations on each round's own buffers -/

theorem ofBuf_v36 (h1 : main_v36.ty = ⟨S100000x128, .f32⟩) (h2 : main_v36.space ≠ .host) (h3 : main_v36.isScoped = false)
    (v : FVec Ideal S100000x128 .f32) : (TRef.of main_v36 h1 h2 h3).ofBuf (Val := Elt Ideal) v = v := rfl
theorem toBuf_v37 (h1 : main_v37.ty = ⟨S700000x128, .f32⟩) (h2 : main_v37.space ≠ .host) (h3 : main_v37.isScoped = false)
    (v : FVec Ideal S700000x128 .f32) : (TRef.of main_v37 h1 h2 h3).toBuf (Val := Elt Ideal) v = v := rfl

set_option maxHeartbeats 4000000 in
/-- The first round's rows along the edges: the stretch computes the wrapped source numbers, the in-range mask, the
    gathered rows and the fill value, and selects between them. -/
theorem h2_take (W : Valuation τ sig (Elt Ideal)) (a1 : IVec S2x600000 32) (xw : FVec Ideal S100000x128 .f32)
    (hx : W (Proc.devRef .tc main_v36) = xw) (h4 : W (Proc.devRef .tc main_v4) = Cert.Net.srcT a1) :
    after (hostOps2 (F := Ideal)) W (Proc.devRef .tc main_v37) = Cert.Net.takeK xw a1 := by
  dsimp only [hostOps2]
  after_results
  dsimp only [main_call1_call0]
  simp only [ofBuf_toBuf]
  rw [hx, h4]
  simp only [ofBuf_v4, ofBuf_v36, toBuf_v37]
  rfl

/-- The first round's aggregate: the gathered rows scaled per edge and added up at the target nodes. -/
theorem h2_1_agg (W : Valuation τ sig (Elt Ideal)) (a1 : IVec S2x600000 32) (t : FVec Ideal S700000x128 .f32)
    (h7 : W (Proc.devRef .tc main_v7) = Cert.Net.dstT a1) (h33 : W (Proc.devRef .tc main_v33) = Cert.Net.normT a1)
    (ht : W (Proc.devRef .tc main_v37) = t) :
    after (hostOps2_1 (F := Ideal)) W (Proc.devRef .tc main_v42) = Cert.Net.aggT a1 t := by
  dsimp only [hostOps2_1]
  after_results
  rw [h7, h33, ht]
  rfl

/-- The first round's bias, scale and shift: a row of the stacked vectors, laid out as a one-row matrix. -/
theorem h2_1_b (W : Valuation τ sig (Elt Ideal)) (a6 : FVec Ideal S4x128 .f32) (h : W (Proc.devRef .tc main_arg6) = a6) :
    after (hostOps2_1 (F := Ideal)) W (Proc.devRef .tc main_v49) = Cert.Net.rowK (Cert.Net.v0T a6) := by
  subst h
  dsimp only [hostOps2_1]
  after_results
  rfl
theorem h2_1_g (W : Valuation τ sig (Elt Ideal)) (a7 : FVec Ideal S4x128 .f32) (h : W (Proc.devRef .tc main_arg7) = a7) :
    after (hostOps2_1 (F := Ideal)) W (Proc.devRef .tc main_v50) = Cert.Net.rowK (Cert.Net.v0T a7) := by
  subst h
  dsimp only [hostOps2_1]
  after_results
  rfl
theorem h2_1_be (W : Valuation τ sig (Elt Ideal)) (a8 : FVec Ideal S4x128 .f32) (h : W (Proc.devRef .tc main_arg8) = a8) :
    after (hostOps2_1 (F := Ideal)) W (Proc.devRef .tc main_v51) = Cert.Net.rowK (Cert.Net.v0T a8) := by
  subst h
  dsimp only [hostOps2_1]
  after_results
  rfl

theorem ofBuf_v55 (h1 : main_v55.ty = ⟨S100000x128, .f32⟩) (h2 : main_v55.space ≠ .host) (h3 : main_v55.isScoped = false)
    (v : FVec Ideal S100000x128 .f32) : (TRef.of main_v55 h1 h2 h3).ofBuf (Val := Elt Ideal) v = v := rfl
theorem toBuf_v56 (h1 : main_v56.ty = ⟨S700000x128, .f32⟩) (h2 : main_v56.space ≠ .host) (h3 : main_v56.isScoped = false)
    (v : FVec Ideal S700000x128 .f32) : (TRef.of main_v56 h1 h2 h3).toBuf (Val := Elt Ideal) v = v := rfl

set_option maxHeartbeats 4000000 in
/-- The second round's rows along the edges: the stretch computes the wrapped source numbers, the in-range mask, the
    gathered rows and the fill value, and selects between them. -/
theorem h4_take (W : Valuation τ sig (Elt Ideal)) (a1 : IVec S2x600000 32) (xw : FVec Ideal S100000x128 .f32)
    (hx : W (Proc.devRef .tc main_v55) = xw) (h4 : W (Proc.devRef .tc main_v4) = Cert.Net.srcT a1) :
    after (hostOps4 (F := Ideal)) W (Proc.devRef .tc main_v56) = Cert.Net.takeK xw a1 := by
  dsimp only [hostOps4]
  after_results
  dsimp only [main_call2_call0]
  simp only [ofBuf_toBuf]
  rw [hx, h4]
  simp only [ofBuf_v4, ofBuf_v55, toBuf_v56]
  rfl

/-- The second round's aggregate: the gathered rows scaled per edge and added up at the target nodes. -/
theorem h4_1_agg (W : Valuation τ sig (Elt Ideal)) (a1 : IVec S2x600000 32) (t : FVec Ideal S700000x128 .f32)
    (h7 : W (Proc.devRef .tc main_v7) = Cert.Net.dstT a1) (h33 : W (Proc.devRef .tc main_v33) = Cert.Net.normT a1)
    (ht : W (Proc.devRef .tc main_v56) = t) :
    after (hostOps4_1 (F := Ideal)) W (Proc.devRef .tc main_v61) = Cert.Net.aggT a1 t := by
  dsimp only [hostOps4_1]
  after_results
  rw [h7, h33, ht]
  rfl

/-- The second round's bias, scale and shift: a row of the stacked vectors, laid out as a one-row matrix. -/
theorem h4_1_b (W : Valuation τ sig (Elt Ideal)) (a6 : FVec Ideal S4x128 .f32) (h : W (Proc.devRef .tc main_arg6) = a6) :
    after (hostOps4_1 (F := Ideal)) W (Proc.devRef .tc main_v68) = Cert.Net.rowK (Cert.Net.v1T a6) := by
  subst h
  dsimp only [hostOps4_1]
  after_results
  rfl
theorem h4_1_g (W : Valuation τ sig (Elt Ideal)) (a7 : FVec Ideal S4x128 .f32) (h : W (Proc.devRef .tc main_arg7) = a7) :
    after (hostOps4_1 (F := Ideal)) W (Proc.devRef .tc main_v69) = Cert.Net.rowK (Cert.Net.v1T a7) := by
  subst h
  dsimp only [hostOps4_1]
  after_results
  rfl
theorem h4_1_be (W : Valuation τ sig (Elt Ideal)) (a8 : FVec Ideal S4x128 .f32) (h : W (Proc.devRef .tc main_arg8) = a8) :
    after (hostOps4_1 (F := Ideal)) W (Proc.devRef .tc main_v70) = Cert.Net.rowK (Cert.Net.v1T a8) := by
  subst h
  dsimp only [hostOps4_1]
  after_results
  rfl

/-- The second round's weight matrix, cut out of the stack. -/
theorem h3_w (W : Valuation τ sig (Elt Ideal)) (a5 : FVec Ideal S4x128x128 .f32) (h : W (Proc.devRef .tc main_arg5) = a5) :
    after (hostOps3 (F := Ideal)) W (Proc.devRef .tc main_v54) = Cert.Net.w1T a5 := by
  subst h
  dsimp only [hostOps3]
  after_results
  rfl

theorem ofBuf_v74 (h1 : main_v74.ty = ⟨S100000x128, .f32⟩) (h2 : main_v74.space ≠ .host) (h3 : main_v74.isScoped = false)
    (v : FVec Ideal S100000x128 .f32) : (TRef.of main_v74 h1 h2 h3).ofBuf (Val := Elt Ideal) v = v := rfl
theorem toBuf_v75 (h1 : main_v75.ty = ⟨S700000x128, .f32⟩) (h2 : main_v75.space ≠ .host) (h3 : main_v75.isScoped = false)
    (v : FVec Ideal S700000x128 .f32) : (TRef.of main_v75 h1 h2 h3).toBuf (Val := Elt Ideal) v = v := rfl

set_option maxHeartbeats 4000000 in
/-- The third round's rows along the edges: the stretch computes the wrapped source numbers, the in-range mask, the
    gathered rows and the fill value, and selects between them. -/
theorem h6_take (W : Valuation τ sig (Elt Ideal)) (a1 : IVec S2x600000 32) (xw : FVec Ideal S100000x128 .f32)
    (hx : W (Proc.devRef .tc main_v74) = xw) (h4 : W (Proc.devRef .tc main_v4) = Cert.Net.srcT a1) :
    after (hostOps6 (F := Ideal)) W (Proc.devRef .tc main_v75) = Cert.Net.takeK xw a1 := by
  dsimp only [hostOps6]
  after_results
  dsimp only [main_call3_call0]
  simp only [ofBuf_toBuf]
  rw [hx, h4]
  simp only [ofBuf_v4, ofBuf_v74, toBuf_v75]
  rfl

/-- The third round's aggregate: the gathered rows scaled per edge and added up at the target nodes. -/
theorem h6_1_agg (W : Valuation τ sig (Elt Ideal)) (a1 : IVec S2x600000 32) (t : FVec Ideal S700000x128 .f32)
    (h7 : W (Proc.devRef .tc main_v7) = Cert.Net.dstT a1) (h33 : W (Proc.devRef .tc main_v33) = Cert.Net.normT a1)
    (ht : W (Proc.devRef .tc main_v75) = t) :
    after (hostOps6_1 (F := Ideal)) W (Proc.devRef .tc main_v80) = Cert.Net.aggT a1 t := by
  dsimp only [hostOps6_1]
  after_results
  rw [h7, h33, ht]
  rfl

/-- The third round's bias, scale and shift: a row of the stacked vectors, laid out as a one-row matrix. -/
theorem h6_1_b (W : Valuation τ sig (Elt Ideal)) (a6 : FVec Ideal S4x128 .f32) (h : W (Proc.devRef .tc main_arg6) = a6) :
    after (hostOps6_1 (F := Ideal)) W (Proc.devRef .tc main_v87) = Cert.Net.rowK (Cert.Net.v2T a6) := by
  subst h
  dsimp only [hostOps6_1]
  after_results
  rfl
theorem h6_1_g (W : Valuation τ sig (Elt Ideal)) (a7 : FVec Ideal S4x128 .f32) (h : W (Proc.devRef .tc main_arg7) = a7) :
    after (hostOps6_1 (F := Ideal)) W (Proc.devRef .tc main_v88) = Cert.Net.rowK (Cert.Net.v2T a7) := by
  subst h
  dsimp only [hostOps6_1]
  after_results
  rfl
theorem h6_1_be (W : Valuation τ sig (Elt Ideal)) (a8 : FVec Ideal S4x128 .f32) (h : W (Proc.devRef .tc main_arg8) = a8) :
    after (hostOps6_1 (F := Ideal)) W (Proc.devRef .tc main_v89) = Cert.Net.rowK (Cert.Net.v2T a8) := by
  subst h
  dsimp only [hostOps6_1]
  after_results
  rfl

/-- The third round's weight matrix, cut out of the stack. -/
theorem h5_w (W : Valuation τ sig (Elt Ideal)) (a5 : FVec Ideal S4x128x128 .f32) (h : W (Proc.devRef .tc main_arg5) = a5) :
    after (hostOps5 (F := Ideal)) W (Proc.devRef .tc main_v73) = Cert.Net.w2T a5 := by
  subst h
  dsimp only [hostOps5]
  after_results
  rfl

theorem ofBuf_v93 (h1 : main_v93.ty = ⟨S100000x128, .f32⟩) (h2 : main_v93.space ≠ .host) (h3 : main_v93.isScoped = false)
    (v : FVec Ideal S100000x128 .f32) : (TRef.of main_v93 h1 h2 h3).ofBuf (Val := Elt Ideal) v = v := rfl
theorem toBuf_v94 (h1 : main_v94.ty = ⟨S700000x128, .f32⟩) (h2 : main_v94.space ≠ .host) (h3 : main_v94.isScoped = false)
    (v : FVec Ideal S700000x128 .f32) : (TRef.of main_v94 h1 h2 h3).toBuf (Val := Elt Ideal) v = v := rfl

set_option maxHeartbeats 4000000 in
/-- The fourth round's rows along the edges: the stretch computes the wrapped source numbers, the in-range mask, the
    gathered rows and the fill value, and selects between them. -/
theorem h8_take (W : Valuation τ sig (Elt Ideal)) (a1 : IVec S2x600000 32) (xw : FVec Ideal S100000x128 .f32)
    (hx : W (Proc.devRef .tc main_v93) = xw) (h4 : W (Proc.devRef .tc main_v4) = Cert.Net.srcT a1) :
    after (hostOps8 (F := Ideal)) W (Proc.devRef .tc main_v94) = Cert.Net.takeK xw a1 := by
  dsimp only [hostOps8]
  after_results
  dsimp only [main_call4_call0]
  simp only [ofBuf_toBuf]
  rw [hx, h4]
  simp only [ofBuf_v4, ofBuf_v93, toBuf_v94]
  rfl

/-- The fourth round's aggregate: the gathered rows scaled per edge and added up at the target nodes. -/
theorem h8_1_agg (W : Valuation τ sig (Elt Ideal)) (a1 : IVec S2x600000 32) (t : FVec Ideal S700000x128 .f32)
    (h7 : W (Proc.devRef .tc main_v7) = Cert.Net.dstT a1) (h33 : W (Proc.devRef .tc main_v33) = Cert.Net.normT a1)
    (ht : W (Proc.devRef .tc main_v94) = t) :
    after (hostOps8_1 (F := Ideal)) W (Proc.devRef .tc main_v99) = Cert.Net.aggT a1 t := by
  dsimp only [hostOps8_1]
  after_results
  rw [h7, h33, ht]
  rfl

/-- The fourth round's bias, scale and shift: a row of the stacked vectors, laid out as a one-row matrix. -/
theorem h8_1_b (W : Valuation τ sig (Elt Ideal)) (a6 : FVec Ideal S4x128 .f32) (h : W (Proc.devRef .tc main_arg6) = a6) :
    after (hostOps8_1 (F := Ideal)) W (Proc.devRef .tc main_v106) = Cert.Net.rowK (Cert.Net.v3T a6) := by
  subst h
  dsimp only [hostOps8_1]
  after_results
  rfl
theorem h8_1_g (W : Valuation τ sig (Elt Ideal)) (a7 : FVec Ideal S4x128 .f32) (h : W (Proc.devRef .tc main_arg7) = a7) :
    after (hostOps8_1 (F := Ideal)) W (Proc.devRef .tc main_v107) = Cert.Net.rowK (Cert.Net.v3T a7) := by
  subst h
  dsimp only [hostOps8_1]
  after_results
  rfl
theorem h8_1_be (W : Valuation τ sig (Elt Ideal)) (a8 : FVec Ideal S4x128 .f32) (h : W (Proc.devRef .tc main_arg8) = a8) :
    after (hostOps8_1 (F := Ideal)) W (Proc.devRef .tc main_v108) = Cert.Net.rowK (Cert.Net.v3T a8) := by
  subst h
  dsimp only [hostOps8_1]
  after_results
  rfl

/-- The fourth round's weight matrix, cut out of the stack. -/
theorem h7_w (W : Valuation τ sig (Elt Ideal)) (a5 : FVec Ideal S4x128x128 .f32) (h : W (Proc.devRef .tc main_arg5) = a5) :
    after (hostOps7 (F := Ideal)) W (Proc.devRef .tc main_v92) = Cert.Net.w3T a5 := by
  subst h
  dsimp only [hostOps7]
  after_results
  rfl

/-! ### After the last round: the output weights transposed -/

theorem h9_tr (W : Valuation τ sig (Elt Ideal)) (a9 : FVec Ideal S32x128 .f32) (h : W (Proc.devRef .tc main_arg9) = a9) :
    after (hostOps9 (F := Ideal)) W (Proc.devRef .tc main_v110) = Cert.Net.trT a9 := by
  subst h
  dsimp only [hostOps9]
  after_results
  rfl

/-! ## The chain: each boundary's contents at the buffers the next segment reads -/

variable (m : (ℓ : Loc nD τ sig) → Buf (Elt Ideal) ℓ) (ρ : Dev nD → PrngReg)

/-- Every word of the token matrix is a row number of the two tables. -/
abbrev TokOk (c : Dev nD) : Prop :=
  ∀ i : S100000x2.Idx, 0 ≤ ((m ((c : Thread nD τ).loc main_arg0) : S100000x2.Idx → BitVec 32) i).toInt
    ∧ ((m ((c : Thread nD τ).loc main_arg0) : S100000x2.Idx → BitVec 32) i).toInt < 65

/-- The feature matrix after the first layer, as a function of the launch contents of the arguments, -/
def x0 (c : Dev nD) : FVec Ideal S100000x128 .f32 :=
  Cert.Spec.emb (m ((c : Thread nD τ).loc main_arg0)) (m ((c : Thread nD τ).loc main_arg3)) (m ((c : Thread nD τ).loc main_arg4))

/-- … after the first round. -/
def x1 (c : Dev nD) : FVec Ideal S100000x128 .f32 :=
  Cert.Net.layerK (m ((c : Thread nD τ).loc main_arg1)) (Cert.Net.w0T (m ((c : Thread nD τ).loc main_arg5)))
    (Cert.Net.v0T (m ((c : Thread nD τ).loc main_arg6))) (Cert.Net.v0T (m ((c : Thread nD τ).loc main_arg7))) (Cert.Net.v0T (m ((c : Thread nD τ).loc main_arg8))) (x0 m c)

/-- … after the second round. -/
def x2 (c : Dev nD) : FVec Ideal S100000x128 .f32 :=
  Cert.Net.layerK (m ((c : Thread nD τ).loc main_arg1)) (Cert.Net.w1T (m ((c : Thread nD τ).loc main_arg5)))
    (Cert.Net.v1T (m ((c : Thread nD τ).loc main_arg6))) (Cert.Net.v1T (m ((c : Thread nD τ).loc main_arg7))) (Cert.Net.v1T (m ((c : Thread nD τ).loc main_arg8))) (x1 m c)

/-- … after the third round. -/
def x3 (c : Dev nD) : FVec Ideal S100000x128 .f32 :=
  Cert.Net.layerK (m ((c : Thread nD τ).loc main_arg1)) (Cert.Net.w2T (m ((c : Thread nD τ).loc main_arg5)))
    (Cert.Net.v2T (m ((c : Thread nD τ).loc main_arg6))) (Cert.Net.v2T (m ((c : Thread nD τ).loc main_arg7))) (Cert.Net.v2T (m ((c : Thread nD τ).loc main_arg8))) (x2 m c)

/-- … after the fourth round. -/
def x4 (c : Dev nD) : FVec Ideal S100000x128 .f32 :=
  Cert.Net.layerK (m ((c : Thread nD τ).loc main_arg1)) (Cert.Net.w3T (m ((c : Thread nD τ).loc main_arg5)))
    (Cert.Net.v3T (m ((c : Thread nD τ).loc main_arg6))) (Cert.Net.v3T (m ((c : Thread nD τ).loc main_arg7))) (Cert.Net.v3T (m ((c : Thread nD τ).loc main_arg8))) (x3 m c)

/-! ### The first layer and the pieces every round shares -/

/-- The first launch's result array is the first layer. -/
theorem W1_v0 (c : Dev nD) (hTok : TokOk m c) : W1 (F := Ideal) m ρ c (Proc.devRef .tc main_v0) = x0 m c :=
  (W1_arr (F := Ideal) m ρ c 3).trans (KReg0.value (V0 m ρ) c hTok)

theorem W2_v4 (c : Dev nD) : W2 (F := Ideal) m ρ c (Proc.devRef .tc main_v4) = Cert.Net.srcT (m ((c : Thread nD τ).loc main_arg1)) :=
  h1_src (W1 m ρ c) _ (KWalk.W1_arg1 m ρ c)

theorem W2_v7 (c : Dev nD) : W2 (F := Ideal) m ρ c (Proc.devRef .tc main_v7) = Cert.Net.dstT (m ((c : Thread nD τ).loc main_arg1)) :=
  h1_dst (W1 m ρ c) _ (KWalk.W1_arg1 m ρ c)

theorem W3_v17 (c : Dev nD) : W3 (F := Ideal) m ρ c (Proc.devRef .tc main_v17) = Cert.Net.disT (m ((c : Thread nD τ).loc main_arg1)) :=
  h11_dis (W1 m ρ c) _ (KWalk.W1_arg1 m ρ c)

theorem W4_v33 (c : Dev nD) : W4 (F := Ideal) m ρ c (Proc.devRef .tc main_v33) = Cert.Net.normT (m ((c : Thread nD τ).loc main_arg1)) :=
  h12_norm (W3 m ρ c) _ ((KWalk.W3_v4 m ρ c).trans (W2_v4 m ρ c)) ((KWalk.W3_v7 m ρ c).trans (W2_v7 m ρ c)) (W3_v17 m ρ c)

/-! ### The first round -/

/-- The round's weight matrix, at the matrix product's entry. -/
theorem W4_v35 (c : Dev nD) : W4 (F := Ideal) m ρ c (Proc.devRef .tc main_v35) = Cert.Net.w0T (m ((c : Thread nD τ).loc main_arg5)) :=
  h12_w (W3 m ρ c) _ (KWalk.W3_arg5 m ρ c)

/-- The matrix product's result array. -/
theorem W5_v36 (c : Dev nD) (hTok : TokOk m c) :
    W5 (F := Ideal) m ρ c (Proc.devRef .tc main_v36) = (Cert.Spec.mm (x0 m c) (Cert.Net.w0T (m ((c : Thread nD τ).loc main_arg5)))) := by
  have e0 : V4 (F := Ideal) m ρ c main_v0 = x0 m c := (KWalk.W4_v0 m ρ c).trans (W1_v0 m ρ c hTok)
  have e1 : V4 (F := Ideal) m ρ c main_v35 = Cert.Net.w0T (m ((c : Thread nD τ).loc main_arg5)) := W4_v35 m ρ c
  have h := (W5_arr (F := Ideal) m ρ c 2).trans (KReg1.value (V4 m ρ) c)
  rw [e0, e1] at h
  exact h

/-- Its rows along the edges. -/
theorem W6_v37 (c : Dev nD) (hTok : TokOk m c) :
    W6 (F := Ideal) m ρ c (Proc.devRef .tc main_v37) = (Cert.Net.takeK (Cert.Spec.mm (x0 m c) (Cert.Net.w0T (m ((c : Thread nD τ).loc main_arg5)))) (m ((c : Thread nD τ).loc main_arg1))) :=
  h2_take (W5 m ρ c) _ _ (W5_v36 m ρ c hTok) ((KWalk.W5_v4 m ρ c).trans (W2_v4 m ρ c))

/-- The aggregate, and the round's bias, scale and shift rows. -/
theorem W7_v42 (c : Dev nD) (hTok : TokOk m c) :
    W7 (F := Ideal) m ρ c (Proc.devRef .tc main_v42) = Cert.Net.aggT (m ((c : Thread nD τ).loc main_arg1)) (Cert.Net.takeK (Cert.Spec.mm (x0 m c) (Cert.Net.w0T (m ((c : Thread nD τ).loc main_arg5)))) (m ((c : Thread nD τ).loc main_arg1))) :=
  h2_1_agg (W6 m ρ c) _ _ ((KWalk.W6_v7 m ρ c).trans (W2_v7 m ρ c)) ((KWalk.W6_v33 m ρ c).trans (W4_v33 m ρ c))
    (W6_v37 m ρ c hTok)
theorem W7_v49 (c : Dev nD) : W7 (F := Ideal) m ρ c (Proc.devRef .tc main_v49) = Cert.Net.rowK (Cert.Net.v0T (m ((c : Thread nD τ).loc main_arg6))) :=
  h2_1_b (W6 m ρ c) _ (KWalk.W6_arg6 m ρ c)
theorem W7_v50 (c : Dev nD) : W7 (F := Ideal) m ρ c (Proc.devRef .tc main_v50) = Cert.Net.rowK (Cert.Net.v0T (m ((c : Thread nD τ).loc main_arg7))) :=
  h2_1_g (W6 m ρ c) _ (KWalk.W6_arg7 m ρ c)
theorem W7_v51 (c : Dev nD) : W7 (F := Ideal) m ρ c (Proc.devRef .tc main_v51) = Cert.Net.rowK (Cert.Net.v0T (m ((c : Thread nD τ).loc main_arg8))) :=
  h2_1_be (W6 m ρ c) _ (KWalk.W6_arg8 m ρ c)

/-- The row update's result array: the feature matrix after the round. -/
theorem W8_v52 (c : Dev nD) (hTok : TokOk m c) :
    W8 (F := Ideal) m ρ c (Proc.devRef .tc main_v52) = x1 m c := by
  have e0 : V7 (F := Ideal) m ρ c main_v0 = x0 m c := (KWalk.W7_v0 m ρ c).trans (W1_v0 m ρ c hTok)
  have e1 : V7 (F := Ideal) m ρ c main_v42 = _ := W7_v42 m ρ c hTok
  have e2 : V7 (F := Ideal) m ρ c main_v49 = _ := W7_v49 m ρ c
  have e3 : V7 (F := Ideal) m ρ c main_v50 = _ := W7_v50 m ρ c
  have e4 : V7 (F := Ideal) m ρ c main_v51 = _ := W7_v51 m ρ c
  have h := (W8_arr (F := Ideal) m ρ c 5).trans (KReg2.value (V7 m ρ) c)
  rw [e0, e1, e2, e3, e4] at h
  exact h

/-! ### The second round -/

/-- The round's weight matrix, at the matrix product's entry. -/
theorem W9_v54 (c : Dev nD) : W9 (F := Ideal) m ρ c (Proc.devRef .tc main_v54) = Cert.Net.w1T (m ((c : Thread nD τ).loc main_arg5)) :=
  h3_w (W8 m ρ c) _ (KWalk.W8_arg5 m ρ c)

/-- The matrix product's result array. -/
theorem W10_v55 (c : Dev nD) (hTok : TokOk m c) :
    W10 (F := Ideal) m ρ c (Proc.devRef .tc main_v55) = (Cert.Spec.mm (x1 m c) (Cert.Net.w1T (m ((c : Thread nD τ).loc main_arg5)))) := by
  have e0 : V9 (F := Ideal) m ρ c main_v52 = x1 m c := (KWalk.W9_v52 m ρ c).trans (W8_v52 m ρ c hTok)
  have e1 : V9 (F := Ideal) m ρ c main_v54 = Cert.Net.w1T (m ((c : Thread nD τ).loc main_arg5)) := W9_v54 m ρ c
  have h := (W10_arr (F := Ideal) m ρ c 2).trans (KReg3.value (V9 m ρ) c)
  rw [e0, e1] at h
  exact h

/-- Its rows along the edges. -/
theorem W11_v56 (c : Dev nD) (hTok : TokOk m c) :
    W11 (F := Ideal) m ρ c (Proc.devRef .tc main_v56) = (Cert.Net.takeK (Cert.Spec.mm (x1 m c) (Cert.Net.w1T (m ((c : Thread nD τ).loc main_arg5)))) (m ((c : Thread nD τ).loc main_arg1))) :=
  h4_take (W10 m ρ c) _ _ (W10_v55 m ρ c hTok) ((KWalk.W10_v4 m ρ c).trans (W2_v4 m ρ c))

/-- The aggregate, and the round's bias, scale and shift rows. -/
theorem W12_v61 (c : Dev nD) (hTok : TokOk m c) :
    W12 (F := Ideal) m ρ c (Proc.devRef .tc main_v61) = Cert.Net.aggT (m ((c : Thread nD τ).loc main_arg1)) (Cert.Net.takeK (Cert.Spec.mm (x1 m c) (Cert.Net.w1T (m ((c : Thread nD τ).loc main_arg5)))) (m ((c : Thread nD τ).loc main_arg1))) :=
  h4_1_agg (W11 m ρ c) _ _ ((KWalk.W11_v7 m ρ c).trans (W2_v7 m ρ c)) ((KWalk.W11_v33 m ρ c).trans (W4_v33 m ρ c))
    (W11_v56 m ρ c hTok)
theorem W12_v68 (c : Dev nD) : W12 (F := Ideal) m ρ c (Proc.devRef .tc main_v68) = Cert.Net.rowK (Cert.Net.v1T (m ((c : Thread nD τ).loc main_arg6))) :=
  h4_1_b (W11 m ρ c) _ (KWalk.W11_arg6 m ρ c)
theorem W12_v69 (c : Dev nD) : W12 (F := Ideal) m ρ c (Proc.devRef .tc main_v69) = Cert.Net.rowK (Cert.Net.v1T (m ((c : Thread nD τ).loc main_arg7))) :=
  h4_1_g (W11 m ρ c) _ (KWalk.W11_arg7 m ρ c)
theorem W12_v70 (c : Dev nD) : W12 (F := Ideal) m ρ c (Proc.devRef .tc main_v70) = Cert.Net.rowK (Cert.Net.v1T (m ((c : Thread nD τ).loc main_arg8))) :=
  h4_1_be (W11 m ρ c) _ (KWalk.W11_arg8 m ρ c)

/-- The row update's result array: the feature matrix after the round. -/
theorem W13_v71 (c : Dev nD) (hTok : TokOk m c) :
    W13 (F := Ideal) m ρ c (Proc.devRef .tc main_v71) = x2 m c := by
  have e0 : V12 (F := Ideal) m ρ c main_v52 = x1 m c := (KWalk.W12_v52 m ρ c).trans (W8_v52 m ρ c hTok)
  have e1 : V12 (F := Ideal) m ρ c main_v61 = _ := W12_v61 m ρ c hTok
  have e2 : V12 (F := Ideal) m ρ c main_v68 = _ := W12_v68 m ρ c
  have e3 : V12 (F := Ideal) m ρ c main_v69 = _ := W12_v69 m ρ c
  have e4 : V12 (F := Ideal) m ρ c main_v70 = _ := W12_v70 m ρ c
  have h := (W13_arr (F := Ideal) m ρ c 5).trans (KReg4.value (V12 m ρ) c)
  rw [e0, e1, e2, e3, e4] at h
  exact h

/-! ### The third round -/

/-- The round's weight matrix, at the matrix product's entry. -/
theorem W14_v73 (c : Dev nD) : W14 (F := Ideal) m ρ c (Proc.devRef .tc main_v73) = Cert.Net.w2T (m ((c : Thread nD τ).loc main_arg5)) :=
  h5_w (W13 m ρ c) _ (KWalk.W13_arg5 m ρ c)

/-- The matrix product's result array. -/
theorem W15_v74 (c : Dev nD) (hTok : TokOk m c) :
    W15 (F := Ideal) m ρ c (Proc.devRef .tc main_v74) = (Cert.Spec.mm (x2 m c) (Cert.Net.w2T (m ((c : Thread nD τ).loc main_arg5)))) := by
  have e0 : V14 (F := Ideal) m ρ c main_v71 = x2 m c := (KWalk.W14_v71 m ρ c).trans (W13_v71 m ρ c hTok)
  have e1 : V14 (F := Ideal) m ρ c main_v73 = Cert.Net.w2T (m ((c : Thread nD τ).loc main_arg5)) := W14_v73 m ρ c
  have h := (W15_arr (F := Ideal) m ρ c 2).trans (KReg5.value (V14 m ρ) c)
  rw [e0, e1] at h
  exact h

/-- Its rows along the edges. -/
theorem W16_v75 (c : Dev nD) (hTok : TokOk m c) :
    W16 (F := Ideal) m ρ c (Proc.devRef .tc main_v75) = (Cert.Net.takeK (Cert.Spec.mm (x2 m c) (Cert.Net.w2T (m ((c : Thread nD τ).loc main_arg5)))) (m ((c : Thread nD τ).loc main_arg1))) :=
  h6_take (W15 m ρ c) _ _ (W15_v74 m ρ c hTok) ((KWalk.W15_v4 m ρ c).trans (W2_v4 m ρ c))

/-- The aggregate, and the round's bias, scale and shift rows. -/
theorem W17_v80 (c : Dev nD) (hTok : TokOk m c) :
    W17 (F := Ideal) m ρ c (Proc.devRef .tc main_v80) = Cert.Net.aggT (m ((c : Thread nD τ).loc main_arg1)) (Cert.Net.takeK (Cert.Spec.mm (x2 m c) (Cert.Net.w2T (m ((c : Thread nD τ).loc main_arg5)))) (m ((c : Thread nD τ).loc main_arg1))) :=
  h6_1_agg (W16 m ρ c) _ _ ((KWalk.W16_v7 m ρ c).trans (W2_v7 m ρ c)) ((KWalk.W16_v33 m ρ c).trans (W4_v33 m ρ c))
    (W16_v75 m ρ c hTok)
theorem W17_v87 (c : Dev nD) : W17 (F := Ideal) m ρ c (Proc.devRef .tc main_v87) = Cert.Net.rowK (Cert.Net.v2T (m ((c : Thread nD τ).loc main_arg6))) :=
  h6_1_b (W16 m ρ c) _ (KWalk.W16_arg6 m ρ c)
theorem W17_v88 (c : Dev nD) : W17 (F := Ideal) m ρ c (Proc.devRef .tc main_v88) = Cert.Net.rowK (Cert.Net.v2T (m ((c : Thread nD τ).loc main_arg7))) :=
  h6_1_g (W16 m ρ c) _ (KWalk.W16_arg7 m ρ c)
theorem W17_v89 (c : Dev nD) : W17 (F := Ideal) m ρ c (Proc.devRef .tc main_v89) = Cert.Net.rowK (Cert.Net.v2T (m ((c : Thread nD τ).loc main_arg8))) :=
  h6_1_be (W16 m ρ c) _ (KWalk.W16_arg8 m ρ c)

/-- The row update's result array: the feature matrix after the round. -/
theorem W18_v90 (c : Dev nD) (hTok : TokOk m c) :
    W18 (F := Ideal) m ρ c (Proc.devRef .tc main_v90) = x3 m c := by
  have e0 : V17 (F := Ideal) m ρ c main_v71 = x2 m c := (KWalk.W17_v71 m ρ c).trans (W13_v71 m ρ c hTok)
  have e1 : V17 (F := Ideal) m ρ c main_v80 = _ := W17_v80 m ρ c hTok
  have e2 : V17 (F := Ideal) m ρ c main_v87 = _ := W17_v87 m ρ c
  have e3 : V17 (F := Ideal) m ρ c main_v88 = _ := W17_v88 m ρ c
  have e4 : V17 (F := Ideal) m ρ c main_v89 = _ := W17_v89 m ρ c
  have h := (W18_arr (F := Ideal) m ρ c 5).trans (KReg6.value (V17 m ρ) c)
  rw [e0, e1, e2, e3, e4] at h
  exact h

/-! ### The fourth round -/

/-- The round's weight matrix, at the matrix product's entry. -/
theorem W19_v92 (c : Dev nD) : W19 (F := Ideal) m ρ c (Proc.devRef .tc main_v92) = Cert.Net.w3T (m ((c : Thread nD τ).loc main_arg5)) :=
  h7_w (W18 m ρ c) _ (KWalk.W18_arg5 m ρ c)

/-- The matrix product's result array. -/
theorem W20_v93 (c : Dev nD) (hTok : TokOk m c) :
    W20 (F := Ideal) m ρ c (Proc.devRef .tc main_v93) = (Cert.Spec.mm (x3 m c) (Cert.Net.w3T (m ((c : Thread nD τ).loc main_arg5)))) := by
  have e0 : V19 (F := Ideal) m ρ c main_v90 = x3 m c := (KWalk.W19_v90 m ρ c).trans (W18_v90 m ρ c hTok)
  have e1 : V19 (F := Ideal) m ρ c main_v92 = Cert.Net.w3T (m ((c : Thread nD τ).loc main_arg5)) := W19_v92 m ρ c
  have h := (W20_arr (F := Ideal) m ρ c 2).trans (KReg7.value (V19 m ρ) c)
  rw [e0, e1] at h
  exact h

/-- Its rows along the edges. -/
theorem W21_v94 (c : Dev nD) (hTok : TokOk m c) :
    W21 (F := Ideal) m ρ c (Proc.devRef .tc main_v94) = (Cert.Net.takeK (Cert.Spec.mm (x3 m c) (Cert.Net.w3T (m ((c : Thread nD τ).loc main_arg5)))) (m ((c : Thread nD τ).loc main_arg1))) :=
  h8_take (W20 m ρ c) _ _ (W20_v93 m ρ c hTok) ((KWalk.W20_v4 m ρ c).trans (W2_v4 m ρ c))

/-- The aggregate, and the round's bias, scale and shift rows. -/
theorem W22_v99 (c : Dev nD) (hTok : TokOk m c) :
    W22 (F := Ideal) m ρ c (Proc.devRef .tc main_v99) = Cert.Net.aggT (m ((c : Thread nD τ).loc main_arg1)) (Cert.Net.takeK (Cert.Spec.mm (x3 m c) (Cert.Net.w3T (m ((c : Thread nD τ).loc main_arg5)))) (m ((c : Thread nD τ).loc main_arg1))) :=
  h8_1_agg (W21 m ρ c) _ _ ((KWalk.W21_v7 m ρ c).trans (W2_v7 m ρ c)) ((KWalk.W21_v33 m ρ c).trans (W4_v33 m ρ c))
    (W21_v94 m ρ c hTok)
theorem W22_v106 (c : Dev nD) : W22 (F := Ideal) m ρ c (Proc.devRef .tc main_v106) = Cert.Net.rowK (Cert.Net.v3T (m ((c : Thread nD τ).loc main_arg6))) :=
  h8_1_b (W21 m ρ c) _ (KWalk.W21_arg6 m ρ c)
theorem W22_v107 (c : Dev nD) : W22 (F := Ideal) m ρ c (Proc.devRef .tc main_v107) = Cert.Net.rowK (Cert.Net.v3T (m ((c : Thread nD τ).loc main_arg7))) :=
  h8_1_g (W21 m ρ c) _ (KWalk.W21_arg7 m ρ c)
theorem W22_v108 (c : Dev nD) : W22 (F := Ideal) m ρ c (Proc.devRef .tc main_v108) = Cert.Net.rowK (Cert.Net.v3T (m ((c : Thread nD τ).loc main_arg8))) :=
  h8_1_be (W21 m ρ c) _ (KWalk.W21_arg8 m ρ c)

/-- The row update's result array: the feature matrix after the round. -/
theorem W23_v109 (c : Dev nD) (hTok : TokOk m c) :
    W23 (F := Ideal) m ρ c (Proc.devRef .tc main_v109) = x4 m c := by
  have e0 : V22 (F := Ideal) m ρ c main_v90 = x3 m c := (KWalk.W22_v90 m ρ c).trans (W18_v90 m ρ c hTok)
  have e1 : V22 (F := Ideal) m ρ c main_v99 = _ := W22_v99 m ρ c hTok
  have e2 : V22 (F := Ideal) m ρ c main_v106 = _ := W22_v106 m ρ c
  have e3 : V22 (F := Ideal) m ρ c main_v107 = _ := W22_v107 m ρ c
  have e4 : V22 (F := Ideal) m ρ c main_v108 = _ := W22_v108 m ρ c
  have h := (W23_arr (F := Ideal) m ρ c 5).trans (KReg8.value (V22 m ρ) c)
  rw [e0, e1, e2, e3, e4] at h
  exact h

/-! ### The last matrix product -/

theorem W24_v110 (c : Dev nD) : W24 (F := Ideal) m ρ c (Proc.devRef .tc main_v110) = Cert.Net.trT (m ((c : Thread nD τ).loc main_arg9)) :=
  h9_tr (W23 m ρ c) _ (KWalk.W23_arg9 m ρ c)

theorem W25_v111 (c : Dev nD) (hTok : TokOk m c) :
    W25 (F := Ideal) m ρ c (Proc.devRef .tc main_v111) = Cert.Spec.mm (x4 m c) (Cert.Net.trT (m ((c : Thread nD τ).loc main_arg9))) := by
  have e0 : V24 (F := Ideal) m ρ c main_v109 = x4 m c := (KWalk.W24_v109 m ρ c).trans (W23_v109 m ρ c hTok)
  have e1 : V24 (F := Ideal) m ρ c main_v110 = Cert.Net.trT (m ((c : Thread nD τ).loc main_arg9)) := W24_v110 m ρ c
  have h := (W25_arr (F := Ideal) m ρ c 2).trans (KReg9.value (V24 m ρ) c)
  rw [e0, e1] at h
  exact h

/-- The result buffer at the last boundary holds the kernel program's computation of the launch contents of the
    arguments, when every word of the token matrix is a row number of the tables. -/
theorem result (c : Dev nD)
    (hTok : ∀ i : S100000x2.Idx, 0 ≤ ((m ((c : Thread nD τ).loc main_arg0) : S100000x2.Idx → BitVec 32) i).toInt
      ∧ ((m ((c : Thread nD τ).loc main_arg0) : S100000x2.Idx → BitVec 32) i).toInt < 65) :
    W25 (F := Ideal) m ρ c (Proc.devRef .tc main_v111)
      = Cert.Net.outK (m ((c : Thread nD τ).loc main_arg0)) (m ((c : Thread nD τ).loc main_arg1))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) :=
  W25_v111 m ρ c hTok

end Cert.KernelIdeal.KChain

end
-- ==== Proof.NetR.lean ====
/-
  The reference computation as a function of its argument arrays, in the host operations it runs: the two table
  lookups (an index below zero counted from the table's end), a round (matrix product, rows gathered along the
  edges, scaled and added per target, bias, relu, residual, row normalisation), and the last matrix product.
-/
import proofs.«422291_j73607149519132_1_alg».proof.Proof.Terms

noncomputable section

namespace Cert.Net

open Cert.ReferenceIdeal Cert.ReferenceIdeal.Facts₀ Cert.ReferenceIdeal.Facts Idealize.ShloMosaic

/-- Column k of the word matrix as a column of start indices into a table of 65 rows, a negative word counted
    from the table's end. -/
def col0R (a0 : IVec S100000x2 32) : IVec S100000x1 32 :=
  broadcastInDim S100000x1 ![0] bcast_S100000_S100000x1_0
    (select (cmpi .slt (shapeCast S100000 (extractStridedSlice S100000x1 ![0, 0] a0 slices_S100000x2_S100000x1_0_0) shapeCasts_S100000x1_S100000)
        (broadcastInDim S100000 ![] bcast_S_S100000 (constantI S_ 32 0#32)))
      (addi (shapeCast S100000 (extractStridedSlice S100000x1 ![0, 0] a0 slices_S100000x2_S100000x1_0_0) shapeCasts_S100000x1_S100000)
        (broadcastInDim S100000 ![] bcast_S_S100000 (constantI S_ 32 65#32)))
      (shapeCast S100000 (extractStridedSlice S100000x1 ![0, 0] a0 slices_S100000x2_S100000x1_0_0) shapeCasts_S100000x1_S100000))
def col1R (a0 : IVec S100000x2 32) : IVec S100000x1 32 :=
  broadcastInDim S100000x1 ![0] bcast_S100000_S100000x1_0
    (select (cmpi .slt (shapeCast S100000 (extractStridedSlice S100000x1 ![0, 1] a0 slices_S100000x2_S100000x1_0_1) shapeCasts_S100000x1_S100000)
        (broadcastInDim S100000 ![] bcast_S_S100000 (constantI S_ 32 0#32)))
      (addi (shapeCast S100000 (extractStridedSlice S100000x1 ![0, 1] a0 slices_S100000x2_S100000x1_0_1) shapeCasts_S100000x1_S100000)
        (broadcastInDim S100000 ![] bcast_S_S100000 (constantI S_ 32 65#32)))
      (shapeCast S100000 (extractStridedSlice S100000x1 ![0, 1] a0 slices_S100000x2_S100000x1_0_1) shapeCasts_S100000x1_S100000))

/-- The first layer of node features: a row of the first table plus a row of the second. -/
def embR (a0 : IVec S100000x2 32) (a3 a4 : FVec Ideal S65x128 .f32) : FVec Ideal S100000x128 .f32 :=
  addf (Host.gather gather_S65x128_S100000x1_S100000x128_1_0_n_n_0_1_1128 a3 (col0R a0))
    (Host.gather gather_S65x128_S100000x1_S100000x128_1_0_n_n_0_1_1128 a4 (col1R a0))

/-- A vector of 128 numbers repeated down the rows of a matrix. -/
def rowsR (v : FVec Ideal S128 .f32) : FVec Ideal S100000x128 .f32 :=
  broadcastInDim S100000x128 ![0, 1] bcast_S1x128_S100000x128_0_1 (broadcastInDim S1x128 ![1] bcast_S128_S1x128_1 v)

/-- A column repeated across the 128 columns of a matrix. -/
def colsR (u : FVec Ideal S100000x1 .f32) : FVec Ideal S100000x128 .f32 :=
  broadcastInDim S100000x128 ![0, 1] bcast_S100000x1_S100000x128_0_1 u

/-- The old features plus the positive part of (aggregate + bias). -/
def preR (x agg : FVec Ideal S100000x128 .f32) (b : FVec Ideal S128 .f32) : FVec Ideal S100000x128 .f32 :=
  addf x (maximumf (addf agg (rowsR b)) (broadcastInDim S100000x128 ![] bcast_S_S100000x128 (constant S_ .f32 0x00000000#32)))

/-- The mean of every row, as a column: the row's sum divided by 128. -/
def meanR (q : FVec Ideal S100000x128 .f32) : FVec Ideal S100000x1 .f32 :=
  Host.divf (broadcastInDim S100000x1 ![0] bcast_S100000_S100000x1_0 (Host.reduceAdd q (constant S_ .f32 0x00000000#32) reducesTo_S100000x128_S100000_d1 h_S_))
    (broadcastInDim S100000x1 ![] bcast_S_S100000x1 (constant S_ .f32 0x43000000#32))

/-- The rows normalised: centred by the mean, scaled by the inverse root of (variance + epsilon), times the scale
    vector, plus the shift vector. -/
def lnR (p : FVec Ideal S100000x128 .f32) (g be : FVec Ideal S128 .f32) : FVec Ideal S100000x128 .f32 :=
  addf (mulf (mulf (subf p (colsR (meanR p)))
        (colsR (Host.rsqrt (addf (meanR (mulf (subf p (colsR (meanR p))) (subf p (colsR (meanR p)))))
          (broadcastInDim S100000x1 ![] bcast_S_S100000x1 (constant S_ .f32 0x3727C5AC#32))))))
      (rowsR g)) (rowsR be)

/-- One round on a feature matrix. -/
def layerR (a1 : IVec S2x600000 32) (w : FVec Ideal S128x128 .f32) (b g be : FVec Ideal S128 .f32) (x : FVec Ideal S100000x128 .f32) :
    FVec Ideal S100000x128 .f32 :=
  lnR (preR x (aggT a1 (gathT (Host.dotGeneral dot_S100000x128_S128x128_S100000x128_1_0_0_1_n_n none x w) a1)) b) g be

/-- The whole reference computation. -/
def outR (a0 : IVec S100000x2 32) (a1 : IVec S2x600000 32) (a3 a4 : FVec Ideal S65x128 .f32) (a5 : FVec Ideal S4x128x128 .f32)
    (a6 a7 a8 : FVec Ideal S4x128 .f32) (a9 : FVec Ideal S32x128 .f32) : FVec Ideal S100000x32 .f32 :=
  Host.dotGeneral dot_S100000x128_S128x32_S100000x32_1_0_0_1_n_n none
    (layerR a1 (w3T a5) (v3T a6) (v3T a7) (v3T a8)
      (layerR a1 (w2T a5) (v2T a6) (v2T a7) (v2T a8)
        (layerR a1 (w1T a5) (v1T a6) (v1T a7) (v1T a8)
          (layerR a1 (w0T a5) (v0T a6) (v0T a7) (v0T a8) (embR a0 a3 a4)))))
    (trT a9)

end Cert.Net

end
-- ==== Proof.RChain.lean ====
/-
  The reference program's result buffer after its run, as the function of the argument arrays: the operation list
  is run piece by piece, each buffer a piece reads traced back to the piece that wrote it.
-/
import proofs.«422291_j73607149519132_1_alg».proof.Proof.RRun
import proofs.«422291_j73607149519132_1_alg».proof.Proof.NetR
import Idealize.ShloMosaic.Lib.StableHlo.Run

set_option maxRecDepth 16384

noncomputable section

open scoped BigOperators

namespace Cert.ReferenceIdeal.RChain

open Cert.ReferenceIdeal Cert.ReferenceIdeal.Gen Cert.ReferenceIdeal.RunCopy
open Idealize.ShloMosaic Idealize.ShloMosaic.TcCoe Idealize.SL.Sem Idealize.ShloMosaic.StableHlo
open Cert.Net

/-! ## Kept buffers: a buffer that no operation of a piece writes holds after the piece what it held before -/

/-- Each operation's written set is a singleton, and the buffer differs from every one of them as a reference. -/
local macro "keep_tac " ops:ident b:ident : tactic => `(tactic|
  exact after_of_forall_not_mem (b := Proc.devRef .tc $b) _ _ (List.forall_iff_forall_mem.mp (by
    simp only [$ops:ident, List.Forall, nullary_writes, unary_writes, binary_writes, ternary_writes,
      quaternary_writes, reshape_writes, binaryIndexed_writes, Finset.mem_singleton]
    (repeat' apply And.intro)
    all_goals exact devRef_ne_of_ne (by decide))))

/-! ### The arguments through every piece -/

theorem keepE_arg0 (W : Valuation τ sig (Elt Ideal)) :
    after (opsE (F := Ideal)) W (Proc.devRef .tc main_arg0) = W (Proc.devRef .tc main_arg0) := by keep_tac opsE main_arg0
theorem keepG_arg0 (W : Valuation τ sig (Elt Ideal)) :
    after (opsG (F := Ideal)) W (Proc.devRef .tc main_arg0) = W (Proc.devRef .tc main_arg0) := by keep_tac opsG main_arg0
theorem keepL0_arg0 (W : Valuation τ sig (Elt Ideal)) :
    after (opsL0 (F := Ideal)) W (Proc.devRef .tc main_arg0) = W (Proc.devRef .tc main_arg0) := by keep_tac opsL0 main_arg0
theorem keepL1_arg0 (W : Valuation τ sig (Elt Ideal)) :
    after (opsL1 (F := Ideal)) W (Proc.devRef .tc main_arg0) = W (Proc.devRef .tc main_arg0) := by keep_tac opsL1 main_arg0
theorem keepL2_arg0 (W : Valuation τ sig (Elt Ideal)) :
    after (opsL2 (F := Ideal)) W (Proc.devRef .tc main_arg0) = W (Proc.devRef .tc main_arg0) := by keep_tac opsL2 main_arg0
theorem keepL3_arg0 (W : Valuation τ sig (Elt Ideal)) :
    after (opsL3 (F := Ideal)) W (Proc.devRef .tc main_arg0) = W (Proc.devRef .tc main_arg0) := by keep_tac opsL3 main_arg0
theorem keepP_arg0 (W : Valuation τ sig (Elt Ideal)) :
    after (opsP (F := Ideal)) W (Proc.devRef .tc main_arg0) = W (Proc.devRef .tc main_arg0) := by keep_tac opsP main_arg0
theorem keepE_arg1 (W : Valuation τ sig (Elt Ideal)) :
    after (opsE (F := Ideal)) W (Proc.devRef .tc main_arg1) = W (Proc.devRef .tc main_arg1) := by keep_tac opsE main_arg1
theorem keepG_arg1 (W : Valuation τ sig (Elt Ideal)) :
    after (opsG (F := Ideal)) W (Proc.devRef .tc main_arg1) = W (Proc.devRef .tc main_arg1) := by keep_tac opsG main_arg1
theorem keepL0_arg1 (W : Valuation τ sig (Elt Ideal)) :
    after (opsL0 (F := Ideal)) W (Proc.devRef .tc main_arg1) = W (Proc.devRef .tc main_arg1) := by keep_tac opsL0 main_arg1
theorem keepL1_arg1 (W : Valuation τ sig (Elt Ideal)) :
    after (opsL1 (F := Ideal)) W (Proc.devRef .tc main_arg1) = W (Proc.devRef .tc main_arg1) := by keep_tac opsL1 main_arg1
theorem keepL2_arg1 (W : Valuation τ sig (Elt Ideal)) :
    after (opsL2 (F := Ideal)) W (Proc.devRef .tc main_arg1) = W (Proc.devRef .tc main_arg1) := by keep_tac opsL2 main_arg1
theorem keepL3_arg1 (W : Valuation τ sig (Elt Ideal)) :
    after (opsL3 (F := Ideal)) W (Proc.devRef .tc main_arg1) = W (Proc.devRef .tc main_arg1) := by keep_tac opsL3 main_arg1
theorem keepP_arg1 (W : Valuation τ sig (Elt Ideal)) :
    after (opsP (F := Ideal)) W (Proc.devRef .tc main_arg1) = W (Proc.devRef .tc main_arg1) := by keep_tac opsP main_arg1
theorem keepE_arg2 (W : Valuation τ sig (Elt Ideal)) :
    after (opsE (F := Ideal)) W (Proc.devRef .tc main_arg2) = W (Proc.devRef .tc main_arg2) := by keep_tac opsE main_arg2
theorem keepG_arg2 (W : Valuation τ sig (Elt Ideal)) :
    after (opsG (F := Ideal)) W (Proc.devRef .tc main_arg2) = W (Proc.devRef .tc main_arg2) := by keep_tac opsG main_arg2
theorem keepL0_arg2 (W : Valuation τ sig (Elt Ideal)) :
    after (opsL0 (F := Ideal)) W (Proc.devRef .tc main_arg2) = W (Proc.devRef .tc main_arg2) := by keep_tac opsL0 main_arg2
theorem keepL1_arg2 (W : Valuation τ sig (Elt Ideal)) :
    after (opsL1 (F := Ideal)) W (Proc.devRef .tc main_arg2) = W (Proc.devRef .tc main_arg2) := by keep_tac opsL1 main_arg2
theorem keepL2_arg2 (W : Valuation τ sig (Elt Ideal)) :
    after (opsL2 (F := Ideal)) W (Proc.devRef .tc main_arg2) = W (Proc.devRef .tc main_arg2) := by keep_tac opsL2 main_arg2
theorem keepL3_arg2 (W : Valuation τ sig (Elt Ideal)) :
    after (opsL3 (F := Ideal)) W (Proc.devRef .tc main_arg2) = W (Proc.devRef .tc main_arg2) := by keep_tac opsL3 main_arg2
theorem keepP_arg2 (W : Valuation τ sig (Elt Ideal)) :
    after (opsP (F := Ideal)) W (Proc.devRef .tc main_arg2) = W (Proc.devRef .tc main_arg2) := by keep_tac opsP main_arg2
theorem keepE_arg3 (W : Valuation τ sig (Elt Ideal)) :
    after (opsE (F := Ideal)) W (Proc.devRef .tc main_arg3) = W (Proc.devRef .tc main_arg3) := by keep_tac opsE main_arg3
theorem keepG_arg3 (W : Valuation τ sig (Elt Ideal)) :
    after (opsG (F := Ideal)) W (Proc.devRef .tc main_arg3) = W (Proc.devRef .tc main_arg3) := by keep_tac opsG main_arg3
theorem keepL0_arg3 (W : Valuation τ sig (Elt Ideal)) :
    after (opsL0 (F := Ideal)) W (Proc.devRef .tc main_arg3) = W (Proc.devRef .tc main_arg3) := by keep_tac opsL0 main_arg3
theorem keepL1_arg3 (W : Valuation τ sig (Elt Ideal)) :
    after (opsL1 (F := Ideal)) W (Proc.devRef .tc main_arg3) = W (Proc.devRef .tc main_arg3) := by keep_tac opsL1 main_arg3
theorem keepL2_arg3 (W : Valuation τ sig (Elt Ideal)) :
    after (opsL2 (F := Ideal)) W (Proc.devRef .tc main_arg3) = W (Proc.devRef .tc main_arg3) := by keep_tac opsL2 main_arg3
theorem keepL3_arg3 (W : Valuation τ sig (Elt Ideal)) :
    after (opsL3 (F := Ideal)) W (Proc.devRef .tc main_arg3) = W (Proc.devRef .tc main_arg3) := by keep_tac opsL3 main_arg3
theorem keepP_arg3 (W : Valuation τ sig (Elt Ideal)) :
    after (opsP (F := Ideal)) W (Proc.devRef .tc main_arg3) = W (Proc.devRef .tc main_arg3) := by keep_tac opsP main_arg3
theorem keepE_arg4 (W : Valuation τ sig (Elt Ideal)) :
    after (opsE (F := Ideal)) W (Proc.devRef .tc main_arg4) = W (Proc.devRef .tc main_arg4) := by keep_tac opsE main_arg4
theorem keepG_arg4 (W : Valuation τ sig (Elt Ideal)) :
    after (opsG (F := Ideal)) W (Proc.devRef .tc main_arg4) = W (Proc.devRef .tc main_arg4) := by keep_tac opsG main_arg4
theorem keepL0_arg4 (W : Valuation τ sig (Elt Ideal)) :
    after (opsL0 (F := Ideal)) W (Proc.devRef .tc main_arg4) = W (Proc.devRef .tc main_arg4) := by keep_tac opsL0 main_arg4
theorem keepL1_arg4 (W : Valuation τ sig (Elt Ideal)) :
    after (opsL1 (F := Ideal)) W (Proc.devRef .tc main_arg4) = W (Proc.devRef .tc main_arg4) := by keep_tac opsL1 main_arg4
theorem keepL2_arg4 (W : Valuation τ sig (Elt Ideal)) :
    after (opsL2 (F := Ideal)) W (Proc.devRef .tc main_arg4) = W (Proc.devRef .tc main_arg4) := by keep_tac opsL2 main_arg4
theorem keepL3_arg4 (W : Valuation τ sig (Elt Ideal)) :
    after (opsL3 (F := Ideal)) W (Proc.devRef .tc main_arg4) = W (Proc.devRef .tc main_arg4) := by keep_tac opsL3 main_arg4
theorem keepP_arg4 (W : Valuation τ sig (Elt Ideal)) :
    after (opsP (F := Ideal)) W (Proc.devRef .tc main_arg4) = W (Proc.devRef .tc main_arg4) := by keep_tac opsP main_arg4
theorem keepE_arg5 (W : Valuation τ sig (Elt Ideal)) :
    after (opsE (F := Ideal)) W (Proc.devRef .tc main_arg5) = W (Proc.devRef .tc main_arg5) := by keep_tac opsE main_arg5
theorem keepG_arg5 (W : Valuation τ sig (Elt Ideal)) :
    after (opsG (F := Ideal)) W (Proc.devRef .tc main_arg5) = W (Proc.devRef .tc main_arg5) := by keep_tac opsG main_arg5
theorem keepL0_arg5 (W : Valuation τ sig (Elt Ideal)) :
    after (opsL0 (F := Ideal)) W (Proc.devRef .tc main_arg5) = W (Proc.devRef .tc main_arg5) := by keep_tac opsL0 main_arg5
theorem keepL1_arg5 (W : Valuation τ sig (Elt Ideal)) :
    after (opsL1 (F := Ideal)) W (Proc.devRef .tc main_arg5) = W (Proc.devRef .tc main_arg5) := by keep_tac opsL1 main_arg5
theorem keepL2_arg5 (W : Valuation τ sig (Elt Ideal)) :
    after (opsL2 (F := Ideal)) W (Proc.devRef .tc main_arg5) = W (Proc.devRef .tc main_arg5) := by keep_tac opsL2 main_arg5
theorem keepL3_arg5 (W : Valuation τ sig (Elt Ideal)) :
    after (opsL3 (F := Ideal)) W (Proc.devRef .tc main_arg5) = W (Proc.devRef .tc main_arg5) := by keep_tac opsL3 main_arg5
theorem keepP_arg5 (W : Valuation τ sig (Elt Ideal)) :
    after (opsP (F := Ideal)) W (Proc.devRef .tc main_arg5) = W (Proc.devRef .tc main_arg5) := by keep_tac opsP main_arg5
theorem keepE_arg6 (W : Valuation τ sig (Elt Ideal)) :
    after (opsE (F := Ideal)) W (Proc.devRef .tc main_arg6) = W (Proc.devRef .tc main_arg6) := by keep_tac opsE main_arg6
theorem keepG_arg6 (W : Valuation τ sig (Elt Ideal)) :
    after (opsG (F := Ideal)) W (Proc.devRef .tc main_arg6) = W (Proc.devRef .tc main_arg6) := by keep_tac opsG main_arg6
theorem keepL0_arg6 (W : Valuation τ sig (Elt Ideal)) :
    after (opsL0 (F := Ideal)) W (Proc.devRef .tc main_arg6) = W (Proc.devRef .tc main_arg6) := by keep_tac opsL0 main_arg6
theorem keepL1_arg6 (W : Valuation τ sig (Elt Ideal)) :
    after (opsL1 (F := Ideal)) W (Proc.devRef .tc main_arg6) = W (Proc.devRef .tc main_arg6) := by keep_tac opsL1 main_arg6
theorem keepL2_arg6 (W : Valuation τ sig (Elt Ideal)) :
    after (opsL2 (F := Ideal)) W (Proc.devRef .tc main_arg6) = W (Proc.devRef .tc main_arg6) := by keep_tac opsL2 main_arg6
theorem keepL3_arg6 (W : Valuation τ sig (Elt Ideal)) :
    after (opsL3 (F := Ideal)) W (Proc.devRef .tc main_arg6) = W (Proc.devRef .tc main_arg6) := by keep_tac opsL3 main_arg6
theorem keepP_arg6 (W : Valuation τ sig (Elt Ideal)) :
    after (opsP (F := Ideal)) W (Proc.devRef .tc main_arg6) = W (Proc.devRef .tc main_arg6) := by keep_tac opsP main_arg6
theorem keepE_arg7 (W : Valuation τ sig (Elt Ideal)) :
    after (opsE (F := Ideal)) W (Proc.devRef .tc main_arg7) = W (Proc.devRef .tc main_arg7) := by keep_tac opsE main_arg7
theorem keepG_arg7 (W : Valuation τ sig (Elt Ideal)) :
    after (opsG (F := Ideal)) W (Proc.devRef .tc main_arg7) = W (Proc.devRef .tc main_arg7) := by keep_tac opsG main_arg7
theorem keepL0_arg7 (W : Valuation τ sig (Elt Ideal)) :
    after (opsL0 (F := Ideal)) W (Proc.devRef .tc main_arg7) = W (Proc.devRef .tc main_arg7) := by keep_tac opsL0 main_arg7
theorem keepL1_arg7 (W : Valuation τ sig (Elt Ideal)) :
    after (opsL1 (F := Ideal)) W (Proc.devRef .tc main_arg7) = W (Proc.devRef .tc main_arg7) := by keep_tac opsL1 main_arg7
theorem keepL2_arg7 (W : Valuation τ sig (Elt Ideal)) :
    after (opsL2 (F := Ideal)) W (Proc.devRef .tc main_arg7) = W (Proc.devRef .tc main_arg7) := by keep_tac opsL2 main_arg7
theorem keepL3_arg7 (W : Valuation τ sig (Elt Ideal)) :
    after (opsL3 (F := Ideal)) W (Proc.devRef .tc main_arg7) = W (Proc.devRef .tc main_arg7) := by keep_tac opsL3 main_arg7
theorem keepP_arg7 (W : Valuation τ sig (Elt Ideal)) :
    after (opsP (F := Ideal)) W (Proc.devRef .tc main_arg7) = W (Proc.devRef .tc main_arg7) := by keep_tac opsP main_arg7
theorem keepE_arg8 (W : Valuation τ sig (Elt Ideal)) :
    after (opsE (F := Ideal)) W (Proc.devRef .tc main_arg8) = W (Proc.devRef .tc main_arg8) := by keep_tac opsE main_arg8
theorem keepG_arg8 (W : Valuation τ sig (Elt Ideal)) :
    after (opsG (F := Ideal)) W (Proc.devRef .tc main_arg8) = W (Proc.devRef .tc main_arg8) := by keep_tac opsG main_arg8
theorem keepL0_arg8 (W : Valuation τ sig (Elt Ideal)) :
    after (opsL0 (F := Ideal)) W (Proc.devRef .tc main_arg8) = W (Proc.devRef .tc main_arg8) := by keep_tac opsL0 main_arg8
theorem keepL1_arg8 (W : Valuation τ sig (Elt Ideal)) :
    after (opsL1 (F := Ideal)) W (Proc.devRef .tc main_arg8) = W (Proc.devRef .tc main_arg8) := by keep_tac opsL1 main_arg8
theorem keepL2_arg8 (W : Valuation τ sig (Elt Ideal)) :
    after (opsL2 (F := Ideal)) W (Proc.devRef .tc main_arg8) = W (Proc.devRef .tc main_arg8) := by keep_tac opsL2 main_arg8
theorem keepL3_arg8 (W : Valuation τ sig (Elt Ideal)) :
    after (opsL3 (F := Ideal)) W (Proc.devRef .tc main_arg8) = W (Proc.devRef .tc main_arg8) := by keep_tac opsL3 main_arg8
theorem keepP_arg8 (W : Valuation τ sig (Elt Ideal)) :
    after (opsP (F := Ideal)) W (Proc.devRef .tc main_arg8) = W (Proc.devRef .tc main_arg8) := by keep_tac opsP main_arg8
theorem keepE_arg9 (W : Valuation τ sig (Elt Ideal)) :
    after (opsE (F := Ideal)) W (Proc.devRef .tc main_arg9) = W (Proc.devRef .tc main_arg9) := by keep_tac opsE main_arg9
theorem keepG_arg9 (W : Valuation τ sig (Elt Ideal)) :
    after (opsG (F := Ideal)) W (Proc.devRef .tc main_arg9) = W (Proc.devRef .tc main_arg9) := by keep_tac opsG main_arg9
theorem keepL0_arg9 (W : Valuation τ sig (Elt Ideal)) :
    after (opsL0 (F := Ideal)) W (Proc.devRef .tc main_arg9) = W (Proc.devRef .tc main_arg9) := by keep_tac opsL0 main_arg9
theorem keepL1_arg9 (W : Valuation τ sig (Elt Ideal)) :
    after (opsL1 (F := Ideal)) W (Proc.devRef .tc main_arg9) = W (Proc.devRef .tc main_arg9) := by keep_tac opsL1 main_arg9
theorem keepL2_arg9 (W : Valuation τ sig (Elt Ideal)) :
    after (opsL2 (F := Ideal)) W (Proc.devRef .tc main_arg9) = W (Proc.devRef .tc main_arg9) := by keep_tac opsL2 main_arg9
theorem keepL3_arg9 (W : Valuation τ sig (Elt Ideal)) :
    after (opsL3 (F := Ideal)) W (Proc.devRef .tc main_arg9) = W (Proc.devRef .tc main_arg9) := by keep_tac opsL3 main_arg9
theorem keepP_arg9 (W : Valuation τ sig (Elt Ideal)) :
    after (opsP (F := Ideal)) W (Proc.devRef .tc main_arg9) = W (Proc.devRef .tc main_arg9) := by keep_tac opsP main_arg9

/-! ### The first layer through the edge piece; the edge lists and the per-edge scale through the rounds -/

theorem keepG_v18 (W : Valuation τ sig (Elt Ideal)) :
    after (opsG (F := Ideal)) W (Proc.devRef .tc main_v18) = W (Proc.devRef .tc main_v18) := by keep_tac opsG main_v18
theorem keepL0_v22 (W : Valuation τ sig (Elt Ideal)) :
    after (opsL0 (F := Ideal)) W (Proc.devRef .tc main_v22) = W (Proc.devRef .tc main_v22) := by keep_tac opsL0 main_v22
theorem keepL0_v25 (W : Valuation τ sig (Elt Ideal)) :
    after (opsL0 (F := Ideal)) W (Proc.devRef .tc main_v25) = W (Proc.devRef .tc main_v25) := by keep_tac opsL0 main_v25
theorem keepL0_v51 (W : Valuation τ sig (Elt Ideal)) :
    after (opsL0 (F := Ideal)) W (Proc.devRef .tc main_v51) = W (Proc.devRef .tc main_v51) := by keep_tac opsL0 main_v51
theorem keepL1_v22 (W : Valuation τ sig (Elt Ideal)) :
    after (opsL1 (F := Ideal)) W (Proc.devRef .tc main_v22) = W (Proc.devRef .tc main_v22) := by keep_tac opsL1 main_v22
theorem keepL1_v25 (W : Valuation τ sig (Elt Ideal)) :
    after (opsL1 (F := Ideal)) W (Proc.devRef .tc main_v25) = W (Proc.devRef .tc main_v25) := by keep_tac opsL1 main_v25
theorem keepL1_v51 (W : Valuation τ sig (Elt Ideal)) :
    after (opsL1 (F := Ideal)) W (Proc.devRef .tc main_v51) = W (Proc.devRef .tc main_v51) := by keep_tac opsL1 main_v51
theorem keepL2_v22 (W : Valuation τ sig (Elt Ideal)) :
    after (opsL2 (F := Ideal)) W (Proc.devRef .tc main_v22) = W (Proc.devRef .tc main_v22) := by keep_tac opsL2 main_v22
theorem keepL2_v25 (W : Valuation τ sig (Elt Ideal)) :
    after (opsL2 (F := Ideal)) W (Proc.devRef .tc main_v25) = W (Proc.devRef .tc main_v25) := by keep_tac opsL2 main_v25
theorem keepL2_v51 (W : Valuation τ sig (Elt Ideal)) :
    after (opsL2 (F := Ideal)) W (Proc.devRef .tc main_v51) = W (Proc.devRef .tc main_v51) := by keep_tac opsL2 main_v51

/-! ## The arguments after the whole run -/

/-- Argument 0 is never written: after all the operations it holds its launch contents. -/
theorem kept_arg0 (m : (ℓ : Loc nD τ sig) → Buf (Elt Ideal) ℓ) (c : Dev nD) :
    after (ops (F := Ideal)) (launchContents m c) (Proc.devRef .tc main_arg0) = m ((c.tc : Thread nD τ).loc main_arg0) := by
  rw [ops_eq]
  simp only [after_append]
  rw [keepP_arg0, keepL3_arg0, keepL2_arg0, keepL1_arg0, keepL0_arg0, keepG_arg0, keepE_arg0]
/-- Argument 1 is never written: after all the operations it holds its launch contents. -/
theorem kept_arg1 (m : (ℓ : Loc nD τ sig) → Buf (Elt Ideal) ℓ) (c : Dev nD) :
    after (ops (F := Ideal)) (launchContents m c) (Proc.devRef .tc main_arg1) = m ((c.tc : Thread nD τ).loc main_arg1) := by
  rw [ops_eq]
  simp only [after_append]
  rw [keepP_arg1, keepL3_arg1, keepL2_arg1, keepL1_arg1, keepL0_arg1, keepG_arg1, keepE_arg1]
/-- Argument 2 is never written: after all the operations it holds its launch contents. -/
theorem kept_arg2 (m : (ℓ : Loc nD τ sig) → Buf (Elt Ideal) ℓ) (c : Dev nD) :
    after (ops (F := Ideal)) (launchContents m c) (Proc.devRef .tc main_arg2) = m ((c.tc : Thread nD τ).loc main_arg2) := by
  rw [ops_eq]
  simp only [after_append]
  rw [keepP_arg2, keepL3_arg2, keepL2_arg2, keepL1_arg2, keepL0_arg2, keepG_arg2, keepE_arg2]
/-- Argument 3 is never written: after all the operations it holds its launch contents. -/
theorem kept_arg3 (m : (ℓ : Loc nD τ sig) → Buf (Elt Ideal) ℓ) (c : Dev nD) :
    after (ops (F := Ideal)) (launchContents m c) (Proc.devRef .tc main_arg3) = m ((c.tc : Thread nD τ).loc main_arg3) := by
  rw [ops_eq]
  simp only [after_append]
  rw [keepP_arg3, keepL3_arg3, keepL2_arg3, keepL1_arg3, keepL0_arg3, keepG_arg3, keepE_arg3]
/-- Argument 4 is never written: after all the operations it holds its launch contents. -/
theorem kept_arg4 (m : (ℓ : Loc nD τ sig) → Buf (Elt Ideal) ℓ) (c : Dev nD) :
    after (ops (F := Ideal)) (launchContents m c) (Proc.devRef .tc main_arg4) = m ((c.tc : Thread nD τ).loc main_arg4) := by
  rw [ops_eq]
  simp only [after_append]
  rw [keepP_arg4, keepL3_arg4, keepL2_arg4, keepL1_arg4, keepL0_arg4, keepG_arg4, keepE_arg4]
/-- Argument 5 is never written: after all the operations it holds its launch contents. -/
theorem kept_arg5 (m : (ℓ : Loc nD τ sig) → Buf (Elt Ideal) ℓ) (c : Dev nD) :
    after (ops (F := Ideal)) (launchContents m c) (Proc.devRef .tc main_arg5) = m ((c.tc : Thread nD τ).loc main_arg5) := by
  rw [ops_eq]
  simp only [after_append]
  rw [keepP_arg5, keepL3_arg5, keepL2_arg5, keepL1_arg5, keepL0_arg5, keepG_arg5, keepE_arg5]
/-- Argument 6 is never written: after all the operations it holds its launch contents. -/
theorem kept_arg6 (m : (ℓ : Loc nD τ sig) → Buf (Elt Ideal) ℓ) (c : Dev nD) :
    after (ops (F := Ideal)) (launchContents m c) (Proc.devRef .tc main_arg6) = m ((c.tc : Thread nD τ).loc main_arg6) := by
  rw [ops_eq]
  simp only [after_append]
  rw [keepP_arg6, keepL3_arg6, keepL2_arg6, keepL1_arg6, keepL0_arg6, keepG_arg6, keepE_arg6]
/-- Argument 7 is never written: after all the operations it holds its launch contents. -/
theorem kept_arg7 (m : (ℓ : Loc nD τ sig) → Buf (Elt Ideal) ℓ) (c : Dev nD) :
    after (ops (F := Ideal)) (launchContents m c) (Proc.devRef .tc main_arg7) = m ((c.tc : Thread nD τ).loc main_arg7) := by
  rw [ops_eq]
  simp only [after_append]
  rw [keepP_arg7, keepL3_arg7, keepL2_arg7, keepL1_arg7, keepL0_arg7, keepG_arg7, keepE_arg7]
/-- Argument 8 is never written: after all the operations it holds its launch contents. -/
theorem kept_arg8 (m : (ℓ : Loc nD τ sig) → Buf (Elt Ideal) ℓ) (c : Dev nD) :
    after (ops (F := Ideal)) (launchContents m c) (Proc.devRef .tc main_arg8) = m ((c.tc : Thread nD τ).loc main_arg8) := by
  rw [ops_eq]
  simp only [after_append]
  rw [keepP_arg8, keepL3_arg8, keepL2_arg8, keepL1_arg8, keepL0_arg8, keepG_arg8, keepE_arg8]
/-- Argument 9 is never written: after all the operations it holds its launch contents. -/
theorem kept_arg9 (m : (ℓ : Loc nD τ sig) → Buf (Elt Ideal) ℓ) (c : Dev nD) :
    after (ops (F := Ideal)) (launchContents m c) (Proc.devRef .tc main_arg9) = m ((c.tc : Thread nD τ).loc main_arg9) := by
  rw [ops_eq]
  simp only [after_append]
  rw [keepP_arg9, keepL3_arg9, keepL2_arg9, keepL1_arg9, keepL0_arg9, keepG_arg9, keepE_arg9]

/-! ## A reshape's result at its own buffer: the operand read through the reshaping of the index -/

private theorem reshape_v53 (F : Valuation τ sig (Elt Ideal)) :
    (reshape (τ := τ) (Val := Elt Ideal) main_v52 main_v53 rfl shapeCasts_S1x128x128_S128x128).result F (no_index (Proc.devRef .tc main_v53))
      = shapeCast S128x128 (F (Proc.devRef .tc main_v52)) shapeCasts_S1x128x128_S128x128 :=
  reshape_result main_v52 main_v53 _ _ _ _ F
private theorem reshape_v68 (F : Valuation τ sig (Elt Ideal)) :
    (reshape (τ := τ) (Val := Elt Ideal) main_v67 main_v68 rfl shapeCasts_S1x128_S128).result F (no_index (Proc.devRef .tc main_v68))
      = shapeCast S128 (F (Proc.devRef .tc main_v67)) shapeCasts_S1x128_S128 :=
  reshape_result main_v67 main_v68 _ _ _ _ F
private theorem reshape_v75 (F : Valuation τ sig (Elt Ideal)) :
    (reshape (τ := τ) (Val := Elt Ideal) main_v74 main_v75 rfl shapeCasts_S1x128_S128).result F (no_index (Proc.devRef .tc main_v75))
      = shapeCast S128 (F (Proc.devRef .tc main_v74)) shapeCasts_S1x128_S128 :=
  reshape_result main_v74 main_v75 _ _ _ _ F
private theorem reshape_v77 (F : Valuation τ sig (Elt Ideal)) :
    (reshape (τ := τ) (Val := Elt Ideal) main_v76 main_v77 rfl shapeCasts_S1x128_S128).result F (no_index (Proc.devRef .tc main_v77))
      = shapeCast S128 (F (Proc.devRef .tc main_v76)) shapeCasts_S1x128_S128 :=
  reshape_result main_v76 main_v77 _ _ _ _ F
private theorem reshape_v103 (F : Valuation τ sig (Elt Ideal)) :
    (reshape (τ := τ) (Val := Elt Ideal) main_v102 main_v103 rfl shapeCasts_S1x128x128_S128x128).result F (no_index (Proc.devRef .tc main_v103))
      = shapeCast S128x128 (F (Proc.devRef .tc main_v102)) shapeCasts_S1x128x128_S128x128 :=
  reshape_result main_v102 main_v103 _ _ _ _ F
private theorem reshape_v118 (F : Valuation τ sig (Elt Ideal)) :
    (reshape (τ := τ) (Val := Elt Ideal) main_v117 main_v118 rfl shapeCasts_S1x128_S128).result F (no_index (Proc.devRef .tc main_v118))
      = shapeCast S128 (F (Proc.devRef .tc main_v117)) shapeCasts_S1x128_S128 :=
  reshape_result main_v117 main_v118 _ _ _ _ F
private theorem reshape_v125 (F : Valuation τ sig (Elt Ideal)) :
    (reshape (τ := τ) (Val := Elt Ideal) main_v124 main_v125 rfl shapeCasts_S1x128_S128).result F (no_index (Proc.devRef .tc main_v125))
      = shapeCast S128 (F (Proc.devRef .tc main_v124)) shapeCasts_S1x128_S128 :=
  reshape_result main_v124 main_v125 _ _ _ _ F
private theorem reshape_v127 (F : Valuation τ sig (Elt Ideal)) :
    (reshape (τ := τ) (Val := Elt Ideal) main_v126 main_v127 rfl shapeCasts_S1x128_S128).result F (no_index (Proc.devRef .tc main_v127))
      = shapeCast S128 (F (Proc.devRef .tc main_v126)) shapeCasts_S1x128_S128 :=
  reshape_result main_v126 main_v127 _ _ _ _ F
private theorem reshape_v153 (F : Valuation τ sig (Elt Ideal)) :
    (reshape (τ := τ) (Val := Elt Ideal) main_v152 main_v153 rfl shapeCasts_S1x128x128_S128x128).result F (no_index (Proc.devRef .tc main_v153))
      = shapeCast S128x128 (F (Proc.devRef .tc main_v152)) shapeCasts_S1x128x128_S128x128 :=
  reshape_result main_v152 main_v153 _ _ _ _ F
private theorem reshape_v168 (F : Valuation τ sig (Elt Ideal)) :
    (reshape (τ := τ) (Val := Elt Ideal) main_v167 main_v168 rfl shapeCasts_S1x128_S128).result F (no_index (Proc.devRef .tc main_v168))
      = shapeCast S128 (F (Proc.devRef .tc main_v167)) shapeCasts_S1x128_S128 :=
  reshape_result main_v167 main_v168 _ _ _ _ F
private theorem reshape_v175 (F : Valuation τ sig (Elt Ideal)) :
    (reshape (τ := τ) (Val := Elt Ideal) main_v174 main_v175 rfl shapeCasts_S1x128_S128).result F (no_index (Proc.devRef .tc main_v175))
      = shapeCast S128 (F (Proc.devRef .tc main_v174)) shapeCasts_S1x128_S128 :=
  reshape_result main_v174 main_v175 _ _ _ _ F
private theorem reshape_v177 (F : Valuation τ sig (Elt Ideal)) :
    (reshape (τ := τ) (Val := Elt Ideal) main_v176 main_v177 rfl shapeCasts_S1x128_S128).result F (no_index (Proc.devRef .tc main_v177))
      = shapeCast S128 (F (Proc.devRef .tc main_v176)) shapeCasts_S1x128_S128 :=
  reshape_result main_v176 main_v177 _ _ _ _ F
private theorem reshape_v203 (F : Valuation τ sig (Elt Ideal)) :
    (reshape (τ := τ) (Val := Elt Ideal) main_v202 main_v203 rfl shapeCasts_S1x128x128_S128x128).result F (no_index (Proc.devRef .tc main_v203))
      = shapeCast S128x128 (F (Proc.devRef .tc main_v202)) shapeCasts_S1x128x128_S128x128 :=
  reshape_result main_v202 main_v203 _ _ _ _ F
private theorem reshape_v218 (F : Valuation τ sig (Elt Ideal)) :
    (reshape (τ := τ) (Val := Elt Ideal) main_v217 main_v218 rfl shapeCasts_S1x128_S128).result F (no_index (Proc.devRef .tc main_v218))
      = shapeCast S128 (F (Proc.devRef .tc main_v217)) shapeCasts_S1x128_S128 :=
  reshape_result main_v217 main_v218 _ _ _ _ F
private theorem reshape_v225 (F : Valuation τ sig (Elt Ideal)) :
    (reshape (τ := τ) (Val := Elt Ideal) main_v224 main_v225 rfl shapeCasts_S1x128_S128).result F (no_index (Proc.devRef .tc main_v225))
      = shapeCast S128 (F (Proc.devRef .tc main_v224)) shapeCasts_S1x128_S128 :=
  reshape_result main_v224 main_v225 _ _ _ _ F
private theorem reshape_v227 (F : Valuation τ sig (Elt Ideal)) :
    (reshape (τ := τ) (Val := Elt Ideal) main_v226 main_v227 rfl shapeCasts_S1x128_S128).result F (no_index (Proc.devRef .tc main_v227))
      = shapeCast S128 (F (Proc.devRef .tc main_v226)) shapeCasts_S1x128_S128 :=
  reshape_result main_v226 main_v227 _ _ _ _ F

/-! ## A literal reference's contents at its own type: the transport along the type equation is the identity -/

private theorem toBuf_cst_6 (v : (⟨S_, .f32⟩ : BufTy).Contents (Elt Ideal)) :
    (TRef.of (T := ⟨S_, .f32⟩) main_cst_6).toBuf (Val := Elt Ideal) v = v := rfl
private theorem ofBuf_cst_6 (v : (⟨S_, .f32⟩ : BufTy).Contents (Elt Ideal)) :
    (TRef.of (T := ⟨S_, .f32⟩) main_cst_6).ofBuf (Val := Elt Ideal) v = v := rfl
private theorem toBuf_call0_v0 (v : (⟨S_, .f32⟩ : BufTy).Contents (Elt Ideal)) :
    (TRef.of (T := ⟨S_, .f32⟩) main_call0_v0).toBuf (Val := Elt Ideal) v = v := rfl
private theorem ofBuf_call0_v0 (v : (⟨S_, .f32⟩ : BufTy).Contents (Elt Ideal)) :
    (TRef.of (T := ⟨S_, .f32⟩) main_call0_v0).ofBuf (Val := Elt Ideal) v = v := rfl
private theorem toBuf_call0_v1 (v : (⟨S100000, .f32⟩ : BufTy).Contents (Elt Ideal)) :
    (TRef.of (T := ⟨S100000, .f32⟩) main_call0_v1).toBuf (Val := Elt Ideal) v = v := rfl
private theorem ofBuf_call0_v1 (v : (⟨S100000, .f32⟩ : BufTy).Contents (Elt Ideal)) :
    (TRef.of (T := ⟨S100000, .f32⟩) main_call0_v1).ofBuf (Val := Elt Ideal) v = v := rfl
private theorem toBuf_v31 (v : (⟨S100000, .i1⟩ : BufTy).Contents (Elt Ideal)) :
    (TRef.of (T := ⟨S100000, .i1⟩) main_v31).toBuf (Val := Elt Ideal) v = v := rfl
private theorem ofBuf_v31 (v : (⟨S100000, .i1⟩ : BufTy).Contents (Elt Ideal)) :
    (TRef.of (T := ⟨S100000, .i1⟩) main_v31).ofBuf (Val := Elt Ideal) v = v := rfl
private theorem toBuf_v34 (v : (⟨S100000, .f32⟩ : BufTy).Contents (Elt Ideal)) :
    (TRef.of (T := ⟨S100000, .f32⟩) main_v34).toBuf (Val := Elt Ideal) v = v := rfl
private theorem ofBuf_v34 (v : (⟨S100000, .f32⟩ : BufTy).Contents (Elt Ideal)) :
    (TRef.of (T := ⟨S100000, .f32⟩) main_v34).ofBuf (Val := Elt Ideal) v = v := rfl
private theorem toBuf_v35 (v : (⟨S100000, .f32⟩ : BufTy).Contents (Elt Ideal)) :
    (TRef.of (T := ⟨S100000, .f32⟩) main_v35).toBuf (Val := Elt Ideal) v = v := rfl
private theorem ofBuf_v35 (v : (⟨S100000, .f32⟩ : BufTy).Contents (Elt Ideal)) :
    (TRef.of (T := ⟨S100000, .f32⟩) main_v35).ofBuf (Val := Elt Ideal) v = v := rfl
private theorem toBuf_call1_cst (v : (⟨S_, .f32⟩ : BufTy).Contents (Elt Ideal)) :
    (TRef.of (T := ⟨S_, .f32⟩) main_call1_cst).toBuf (Val := Elt Ideal) v = v := rfl
private theorem ofBuf_call1_cst (v : (⟨S_, .f32⟩ : BufTy).Contents (Elt Ideal)) :
    (TRef.of (T := ⟨S_, .f32⟩) main_call1_cst).ofBuf (Val := Elt Ideal) v = v := rfl
private theorem toBuf_call1_v0 (v : (⟨S100000x128, .f32⟩ : BufTy).Contents (Elt Ideal)) :
    (TRef.of (T := ⟨S100000x128, .f32⟩) main_call1_v0).toBuf (Val := Elt Ideal) v = v := rfl
private theorem ofBuf_call1_v0 (v : (⟨S100000x128, .f32⟩ : BufTy).Contents (Elt Ideal)) :
    (TRef.of (T := ⟨S100000x128, .f32⟩) main_call1_v0).ofBuf (Val := Elt Ideal) v = v := rfl
private theorem toBuf_v71 (v : (⟨S100000x128, .f32⟩ : BufTy).Contents (Elt Ideal)) :
    (TRef.of (T := ⟨S100000x128, .f32⟩) main_v71).toBuf (Val := Elt Ideal) v = v := rfl
private theorem ofBuf_v71 (v : (⟨S100000x128, .f32⟩ : BufTy).Contents (Elt Ideal)) :
    (TRef.of (T := ⟨S100000x128, .f32⟩) main_v71).ofBuf (Val := Elt Ideal) v = v := rfl
private theorem toBuf_v72 (v : (⟨S100000x128, .f32⟩ : BufTy).Contents (Elt Ideal)) :
    (TRef.of (T := ⟨S100000x128, .f32⟩) main_v72).toBuf (Val := Elt Ideal) v = v := rfl
private theorem ofBuf_v72 (v : (⟨S100000x128, .f32⟩ : BufTy).Contents (Elt Ideal)) :
    (TRef.of (T := ⟨S100000x128, .f32⟩) main_v72).ofBuf (Val := Elt Ideal) v = v := rfl
private theorem toBuf_call2_cst (v : (⟨S_, .f32⟩ : BufTy).Contents (Elt Ideal)) :
    (TRef.of (T := ⟨S_, .f32⟩) main_call2_cst).toBuf (Val := Elt Ideal) v = v := rfl
private theorem ofBuf_call2_cst (v : (⟨S_, .f32⟩ : BufTy).Contents (Elt Ideal)) :
    (TRef.of (T := ⟨S_, .f32⟩) main_call2_cst).ofBuf (Val := Elt Ideal) v = v := rfl
private theorem toBuf_call2_v0 (v : (⟨S100000x128, .f32⟩ : BufTy).Contents (Elt Ideal)) :
    (TRef.of (T := ⟨S100000x128, .f32⟩) main_call2_v0).toBuf (Val := Elt Ideal) v = v := rfl
private theorem ofBuf_call2_v0 (v : (⟨S100000x128, .f32⟩ : BufTy).Contents (Elt Ideal)) :
    (TRef.of (T := ⟨S100000x128, .f32⟩) main_call2_v0).ofBuf (Val := Elt Ideal) v = v := rfl
private theorem toBuf_v121 (v : (⟨S100000x128, .f32⟩ : BufTy).Contents (Elt Ideal)) :
    (TRef.of (T := ⟨S100000x128, .f32⟩) main_v121).toBuf (Val := Elt Ideal) v = v := rfl
private theorem ofBuf_v121 (v : (⟨S100000x128, .f32⟩ : BufTy).Contents (Elt Ideal)) :
    (TRef.of (T := ⟨S100000x128, .f32⟩) main_v121).ofBuf (Val := Elt Ideal) v = v := rfl
private theorem toBuf_v122 (v : (⟨S100000x128, .f32⟩ : BufTy).Contents (Elt Ideal)) :
    (TRef.of (T := ⟨S100000x128, .f32⟩) main_v122).toBuf (Val := Elt Ideal) v = v := rfl
private theorem ofBuf_v122 (v : (⟨S100000x128, .f32⟩ : BufTy).Contents (Elt Ideal)) :
    (TRef.of (T := ⟨S100000x128, .f32⟩) main_v122).ofBuf (Val := Elt Ideal) v = v := rfl
private theorem toBuf_call3_cst (v : (⟨S_, .f32⟩ : BufTy).Contents (Elt Ideal)) :
    (TRef.of (T := ⟨S_, .f32⟩) main_call3_cst).toBuf (Val := Elt Ideal) v = v := rfl
private theorem ofBuf_call3_cst (v : (⟨S_, .f32⟩ : BufTy).Contents (Elt Ideal)) :
    (TRef.of (T := ⟨S_, .f32⟩) main_call3_cst).ofBuf (Val := Elt Ideal) v = v := rfl
private theorem toBuf_call3_v0 (v : (⟨S100000x128, .f32⟩ : BufTy).Contents (Elt Ideal)) :
    (TRef.of (T := ⟨S100000x128, .f32⟩) main_call3_v0).toBuf (Val := Elt Ideal) v = v := rfl
private theorem ofBuf_call3_v0 (v : (⟨S100000x128, .f32⟩ : BufTy).Contents (Elt Ideal)) :
    (TRef.of (T := ⟨S100000x128, .f32⟩) main_call3_v0).ofBuf (Val := Elt Ideal) v = v := rfl
private theorem toBuf_v171 (v : (⟨S100000x128, .f32⟩ : BufTy).Contents (Elt Ideal)) :
    (TRef.of (T := ⟨S100000x128, .f32⟩) main_v171).toBuf (Val := Elt Ideal) v = v := rfl
private theorem ofBuf_v171 (v : (⟨S100000x128, .f32⟩ : BufTy).Contents (Elt Ideal)) :
    (TRef.of (T := ⟨S100000x128, .f32⟩) main_v171).ofBuf (Val := Elt Ideal) v = v := rfl
private theorem toBuf_v172 (v : (⟨S100000x128, .f32⟩ : BufTy).Contents (Elt Ideal)) :
    (TRef.of (T := ⟨S100000x128, .f32⟩) main_v172).toBuf (Val := Elt Ideal) v = v := rfl
private theorem ofBuf_v172 (v : (⟨S100000x128, .f32⟩ : BufTy).Contents (Elt Ideal)) :
    (TRef.of (T := ⟨S100000x128, .f32⟩) main_v172).ofBuf (Val := Elt Ideal) v = v := rfl
private theorem toBuf_call4_cst (v : (⟨S_, .f32⟩ : BufTy).Contents (Elt Ideal)) :
    (TRef.of (T := ⟨S_, .f32⟩) main_call4_cst).toBuf (Val := Elt Ideal) v = v := rfl
private theorem ofBuf_call4_cst (v : (⟨S_, .f32⟩ : BufTy).Contents (Elt Ideal)) :
    (TRef.of (T := ⟨S_, .f32⟩) main_call4_cst).ofBuf (Val := Elt Ideal) v = v := rfl
private theorem toBuf_call4_v0 (v : (⟨S100000x128, .f32⟩ : BufTy).Contents (Elt Ideal)) :
    (TRef.of (T := ⟨S100000x128, .f32⟩) main_call4_v0).toBuf (Val := Elt Ideal) v = v := rfl
private theorem ofBuf_call4_v0 (v : (⟨S100000x128, .f32⟩ : BufTy).Contents (Elt Ideal)) :
    (TRef.of (T := ⟨S100000x128, .f32⟩) main_call4_v0).ofBuf (Val := Elt Ideal) v = v := rfl
private theorem toBuf_v221 (v : (⟨S100000x128, .f32⟩ : BufTy).Contents (Elt Ideal)) :
    (TRef.of (T := ⟨S100000x128, .f32⟩) main_v221).toBuf (Val := Elt Ideal) v = v := rfl
private theorem ofBuf_v221 (v : (⟨S100000x128, .f32⟩ : BufTy).Contents (Elt Ideal)) :
    (TRef.of (T := ⟨S100000x128, .f32⟩) main_v221).ofBuf (Val := Elt Ideal) v = v := rfl
private theorem toBuf_v222 (v : (⟨S100000x128, .f32⟩ : BufTy).Contents (Elt Ideal)) :
    (TRef.of (T := ⟨S100000x128, .f32⟩) main_v222).toBuf (Val := Elt Ideal) v = v := rfl
private theorem ofBuf_v222 (v : (⟨S100000x128, .f32⟩ : BufTy).Contents (Elt Ideal)) :
    (TRef.of (T := ⟨S100000x128, .f32⟩) main_v222).ofBuf (Val := Elt Ideal) v = v := rfl

/-- Each operation's result at its own result buffer is its function's value, and at any other reference what was
    there. -/
local macro "results_rw" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The pieces: what each leaves in the buffer it is read at, from any contents holding what it reads -/

set_option maxHeartbeats 4000000 in
/-- The first piece: the two table lookups at the wrapped word columns, added. -/
theorem pE (W : Valuation τ sig (Elt Ideal)) (a0 : IVec S100000x2 32) (a3 a4 : FVec Ideal S65x128 .f32)
    (h0 : W (Proc.devRef .tc main_arg0) = a0) (h3 : W (Proc.devRef .tc main_arg3) = a3)
    (h4 : W (Proc.devRef .tc main_arg4) = a4) :
    after (opsE (F := Ideal)) W (Proc.devRef .tc main_v18) = embR a0 a3 a4 := by
  dsimp only [opsE]
  after_results_simp
  rw [h0, h3, h4]
  rfl
set_option maxHeartbeats 4000000 in
/-- The second piece at the source list: the first row of the edge array, then every node once more. -/
theorem pG_src (W : Valuation τ sig (Elt Ideal)) (a1 : IVec S2x600000 32) (h1 : W (Proc.devRef .tc main_arg1) = a1) :
    after (opsG (F := Ideal)) W (Proc.devRef .tc main_v22) = srcT a1 := by
  dsimp only [opsG]
  after_results_simp
  results_rw
  rw [h1]
  rfl
set_option maxHeartbeats 4000000 in
/-- The second piece at the target list. -/
theorem pG_dst (W : Valuation τ sig (Elt Ideal)) (a1 : IVec S2x600000 32) (h1 : W (Proc.devRef .tc main_arg1) = a1) :
    after (opsG (F := Ideal)) W (Proc.devRef .tc main_v25) = dstT a1 := by
  dsimp only [opsG]
  after_results_simp
  results_rw
  rw [h1]
  rfl
set_option maxHeartbeats 4000000 in
/-- The second piece at the per-edge scale: its first seven operations leave the two edge lists, and the rest
    computes the degrees, their inverse roots where positive, and the product of the two gathered factors. -/
theorem pG_norm (W : Valuation τ sig (Elt Ideal)) (a1 : IVec S2x600000 32) (h1 : W (Proc.devRef .tc main_arg1) = a1) :
    after (opsG (F := Ideal)) W (Proc.devRef .tc main_v51) = normT a1 := by
  have h22 : after ((opsG (F := Ideal)).take 7) W (Proc.devRef .tc main_v22) = srcT a1 := by
    dsimp only [opsG, List.take]
    after_results_simp
    results_rw
    rw [h1]
    rfl
  have h25 : after ((opsG (F := Ideal)).take 7) W (Proc.devRef .tc main_v25) = dstT a1 := by
    dsimp only [opsG, List.take]
    after_results_simp
    results_rw
    rw [h1]
    rfl
  rw [← List.take_append_drop 7 (opsG (F := Ideal)), after_append]
  generalize after ((opsG (F := Ideal)).take 7) W = V at h22 h25 ⊢
  dsimp only [opsG, List.drop]
  simp (disch := decide) only [after_cons, after_nil,
    nullary_result', unary_result', binary_result', ternary_result',
    nullary_result_ne', unary_result_ne', binary_result_ne', ternary_result_ne']
  simp -implicitDefEqProofs only [toBuf_cst_6, ofBuf_cst_6, toBuf_call0_v0, ofBuf_call0_v0, toBuf_call0_v1, ofBuf_call0_v1, toBuf_v31, ofBuf_v31, toBuf_v34, ofBuf_v34, toBuf_v35, ofBuf_v35]
  rw [h22, h25]
  simp -implicitDefEqProofs only [normT, disT, degT, wrapT]
set_option maxHeartbeats 4000000 in
/-- Round 0: the matrix product with the round's weights, its rows gathered along the edges, scaled and added per
    target node, the bias, the positive part, the residual, and the row normalisation. -/
theorem pL0 (W : Valuation τ sig (Elt Ideal)) (a1 : IVec S2x600000 32) (a5 : FVec Ideal S4x128x128 .f32)
    (a6 a7 a8 : FVec Ideal S4x128 .f32) (x : FVec Ideal S100000x128 .f32)
    (hx : W (Proc.devRef .tc main_v18) = x) (h22 : W (Proc.devRef .tc main_v22) = srcT a1)
    (h25 : W (Proc.devRef .tc main_v25) = dstT a1) (h51 : W (Proc.devRef .tc main_v51) = normT a1)
    (h5 : W (Proc.devRef .tc main_arg5) = a5) (h6 : W (Proc.devRef .tc main_arg6) = a6)
    (h7 : W (Proc.devRef .tc main_arg7) = a7) (h8 : W (Proc.devRef .tc main_arg8) = a8) :
    after (opsL0 (F := Ideal)) W (Proc.devRef .tc main_v101) = layerR a1 (w0T a5) (v0T a6) (v0T a7) (v0T a8) x := by
  dsimp only [opsL0]
  simp (disch := decide) only [after_cons, after_nil, reshape_v53, reshape_v68, reshape_v75, reshape_v77,
    nullary_result', unary_result', binary_result', ternary_result',
    nullary_result_ne', unary_result_ne', binary_result_ne', ternary_result_ne', reshape_result_ne']
  simp -implicitDefEqProofs only [toBuf_call1_cst, ofBuf_call1_cst, toBuf_call1_v0, ofBuf_call1_v0, toBuf_v71, ofBuf_v71, toBuf_v72, ofBuf_v72]
  rw [hx, h22, h25, h51, h5, h6, h7, h8]
  simp -implicitDefEqProofs only [layerR, lnR, preR, meanR, rowsR, colsR, aggT, gathT, wrapT, w0T, v0T]
set_option maxHeartbeats 4000000 in
/-- Round 1: the matrix product with the round's weights, its rows gathered along the edges, scaled and added per
    target node, the bias, the positive part, the residual, and the row normalisation. -/
theorem pL1 (W : Valuation τ sig (Elt Ideal)) (a1 : IVec S2x600000 32) (a5 : FVec Ideal S4x128x128 .f32)
    (a6 a7 a8 : FVec Ideal S4x128 .f32) (x : FVec Ideal S100000x128 .f32)
    (hx : W (Proc.devRef .tc main_v101) = x) (h22 : W (Proc.devRef .tc main_v22) = srcT a1)
    (h25 : W (Proc.devRef .tc main_v25) = dstT a1) (h51 : W (Proc.devRef .tc main_v51) = normT a1)
    (h5 : W (Proc.devRef .tc main_arg5) = a5) (h6 : W (Proc.devRef .tc main_arg6) = a6)
    (h7 : W (Proc.devRef .tc main_arg7) = a7) (h8 : W (Proc.devRef .tc main_arg8) = a8) :
    after (opsL1 (F := Ideal)) W (Proc.devRef .tc main_v151) = layerR a1 (w1T a5) (v1T a6) (v1T a7) (v1T a8) x := by
  dsimp only [opsL1]
  simp (disch := decide) only [after_cons, after_nil, reshape_v103, reshape_v118, reshape_v125, reshape_v127,
    nullary_result', unary_result', binary_result', ternary_result',
    nullary_result_ne', unary_result_ne', binary_result_ne', ternary_result_ne', reshape_result_ne']
  simp -implicitDefEqProofs only [toBuf_call2_cst, ofBuf_call2_cst, toBuf_call2_v0, ofBuf_call2_v0, toBuf_v121, ofBuf_v121, toBuf_v122, ofBuf_v122]
  rw [hx, h22, h25, h51, h5, h6, h7, h8]
  simp -implicitDefEqProofs only [layerR, lnR, preR, meanR, rowsR, colsR, aggT, gathT, wrapT, w1T, v1T]
set_option maxHeartbeats 4000000 in
/-- Round 2: the matrix product with the round's weights, its rows gathered along the edges, scaled and added per
    target node, the bias, the positive part, the residual, and the row normalisation. -/
theorem pL2 (W : Valuation τ sig (Elt Ideal)) (a1 : IVec S2x600000 32) (a5 : FVec Ideal S4x128x128 .f32)
    (a6 a7 a8 : FVec Ideal S4x128 .f32) (x : FVec Ideal S100000x128 .f32)
    (hx : W (Proc.devRef .tc main_v151) = x) (h22 : W (Proc.devRef .tc main_v22) = srcT a1)
    (h25 : W (Proc.devRef .tc main_v25) = dstT a1) (h51 : W (Proc.devRef .tc main_v51) = normT a1)
    (h5 : W (Proc.devRef .tc main_arg5) = a5) (h6 : W (Proc.devRef .tc main_arg6) = a6)
    (h7 : W (Proc.devRef .tc main_arg7) = a7) (h8 : W (Proc.devRef .tc main_arg8) = a8) :
    after (opsL2 (F := Ideal)) W (Proc.devRef .tc main_v201) = layerR a1 (w2T a5) (v2T a6) (v2T a7) (v2T a8) x := by
  dsimp only [opsL2]
  simp (disch := decide) only [after_cons, after_nil, reshape_v153, reshape_v168, reshape_v175, reshape_v177,
    nullary_result', unary_result', binary_result', ternary_result',
    nullary_result_ne', unary_result_ne', binary_result_ne', ternary_result_ne', reshape_result_ne']
  simp -implicitDefEqProofs only [toBuf_call3_cst, ofBuf_call3_cst, toBuf_call3_v0, ofBuf_call3_v0, toBuf_v171, ofBuf_v171, toBuf_v172, ofBuf_v172]
  rw [hx, h22, h25, h51, h5, h6, h7, h8]
  simp -implicitDefEqProofs only [layerR, lnR, preR, meanR, rowsR, colsR, aggT, gathT, wrapT, w2T, v2T]
set_option maxHeartbeats 4000000 in
/-- Round 3: the matrix product with the round's weights, its rows gathered along the edges, scaled and added per
    target node, the bias, the positive part, the residual, and the row normalisation. -/
theorem pL3 (W : Valuation τ sig (Elt Ideal)) (a1 : IVec S2x600000 32) (a5 : FVec Ideal S4x128x128 .f32)
    (a6 a7 a8 : FVec Ideal S4x128 .f32) (x : FVec Ideal S100000x128 .f32)
    (hx : W (Proc.devRef .tc main_v201) = x) (h22 : W (Proc.devRef .tc main_v22) = srcT a1)
    (h25 : W (Proc.devRef .tc main_v25) = dstT a1) (h51 : W (Proc.devRef .tc main_v51) = normT a1)
    (h5 : W (Proc.devRef .tc main_arg5) = a5) (h6 : W (Proc.devRef .tc main_arg6) = a6)
    (h7 : W (Proc.devRef .tc main_arg7) = a7) (h8 : W (Proc.devRef .tc main_arg8) = a8) :
    after (opsL3 (F := Ideal)) W (Proc.devRef .tc main_v251) = layerR a1 (w3T a5) (v3T a6) (v3T a7) (v3T a8) x := by
  dsimp only [opsL3]
  simp (disch := decide) only [after_cons, after_nil, reshape_v203, reshape_v218, reshape_v225, reshape_v227,
    nullary_result', unary_result', binary_result', ternary_result',
    nullary_result_ne', unary_result_ne', binary_result_ne', ternary_result_ne', reshape_result_ne']
  simp -implicitDefEqProofs only [toBuf_call4_cst, ofBuf_call4_cst, toBuf_call4_v0, ofBuf_call4_v0, toBuf_v221, ofBuf_v221, toBuf_v222, ofBuf_v222]
  rw [hx, h22, h25, h51, h5, h6, h7, h8]
  simp -implicitDefEqProofs only [layerR, lnR, preR, meanR, rowsR, colsR, aggT, gathT, wrapT, w3T, v3T]
set_option maxHeartbeats 4000000 in
/-- The last piece: the last round's features times the transposed output weights. -/
theorem pP (W : Valuation τ sig (Elt Ideal)) (x : FVec Ideal S100000x128 .f32) (a9 : FVec Ideal S32x128 .f32)
    (hx : W (Proc.devRef .tc main_v251) = x) (h9 : W (Proc.devRef .tc main_arg9) = a9) :
    after (opsP (F := Ideal)) W (Proc.devRef .tc main_v253)
      = Host.dotGeneral dot_S100000x128_S128x32_S100000x32_1_0_0_1_n_n none x (trT a9) := by
  dsimp only [opsP]
  after_results_simp
  rw [hx, h9]
  rfl

/-! ## The chain: the pieces run in turn, each reading what the earlier ones left -/

/-- From any contents holding the arguments, the seven pieces run in turn leave the reference computation in the
    result buffer. -/
theorem chain (W0 : Valuation τ sig (Elt Ideal)) (a0 : IVec S100000x2 32) (a1 : IVec S2x600000 32)
    (a3 a4 : FVec Ideal S65x128 .f32) (a5 : FVec Ideal S4x128x128 .f32) (a6 a7 a8 : FVec Ideal S4x128 .f32)
    (a9 : FVec Ideal S32x128 .f32)
    (h0 : W0 (Proc.devRef .tc main_arg0) = a0) (h1 : W0 (Proc.devRef .tc main_arg1) = a1) (h3 : W0 (Proc.devRef .tc main_arg3) = a3)
    (h4 : W0 (Proc.devRef .tc main_arg4) = a4) (h5 : W0 (Proc.devRef .tc main_arg5) = a5) (h6 : W0 (Proc.devRef .tc main_arg6) = a6)
    (h7 : W0 (Proc.devRef .tc main_arg7) = a7) (h8 : W0 (Proc.devRef .tc main_arg8) = a8) (h9 : W0 (Proc.devRef .tc main_arg9) = a9) :
    after (opsP (F := Ideal)) (after (opsL3 (F := Ideal)) (after (opsL2 (F := Ideal)) (after (opsL1 (F := Ideal))
      (after (opsL0 (F := Ideal)) (after (opsG (F := Ideal)) (after (opsE (F := Ideal)) W0)))))) (Proc.devRef .tc main_v253)
      = outR a0 a1 a3 a4 a5 a6 a7 a8 a9 := by
  -- after the first piece: the first layer; the other arguments as they were
  have e18 := pE W0 a0 a3 a4 h0 h3 h4
  have e1 := (keepE_arg1 W0).trans h1
  have e5 := (keepE_arg5 W0).trans h5
  have e6 := (keepE_arg6 W0).trans h6
  have e7 := (keepE_arg7 W0).trans h7
  have e8 := (keepE_arg8 W0).trans h8
  have e9 := (keepE_arg9 W0).trans h9
  generalize after (opsE (F := Ideal)) W0 = W1 at e18 e1 e5 e6 e7 e8 e9 ⊢
  -- after the second piece: the edge lists and the per-edge scale; the first layer kept
  have g18 := (keepG_v18 W1).trans e18
  have g22 := pG_src W1 a1 e1
  have g25 := pG_dst W1 a1 e1
  have g51 := pG_norm W1 a1 e1
  have g5 := (keepG_arg5 W1).trans e5
  have g6 := (keepG_arg6 W1).trans e6
  have g7 := (keepG_arg7 W1).trans e7
  have g8 := (keepG_arg8 W1).trans e8
  have g9 := (keepG_arg9 W1).trans e9
  generalize after (opsG (F := Ideal)) W1 = W2 at g18 g22 g25 g51 g5 g6 g7 g8 g9 ⊢
  -- round 0
  have x1 := pL0 W2 a1 a5 a6 a7 a8 _ g18 g22 g25 g51 g5 g6 g7 g8
  have s22 := (keepL0_v22 W2).trans g22
  have s25 := (keepL0_v25 W2).trans g25
  have s51 := (keepL0_v51 W2).trans g51
  have s5 := (keepL0_arg5 W2).trans g5
  have s6 := (keepL0_arg6 W2).trans g6
  have s7 := (keepL0_arg7 W2).trans g7
  have s8 := (keepL0_arg8 W2).trans g8
  have s9 := (keepL0_arg9 W2).trans g9
  generalize after (opsL0 (F := Ideal)) W2 = W3 at x1 s22 s25 s51 s5 s6 s7 s8 s9 ⊢
  -- round 1
  have x2 := pL1 W3 a1 a5 a6 a7 a8 _ x1 s22 s25 s51 s5 s6 s7 s8
  have t22 := (keepL1_v22 W3).trans s22
  have t25 := (keepL1_v25 W3).trans s25
  have t51 := (keepL1_v51 W3).trans s51
  have t5 := (keepL1_arg5 W3).trans s5
  have t6 := (keepL1_arg6 W3).trans s6
  have t7 := (keepL1_arg7 W3).trans s7
  have t8 := (keepL1_arg8 W3).trans s8
  have t9 := (keepL1_arg9 W3).trans s9
  generalize after (opsL1 (F := Ideal)) W3 = W4 at x2 t22 t25 t51 t5 t6 t7 t8 t9 ⊢
  -- round 2
  have x3 := pL2 W4 a1 a5 a6 a7 a8 _ x2 t22 t25 t51 t5 t6 t7 t8
  have u22 := (keepL2_v22 W4).trans t22
  have u25 := (keepL2_v25 W4).trans t25
  have u51 := (keepL2_v51 W4).trans t51
  have u5 := (keepL2_arg5 W4).trans t5
  have u6 := (keepL2_arg6 W4).trans t6
  have u7 := (keepL2_arg7 W4).trans t7
  have u8 := (keepL2_arg8 W4).trans t8
  have u9 := (keepL2_arg9 W4).trans t9
  generalize after (opsL2 (F := Ideal)) W4 = W5 at x3 u22 u25 u51 u5 u6 u7 u8 u9 ⊢
  -- round 3
  have x4 := pL3 W5 a1 a5 a6 a7 a8 _ x3 u22 u25 u51 u5 u6 u7 u8
  have v9 := (keepL3_arg9 W5).trans u9
  generalize after (opsL3 (F := Ideal)) W5 = W6 at x4 v9 ⊢
  -- the last product
  rw [pP W6 _ a9 x4 v9, outR]

/-- After all the operations the result buffer holds the reference computation of the launch contents of the
    arguments. -/
theorem result (m : (ℓ : Loc nD τ sig) → Buf (Elt Ideal) ℓ) (c : Dev nD) :
    after (ops (F := Ideal)) (launchContents m c) (Proc.devRef .tc main_v253)
      = Cert.Net.outR (m ((c.tc : Thread nD τ).loc main_arg0)) (m ((c.tc : Thread nD τ).loc main_arg1))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) := by
  rw [ops_eq]
  simp only [after_append]
  exact chain (launchContents m c) _ _ _ _ _ _ _ _ _ rfl rfl rfl rfl rfl rfl rfl rfl rfl

end Cert.ReferenceIdeal.RChain

end
-- ==== Proof.PreDecode.lean ====
/-
  What the precondition says of the two integer arguments: every word of the token matrix is a row number of
  the 65-row tables, and every source node of the edge list is a node number.
-/
import proofs.«422291_j73607149519132_1_alg».proof.Proof.Gen.Pre_finite_inputs
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

open scoped BigOperators

namespace Cert.PreDecode

open Cert.Pre_finite_inputs Idealize.ShloMosaic Idealize.ShloMosaic.ValueIdx

/-- The scalar shape has one index. -/
instance : Subsingleton S_.Idx := ⟨fun a b => funext fun d => d.elim0⟩

/-- A word that compares signed-greater-or-equal to zero is not negative. -/
theorem sge_zero {w : BitVec 32} (h : IntOp.cmpi .sge w 0#32 = 1#1) : 0 ≤ w.toInt := by
  have h' : BitVec.ofBool ((0#32 : BitVec 32).sle w) = 1#1 := h
  rw [StableHlo.Predicate.ofBool_eq_one_iff] at h'
  simp only [BitVec.sle, decide_eq_true_eq] at h'
  have z : (0#32 : BitVec 32).toInt = 0 := by decide
  omega

/-- A word that compares signed-less than a constant is below it as a signed number. -/
theorem slt_const {w c : BitVec 32} (h : IntOp.cmpi .slt w c = 1#1) : w.toInt < c.toInt := by
  have h' : BitVec.ofBool (w.slt c) = 1#1 := h
  rw [StableHlo.Predicate.ofBool_eq_one_iff] at h'
  simp only [BitVec.slt, decide_eq_true_eq] at h'
  exact h'

/-- Row 0 of the edge list, cut out and flattened, read at e: the edge list at (0, e). -/
theorem src_at (a1 : IVec S2x600000 32) (h1 : S2x600000.Slices ![0, 0] S1x600000) (h2 : S1x600000.ShapeCasts S600000)
    (e : Fin 600000) :
    shapeCast S600000 (extractStridedSlice S1x600000 ![0, 0] a1 h1) h2 (ix1 e) = a1 (ix2 0 e) := by
  rw [shapeCast_apply _ h2 (ix1 e) (ix2 0 e) (by
    rw [Shape.rowMajor_val_two, Shape.rowMajor_val_one]; show 0 * 600000 + e.val = e.val; omega)]
  exact extractStridedSlice_apply _ _ h1 (ix2 0 e) (ix2 0 e) (fun a => by
    match a with
    | ⟨0, _⟩ => rfl
    | ⟨1, _⟩ => show e.val = 0 + e.val; omega)

/-- The last four bits of the precondition, element by element: the two comparisons of every token word and of
    every source word. -/
theorem bits (a0 : IVec S100000x2 32) (a1 : IVec S2x600000 32) (a2 : IVec S100000 32) (a3 a4 : FVec Ideal S65x128 .f32)
    (a5 : FVec Ideal S4x128x128 .f32) (a6 a7 a8 : FVec Ideal S4x128 .f32) (a9 : FVec Ideal S32x128 .f32)
    (h : Cert.Pre_finite_inputs.fn (F := Ideal) a0 a1 a2 a3 a4 a5 a6 a7 a8 a9 = fun _ => 1#1) :
    (∀ i : S100000x2.Idx, IntOp.cmpi .sge (a0 i) 0#32 = 1#1 ∧ IntOp.cmpi .slt (a0 i) 65#32 = 1#1)
    ∧ (∀ e : Fin 600000, IntOp.cmpi .sge (a1 (ix2 0 e)) 0#32 = 1#1 ∧ IntOp.cmpi .slt (a1 (ix2 0 e)) 100000#32 = 1#1) := by
  have h0 := congrFun h ix0
  dsimp only [fn, fn_part1, fn_part2, fn_part3] at h0
  obtain ⟨h1, b52⟩ := IntOp.andi_eq_one.mp h0
  obtain ⟨h2, b46⟩ := IntOp.andi_eq_one.mp h1
  obtain ⟨h3, b40⟩ := IntOp.andi_eq_one.mp h2
  obtain ⟨-, b36⟩ := IntOp.andi_eq_one.mp h3
  refine ⟨fun i => ⟨?_, ?_⟩, fun e => ⟨?_, ?_⟩⟩
  · have e1 := Host.reduce_andi_all _ _ _ _ _ b36 i
    have e2 : IntOp.cmpi .sge (a0 i) (broadcastInDim S100000x2 ![] Facts.bcast_S_S100000x2 (constantI S_ 32 0#32) i) = 1#1 := e1
    rw [StableHlo.Predicate.bcast_scalar _ Facts.h_S_] at e2
    exact e2
  · have e1 := Host.reduce_andi_all _ _ _ _ _ b40 i
    have e2 : IntOp.cmpi .slt (a0 i) (broadcastInDim S100000x2 ![] Facts.bcast_S_S100000x2 (constantI S_ 32 65#32) i) = 1#1 := e1
    rw [StableHlo.Predicate.bcast_scalar _ Facts.h_S_] at e2
    exact e2
  · have e1 := Host.reduce_andi_all _ _ _ _ _ b46 (ix1 e)
    have e2 : IntOp.cmpi .sge
        (shapeCast S600000 (extractStridedSlice S1x600000 ![0, 0] a1 Facts.slices_S2x600000_S1x600000_0_0) Facts.shapeCasts_S1x600000_S600000 (ix1 e))
        (broadcastInDim S600000 ![] Facts.bcast_S_S600000 (constantI S_ 32 0#32) (ix1 e)) = 1#1 := e1
    rw [StableHlo.Predicate.bcast_scalar _ Facts.h_S_, src_at] at e2
    exact e2
  · have e1 := Host.reduce_andi_all _ _ _ _ _ b52 (ix1 e)
    have e2 : IntOp.cmpi .slt
        (shapeCast S600000 (extractStridedSlice S1x600000 ![0, 0] a1 Facts.slices_S2x600000_S1x600000_0_0) Facts.shapeCasts_S1x600000_S600000 (ix1 e))
        (broadcastInDim S600000 ![] Facts.bcast_S_S600000 (constantI S_ 32 100000#32) (ix1 e)) = 1#1 := e1
    rw [StableHlo.Predicate.bcast_scalar _ Facts.h_S_, src_at] at e2
    exact e2

theorem tok_range (a0 : IVec S100000x2 32) (a1 : IVec S2x600000 32) (a2 : IVec S100000 32) (a3 a4 : FVec Ideal S65x128 .f32)
    (a5 : FVec Ideal S4x128x128 .f32) (a6 a7 a8 : FVec Ideal S4x128 .f32) (a9 : FVec Ideal S32x128 .f32)
    (h : Cert.Pre_finite_inputs.fn (F := Ideal) a0 a1 a2 a3 a4 a5 a6 a7 a8 a9 = fun _ => 1#1) :
    ∀ i : S100000x2.Idx, 0 ≤ (a0 i).toInt ∧ (a0 i).toInt < 65 := by
  intro i
  obtain ⟨g, l⟩ := (bits a0 a1 a2 a3 a4 a5 a6 a7 a8 a9 h).1 i
  have c : (65#32 : BitVec 32).toInt = 65 := by decide
  exact ⟨sge_zero g, c ▸ slt_const l⟩

theorem src_range (a0 : IVec S100000x2 32) (a1 : IVec S2x600000 32) (a2 : IVec S100000 32) (a3 a4 : FVec Ideal S65x128 .f32)
    (a5 : FVec Ideal S4x128x128 .f32) (a6 a7 a8 : FVec Ideal S4x128 .f32) (a9 : FVec Ideal S32x128 .f32)
    (h : Cert.Pre_finite_inputs.fn (F := Ideal) a0 a1 a2 a3 a4 a5 a6 a7 a8 a9 = fun _ => 1#1) :
    ∀ e : Fin 600000, 0 ≤ (a1 (ix2 0 e)).toInt ∧ (a1 (ix2 0 e)).toInt < 100000 := by
  intro e
  obtain ⟨g, l⟩ := (bits a0 a1 a2 a3 a4 a5 a6 a7 a8 a9 h).2 e
  have c : (100000#32 : BitVec 32).toInt = 100000 := by decide
  exact ⟨sge_zero g, c ▸ slt_const l⟩

end Cert.PreDecode

end
-- ==== Proof.BEmb.lean ====
/-
  The reference's first layer is the table lookup: a gather of one row per node from each table reads, at (r, j),
  the table at the row its start index names (read signed and kept inside the table) and column j; the start index
  is the node's word, which when it is a row number (0 <= word < 65) is not below zero, so the wrap leaves it alone.
-/
import proofs.«422291_j73607149519132_1_alg».proof.Proof.NetR
import proofs.«422291_j73607149519132_1_alg».proof.Proof.Spec
import Idealize.ShloMosaic.Lib.ValueIdx
import Idealize.ShloMosaic.Lib.ValueLayout
import Idealize.ShloMosaic.Lib.Pipeline.Value
import Idealize.ShloMosaic.Lib.StableHlo.Predicate

set_option maxRecDepth 16384

noncomputable section

open scoped BigOperators

namespace Cert.Net

open Cert.ReferenceIdeal Idealize.ShloMosaic Idealize.ShloMosaic.ValueIdx

/-! ## The row gather read at an index -/

section RowGather
variable {α : Type}

/-- On the table's row axis (collapsed, named by the start index) the operand coordinate is the start index of
    result row r, read signed and kept inside the table's 65 rows; no batch and no offset part. -/
theorem gatherRow_axis0 (idx : IVec S100000x1 32) (r : Fin 100000) (j : Fin 128) :
    gather_S65x128_S100000x1_S100000x128_1_0_n_n_0_1_1128.start (ix2 r j) idx 0
      + gather_S65x128_S100000x1_S100000x128_1_0_n_n_0_1_1128.batchCoord (ix2 r j) 0
      + gather_S65x128_S100000x1_S100000x128_1_0_n_n_0_1_1128.offCoord (ix2 r j) 0
      = min (idx (ix2 r (0 : Fin 1))).toInt.toNat 64 := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ gather_S65x128_S100000x1_S100000x128_1_0_n_n_0_1_1128.startIndexMap from
    List.mem_singleton.mpr rfl)]
  have hsi : gather_S65x128_S100000x1_S100000x128_1_0_n_n_0_1_1128.siIdx (ix2 r j)
      ⟨List.idxOf (0 : Fin 2) gather_S65x128_S100000x1_S100000x128_1_0_n_n_0_1_1128.startIndexMap,
        List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

/-- On the table's column axis (the offset axis) the operand coordinate is the result's column; no start and no
    batch part. -/
theorem gatherRow_axis1 (idx : IVec S100000x1 32) (r : Fin 100000) (j : Fin 128) :
    gather_S65x128_S100000x1_S100000x128_1_0_n_n_0_1_1128.start (ix2 r j) idx 1
      + gather_S65x128_S100000x1_S100000x128_1_0_n_n_0_1_1128.batchCoord (ix2 r j) 1
      + gather_S65x128_S100000x1_S100000x128_1_0_n_n_0_1_1128.offCoord (ix2 r j) 1
      = j.val := by
  rw [GatherDims.batchCoord_eq_zero _ _ _ List.not_mem_nil]
  unfold GatherDims.start
  rw [dif_neg (show ¬ (1 : Fin 2) ∈ gather_S65x128_S100000x1_S100000x128_1_0_n_n_0_1_1128.startIndexMap by decide)]
  simp only [Nat.add_zero, Nat.zero_add]
  rfl

/-- The gather of one table row per node, read at (r, j): the table at the row the start index of r names, read
    signed and kept inside the 65 rows, and column j. -/
theorem gatherRow_apply (tbl : S65x128.Idx → α) (idx : IVec S100000x1 32) (r : Fin 100000) (j : Fin 128) :
    Host.gather gather_S65x128_S100000x1_S100000x128_1_0_n_n_0_1_1128 tbl idx (ix2 r j)
      = tbl (ix2 (⟨min (idx (ix2 r (0 : Fin 1))).toInt.toNat 64, by omega⟩ : Fin 65) j) := by
  unfold Host.gather
  congr 1
  funext a
  refine Fin.ext ?_
  match a with
  | ⟨0, _⟩ => exact gatherRow_axis0 idx r j
  | ⟨1, _⟩ => exact gatherRow_axis1 idx r j

/-- The same with the start index of r given by name. -/
theorem gatherRow_apply_of (tbl : S65x128.Idx → α) (idx : IVec S100000x1 32) (r : Fin 100000) (j : Fin 128)
    (w : BitVec 32) (hw : idx (ix2 r (0 : Fin 1)) = w) :
    Host.gather gather_S65x128_S100000x1_S100000x128_1_0_n_n_0_1_1128 tbl idx (ix2 r j)
      = tbl (ix2 (⟨min w.toInt.toNat 64, by omega⟩ : Fin 65) j) := by
  subst hw
  exact gatherRow_apply tbl idx r j

end RowGather

/-! ## The start index: the node's word -/

/-- A vector laid out as a column reads, at (r, 0), the vector at r. -/
theorem column_apply (v : IVec S100000 32) (h : S100000.BroadcastsInDim S100000x1 (![0] : Fin 1 → Fin S100000x1.rank))
    (r : Fin 100000) : broadcastInDim S100000x1 ![0] h v (ix2 r (0 : Fin 1)) = v (ix1 r) :=
  broadcastInDim_apply _ h v _ (ix1 r) (fun a => by
    obtain rfl : a = 0 := Subsingleton.elim _ _
    rw [if_neg (show ¬ S100000.size 0 = 1 by decide)]
    rfl)

/-- Column k of the word matrix as a vector reads, at r, the word at (r, k). -/
theorem wordCol_apply (a0 : IVec S100000x2 32) (k : Fin 2) (hs : S100000x2.Slices ![0, k.val] S100000x1)
    (hc : S100000x1.ShapeCasts S100000) (r : Fin 100000) :
    shapeCast S100000 (extractStridedSlice S100000x1 ![0, k.val] a0 hs) hc (ix1 r) = a0 (ix2 r k) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply _ a0 hs _ (ix2 r k) (fun a => ?_)
    match a with
    | ⟨0, _⟩ => show r.val = 0 + r.val; omega
    | ⟨1, _⟩ => show k.val = k.val + 0; omega

/-- A word that is not below zero as a signed number fails the test "below zero". -/
theorem slt_zero_of_nonneg (w : BitVec 32) (h0 : 0 ≤ w.toInt) : IntOp.cmpi .slt w 0#32 = 0#1 := by
  have hf : w.slt 0#32 = false := by
    rw [Bool.eq_false_iff]
    intro h
    have := BitVec.slt_iff_toInt_lt.mp h
    rw [BitVec.toInt_zero] at this
    omega
  show BitVec.ofBool (w.slt 0#32) = 0#1
  rw [hf]
  rfl

/-- The wrap of a word "counted from the table's end when below zero" leaves a word that is not below zero alone. -/
theorem wrap_apply (W : IVec S100000 32) (h : S_.BroadcastsInDim S100000 (![] : Fin 0 → Fin S100000.rank))
    (i : S100000.Idx) (h0 : 0 ≤ (W i).toInt) :
    select (cmpi .slt W (broadcastInDim S100000 ![] h (constantI S_ 32 0#32)))
      (addi W (broadcastInDim S100000 ![] h (constantI S_ 32 65#32))) W i = W i := by
  rw [select_apply]
  show Scalar.select (IntOp.cmpi .slt (W i) 0#32) _ _ = W i
  rw [slt_zero_of_nonneg _ h0, select_zero]

/-- The first column of start indices reads, at (r, 0), the node's first word. -/
theorem col0R_apply (a0 : IVec S100000x2 32) (r : Fin 100000) (h0 : 0 ≤ (a0 (ix2 r 0)).toInt) :
    col0R a0 (ix2 r (0 : Fin 1)) = a0 (ix2 r 0) := by
  unfold col0R
  rw [column_apply, wrap_apply]
  · exact wordCol_apply a0 0 _ _ r
  · rw [show shapeCast S100000 (extractStridedSlice S100000x1 ![0, 0] a0 Facts₀.slices_S100000x2_S100000x1_0_0)
        Facts₀.shapeCasts_S100000x1_S100000 (ix1 r) = a0 (ix2 r 0) from wordCol_apply a0 0 _ _ r]
    exact h0

/-- The second column of start indices reads, at (r, 0), the node's second word. -/
theorem col1R_apply (a0 : IVec S100000x2 32) (r : Fin 100000) (h0 : 0 ≤ (a0 (ix2 r 1)).toInt) :
    col1R a0 (ix2 r (0 : Fin 1)) = a0 (ix2 r 1) := by
  unfold col1R
  rw [column_apply, wrap_apply]
  · exact wordCol_apply a0 1 _ _ r
  · rw [show shapeCast S100000 (extractStridedSlice S100000x1 ![0, 1] a0 Facts₀.slices_S100000x2_S100000x1_0_1)
        Facts₀.shapeCasts_S100000x1_S100000 (ix1 r) = a0 (ix2 r 1) from wordCol_apply a0 1 _ _ r]
    exact h0

/-! ## The first layer -/

/-- The reference's first layer is the lookup of the mathematics, when every word is a row number of the tables. -/
theorem embR_eq (a0 : IVec S100000x2 32) (a3 a4 : FVec Ideal S65x128 .f32)
    (hTok : ∀ i : S100000x2.Idx, 0 ≤ (a0 i).toInt ∧ (a0 i).toInt < 65) :
    embR a0 a3 a4 = Cert.Spec.emb a0 a3 a4 := by
  funext i
  obtain ⟨r, j, rfl⟩ : ∃ (r : Fin 100000) (j : Fin 128), i = ix2 r j := ⟨i 0, i 1, eq_ix2 i⟩
  unfold embR
  rw [addf_apply, gatherRow_apply_of a3 _ r j _ (col0R_apply a0 r (hTok _).1),
    gatherRow_apply_of a4 _ r j _ (col1R_apply a0 r (hTok _).1)]
  rfl

end Cert.Net

end
-- ==== Proof.BDot.lean ====
/-
  The host's matrix product is the matrix product of the mathematics: at (r, j) both are the sum over the shared
  axis of row r against column j.
-/
import proofs.«422291_j73607149519132_1_alg».proof.Proof.NetR
import proofs.«422291_j73607149519132_1_alg».proof.Proof.Spec
import Idealize.ShloMosaic.Lib.ValueIdx
import Idealize.ShloMosaic.PureOps.Ideal.Laws

set_option maxRecDepth 16384

noncomputable section

open scoped BigOperators

namespace Cert.Net.Dot128

open Cert.ReferenceIdeal Idealize.ShloMosaic Idealize.ShloMosaic.ValueIdx

/-- The left operand's index at result index j and contraction position k keeps j's row … -/
theorem lhs_0 (j : S100000x128.Idx) (k : dot_S100000x128_S128x128_S100000x128_1_0_0_1_n_n.contr.Idx) :
    (dot_S100000x128_S128x128_S100000x128_1_0_0_1_n_n.lhsIdx j k 0).val = (j 0).val := by
  unfold DotDims.lhsIdx
  rw [dif_neg (show ¬(0 : Fin S100000x128.rank) ∈ dot_S100000x128_S128x128_S100000x128_1_0_0_1_n_n.lhsBatch by decide),
    dif_pos (show (0 : Fin S100000x128.rank) ∈ dot_S100000x128_S128x128_S100000x128_1_0_0_1_n_n.lhsNonContracting by decide)]
  simp only [Fin.val_cast]
  have key : ∀ (p q : Nat) (hp : p < S100000x128.rank) (hq : q < S100000x128.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S100000x128.Idx) (k : dot_S100000x128_S128x128_S100000x128_1_0_0_1_n_n.contr.Idx) :
    (dot_S100000x128_S128x128_S100000x128_1_0_0_1_n_n.lhsIdx j k 1).val = (k ⟨0, by decide⟩).val :=
  dot_S100000x128_S128x128_S100000x128_1_0_0_1_n_n.lhsIdx_val_of_single rfl j k

/-- The right operand's index takes its row from the contraction position (its one contracted axis is axis 0) … -/
theorem rhs_0 (j : S100000x128.Idx) (k : dot_S100000x128_S128x128_S100000x128_1_0_0_1_n_n.contr.Idx) :
    (dot_S100000x128_S128x128_S100000x128_1_0_0_1_n_n.rhsIdx j k 0).val = (k ⟨0, by decide⟩).val :=
  dot_S100000x128_S128x128_S100000x128_1_0_0_1_n_n.rhsIdx_val_of_single rfl j k

/-- … and keeps j's column. -/
theorem rhs_1 (j : S100000x128.Idx) (k : dot_S100000x128_S128x128_S100000x128_1_0_0_1_n_n.contr.Idx) :
    (dot_S100000x128_S128x128_S100000x128_1_0_0_1_n_n.rhsIdx j k 1).val = (j 1).val := by
  unfold DotDims.rhsIdx
  rw [dif_neg (show ¬(1 : Fin S128x128.rank) ∈ dot_S100000x128_S128x128_S100000x128_1_0_0_1_n_n.rhsBatch by decide),
    dif_pos (show (1 : Fin S128x128.rank) ∈ dot_S100000x128_S128x128_S100000x128_1_0_0_1_n_n.rhsNonContracting by decide)]
  simp only [Fin.val_cast]
  have key : ∀ (p q : Nat) (hp : p < S100000x128.rank) (hq : q < S100000x128.rank), p = q → (j ⟨p, hp⟩).val = (j ⟨q, hq⟩).val :=
    fun p q hp hq h => by subst h; rfl
  exact key _ _ _ _ (by decide)

end Cert.Net.Dot128

namespace Cert.Net.Dot32

open Cert.ReferenceIdeal Idealize.ShloMosaic Idealize.ShloMosaic.ValueIdx

/-- The left operand's index at result index j and contraction position k keeps j's row … -/
theorem lhs_0 (j : S100000x32.Idx) (k : dot_S100000x128_S128x32_S100000x32_1_0_0_1_n_n.contr.Idx) :
    (dot_S100000x128_S128x32_S100000x32_1_0_0_1_n_n.lhsIdx j k 0).val = (j 0).val := by
  unfold DotDims.lhsIdx
  rw [dif_neg (show ¬(0 : Fin S100000x128.rank) ∈ dot_S100000x128_S128x32_S100000x32_1_0_0_1_n_n.lhsBatch by decide),
    dif_pos (show (0 : Fin S100000x128.rank) ∈ dot_S100000x128_S128x32_S100000x32_1_0_0_1_n_n.lhsNonContracting by decide)]
  simp only [Fin.val_cast]
  have key : ∀ (p q : Nat) (hp : p < S100000x32.rank) (hq : q < S100000x32.rank), p = q → (j ⟨p, hp⟩).val = (j ⟨q, hq⟩).val :=
    fun p q hp hq h => by subst h; rfl
  exact key _ _ _ _ (by decide)

/-- … and takes its column from the contraction position (the one contracted axis of the left operand is axis 1). -/
theorem lhs_1 (j : S100000x32.Idx) (k : dot_S100000x128_S128x32_S100000x32_1_0_0_1_n_n.contr.Idx) :
    (dot_S100000x128_S128x32_S100000x32_1_0_0_1_n_n.lhsIdx j k 1).val = (k ⟨0, by decide⟩).val :=
  dot_S100000x128_S128x32_S100000x32_1_0_0_1_n_n.lhsIdx_val_of_single rfl j k

/-- The right operand's index takes its row from the contraction position (its one contracted axis is axis 0) … -/
theorem rhs_0 (j : S100000x32.Idx) (k : dot_S100000x128_S128x32_S100000x32_1_0_0_1_n_n.contr.Idx) :
    (dot_S100000x128_S128x32_S100000x32_1_0_0_1_n_n.rhsIdx j k 0).val = (k ⟨0, by decide⟩).val :=
  dot_S100000x128_S128x32_S100000x32_1_0_0_1_n_n.rhsIdx_val_of_single rfl j k

/-- … and keeps j's column. -/
theorem rhs_1 (j : S100000x32.Idx) (k : dot_S100000x128_S128x32_S100000x32_1_0_0_1_n_n.contr.Idx) :
    (dot_S100000x128_S128x32_S100000x32_1_0_0_1_n_n.rhsIdx j k 1).val = (j 1).val := by
  unfold DotDims.rhsIdx
  rw [dif_neg (show ¬(1 : Fin S128x32.rank) ∈ dot_S100000x128_S128x32_S100000x32_1_0_0_1_n_n.rhsBatch by decide),
    dif_pos (show (1 : Fin S128x32.rank) ∈ dot_S100000x128_S128x32_S100000x32_1_0_0_1_n_n.rhsNonContracting by decide)]
  simp only [Fin.val_cast]
  have key : ∀ (p q : Nat) (hp : p < S100000x32.rank) (hq : q < S100000x32.rank), p = q → (j ⟨p, hp⟩).val = (j ⟨q, hq⟩).val :=
    fun p q hp hq h => by subst h; rfl
  exact key _ _ _ _ (by decide)

end Cert.Net.Dot32

namespace Cert.Net

open Cert.ReferenceIdeal Idealize.ShloMosaic Idealize.ShloMosaic.ValueIdx

/-- The host's product of the features with a round's 128 x 128 weights is the matrix product: at (r, j) the sum over
    the one contracted axis, re-indexed by its coordinate, of row r of x against column j of w. -/
theorem dot_eq (x : FVec Ideal S100000x128 .f32) (w : FVec Ideal S128x128 .f32) :
    Host.dotGeneral dot_S100000x128_S128x128_S100000x128_1_0_0_1_n_n none x w = Cert.Spec.mm x w := by
  funext i
  obtain ⟨r, j, rfl⟩ : ∃ (r : Fin 100000) (j : Fin 128), i = ix2 r j := ⟨i 0, i 1, eq_ix2 i⟩
  show FloatOps.dotGeneral dot_S100000x128_S128x128_S100000x128_1_0_0_1_n_n none .single x w (ix2 r j)
    = Cert.Spec.mmAt (n := 100000) (k := 128) (m := 128) x w r j
  refine (Ideal.dotGeneral_apply dot_S100000x128_S128x128_S100000x128_1_0_0_1_n_n none .single x w (ix2 r j)).trans ?_
  unfold Cert.Spec.mmAt
  rw [← Equiv.sum_comp (contrEquiv1 dot_S100000x128_S128x128_S100000x128_1_0_0_1_n_n 128 rfl rfl).symm]
  refine Finset.sum_congr rfl fun q _ => ?_
  have hk := contrEquiv1_symm_val dot_S100000x128_S128x128_S100000x128_1_0_0_1_n_n 128 rfl rfl q
  have l2 : dot_S100000x128_S128x128_S100000x128_1_0_0_1_n_n.lhsIdx (ix2 r j)
      ((contrEquiv1 dot_S100000x128_S128x128_S100000x128_1_0_0_1_n_n 128 rfl rfl).symm q) = ix2 r q := by
    funext a; apply Fin.ext
    match a with
    | ⟨0, _⟩ => exact Dot128.lhs_0 _ _
    | ⟨1, _⟩ => exact (Dot128.lhs_1 _ _).trans hk
  have r2 : dot_S100000x128_S128x128_S100000x128_1_0_0_1_n_n.rhsIdx (ix2 r j)
      ((contrEquiv1 dot_S100000x128_S128x128_S100000x128_1_0_0_1_n_n 128 rfl rfl).symm q) = ix2 q j := by
    funext a; apply Fin.ext
    match a with
    | ⟨0, _⟩ => exact (Dot128.rhs_0 _ _).trans hk
    | ⟨1, _⟩ => exact Dot128.rhs_1 _ _
  rw [l2, r2]

/-- The same for the last product, the features against the 128 x 32 output weights. -/
theorem dot_eq' (x : FVec Ideal S100000x128 .f32) (w : FVec Ideal S128x32 .f32) :
    Host.dotGeneral dot_S100000x128_S128x32_S100000x32_1_0_0_1_n_n none x w = Cert.Spec.mm x w := by
  funext i
  obtain ⟨r, j, rfl⟩ : ∃ (r : Fin 100000) (j : Fin 32), i = ix2 r j := ⟨i 0, i 1, eq_ix2 i⟩
  show FloatOps.dotGeneral dot_S100000x128_S128x32_S100000x32_1_0_0_1_n_n none .single x w (ix2 r j)
    = Cert.Spec.mmAt (n := 100000) (k := 128) (m := 32) x w r j
  refine (Ideal.dotGeneral_apply dot_S100000x128_S128x32_S100000x32_1_0_0_1_n_n none .single x w (ix2 r j)).trans ?_
  unfold Cert.Spec.mmAt
  rw [← Equiv.sum_comp (contrEquiv1 dot_S100000x128_S128x32_S100000x32_1_0_0_1_n_n 128 rfl rfl).symm]
  refine Finset.sum_congr rfl fun q _ => ?_
  have hk := contrEquiv1_symm_val dot_S100000x128_S128x32_S100000x32_1_0_0_1_n_n 128 rfl rfl q
  have l2 : dot_S100000x128_S128x32_S100000x32_1_0_0_1_n_n.lhsIdx (ix2 r j)
      ((contrEquiv1 dot_S100000x128_S128x32_S100000x32_1_0_0_1_n_n 128 rfl rfl).symm q) = ix2 r q := by
    funext a; apply Fin.ext
    match a with
    | ⟨0, _⟩ => exact Dot32.lhs_0 _ _
    | ⟨1, _⟩ => exact (Dot32.lhs_1 _ _).trans hk
  have r2 : dot_S100000x128_S128x32_S100000x32_1_0_0_1_n_n.rhsIdx (ix2 r j)
      ((contrEquiv1 dot_S100000x128_S128x32_S100000x32_1_0_0_1_n_n 128 rfl rfl).symm q) = ix2 q j := by
    funext a; apply Fin.ext
    match a with
    | ⟨0, _⟩ => exact (Dot32.rhs_0 _ _).trans hk
    | ⟨1, _⟩ => exact Dot32.rhs_1 _ _
  rw [l2, r2]

end Cert.Net

end
-- ==== Proof.BTake.lean ====
/-
  Reading rows along the edges: the kernel program replaces a gathered row by a fill value when the edge's
  (wrapped) source node number is outside 0..99999. The first 600000 source numbers are the edge list's, which
  are node numbers by assumption; the last 100000 are 0..99999 themselves. So no row is replaced and the result
  is the plain gather.
-/
import proofs.«422291_j73607149519132_1_alg».proof.Proof.NetK
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.ReduceAll

set_option maxRecDepth 16384

noncomputable section

open scoped BigOperators

namespace Cert.Net

open Cert.KernelIdeal Idealize.ShloMosaic Idealize.ShloMosaic.ValueIdx

/-! ## A conjunction of ones is one -/

/-- A left fold by and over one-bit words that are all 1, started at 1, is 1. -/
theorem foldl_andi_ones {ι : Type} (f : ι → BitVec 1) (hf : ∀ n, f n = 1#1) :
    ∀ (l : List ι) (init : BitVec 1), init = 1#1 → l.foldl (fun r n => IntOp.andi r (f n)) init = 1#1
  | [], _, h => h
  | a :: l, init, h => foldl_andi_ones f hf l _ (IntOp.andi_eq_one.mpr ⟨h, hf a⟩)

/-- A reduction by and of an array of ones, started at 1, is 1 at every result index. -/
theorem reduce_andi_ones {s t u : Shape} {axes : List (Fin s.rank)} (x : s.Idx → BitVec 1) (init : u.Idx → BitVec 1)
    (h : s.ReducesTo axes t) (hu : 0 < u.numel) (j : t.Idx) (hx : ∀ i, x i = 1#1)
    (hi : init (Shape.Idx.first hu) = 1#1) : Host.reduce IntOp.andi x init h hu j = 1#1 := by
  rw [Host.reduce_eq_foldl]
  exact foldl_andi_ones x hx _ _ hi

/-- A select whose condition is 1 everywhere is its first operand. -/
theorem select_of_ones {α : Type} {s : Shape} (c : IVec s 1) (a b : s.Idx → α) (hc : ∀ i, c i = 1#1) :
    select c a b = a := by
  funext i
  rw [select_apply, hc i, select_one]

/-! ## The wrapped source numbers are node numbers -/

/-- A word that is a node number is left alone by the wrap and passes both range comparisons. -/
theorem wrap_ok (w : BitVec 32) (h0 : 0 ≤ w.toInt) (h1 : w.toInt < 100000) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have z : (0#32 : BitVec 32).toInt = 0 := by decide
  have n : (99999#32 : BitVec 32).toInt = 99999 := by decide
  have hneg : IntOp.cmpi .slt w 0#32 = 0#1 := by
    refine eq_zero_of_ne_one fun h => ?_
    have h' : BitVec.ofBool (w.slt 0#32) = 1#1 := h
    rw [StableHlo.Predicate.ofBool_eq_one_iff] at h'
    simp only [BitVec.slt, decide_eq_true_eq] at h'
    omega
  rw [hneg, select_zero]
  refine IntOp.andi_eq_one.mpr ⟨?_, ?_⟩
  · show BitVec.ofBool ((0#32 : BitVec 32).sle w) = 1#1
    rw [StableHlo.Predicate.ofBool_eq_one_iff]
    simp only [BitVec.sle, decide_eq_true_eq]
    omega
  · show BitVec.ofBool (w.sle 99999#32) = 1#1
    rw [StableHlo.Predicate.ofBool_eq_one_iff]
    simp only [BitVec.sle, decide_eq_true_eq]
    omega

/-- Row 0 of the edge list, cut out and flattened, read at e: the edge list at (0, e). -/
theorem src_at (a1 : IVec S2x600000 32) (h1 : S2x600000.Slices ![0, 0] S1x600000) (h2 : S1x600000.ShapeCasts S600000)
    (e : Fin 600000) :
    shapeCast S600000 (extractStridedSlice S1x600000 ![0, 0] a1 h1) h2 (ix1 e) = a1 (ix2 0 e) := by
  rw [shapeCast_apply _ h2 (ix1 e) (ix2 0 e) (by
    rw [Shape.rowMajor_val_two, Shape.rowMajor_val_one]; show 0 * 600000 + e.val = e.val; omega)]
  exact extractStridedSlice_apply _ _ h1 (ix2 0 e) (ix2 0 e) (fun a => by
    match a with
    | ⟨0, _⟩ => rfl
    | ⟨1, _⟩ => show e.val = 0 + e.val; omega)

/-- Every entry of the source list (the edges' sources, then every node once more) is a node number. -/
theorem srcT_range (a1 : IVec S2x600000 32)
    (hSrc : ∀ e : Fin 600000, 0 ≤ (a1 (ix2 0 e)).toInt ∧ (a1 (ix2 0 e)).toInt < 100000) (k : S700000.Idx) :
    0 ≤ (srcT a1 k).toInt ∧ (srcT a1 k).toInt < 100000 := by
  obtain ⟨e, rfl⟩ : ∃ e : Fin 700000, k = ix1 e := ⟨k 0, eq_ix1 k⟩
  unfold srcT
  by_cases he : e.val < 600000
  · rw [concatenate_pair_apply_left (t := S700000) (s₁ := S600000) (s₂ := S100000) (0 : Fin 1) _ _ _ (ix1 e) rfl (ix1 (⟨e.val, he⟩ : Fin 600000))
      (fun b => by match b with | ⟨0, _⟩ => rfl), src_at]
    exact hSrc _
  · have hlt : e.val < 700000 := e.isLt
    rw [concatenate_pair_apply_right (t := S700000) (s₁ := S600000) (s₂ := S100000) (0 : Fin 1) _ _ _ (ix1 e) rfl rfl (ix1 (⟨e.val - 600000, by omega⟩ : Fin 100000))
      (fun b => by match b with | ⟨0, _⟩ => exact fun hb => absurd rfl hb)
      (by show e.val - 600000 + 600000 = e.val; omega)]
    show 0 ≤ (BitVec.ofNat 32 (e.val - 600000)).toInt ∧ (BitVec.ofNat 32 (e.val - 600000)).toInt < 100000
    rw [StableHlo.Predicate.toInt_ofNat_small _ (by omega)]
    omega

/-! ## No row is replaced -/

theorem takeK_eq (xw : FVec Ideal S100000x128 .f32) (a1 : IVec S2x600000 32)
    (hSrc : ∀ e : Fin 600000, 0 ≤ (a1 (ix2 0 e)).toInt ∧ (a1 (ix2 0 e)).toInt < 100000) :
    takeK xw a1 = gathT xw a1 := by
  unfold takeK gathT
  refine (select_of_ones _ _ _ fun i => ?_).trans rfl
  change Host.reduce IntOp.andi _ _ _ _ _ = 1#1
  refine reduce_andi_ones _ _ _ _ _ (fun k => ?_) rfl
  exact wrap_ok _ (srcT_range a1 hSrc _).1 (srcT_range a1 hSrc _).2

end Cert.Net

end
-- ==== Proof.BLayer.lean ====
/-
  The tail of a round, host operations against the mathematics: bias added along the rows, the positive part,
  the residual, then every row centred by its mean, scaled by the inverse root of (its variance + epsilon),
  times the scale vector, plus the shift vector. Entry by entry this is the row update of the mathematics with
  the three vectors laid out as one-row matrices.
-/
import proofs.«422291_j73607149519132_1_alg».proof.Proof.NetR
import proofs.«422291_j73607149519132_1_alg».proof.Proof.NetK
import proofs.«422291_j73607149519132_1_alg».proof.Proof.Spec
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws

set_option maxRecDepth 16384

noncomputable section

open scoped BigOperators

namespace Cert.Net.Layer

open Idealize.ShloMosaic Idealize.ShloMosaic.ValueIdx
open Cert.ReferenceIdeal Cert.ReferenceIdeal.Facts₀ Cert.ReferenceIdeal.Facts

/-! ## Repetitions read at an entry -/

/-- A number repeated over any shape reads the number everywhere. -/
theorem scalar_at {α : Type} {t : Shape} (h : (⟨0, ![]⟩ : Shape).BroadcastsInDim t (![] : Fin 0 → Fin t.rank))
    (v : (⟨0, ![]⟩ : Shape).Idx → α) (j : t.Idx) :
    broadcastInDim t (![] : Fin 0 → Fin t.rank) h v j = v ix0 :=
  broadcastInDim_apply (![] : Fin 0 → Fin t.rank) h v j ix0 fun a => a.elim0

/-- A vector laid out as a column [n, 1] reads, at (p, u), the vector at p. -/
theorem col_of_vec_at {α : Type} {n : ℕ}
    (h : (⟨1, ![n]⟩ : Shape).BroadcastsInDim ⟨2, ![n, 1]⟩ (![0] : Fin 1 → Fin 2))
    (v : (⟨1, ![n]⟩ : Shape).Idx → α) (p : Fin n) (u : Fin 1) :
    broadcastInDim ⟨2, ![n, 1]⟩ (![0] : Fin 1 → Fin 2) h v (ix2 p u) = v (ix1 p) :=
  broadcastInDim_apply (![0] : Fin 1 → Fin 2) h v (ix2 p u) (ix1 p) fun a => by
    match a with
    | ⟨0, _⟩ =>
      show p.val = if n = 1 then 0 else p.val
      split
      · have := p.isLt; omega
      · rfl

/-- A vector laid out as a row [1, m] reads, at (u, q), the vector at q. -/
theorem row_of_vec_at {α : Type} {m : ℕ}
    (h : (⟨1, ![m]⟩ : Shape).BroadcastsInDim ⟨2, ![1, m]⟩ (![1] : Fin 1 → Fin 2))
    (v : (⟨1, ![m]⟩ : Shape).Idx → α) (u : Fin 1) (q : Fin m) :
    broadcastInDim ⟨2, ![1, m]⟩ (![1] : Fin 1 → Fin 2) h v (ix2 u q) = v (ix1 q) :=
  broadcastInDim_apply (![1] : Fin 1 → Fin 2) h v (ix2 u q) (ix1 q) fun a => by
    match a with
    | ⟨0, _⟩ =>
      show q.val = if m = 1 then 0 else q.val
      split
      · have := q.isLt; omega
      · rfl

/-- A row [1, m] repeated down n rows reads, at (p, q), the row at (0, q). -/
theorem rows_of_row_at {α : Type} {n m : ℕ}
    (h : (⟨2, ![1, m]⟩ : Shape).BroadcastsInDim ⟨2, ![n, m]⟩ (![0, 1] : Fin 2 → Fin 2))
    (v : (⟨2, ![1, m]⟩ : Shape).Idx → α) (p : Fin n) (q : Fin m) :
    broadcastInDim ⟨2, ![n, m]⟩ (![0, 1] : Fin 2 → Fin 2) h v (ix2 p q) = v (ix2 (0 : Fin 1) q) :=
  broadcastInDim_apply (![0, 1] : Fin 2 → Fin 2) h v (ix2 p q) (ix2 (0 : Fin 1) q) fun a => by
    match a with
    | ⟨0, _⟩ => rfl
    | ⟨1, _⟩ =>
      show q.val = if m = 1 then 0 else q.val
      split
      · have := q.isLt; omega
      · rfl

/-- A column [n, 1] repeated across m columns reads, at (p, q), the column at (p, 0). -/
theorem cols_of_col_at {α : Type} {n m : ℕ}
    (h : (⟨2, ![n, 1]⟩ : Shape).BroadcastsInDim ⟨2, ![n, m]⟩ (![0, 1] : Fin 2 → Fin 2))
    (v : (⟨2, ![n, 1]⟩ : Shape).Idx → α) (p : Fin n) (q : Fin m) :
    broadcastInDim ⟨2, ![n, m]⟩ (![0, 1] : Fin 2 → Fin 2) h v (ix2 p q) = v (ix2 p (0 : Fin 1)) :=
  broadcastInDim_apply (![0, 1] : Fin 2 → Fin 2) h v (ix2 p q) (ix2 p (0 : Fin 1)) fun a => by
    match a with
    | ⟨0, _⟩ =>
      show p.val = if n = 1 then 0 else p.val
      split
      · have := p.isLt; omega
      · rfl
    | ⟨1, _⟩ => rfl

/-! ## The host stages read at an entry -/

/-- A vector laid out as a one-row matrix reads, at (0, j), the vector at j. -/
theorem rowK_at (v : FVec Ideal S128 .f32) (u : Fin 1) (j : Fin 128) : rowK v (ix2 u j) = v (ix1 j) :=
  shapeCast_a_1a_apply v Cert.KernelIdeal.Facts₀.shapeCasts_S128_S1x128 u j

/-- A vector repeated down the rows reads, at (r, j), the vector at j. -/
theorem rowsR_at (v : FVec Ideal S128 .f32) (r : Fin 100000) (j : Fin 128) : rowsR v (ix2 r j) = v (ix1 j) := by
  unfold rowsR
  rw [rows_of_row_at, row_of_vec_at]

/-- A column repeated across the columns reads, at (r, j), the column at (r, 0). -/
theorem colsR_at (u : FVec Ideal S100000x1 .f32) (r : Fin 100000) (j : Fin 128) :
    colsR u (ix2 r j) = u (ix2 r (0 : Fin 1)) :=
  cols_of_col_at bcast_S100000x1_S100000x128_0_1 u r j

/-- The sum before normalisation at (r, j): the specification's entry, the bias laid out as a row. -/
theorem preR_at (x agg : FVec Ideal S100000x128 .f32) (b : FVec Ideal S128 .f32) (r : Fin 100000) (j : Fin 128) :
    preR x agg b (ix2 r j) = Cert.Spec.preAt (n := 100000) x agg (rowK b) r j := by
  unfold preR Cert.Spec.preAt Cert.Spec.zero
  show x (ix2 r j) + max (agg (ix2 r j) + rowsR b (ix2 r j))
      (broadcastInDim S100000x128 ![] bcast_S_S100000x128 (constant (F := Ideal) S_ .f32 0x00000000#32) (ix2 r j)) = _
  rw [rowsR_at, scalar_at, rowK_at]
  rfl

/-- The dropped index put back: row r with k on the column axis is (r, k). -/
theorem lift_row (h : S100000x128.Reduces [1] S100000) (r : Fin 100000) (k : Fin 128) :
    h.lift (ix1 r) k = ix2 r k := by
  funext c
  apply Fin.ext
  match c with
  | ⟨0, _⟩ => rfl
  | ⟨1, _⟩ => rfl

/-- The row means at (r, 0): the mean of row r. -/
theorem meanR_at (q : FVec Ideal S100000x128 .f32) (r : Fin 100000) (u : Fin 1) :
    meanR q (ix2 r u) = Cert.Spec.mean fun k => q (ix2 r k) := by
  have hR : S100000x128.Reduces [1] S100000 := by decide
  unfold meanR Cert.Spec.mean Cert.Spec.len
  show Ideal.div
      (broadcastInDim S100000x1 ![0] bcast_S100000_S100000x1_0
        (Host.reduceAdd q (constant (F := Ideal) S_ .f32 0x00000000#32) reducesTo_S100000x128_S100000_d1 h_S_) (ix2 r u))
      (broadcastInDim S100000x1 ![] bcast_S_S100000x1 (constant (F := Ideal) S_ .f32 0x43000000#32) (ix2 r u)) = _
  rw [col_of_vec_at, scalar_at]
  show Ideal.div (Ideal.hostReduceAdd reducesTo_S100000x128_S100000_d1 q (Ideal.ofBits .f32 0x00000000#32) (ix1 r))
      (Ideal.ofBits .f32 0x43000000#32) = _
  rw [Ideal.hostReduceAdd_single reducesTo_S100000x128_S100000_d1 hR, Ideal.ofBits_zero_f32, zero_add]
  refine congrArg (fun s => Ideal.div s (Ideal.ofBits .f32 0x43000000#32)) ?_
  exact Finset.sum_congr rfl fun k _ => congrArg q (lift_row hR r k)

/-- The normalised rows at (r, j): the specification's entry, scale and shift laid out as rows. -/
theorem lnR_at (p : FVec Ideal S100000x128 .f32) (g be : FVec Ideal S128 .f32) (r : Fin 100000) (j : Fin 128) :
    lnR p g be (ix2 r j) = Cert.Spec.lnAt (n := 100000) p (rowK g) (rowK be) r j := by
  have hdev : ∀ k : Fin 128, subf p (colsR (meanR p)) (ix2 r k)
      = p (ix2 r k) - Cert.Spec.mean fun q' => p (ix2 r q') := by
    intro k
    show p (ix2 r k) - colsR (meanR p) (ix2 r k) = _
    rw [colsR_at, meanR_at]
  unfold lnR Cert.Spec.lnAt Cert.Spec.eps
  show subf p (colsR (meanR p)) (ix2 r j)
        * colsR (Host.rsqrt (addf (meanR (mulf (subf p (colsR (meanR p))) (subf p (colsR (meanR p)))))
            (broadcastInDim S100000x1 ![] bcast_S_S100000x1 (constant (F := Ideal) S_ .f32 0x3727C5AC#32)))) (ix2 r j)
        * rowsR g (ix2 r j) + rowsR be (ix2 r j) = _
  rw [colsR_at, rowsR_at, rowsR_at, rowK_at, rowK_at, hdev]
  show _ * Ideal.rsqrt (meanR (mulf (subf p (colsR (meanR p))) (subf p (colsR (meanR p)))) (ix2 r (0 : Fin 1))
        + broadcastInDim S100000x1 ![] bcast_S_S100000x1 (constant (F := Ideal) S_ .f32 0x3727C5AC#32) (ix2 r (0 : Fin 1)))
      * _ + _ = _
  rw [meanR_at, scalar_at]
  have hsq : (fun k : Fin 128 => mulf (subf p (colsR (meanR p))) (subf p (colsR (meanR p))) (ix2 r k))
      = fun k : Fin 128 => (p (ix2 r k) - Cert.Spec.mean fun q' => p (ix2 r q'))
          * (p (ix2 r k) - Cert.Spec.mean fun q' => p (ix2 r q')) := by
    funext k
    show subf p (colsR (meanR p)) (ix2 r k) * subf p (colsR (meanR p)) (ix2 r k) = _
    rw [hdev]
  rw [hsq]
  rfl

end Cert.Net.Layer

namespace Cert.Net

open Idealize.ShloMosaic Idealize.ShloMosaic.ValueIdx

/-- The sum before normalisation, as matrices. -/
theorem preR_eq (x agg : FVec Ideal Cert.ReferenceIdeal.S100000x128 .f32) (b : FVec Ideal Cert.ReferenceIdeal.S128 .f32) :
    preR x agg b = Cert.Spec.pre (n := 100000) x agg (rowK b) := by
  funext i
  obtain ⟨r, j, rfl⟩ : ∃ (r : Fin 100000) (j : Fin 128), i = ix2 r j := ⟨i 0, i 1, eq_ix2 i⟩
  exact Layer.preR_at x agg b r j

/-- The normalised rows, as matrices. -/
theorem lnR_eq (p : FVec Ideal Cert.ReferenceIdeal.S100000x128 .f32) (g be : FVec Ideal Cert.ReferenceIdeal.S128 .f32) :
    lnR p g be = Cert.Spec.ln (n := 100000) p (rowK g) (rowK be) := by
  funext i
  obtain ⟨r, j, rfl⟩ : ∃ (r : Fin 100000) (j : Fin 128), i = ix2 r j := ⟨i 0, i 1, eq_ix2 i⟩
  exact Layer.lnR_at p g be r j

theorem tail_eq (x agg : FVec Ideal Cert.ReferenceIdeal.S100000x128 .f32) (b g be : FVec Ideal Cert.ReferenceIdeal.S128 .f32) :
    lnR (preR x agg b) g be = Cert.Spec.upd x agg (rowK b) (rowK g) (rowK be) := by
  rw [lnR_eq, preR_eq]
  rfl

end Cert.Net

end
-- ==== Proof.Bridge.lean ====
/-
  The two computations are one function of the arguments, when the token words are row numbers of the tables and
  the edges' source nodes are node numbers: round by round the kernel program's launches and host pieces are the
  reference's host operations (the gathered rows are not replaced, the matrix products are the same sums, the
  round's tail is the same row update), and the first layers and the last products agree.
-/
import proofs.«422291_j73607149519132_1_alg».proof.Proof.NetK
import proofs.«422291_j73607149519132_1_alg».proof.Proof.NetR
import proofs.«422291_j73607149519132_1_alg».proof.Proof.BEmb
import proofs.«422291_j73607149519132_1_alg».proof.Proof.BDot
import proofs.«422291_j73607149519132_1_alg».proof.Proof.BTake
import proofs.«422291_j73607149519132_1_alg».proof.Proof.BLayer

set_option maxRecDepth 16384

noncomputable section

open scoped BigOperators

namespace Cert.Net

open Idealize.ShloMosaic Idealize.ShloMosaic.ValueIdx

/-- One round is the same function in both computations. -/
theorem layer_eq (a1 : IVec Cert.ReferenceIdeal.S2x600000 32) (w : FVec Ideal Cert.ReferenceIdeal.S128x128 .f32)
    (b g be : FVec Ideal Cert.ReferenceIdeal.S128 .f32) (x : FVec Ideal Cert.ReferenceIdeal.S100000x128 .f32)
    (hSrc : ∀ e : Fin 600000, 0 ≤ (a1 (ix2 0 e)).toInt ∧ (a1 (ix2 0 e)).toInt < 100000) :
    layerK a1 w b g be x = layerR a1 w b g be x := by
  unfold layerK layerR
  rw [takeK_eq _ _ hSrc, dot_eq, tail_eq]

/-- The whole computations agree. -/
theorem outK_eq_outR (a0 : IVec Cert.ReferenceIdeal.S100000x2 32) (a1 : IVec Cert.ReferenceIdeal.S2x600000 32)
    (a3 a4 : FVec Ideal Cert.ReferenceIdeal.S65x128 .f32) (a5 : FVec Ideal Cert.ReferenceIdeal.S4x128x128 .f32)
    (a6 a7 a8 : FVec Ideal Cert.ReferenceIdeal.S4x128 .f32) (a9 : FVec Ideal Cert.ReferenceIdeal.S32x128 .f32)
    (hTok : ∀ i : Cert.ReferenceIdeal.S100000x2.Idx, 0 ≤ (a0 i).toInt ∧ (a0 i).toInt < 65)
    (hSrc : ∀ e : Fin 600000, 0 ≤ (a1 (ix2 0 e)).toInt ∧ (a1 (ix2 0 e)).toInt < 100000) :
    outK a0 a1 a3 a4 a5 a6 a7 a8 a9 = outR a0 a1 a3 a4 a5 a6 a7 a8 a9 := by
  unfold outK outR
  rw [layer_eq _ _ _ _ _ _ hSrc, layer_eq _ _ _ _ _ _ hSrc, layer_eq _ _ _ _ _ _ hSrc, layer_eq _ _ _ _ _ _ hSrc,
    embR_eq _ _ _ hTok, dot_eq']

end Cert.Net

end
-- ==== Proof.lean ====
/-
  The certificate: a four-round message-passing network — a table lookup for the first layer of node features,
  then four times  x ↦ LN(x + relu(A(x W) + b))  where A gathers rows along the edges, scales them and adds them
  up per target node, then a last matrix product — computed by ten tiled launches with host operations between
  them, against the same network written in host operations only.

  Over the extended reals the two are one function of the arguments once the two integer arguments are in their
  evident ranges (the precondition): every token word is a row number of the 65-row tables, so the launch's
  one-hot products are the reference's row gathers; every edge's source node is a node number, so the kernel
  program's guarded row read is the reference's plain gather. The matrix products are the same sums over the
  shared axis, and a round's tail is the same row update entry by entry. No finiteness is used.

  The frames of the two kernel programs are the generated launch certificates; the reference's frame and its
  result are read off its straight-line run; the idealized kernel program's result is read off its launch
  certificate region by region.
-/
import proofs.«422291_j73607149519132_1_alg».proof.Defs
import proofs.«422291_j73607149519132_1_alg».proof.Proof.Gen.Kernel
import proofs.«422291_j73607149519132_1_alg».proof.Proof.Gen.Kernel.Frame
import proofs.«422291_j73607149519132_1_alg».proof.Proof.Gen.KernelIdeal
import proofs.«422291_j73607149519132_1_alg».proof.Proof.Gen.KernelIdeal.Frame
import proofs.«422291_j73607149519132_1_alg».proof.Proof.Gen.ReferenceIdeal
import proofs.«422291_j73607149519132_1_alg».proof.Proof.Gen.Pre_finite_inputs
import proofs.«422291_j73607149519132_1_alg».proof.Proof.KRun
import proofs.«422291_j73607149519132_1_alg».proof.Proof.KChain
import proofs.«422291_j73607149519132_1_alg».proof.Proof.RRun
import proofs.«422291_j73607149519132_1_alg».proof.Proof.RChain
import proofs.«422291_j73607149519132_1_alg».proof.Proof.PreDecode
import proofs.«422291_j73607149519132_1_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The two kernel programs run and leave their arguments alone: the generated launch certificates. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments alone: its straight-line run, each argument buffer written by
    no operation. -/
theorem frame_ri : Cert.frame_ReferenceIdeal := fun m ρ _ =>
  (θ_run Cert.ReferenceIdeal.defs _ _).mono (fun r h c =>
    ⟨(h c Cert.ReferenceIdeal.main_arg0).trans (Cert.ReferenceIdeal.RChain.kept_arg0 m c),
     (h c Cert.ReferenceIdeal.main_arg1).trans (Cert.ReferenceIdeal.RChain.kept_arg1 m c),
     (h c Cert.ReferenceIdeal.main_arg2).trans (Cert.ReferenceIdeal.RChain.kept_arg2 m c),
     (h c Cert.ReferenceIdeal.main_arg3).trans (Cert.ReferenceIdeal.RChain.kept_arg3 m c),
     (h c Cert.ReferenceIdeal.main_arg4).trans (Cert.ReferenceIdeal.RChain.kept_arg4 m c),
     (h c Cert.ReferenceIdeal.main_arg5).trans (Cert.ReferenceIdeal.RChain.kept_arg5 m c),
     (h c Cert.ReferenceIdeal.main_arg6).trans (Cert.ReferenceIdeal.RChain.kept_arg6 m c),
     (h c Cert.ReferenceIdeal.main_arg7).trans (Cert.ReferenceIdeal.RChain.kept_arg7 m c),
     (h c Cert.ReferenceIdeal.main_arg8).trans (Cert.ReferenceIdeal.RChain.kept_arg8 m c),
     (h c Cert.ReferenceIdeal.main_arg9).trans (Cert.ReferenceIdeal.RChain.kept_arg9 m c)⟩)
    (Cert.ReferenceIdeal.RunCopy.run_after (F := Ideal) m ρ)

/-- Both idealized programs end with the same result: the kernel program's is its computation of the arguments
    (its run, read region by region), the reference's is its own (its run, read piece by piece), and the two
    computations agree on arguments in range. -/
theorem algebraic : Cert.algebraic_KernelIdeal_ReferenceIdeal := by
  intro m ρ m' ρ' hpre hagree
  have hTok := fun c => Cert.PreDecode.tok_range _ _ _ _ _ _ _ _ _ _ (hpre c)
  have hSrc := fun c => Cert.PreDecode.src_range _ _ _ _ _ _ _ _ _ _ (hpre c)
  refine ⟨fun c => Cert.Net.outK (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono (fun r h c =>
      ⟨(h c).1.trans (Cert.KernelIdeal.KChain.result m ρ c (hTok c)), (h c).2⟩)
      (Cert.KernelIdeal.Gen.run_named (F := Ideal) m ρ)
  · refine (θ_run Cert.ReferenceIdeal.defs _ _).mono (fun r h c => ⟨?_,
       (h c Cert.ReferenceIdeal.main_arg0).trans (Cert.ReferenceIdeal.RChain.kept_arg0 m' c),
       (h c Cert.ReferenceIdeal.main_arg1).trans (Cert.ReferenceIdeal.RChain.kept_arg1 m' c),
       (h c Cert.ReferenceIdeal.main_arg2).trans (Cert.ReferenceIdeal.RChain.kept_arg2 m' c),
       (h c Cert.ReferenceIdeal.main_arg3).trans (Cert.ReferenceIdeal.RChain.kept_arg3 m' c),
       (h c Cert.ReferenceIdeal.main_arg4).trans (Cert.ReferenceIdeal.RChain.kept_arg4 m' c),
       (h c Cert.ReferenceIdeal.main_arg5).trans (Cert.ReferenceIdeal.RChain.kept_arg5 m' c),
       (h c Cert.ReferenceIdeal.main_arg6).trans (Cert.ReferenceIdeal.RChain.kept_arg6 m' c),
       (h c Cert.ReferenceIdeal.main_arg7).trans (Cert.ReferenceIdeal.RChain.kept_arg7 m' c),
       (h c Cert.ReferenceIdeal.main_arg8).trans (Cert.ReferenceIdeal.RChain.kept_arg8 m' c),
       (h c Cert.ReferenceIdeal.main_arg9).trans (Cert.ReferenceIdeal.RChain.kept_arg9 m' c)⟩)
      (Cert.ReferenceIdeal.RunCopy.run_after (F := Ideal) m' ρ')
    refine (h c Cert.ReferenceIdeal.main_v253).trans ((Cert.ReferenceIdeal.RChain.result m' c).trans ?_)
    obtain ⟨e0, e1, -, e3, e4, e5, e6, e7, e8, e9⟩ := hagree c
    rw [e0, e1, e3, e4, e5, e6, e7, e8, e9]
    exact (Cert.Net.outK_eq_outR _ _ _ _ _ _ _ _ _ (hTok c) (hSrc c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
